-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v439)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v439) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v502) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x72x64x64 : S_.BroadcastsInDim S3x72x64x64 (![] : Fin 0 → Fin S3x72x64x64.rank)
  reducesTo_S3x72x64x64_S_d0_1_2_3 : S3x72x64x64.ReducesTo [0, 1, 2, 3] S_
  bcast_S_S3x72x128x128 : S_.BroadcastsInDim S3x72x128x128 (![] : Fin 0 → Fin S3x72x128x128.rank)
  reducesTo_S3x72x128x128_S_d0_1_2_3 : S3x72x128x128.ReducesTo [0, 1, 2, 3] S_
  bcast_S_S3x72x256x256 : S_.BroadcastsInDim S3x72x256x256 (![] : Fin 0 → Fin S3x72x256x256.rank)
  reducesTo_S3x72x256x256_S_d0_1_2_3 : S3x72x256x256.ReducesTo [0, 1, 2, 3] S_
  bcast_S_S3x72x512x512 : S_.BroadcastsInDim S3x72x512x512 (![] : Fin 0 → Fin S3x72x512x512.rank)
  reducesTo_S3x72x512x512_S_d0_1_2_3 : S3x72x512x512.ReducesTo [0, 1, 2, 3] S_

variable [Facts]

def fn_part1 {F : FTy → Type} [FloatOps F] (main_arg4 : FVec F S3x72x512x512 .f32) (main_v13 : IVec S_ 1) (main_v16 : IVec S3x72x256x256 1) : IVec S_ 1 :=
  let main_c_5 : IVec S_ 1 := constantI S_ 1 1#1
  let main_v17 : IVec S_ 1 := (fun x v => Host.reduce IntOp.andi x v reducesTo_S3x72x256x256_S_d0_1_2_3 h_S_) main_v16 main_c_5
  let main_v18 : IVec S_ 1 := andi main_v13 main_v17
  let main_v19 : FVec F S3x72x512x512 .f32 := Host.absf main_arg4
  let main_cst_6 : FVec F S_ .f32 := constant S_ .f32 0x7F800000#32
  let main_v20 : FVec F S3x72x512x512 .f32 := broadcastInDim S3x72x512x512 ![] bcast_S_S3x72x512x512 main_cst_6
  let main_v21 : IVec S3x72x512x512 1 := cmpf .olt main_v19 main_v20
  let main_c_7 : IVec S_ 1 := constantI S_ 1 1#1
  let main_v22 : IVec S_ 1 := (fun x v => Host.reduce IntOp.andi x v reducesTo_S3x72x512x512_S_d0_1_2_3 h_S_) main_v21 main_c_7
  let main_v23 : IVec S_ 1 := andi main_v18 main_v22
  main_v23

def fn {F : FTy → Type} [FloatOps F] (main_arg0 : FVec F S100000x3 .f32) (main_arg1 : FVec F S3x72x64x64 .f32) (main_arg2 : FVec F S3x72x128x128 .f32) (main_arg3 : FVec F S3x72x256x256 .f32) (main_arg4 : FVec F S3x72x512x512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x72x64x64 .f32 := Host.absf main_arg1
  let main_cst_0 : FVec F S_ .f32 := constant S_ .f32 0x7F800000#32
  let main_v5 : FVec F S3x72x64x64 .f32 := broadcastInDim S3x72x64x64 ![] bcast_S_S3x72x64x64 main_cst_0
  let main_v6 : IVec S3x72x64x64 1 := cmpf .olt main_v4 main_v5
  let main_c_1 : IVec S_ 1 := constantI S_ 1 1#1
  let main_v7 : IVec S_ 1 := (fun x v => Host.reduce IntOp.andi x v reducesTo_S3x72x64x64_S_d0_1_2_3 h_S_) main_v6 main_c_1
  let main_v8 : IVec S_ 1 := andi main_v3 main_v7
  let main_v9 : FVec F S3x72x128x128 .f32 := Host.absf main_arg2
  let main_cst_2 : FVec F S_ .f32 := constant S_ .f32 0x7F800000#32
  let main_v10 : FVec F S3x72x128x128 .f32 := broadcastInDim S3x72x128x128 ![] bcast_S_S3x72x128x128 main_cst_2
  let main_v11 : IVec S3x72x128x128 1 := cmpf .olt main_v9 main_v10
  let main_c_3 : IVec S_ 1 := constantI S_ 1 1#1
  let main_v12 : IVec S_ 1 := (fun x v => Host.reduce IntOp.andi x v reducesTo_S3x72x128x128_S_d0_1_2_3 h_S_) main_v11 main_c_3
  let main_v13 : IVec S_ 1 := andi main_v8 main_v12
  let main_v14 : FVec F S3x72x256x256 .f32 := Host.absf main_arg3
  let main_cst_4 : FVec F S_ .f32 := constant S_ .f32 0x7F800000#32
  let main_v15 : FVec F S3x72x256x256 .f32 := broadcastInDim S3x72x256x256 ![] bcast_S_S3x72x256x256 main_cst_4
  let main_v16 : IVec S3x72x256x256 1 := cmpf .olt main_v14 main_v15
  fn_part1 (F := F) main_arg4 main_v13 main_v16
-- ==== Kernel.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S2 : Shape := ⟨1, ![2]⟩
abbrev S_ : Shape := ⟨0, ![]⟩
abbrev S2x1 : Shape := ⟨2, ![2, 1]⟩
abbrev S100000x2 : Shape := ⟨2, ![100000, 2]⟩
abbrev S1x100000x2 : Shape := ⟨3, ![1, 100000, 2]⟩
abbrev S3x100000x2 : Shape := ⟨3, ![3, 100000, 2]⟩
abbrev S3x100000x1 : Shape := ⟨3, ![3, 100000, 1]⟩
abbrev S3x100000 : Shape := ⟨2, ![3, 100000]⟩
abbrev S3x72x100000 : Shape := ⟨3, ![3, 72, 100000]⟩
abbrev S3x100000x72 : Shape := ⟨3, ![3, 100000, 72]⟩
abbrev S1x3x100000x72 : Shape := ⟨4, ![1, 3, 100000, 72]⟩
abbrev S4x3x100000x72 : Shape := ⟨4, ![4, 3, 100000, 72]⟩
abbrev S1x3x100000x1 : Shape := ⟨4, ![1, 3, 100000, 1]⟩
abbrev S4x3x100000x1 : Shape := ⟨4, ![4, 3, 100000, 1]⟩
abbrev S4x100000x216 : Shape := ⟨3, ![4, 100000, 216]⟩
abbrev S1x3x2000x72 : Shape := ⟨4, ![1, 3, 2000, 72]⟩
abbrev S1x3x2000x1 : Shape := ⟨4, ![1, 3, 2000, 1]⟩
abbrev S1x2000x216 : Shape := ⟨3, ![1, 2000, 216]⟩
abbrev S2000x216 : Shape := ⟨2, ![2000, 216]⟩
abbrev S1x1x2000x72 : Shape := ⟨4, ![1, 1, 2000, 72]⟩
abbrev S2000x72 : Shape := ⟨2, ![2000, 72]⟩
abbrev S1x1x2000x1 : Shape := ⟨4, ![1, 1, 2000, 1]⟩
abbrev S2000x1 : Shape := ⟨2, ![2000, 1]⟩
abbrev S100000x4x216 : Shape := ⟨3, ![100000, 4, 216]⟩
abbrev S100000x864 : Shape := ⟨2, ![100000, 864]⟩

abbrev nBuf : Space → Nat
  | .hbm => 617
  | .vmem => 15
  | .smem => 0
  | _ => 0

abbrev hbmTy0_0 (i : Nat) : BufTy := match i % 128 with
  | 0 => ⟨S100000x3, .f32⟩
  | 1 => ⟨S3x72x64x64, .f32⟩
  | 2 => ⟨S3x72x128x128, .f32⟩
  | 3 => ⟨S3x72x256x256, .f32⟩
  | 4 => ⟨S3x72x512x512, .f32⟩
  | 5 => ⟨S2, .i32⟩
  | 6 => ⟨S2, .i32⟩
  | 7 => ⟨S2, .i32⟩
  | 8 => ⟨S_, .f32⟩
  | 9 => ⟨S100000x3, .f32⟩
  | 10 => ⟨S100000x3, .f32⟩
  | 11 => ⟨S_, .f32⟩
  | 12 => ⟨S100000x3, .f32⟩
  | 13 => ⟨S100000x3, .f32⟩
  | 14 => ⟨S_, .f32⟩
  | 15 => ⟨S100000x3, .f32⟩
  | 16 => ⟨S100000x3, .f32⟩
  | 17 => ⟨S_, .i32⟩
  | 18 => ⟨S2, .i32⟩
  | 19 => ⟨S2, .i1⟩
  | 20 => ⟨S_, .i32⟩
  | 21 => ⟨S2, .i32⟩
  | 22 => ⟨S2, .i32⟩
  | 23 => ⟨S2, .i32⟩
  | 24 => ⟨S2x1, .i32⟩
  | 25 => ⟨S100000x2, .f32⟩
  | 26 => ⟨S_, .i32⟩
  | 27 => ⟨S2, .i32⟩
  | 28 => ⟨S2, .i1⟩
  | 29 => ⟨S_, .i32⟩
  | 30 => ⟨S2, .i32⟩
  | 31 => ⟨S2, .i32⟩
  | 32 => ⟨S2, .i32⟩
  | 33 => ⟨S2x1, .i32⟩
  | 34 => ⟨S100000x2, .f32⟩
  | 35 => ⟨S_, .i32⟩
  | 36 => ⟨S2, .i32⟩
  | 37 => ⟨S2, .i1⟩
  | 38 => ⟨S_, .i32⟩
  | 39 => ⟨S2, .i32⟩
  | 40 => ⟨S2, .i32⟩
  | 41 => ⟨S2, .i32⟩
  | 42 => ⟨S2x1, .i32⟩
  | 43 => ⟨S100000x2, .f32⟩
  | 44 => ⟨S1x100000x2, .f32⟩
  | 45 => ⟨S1x100000x2, .f32⟩
  | 46 => ⟨S1x100000x2, .f32⟩
  | 47 => ⟨S3x100000x2, .f32⟩
  | 48 => ⟨S3x100000x1, .f32⟩
  | 49 => ⟨S3x100000, .f32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S_, .f32⟩
  | 57 => ⟨S3x100000, .f32⟩
  | 58 => ⟨S3x100000, .f32⟩
  | 59 => ⟨S3x100000x1, .f32⟩
  | 60 => ⟨S3x100000, .f32⟩
  | 61 => ⟨S_, .f32⟩
  | 62 => ⟨S3x100000, .f32⟩
  | 63 => ⟨S3x100000, .f32⟩
  | 64 => ⟨S_, .f32⟩
  | 65 => ⟨S3x100000, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S_, .i32⟩
  | 72 => ⟨S_, .f32⟩
  | 73 => ⟨S3x100000, .f32⟩
  | 74 => ⟨S3x100000, .f32⟩
  | 75 => ⟨S_, .f32⟩
  | 76 => ⟨S3x100000, .f32⟩
  | 77 => ⟨S3x100000, .f32⟩
  | 78 => ⟨S_, .f32⟩
  | 79 => ⟨S_, .i32⟩
  | 80 => ⟨S_, .f32⟩
  | 81 => ⟨S3x100000, .f32⟩
  | 82 => ⟨S3x100000, .f32⟩
  | 83 => ⟨S_, .f32⟩
  | 84 => ⟨S3x100000, .f32⟩
  | 85 => ⟨S3x100000, .f32⟩
  | 86 => ⟨S3x100000, .f32⟩
  | 87 => ⟨S3x100000, .f32⟩
  | 88 => ⟨S3x100000, .f32⟩
  | 89 => ⟨S3x100000x1, .f32⟩
  | 90 => ⟨S3x100000, .f32⟩
  | 91 => ⟨S3x100000x1, .f32⟩
  | 92 => ⟨S3x100000, .i32⟩
  | 93 => ⟨S3x100000, .i32⟩
  | 94 => ⟨S_, .i32⟩
  | 95 => ⟨S3x100000, .i32⟩
  | 96 => ⟨S3x100000, .i32⟩
  | 97 => ⟨S_, .i32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i1⟩
  | 109 => ⟨S_, .i32⟩
  | 110 => ⟨S3x100000, .i32⟩
  | 111 => ⟨S3x100000, .i32⟩
  | 112 => ⟨S3x100000, .i32⟩
  | 113 => ⟨S_, .i32⟩
  | 114 => ⟨S3x100000, .i32⟩
  | 115 => ⟨S3x100000, .i1⟩
  | 116 => ⟨S_, .i32⟩
  | 117 => ⟨S3x100000, .i32⟩
  | 118 => ⟨S3x100000, .i32⟩
  | 119 => ⟨S3x100000, .i32⟩
  | 120 => ⟨S3x100000x1, .i32⟩
  | 121 => ⟨S3x100000x1, .i32⟩
  | 122 => ⟨S3x100000x2, .i32⟩
  | 123 => ⟨S3x72x100000, .f32⟩
  | 124 => ⟨S3x100000x72, .f32⟩
  | 125 => ⟨S_, .i32⟩
  | 126 => ⟨S3x100000, .i32⟩
  | 127 => ⟨S3x100000, .i1⟩
  | _ => ⟨S100000x3, .f32⟩

abbrev hbmTy0_1 (i : Nat) : BufTy := match i % 128 with
  | 0 => ⟨S_, .i32⟩
  | 1 => ⟨S3x100000, .i32⟩
  | 2 => ⟨S3x100000, .i32⟩
  | 3 => ⟨S3x100000, .i32⟩
  | 4 => ⟨S_, .i32⟩
  | 5 => ⟨S3x100000, .i32⟩
  | 6 => ⟨S3x100000, .i1⟩
  | 7 => ⟨S_, .i32⟩
  | 8 => ⟨S3x100000, .i32⟩
  | 9 => ⟨S3x100000, .i32⟩
  | 10 => ⟨S3x100000, .i32⟩
  | 11 => ⟨S3x100000x1, .i32⟩
  | 12 => ⟨S3x100000x1, .i32⟩
  | 13 => ⟨S3x100000x2, .i32⟩
  | 14 => ⟨S3x72x100000, .f32⟩
  | 15 => ⟨S3x100000x72, .f32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S_, .i32⟩
  | 24 => ⟨S3x100000, .i32⟩
  | 25 => ⟨S3x100000, .i1⟩
  | 26 => ⟨S_, .i32⟩
  | 27 => ⟨S3x100000, .i32⟩
  | 28 => ⟨S3x100000, .i32⟩
  | 29 => ⟨S3x100000, .i32⟩
  | 30 => ⟨S3x100000x1, .i32⟩
  | 31 => ⟨S3x100000x1, .i32⟩
  | 32 => ⟨S3x100000x2, .i32⟩
  | 33 => ⟨S3x72x100000, .f32⟩
  | 34 => ⟨S3x100000x72, .f32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S_, .i32⟩
  | 43 => ⟨S3x100000, .i32⟩
  | 44 => ⟨S3x100000, .i1⟩
  | 45 => ⟨S_, .i32⟩
  | 46 => ⟨S3x100000, .i32⟩
  | 47 => ⟨S3x100000, .i32⟩
  | 48 => ⟨S3x100000, .i32⟩
  | 49 => ⟨S3x100000x1, .i32⟩
  | 50 => ⟨S3x100000x1, .i32⟩
  | 51 => ⟨S3x100000x2, .i32⟩
  | 52 => ⟨S3x72x100000, .f32⟩
  | 53 => ⟨S3x100000x72, .f32⟩
  | 54 => ⟨S3x100000x1, .f32⟩
  | 55 => ⟨S3x100000, .f32⟩
  | 56 => ⟨S_, .f32⟩
  | 57 => ⟨S3x100000, .f32⟩
  | 58 => ⟨S3x100000, .f32⟩
  | 59 => ⟨S_, .f32⟩
  | 60 => ⟨S3x100000, .f32⟩
  | 61 => ⟨S3x100000, .f32⟩
  | 62 => ⟨S_, .f32⟩
  | 63 => ⟨S3x100000, .f32⟩
  | 64 => ⟨S3x100000, .f32⟩
  | 65 => ⟨S3x100000x1, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S3x100000, .f32⟩
  | 72 => ⟨S3x100000, .f32⟩
  | 73 => ⟨S_, .f32⟩
  | 74 => ⟨S3x100000, .f32⟩
  | 75 => ⟨S3x100000, .f32⟩
  | 76 => ⟨S_, .f32⟩
  | 77 => ⟨S_, .i32⟩
  | 78 => ⟨S_, .f32⟩
  | 79 => ⟨S3x100000, .f32⟩
  | 80 => ⟨S3x100000, .f32⟩
  | 81 => ⟨S_, .f32⟩
  | 82 => ⟨S3x100000, .f32⟩
  | 83 => ⟨S3x100000, .f32⟩
  | 84 => ⟨S_, .f32⟩
  | 85 => ⟨S_, .i32⟩
  | 86 => ⟨S_, .f32⟩
  | 87 => ⟨S3x100000, .f32⟩
  | 88 => ⟨S3x100000, .f32⟩
  | 89 => ⟨S_, .f32⟩
  | 90 => ⟨S3x100000, .f32⟩
  | 91 => ⟨S3x100000, .f32⟩
  | 92 => ⟨S3x100000, .f32⟩
  | 93 => ⟨S3x100000, .f32⟩
  | 94 => ⟨S3x100000, .f32⟩
  | 95 => ⟨S3x100000x1, .f32⟩
  | 96 => ⟨S3x100000, .f32⟩
  | 97 => ⟨S3x100000x1, .f32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i32⟩
  | 109 => ⟨S_, .i32⟩
  | 110 => ⟨S3x100000, .i32⟩
  | 111 => ⟨S3x100000, .i32⟩
  | 112 => ⟨S_, .i32⟩
  | 113 => ⟨S3x100000, .i32⟩
  | 114 => ⟨S3x100000, .i1⟩
  | 115 => ⟨S_, .i32⟩
  | 116 => ⟨S3x100000, .i32⟩
  | 117 => ⟨S3x100000, .i32⟩
  | 118 => ⟨S3x100000, .i32⟩
  | 119 => ⟨S_, .i32⟩
  | 120 => ⟨S3x100000, .i32⟩
  | 121 => ⟨S3x100000, .i1⟩
  | 122 => ⟨S_, .i32⟩
  | 123 => ⟨S3x100000, .i32⟩
  | 124 => ⟨S3x100000, .i32⟩
  | 125 => ⟨S3x100000, .i32⟩
  | 126 => ⟨S3x100000x1, .i32⟩
  | 127 => ⟨S3x100000x1, .i32⟩
  | _ => ⟨S100000x3, .f32⟩

abbrev hbmTy0_2 (i : Nat) : BufTy := match i % 128 with
  | 0 => ⟨S3x100000x2, .i32⟩
  | 1 => ⟨S3x72x100000, .f32⟩
  | 2 => ⟨S3x100000x72, .f32⟩
  | 3 => ⟨S_, .i32⟩
  | 4 => ⟨S3x100000, .i32⟩
  | 5 => ⟨S3x100000, .i1⟩
  | 6 => ⟨S_, .i32⟩
  | 7 => ⟨S3x100000, .i32⟩
  | 8 => ⟨S3x100000, .i32⟩
  | 9 => ⟨S3x100000, .i32⟩
  | 10 => ⟨S_, .i32⟩
  | 11 => ⟨S3x100000, .i32⟩
  | 12 => ⟨S3x100000, .i1⟩
  | 13 => ⟨S_, .i32⟩
  | 14 => ⟨S3x100000, .i32⟩
  | 15 => ⟨S3x100000, .i32⟩
  | 16 => ⟨S3x100000, .i32⟩
  | 17 => ⟨S3x100000x1, .i32⟩
  | 18 => ⟨S3x100000x1, .i32⟩
  | 19 => ⟨S3x100000x2, .i32⟩
  | 20 => ⟨S3x72x100000, .f32⟩
  | 21 => ⟨S3x100000x72, .f32⟩
  | 22 => ⟨S_, .i32⟩
  | 23 => ⟨S3x100000, .i32⟩
  | 24 => ⟨S3x100000, .i1⟩
  | 25 => ⟨S_, .i32⟩
  | 26 => ⟨S3x100000, .i32⟩
  | 27 => ⟨S3x100000, .i32⟩
  | 28 => ⟨S3x100000, .i32⟩
  | 29 => ⟨S_, .i32⟩
  | 30 => ⟨S3x100000, .i32⟩
  | 31 => ⟨S3x100000, .i1⟩
  | 32 => ⟨S_, .i32⟩
  | 33 => ⟨S3x100000, .i32⟩
  | 34 => ⟨S3x100000, .i32⟩
  | 35 => ⟨S3x100000, .i32⟩
  | 36 => ⟨S3x100000x1, .i32⟩
  | 37 => ⟨S3x100000x1, .i32⟩
  | 38 => ⟨S3x100000x2, .i32⟩
  | 39 => ⟨S3x72x100000, .f32⟩
  | 40 => ⟨S3x100000x72, .f32⟩
  | 41 => ⟨S_, .i32⟩
  | 42 => ⟨S3x100000, .i32⟩
  | 43 => ⟨S3x100000, .i1⟩
  | 44 => ⟨S_, .i32⟩
  | 45 => ⟨S3x100000, .i32⟩
  | 46 => ⟨S3x100000, .i32⟩
  | 47 => ⟨S3x100000, .i32⟩
  | 48 => ⟨S_, .i32⟩
  | 49 => ⟨S3x100000, .i32⟩
  | 50 => ⟨S3x100000, .i1⟩
  | 51 => ⟨S_, .i32⟩
  | 52 => ⟨S3x100000, .i32⟩
  | 53 => ⟨S3x100000, .i32⟩
  | 54 => ⟨S3x100000, .i32⟩
  | 55 => ⟨S3x100000x1, .i32⟩
  | 56 => ⟨S3x100000x1, .i32⟩
  | 57 => ⟨S3x100000x2, .i32⟩
  | 58 => ⟨S3x72x100000, .f32⟩
  | 59 => ⟨S3x100000x72, .f32⟩
  | 60 => ⟨S3x100000x1, .f32⟩
  | 61 => ⟨S3x100000, .f32⟩
  | 62 => ⟨S_, .f32⟩
  | 63 => ⟨S3x100000, .f32⟩
  | 64 => ⟨S3x100000, .f32⟩
  | 65 => ⟨S_, .f32⟩
  | 66 => ⟨S3x100000, .f32⟩
  | 67 => ⟨S3x100000, .f32⟩
  | 68 => ⟨S_, .f32⟩
  | 69 => ⟨S3x100000, .f32⟩
  | 70 => ⟨S3x100000, .f32⟩
  | 71 => ⟨S3x100000x1, .f32⟩
  | 72 => ⟨S3x100000, .f32⟩
  | 73 => ⟨S_, .f32⟩
  | 74 => ⟨S3x100000, .f32⟩
  | 75 => ⟨S3x100000, .f32⟩
  | 76 => ⟨S_, .f32⟩
  | 77 => ⟨S3x100000, .f32⟩
  | 78 => ⟨S3x100000, .f32⟩
  | 79 => ⟨S_, .f32⟩
  | 80 => ⟨S3x100000, .f32⟩
  | 81 => ⟨S3x100000, .f32⟩
  | 82 => ⟨S_, .f32⟩
  | 83 => ⟨S_, .i32⟩
  | 84 => ⟨S_, .f32⟩
  | 85 => ⟨S3x100000, .f32⟩
  | 86 => ⟨S3x100000, .f32⟩
  | 87 => ⟨S_, .f32⟩
  | 88 => ⟨S3x100000, .f32⟩
  | 89 => ⟨S3x100000, .f32⟩
  | 90 => ⟨S_, .f32⟩
  | 91 => ⟨S_, .i32⟩
  | 92 => ⟨S_, .f32⟩
  | 93 => ⟨S3x100000, .f32⟩
  | 94 => ⟨S3x100000, .f32⟩
  | 95 => ⟨S_, .f32⟩
  | 96 => ⟨S3x100000, .f32⟩
  | 97 => ⟨S3x100000, .f32⟩
  | 98 => ⟨S3x100000, .f32⟩
  | 99 => ⟨S3x100000, .f32⟩
  | 100 => ⟨S3x100000, .f32⟩
  | 101 => ⟨S3x100000x1, .f32⟩
  | 102 => ⟨S3x100000, .f32⟩
  | 103 => ⟨S3x100000x1, .f32⟩
  | 104 => ⟨S3x100000, .i32⟩
  | 105 => ⟨S3x100000, .i32⟩
  | 106 => ⟨S_, .i32⟩
  | 107 => ⟨S3x100000, .i32⟩
  | 108 => ⟨S3x100000, .i32⟩
  | 109 => ⟨S_, .i32⟩
  | 110 => ⟨S3x100000, .i32⟩
  | 111 => ⟨S3x100000, .i32⟩
  | 112 => ⟨S_, .i32⟩
  | 113 => ⟨S3x100000, .i32⟩
  | 114 => ⟨S3x100000, .i32⟩
  | 115 => ⟨S_, .i32⟩
  | 116 => ⟨S3x100000, .i32⟩
  | 117 => ⟨S3x100000, .i32⟩
  | 118 => ⟨S_, .i32⟩
  | 119 => ⟨S3x100000, .i32⟩
  | 120 => ⟨S3x100000, .i1⟩
  | 121 => ⟨S_, .i32⟩
  | 122 => ⟨S3x100000, .i32⟩
  | 123 => ⟨S3x100000, .i32⟩
  | 124 => ⟨S3x100000, .i32⟩
  | 125 => ⟨S_, .i32⟩
  | 126 => ⟨S3x100000, .i32⟩
  | 127 => ⟨S3x100000, .i1⟩
  | _ => ⟨S100000x3, .f32⟩

abbrev hbmTy0_3 (i : Nat) : BufTy := match i % 128 with
  | 0 => ⟨S_, .i32⟩
  | 1 => ⟨S3x100000, .i32⟩
  | 2 => ⟨S3x100000, .i32⟩
  | 3 => ⟨S3x100000, .i32⟩
  | 4 => ⟨S3x100000x1, .i32⟩
  | 5 => ⟨S3x100000x1, .i32⟩
  | 6 => ⟨S3x100000x2, .i32⟩
  | 7 => ⟨S3x72x100000, .f32⟩
  | 8 => ⟨S3x100000x72, .f32⟩
  | 9 => ⟨S_, .i32⟩
  | 10 => ⟨S3x100000, .i32⟩
  | 11 => ⟨S3x100000, .i1⟩
  | 12 => ⟨S_, .i32⟩
  | 13 => ⟨S3x100000, .i32⟩
  | 14 => ⟨S3x100000, .i32⟩
  | 15 => ⟨S3x100000, .i32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S3x100000x1, .i32⟩
  | 24 => ⟨S3x100000x1, .i32⟩
  | 25 => ⟨S3x100000x2, .i32⟩
  | 26 => ⟨S3x72x100000, .f32⟩
  | 27 => ⟨S3x100000x72, .f32⟩
  | 28 => ⟨S_, .i32⟩
  | 29 => ⟨S3x100000, .i32⟩
  | 30 => ⟨S3x100000, .i1⟩
  | 31 => ⟨S_, .i32⟩
  | 32 => ⟨S3x100000, .i32⟩
  | 33 => ⟨S3x100000, .i32⟩
  | 34 => ⟨S3x100000, .i32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S3x100000x1, .i32⟩
  | 43 => ⟨S3x100000x1, .i32⟩
  | 44 => ⟨S3x100000x2, .i32⟩
  | 45 => ⟨S3x72x100000, .f32⟩
  | 46 => ⟨S3x100000x72, .f32⟩
  | 47 => ⟨S_, .i32⟩
  | 48 => ⟨S3x100000, .i32⟩
  | 49 => ⟨S3x100000, .i1⟩
  | 50 => ⟨S_, .i32⟩
  | 51 => ⟨S3x100000, .i32⟩
  | 52 => ⟨S3x100000, .i32⟩
  | 53 => ⟨S3x100000, .i32⟩
  | 54 => ⟨S_, .i32⟩
  | 55 => ⟨S3x100000, .i32⟩
  | 56 => ⟨S3x100000, .i1⟩
  | 57 => ⟨S_, .i32⟩
  | 58 => ⟨S3x100000, .i32⟩
  | 59 => ⟨S3x100000, .i32⟩
  | 60 => ⟨S3x100000, .i32⟩
  | 61 => ⟨S3x100000x1, .i32⟩
  | 62 => ⟨S3x100000x1, .i32⟩
  | 63 => ⟨S3x100000x2, .i32⟩
  | 64 => ⟨S3x72x100000, .f32⟩
  | 65 => ⟨S3x100000x72, .f32⟩
  | 66 => ⟨S3x100000x1, .f32⟩
  | 67 => ⟨S3x100000, .f32⟩
  | 68 => ⟨S_, .f32⟩
  | 69 => ⟨S3x100000, .f32⟩
  | 70 => ⟨S3x100000, .f32⟩
  | 71 => ⟨S_, .f32⟩
  | 72 => ⟨S3x100000, .f32⟩
  | 73 => ⟨S3x100000, .f32⟩
  | 74 => ⟨S_, .f32⟩
  | 75 => ⟨S3x100000, .f32⟩
  | 76 => ⟨S3x100000, .f32⟩
  | 77 => ⟨S3x100000x1, .f32⟩
  | 78 => ⟨S3x100000, .f32⟩
  | 79 => ⟨S_, .f32⟩
  | 80 => ⟨S3x100000, .f32⟩
  | 81 => ⟨S3x100000, .f32⟩
  | 82 => ⟨S_, .f32⟩
  | 83 => ⟨S3x100000, .f32⟩
  | 84 => ⟨S3x100000, .f32⟩
  | 85 => ⟨S_, .f32⟩
  | 86 => ⟨S3x100000, .f32⟩
  | 87 => ⟨S3x100000, .f32⟩
  | 88 => ⟨S_, .f32⟩
  | 89 => ⟨S_, .i32⟩
  | 90 => ⟨S_, .f32⟩
  | 91 => ⟨S3x100000, .f32⟩
  | 92 => ⟨S3x100000, .f32⟩
  | 93 => ⟨S_, .f32⟩
  | 94 => ⟨S3x100000, .f32⟩
  | 95 => ⟨S3x100000, .f32⟩
  | 96 => ⟨S_, .f32⟩
  | 97 => ⟨S_, .i32⟩
  | 98 => ⟨S_, .f32⟩
  | 99 => ⟨S3x100000, .f32⟩
  | 100 => ⟨S3x100000, .f32⟩
  | 101 => ⟨S_, .f32⟩
  | 102 => ⟨S3x100000, .f32⟩
  | 103 => ⟨S3x100000, .f32⟩
  | 104 => ⟨S3x100000, .f32⟩
  | 105 => ⟨S3x100000, .f32⟩
  | 106 => ⟨S3x100000, .f32⟩
  | 107 => ⟨S3x100000x1, .f32⟩
  | 108 => ⟨S3x100000, .f32⟩
  | 109 => ⟨S3x100000x1, .f32⟩
  | 110 => ⟨S3x100000, .i32⟩
  | 111 => ⟨S3x100000, .i32⟩
  | 112 => ⟨S_, .i32⟩
  | 113 => ⟨S3x100000, .i32⟩
  | 114 => ⟨S3x100000, .i32⟩
  | 115 => ⟨S_, .i32⟩
  | 116 => ⟨S3x100000, .i32⟩
  | 117 => ⟨S3x100000, .i32⟩
  | 118 => ⟨S_, .i32⟩
  | 119 => ⟨S3x100000, .i32⟩
  | 120 => ⟨S3x100000, .i32⟩
  | 121 => ⟨S_, .i32⟩
  | 122 => ⟨S3x100000, .i32⟩
  | 123 => ⟨S3x100000, .i32⟩
  | 124 => ⟨S_, .i32⟩
  | 125 => ⟨S3x100000, .i32⟩
  | 126 => ⟨S3x100000, .i1⟩
  | 127 => ⟨S_, .i32⟩
  | _ => ⟨S100000x3, .f32⟩

abbrev hbmTy0_4 (i : Nat) : BufTy := match i % 128 with
  | 0 => ⟨S3x100000, .i32⟩
  | 1 => ⟨S3x100000, .i32⟩
  | 2 => ⟨S3x100000, .i32⟩
  | 3 => ⟨S_, .i32⟩
  | 4 => ⟨S3x100000, .i32⟩
  | 5 => ⟨S3x100000, .i1⟩
  | 6 => ⟨S_, .i32⟩
  | 7 => ⟨S3x100000, .i32⟩
  | 8 => ⟨S3x100000, .i32⟩
  | 9 => ⟨S3x100000, .i32⟩
  | 10 => ⟨S3x100000x1, .i32⟩
  | 11 => ⟨S3x100000x1, .i32⟩
  | 12 => ⟨S3x100000x2, .i32⟩
  | 13 => ⟨S3x72x100000, .f32⟩
  | 14 => ⟨S3x100000x72, .f32⟩
  | 15 => ⟨S_, .i32⟩
  | 16 => ⟨S3x100000, .i32⟩
  | 17 => ⟨S3x100000, .i1⟩
  | 18 => ⟨S_, .i32⟩
  | 19 => ⟨S3x100000, .i32⟩
  | 20 => ⟨S3x100000, .i32⟩
  | 21 => ⟨S3x100000, .i32⟩
  | 22 => ⟨S_, .i32⟩
  | 23 => ⟨S3x100000, .i32⟩
  | 24 => ⟨S3x100000, .i1⟩
  | 25 => ⟨S_, .i32⟩
  | 26 => ⟨S3x100000, .i32⟩
  | 27 => ⟨S3x100000, .i32⟩
  | 28 => ⟨S3x100000, .i32⟩
  | 29 => ⟨S3x100000x1, .i32⟩
  | 30 => ⟨S3x100000x1, .i32⟩
  | 31 => ⟨S3x100000x2, .i32⟩
  | 32 => ⟨S3x72x100000, .f32⟩
  | 33 => ⟨S3x100000x72, .f32⟩
  | 34 => ⟨S_, .i32⟩
  | 35 => ⟨S3x100000, .i32⟩
  | 36 => ⟨S3x100000, .i1⟩
  | 37 => ⟨S_, .i32⟩
  | 38 => ⟨S3x100000, .i32⟩
  | 39 => ⟨S3x100000, .i32⟩
  | 40 => ⟨S3x100000, .i32⟩
  | 41 => ⟨S_, .i32⟩
  | 42 => ⟨S3x100000, .i32⟩
  | 43 => ⟨S3x100000, .i1⟩
  | 44 => ⟨S_, .i32⟩
  | 45 => ⟨S3x100000, .i32⟩
  | 46 => ⟨S3x100000, .i32⟩
  | 47 => ⟨S3x100000, .i32⟩
  | 48 => ⟨S3x100000x1, .i32⟩
  | 49 => ⟨S3x100000x1, .i32⟩
  | 50 => ⟨S3x100000x2, .i32⟩
  | 51 => ⟨S3x72x100000, .f32⟩
  | 52 => ⟨S3x100000x72, .f32⟩
  | 53 => ⟨S_, .i32⟩
  | 54 => ⟨S3x100000, .i32⟩
  | 55 => ⟨S3x100000, .i1⟩
  | 56 => ⟨S_, .i32⟩
  | 57 => ⟨S3x100000, .i32⟩
  | 58 => ⟨S3x100000, .i32⟩
  | 59 => ⟨S3x100000, .i32⟩
  | 60 => ⟨S_, .i32⟩
  | 61 => ⟨S3x100000, .i32⟩
  | 62 => ⟨S3x100000, .i1⟩
  | 63 => ⟨S_, .i32⟩
  | 64 => ⟨S3x100000, .i32⟩
  | 65 => ⟨S3x100000, .i32⟩
  | 66 => ⟨S3x100000, .i32⟩
  | 67 => ⟨S3x100000x1, .i32⟩
  | 68 => ⟨S3x100000x1, .i32⟩
  | 69 => ⟨S3x100000x2, .i32⟩
  | 70 => ⟨S3x72x100000, .f32⟩
  | 71 => ⟨S3x100000x72, .f32⟩
  | 72 => ⟨S1x3x100000x72, .f32⟩
  | 73 => ⟨S1x3x100000x72, .f32⟩
  | 74 => ⟨S1x3x100000x72, .f32⟩
  | 75 => ⟨S1x3x100000x72, .f32⟩
  | 76 => ⟨S4x3x100000x72, .f32⟩
  | 77 => ⟨S1x3x100000x72, .f32⟩
  | 78 => ⟨S1x3x100000x72, .f32⟩
  | 79 => ⟨S1x3x100000x72, .f32⟩
  | 80 => ⟨S1x3x100000x72, .f32⟩
  | 81 => ⟨S4x3x100000x72, .f32⟩
  | 82 => ⟨S1x3x100000x72, .f32⟩
  | 83 => ⟨S1x3x100000x72, .f32⟩
  | 84 => ⟨S1x3x100000x72, .f32⟩
  | 85 => ⟨S1x3x100000x72, .f32⟩
  | 86 => ⟨S4x3x100000x72, .f32⟩
  | 87 => ⟨S1x3x100000x72, .f32⟩
  | 88 => ⟨S1x3x100000x72, .f32⟩
  | 89 => ⟨S1x3x100000x72, .f32⟩
  | 90 => ⟨S1x3x100000x72, .f32⟩
  | 91 => ⟨S4x3x100000x72, .f32⟩
  | 92 => ⟨S1x3x100000x1, .f32⟩
  | 93 => ⟨S1x3x100000x1, .f32⟩
  | 94 => ⟨S1x3x100000x1, .f32⟩
  | 95 => ⟨S1x3x100000x1, .f32⟩
  | 96 => ⟨S4x3x100000x1, .f32⟩
  | 97 => ⟨S1x3x100000x1, .f32⟩
  | 98 => ⟨S1x3x100000x1, .f32⟩
  | 99 => ⟨S1x3x100000x1, .f32⟩
  | 100 => ⟨S1x3x100000x1, .f32⟩
  | 101 => ⟨S4x3x100000x1, .f32⟩
  | 102 => ⟨S4x100000x216, .f32⟩
  | 103 => ⟨S100000x4x216, .f32⟩
  | 104 => ⟨S100000x864, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x3, .f32⟩

abbrev bufTy : (tb : Table) → Fin (tcTables nBuf tb) → BufTy
  | .hbm, ⟨i, _⟩ => hbmTy i
  | .local _ .vmem, ⟨0, _⟩ => ⟨S1x3x2000x72, .f32⟩
  | .local _ .vmem, ⟨1, _⟩ => ⟨S1x3x2000x72, .f32⟩
  | .local _ .vmem, ⟨2, _⟩ => ⟨S1x3x2000x72, .f32⟩
  | .local _ .vmem, ⟨3, _⟩ => ⟨S1x3x2000x72, .f32⟩
  | .local _ .vmem, ⟨4, _⟩ => ⟨S1x3x2000x72, .f32⟩
  | .local _ .vmem, ⟨5, _⟩ => ⟨S1x3x2000x72, .f32⟩
  | .local _ .vmem, ⟨6, _⟩ => ⟨S1x3x2000x72, .f32⟩
  | .local _ .vmem, ⟨7, _⟩ => ⟨S1x3x2000x72, .f32⟩
  | .local _ .vmem, ⟨8, _⟩ => ⟨S1x3x2000x1, .f32⟩
  | .local _ .vmem, ⟨9, _⟩ => ⟨S1x3x2000x1, .f32⟩
  | .local _ .vmem, ⟨10, _⟩ => ⟨S1x3x2000x1, .f32⟩
  | .local _ .vmem, ⟨11, _⟩ => ⟨S1x3x2000x1, .f32⟩
  | .local _ .vmem, ⟨12, _⟩ => ⟨S1x2000x216, .f32⟩
  | .local _ .vmem, ⟨13, _⟩ => ⟨S1x2000x216, .f32⟩
  | .local _ .vmem, ⟨14, _⟩ => ⟨S2000x216, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_c_17 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v47 : Ref sig .tc := ⟨.hbm, 77, rfl⟩
abbrev main_cst_18 : Ref sig .tc := ⟨.hbm, 78, rfl⟩
abbrev main_c_19 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_v57 : Ref sig .tc := ⟨.hbm, 95, rfl⟩
abbrev main_v58 : Ref sig .tc := ⟨.hbm, 96, rfl⟩
abbrev main_c_21 : Ref sig .tc := ⟨.hbm, 97, rfl⟩
abbrev main_v59 : Ref sig .tc := ⟨.hbm, 98, rfl⟩
abbrev main_v60 : Ref sig .tc := ⟨.hbm, 99, rfl⟩
abbrev main_c_22 : Ref sig .tc := ⟨.hbm, 100, rfl⟩
abbrev main_v61 : Ref sig .tc := ⟨.hbm, 101, rfl⟩
abbrev main_v62 : Ref sig .tc := ⟨.hbm, 102, rfl⟩
abbrev main_c_23 : Ref sig .tc := ⟨.hbm, 103, rfl⟩
abbrev main_v63 : Ref sig .tc := ⟨.hbm, 104, rfl⟩
abbrev main_v64 : Ref sig .tc := ⟨.hbm, 105, rfl⟩
abbrev main_c_24 : Ref sig .tc := ⟨.hbm, 106, rfl⟩
abbrev main_v65 : Ref sig .tc := ⟨.hbm, 107, rfl⟩
abbrev main_v66 : Ref sig .tc := ⟨.hbm, 108, rfl⟩
abbrev main_c_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_26 : Ref sig .tc := ⟨.hbm, 113, rfl⟩
abbrev main_v70 : Ref sig .tc := ⟨.hbm, 114, rfl⟩
abbrev main_v71 : Ref sig .tc := ⟨.hbm, 115, rfl⟩
abbrev main_c_27 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_28 : Ref sig .tc := ⟨.hbm, 125, rfl⟩
abbrev main_v80 : Ref sig .tc := ⟨.hbm, 126, rfl⟩
abbrev main_v81 : Ref sig .tc := ⟨.hbm, 127, rfl⟩
abbrev main_c_29 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_30 : Ref sig .tc := ⟨.hbm, 132, rfl⟩
abbrev main_v85 : Ref sig .tc := ⟨.hbm, 133, rfl⟩
abbrev main_v86 : Ref sig .tc := ⟨.hbm, 134, rfl⟩
abbrev main_c_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_32 : Ref sig .tc := ⟨.hbm, 144, rfl⟩
abbrev main_v95 : Ref sig .tc := ⟨.hbm, 145, rfl⟩
abbrev main_v96 : Ref sig .tc := ⟨.hbm, 146, rfl⟩
abbrev main_c_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_c_35 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_36 : Ref sig .tc := ⟨.hbm, 163, rfl⟩
abbrev main_v110 : Ref sig .tc := ⟨.hbm, 164, rfl⟩
abbrev main_v111 : Ref sig .tc := ⟨.hbm, 165, rfl⟩
abbrev main_c_37 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_38 : Ref sig .tc := ⟨.hbm, 170, rfl⟩
abbrev main_v115 : Ref sig .tc := ⟨.hbm, 171, rfl⟩
abbrev main_v116 : Ref sig .tc := ⟨.hbm, 172, rfl⟩
abbrev main_c_39 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_40 : Ref sig .tc := ⟨.hbm, 184, rfl⟩
abbrev main_v127 : Ref sig .tc := ⟨.hbm, 185, rfl⟩
abbrev main_v128 : Ref sig .tc := ⟨.hbm, 186, rfl⟩
abbrev main_cst_41 : Ref sig .tc := ⟨.hbm, 187, rfl⟩
abbrev main_v129 : Ref sig .tc := ⟨.hbm, 188, rfl⟩
abbrev main_v130 : Ref sig .tc := ⟨.hbm, 189, rfl⟩
abbrev main_cst_42 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_43 : Ref sig .tc := ⟨.hbm, 195, rfl⟩
abbrev main_v135 : Ref sig .tc := ⟨.hbm, 196, rfl⟩
abbrev main_v136 : Ref sig .tc := ⟨.hbm, 197, rfl⟩
abbrev main_cst_44 : Ref sig .tc := ⟨.hbm, 198, rfl⟩
abbrev main_v137 : Ref sig .tc := ⟨.hbm, 199, rfl⟩
abbrev main_v138 : Ref sig .tc := ⟨.hbm, 200, rfl⟩
abbrev main_cst_45 : Ref sig .tc := ⟨.hbm, 201, rfl⟩
abbrev main_v139 : Ref sig .tc := ⟨.hbm, 202, rfl⟩
abbrev main_v140 : Ref sig .tc := ⟨.hbm, 203, rfl⟩
abbrev main_cst_46 : Ref sig .tc := ⟨.hbm, 204, rfl⟩
abbrev main_c_47 : Ref sig .tc := ⟨.hbm, 205, rfl⟩
abbrev main_call2_v0 : Ref sig .tc := ⟨.hbm, 206, rfl⟩
abbrev main_call2_v1 : Ref sig .tc := ⟨.hbm, 207, rfl⟩
abbrev main_call2_v2 : Ref sig .tc := ⟨.hbm, 208, rfl⟩
abbrev main_call2_v3 : Ref sig .tc := ⟨.hbm, 209, rfl⟩
abbrev main_call2_v4 : Ref sig .tc := ⟨.hbm, 210, rfl⟩
abbrev main_v141 : Ref sig .tc := ⟨.hbm, 211, rfl⟩
abbrev main_cst_48 : Ref sig .tc := ⟨.hbm, 212, rfl⟩
abbrev main_c_49 : Ref sig .tc := ⟨.hbm, 213, rfl⟩
abbrev main_call3_v0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_c_50 : Ref sig .tc := ⟨.hbm, 228, rfl⟩
abbrev main_v151 : Ref sig .tc := ⟨.hbm, 229, rfl⟩
abbrev main_v152 : Ref sig .tc := ⟨.hbm, 230, rfl⟩
abbrev main_c_51 : Ref sig .tc := ⟨.hbm, 231, rfl⟩
abbrev main_v153 : Ref sig .tc := ⟨.hbm, 232, rfl⟩
abbrev main_v154 : Ref sig .tc := ⟨.hbm, 233, rfl⟩
abbrev main_c_52 : Ref sig .tc := ⟨.hbm, 234, rfl⟩
abbrev main_v155 : Ref sig .tc := ⟨.hbm, 235, rfl⟩
abbrev main_v156 : Ref sig .tc := ⟨.hbm, 236, rfl⟩
abbrev main_c_53 : Ref sig .tc := ⟨.hbm, 237, rfl⟩
abbrev main_v157 : Ref sig .tc := ⟨.hbm, 238, rfl⟩
abbrev main_v158 : Ref sig .tc := ⟨.hbm, 239, rfl⟩
abbrev main_c_54 : Ref sig .tc := ⟨.hbm, 240, rfl⟩
abbrev main_v159 : Ref sig .tc := ⟨.hbm, 241, rfl⟩
abbrev main_v160 : Ref sig .tc := ⟨.hbm, 242, rfl⟩
abbrev main_c_55 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_c_56 : Ref sig .tc := ⟨.hbm, 247, rfl⟩
abbrev main_v164 : Ref sig .tc := ⟨.hbm, 248, rfl⟩
abbrev main_v165 : Ref sig .tc := ⟨.hbm, 249, rfl⟩
abbrev main_c_57 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_c_58 : Ref sig .tc := ⟨.hbm, 259, rfl⟩
abbrev main_v174 : Ref sig .tc := ⟨.hbm, 260, rfl⟩
abbrev main_v175 : Ref sig .tc := ⟨.hbm, 261, rfl⟩
abbrev main_c_59 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_c_60 : Ref sig .tc := ⟨.hbm, 266, rfl⟩
abbrev main_v179 : Ref sig .tc := ⟨.hbm, 267, rfl⟩
abbrev main_v180 : Ref sig .tc := ⟨.hbm, 268, rfl⟩
abbrev main_c_61 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_c_62 : Ref sig .tc := ⟨.hbm, 278, rfl⟩
abbrev main_v189 : Ref sig .tc := ⟨.hbm, 279, rfl⟩
abbrev main_v190 : Ref sig .tc := ⟨.hbm, 280, rfl⟩
abbrev main_c_63 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_c_64 : Ref sig .tc := ⟨.hbm, 285, rfl⟩
abbrev main_v194 : Ref sig .tc := ⟨.hbm, 286, rfl⟩
abbrev main_v195 : Ref sig .tc := ⟨.hbm, 287, rfl⟩
abbrev main_c_65 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_c_66 : Ref sig .tc := ⟨.hbm, 297, rfl⟩
abbrev main_v204 : Ref sig .tc := ⟨.hbm, 298, rfl⟩
abbrev main_v205 : Ref sig .tc := ⟨.hbm, 299, rfl⟩
abbrev main_c_67 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_c_68 : Ref sig .tc := ⟨.hbm, 304, rfl⟩
abbrev main_v209 : Ref sig .tc := ⟨.hbm, 305, rfl⟩
abbrev main_v210 : Ref sig .tc := ⟨.hbm, 306, rfl⟩
abbrev main_c_69 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_cst_70 : Ref sig .tc := ⟨.hbm, 318, rfl⟩
abbrev main_v221 : Ref sig .tc := ⟨.hbm, 319, rfl⟩
abbrev main_v222 : Ref sig .tc := ⟨.hbm, 320, rfl⟩
abbrev main_cst_71 : Ref sig .tc := ⟨.hbm, 321, rfl⟩
abbrev main_v223 : Ref sig .tc := ⟨.hbm, 322, rfl⟩
abbrev main_v224 : Ref sig .tc := ⟨.hbm, 323, rfl⟩
abbrev main_cst_72 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_cst_73 : Ref sig .tc := ⟨.hbm, 329, rfl⟩
abbrev main_v229 : Ref sig .tc := ⟨.hbm, 330, rfl⟩
abbrev main_v230 : Ref sig .tc := ⟨.hbm, 331, rfl⟩
abbrev main_cst_74 : Ref sig .tc := ⟨.hbm, 332, rfl⟩
abbrev main_v231 : Ref sig .tc := ⟨.hbm, 333, rfl⟩
abbrev main_v232 : Ref sig .tc := ⟨.hbm, 334, rfl⟩
abbrev main_cst_75 : Ref sig .tc := ⟨.hbm, 335, rfl⟩
abbrev main_v233 : Ref sig .tc := ⟨.hbm, 336, rfl⟩
abbrev main_v234 : Ref sig .tc := ⟨.hbm, 337, rfl⟩
abbrev main_cst_76 : Ref sig .tc := ⟨.hbm, 338, rfl⟩
abbrev main_c_77 : Ref sig .tc := ⟨.hbm, 339, rfl⟩
abbrev main_call4_v0 : Ref sig .tc := ⟨.hbm, 340, rfl⟩
abbrev main_call4_v1 : Ref sig .tc := ⟨.hbm, 341, rfl⟩
abbrev main_call4_v2 : Ref sig .tc := ⟨.hbm, 342, rfl⟩
abbrev main_call4_v3 : Ref sig .tc := ⟨.hbm, 343, rfl⟩
abbrev main_call4_v4 : Ref sig .tc := ⟨.hbm, 344, rfl⟩
abbrev main_v235 : Ref sig .tc := ⟨.hbm, 345, rfl⟩
abbrev main_cst_78 : Ref sig .tc := ⟨.hbm, 346, rfl⟩
abbrev main_c_79 : Ref sig .tc := ⟨.hbm, 347, rfl⟩
abbrev main_call5_v0 : Ref sig .tc := ⟨.hbm, 348, rfl⟩
abbrev main_call5_v1 : Ref sig .tc := ⟨.hbm, 349, rfl⟩
abbrev main_call5_v2 : Ref sig .tc := ⟨.hbm, 350, rfl⟩
abbrev main_call5_v3 : Ref sig .tc := ⟨.hbm, 351, rfl⟩
abbrev main_call5_v4 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_c_80 : Ref sig .tc := ⟨.hbm, 362, rfl⟩
abbrev main_v245 : Ref sig .tc := ⟨.hbm, 363, rfl⟩
abbrev main_v246 : Ref sig .tc := ⟨.hbm, 364, rfl⟩
abbrev main_c_81 : Ref sig .tc := ⟨.hbm, 365, rfl⟩
abbrev main_v247 : Ref sig .tc := ⟨.hbm, 366, rfl⟩
abbrev main_v248 : Ref sig .tc := ⟨.hbm, 367, rfl⟩
abbrev main_c_82 : Ref sig .tc := ⟨.hbm, 368, rfl⟩
abbrev main_v249 : Ref sig .tc := ⟨.hbm, 369, rfl⟩
abbrev main_v250 : Ref sig .tc := ⟨.hbm, 370, rfl⟩
abbrev main_c_83 : Ref sig .tc := ⟨.hbm, 371, rfl⟩
abbrev main_v251 : Ref sig .tc := ⟨.hbm, 372, rfl⟩
abbrev main_v252 : Ref sig .tc := ⟨.hbm, 373, rfl⟩
abbrev main_c_84 : Ref sig .tc := ⟨.hbm, 374, rfl⟩
abbrev main_v253 : Ref sig .tc := ⟨.hbm, 375, rfl⟩
abbrev main_v254 : Ref sig .tc := ⟨.hbm, 376, rfl⟩
abbrev main_c_85 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_c_86 : Ref sig .tc := ⟨.hbm, 381, rfl⟩
abbrev main_v258 : Ref sig .tc := ⟨.hbm, 382, rfl⟩
abbrev main_v259 : Ref sig .tc := ⟨.hbm, 383, rfl⟩
abbrev main_c_87 : Ref sig .tc := ⟨.hbm, 384, rfl⟩
abbrev main_v260 : Ref sig .tc := ⟨.hbm, 385, rfl⟩
abbrev main_v261 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_c_88 : Ref sig .tc := ⟨.hbm, 393, rfl⟩
abbrev main_v268 : Ref sig .tc := ⟨.hbm, 394, rfl⟩
abbrev main_v269 : Ref sig .tc := ⟨.hbm, 395, rfl⟩
abbrev main_c_89 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_c_90 : Ref sig .tc := ⟨.hbm, 400, rfl⟩
abbrev main_v273 : Ref sig .tc := ⟨.hbm, 401, rfl⟩
abbrev main_v274 : Ref sig .tc := ⟨.hbm, 402, rfl⟩
abbrev main_c_91 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_v281 : Ref sig .tc := ⟨.hbm, 410, rfl⟩
abbrev main_v282 : Ref sig .tc := ⟨.hbm, 411, rfl⟩
abbrev main_c_92 : Ref sig .tc := ⟨.hbm, 412, rfl⟩
abbrev main_v283 : Ref sig .tc := ⟨.hbm, 413, rfl⟩
abbrev main_v284 : Ref sig .tc := ⟨.hbm, 414, rfl⟩
abbrev main_c_93 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_94 : Ref sig .tc := ⟨.hbm, 419, rfl⟩
abbrev main_v288 : Ref sig .tc := ⟨.hbm, 420, rfl⟩
abbrev main_v289 : Ref sig .tc := ⟨.hbm, 421, rfl⟩
abbrev main_c_95 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_c_96 : Ref sig .tc := ⟨.hbm, 431, rfl⟩
abbrev main_v298 : Ref sig .tc := ⟨.hbm, 432, rfl⟩
abbrev main_v299 : Ref sig .tc := ⟨.hbm, 433, rfl⟩
abbrev main_c_97 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_c_98 : Ref sig .tc := ⟨.hbm, 438, rfl⟩
abbrev main_v303 : Ref sig .tc := ⟨.hbm, 439, rfl⟩
abbrev main_v304 : Ref sig .tc := ⟨.hbm, 440, rfl⟩
abbrev main_c_99 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_cst_100 : Ref sig .tc := ⟨.hbm, 452, rfl⟩
abbrev main_v315 : Ref sig .tc := ⟨.hbm, 453, rfl⟩
abbrev main_v316 : Ref sig .tc := ⟨.hbm, 454, rfl⟩
abbrev main_cst_101 : Ref sig .tc := ⟨.hbm, 455, rfl⟩
abbrev main_v317 : Ref sig .tc := ⟨.hbm, 456, rfl⟩
abbrev main_v318 : Ref sig .tc := ⟨.hbm, 457, rfl⟩
abbrev main_cst_102 : Ref sig .tc := ⟨.hbm, 458, rfl⟩
abbrev main_v319 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_cst_103 : Ref sig .tc := ⟨.hbm, 463, rfl⟩
abbrev main_v323 : Ref sig .tc := ⟨.hbm, 464, rfl⟩
abbrev main_v324 : Ref sig .tc := ⟨.hbm, 465, rfl⟩
abbrev main_cst_104 : Ref sig .tc := ⟨.hbm, 466, rfl⟩
abbrev main_v325 : Ref sig .tc := ⟨.hbm, 467, rfl⟩
abbrev main_v326 : Ref sig .tc := ⟨.hbm, 468, rfl⟩
abbrev main_cst_105 : Ref sig .tc := ⟨.hbm, 469, rfl⟩
abbrev main_v327 : Ref sig .tc := ⟨.hbm, 470, rfl⟩
abbrev main_v328 : Ref sig .tc := ⟨.hbm, 471, rfl⟩
abbrev main_cst_106 : Ref sig .tc := ⟨.hbm, 472, rfl⟩
abbrev main_c_107 : Ref sig .tc := ⟨.hbm, 473, rfl⟩
abbrev main_call6_v0 : Ref sig .tc := ⟨.hbm, 474, rfl⟩
abbrev main_call6_v1 : Ref sig .tc := ⟨.hbm, 475, rfl⟩
abbrev main_call6_v2 : Ref sig .tc := ⟨.hbm, 476, rfl⟩
abbrev main_call6_v3 : Ref sig .tc := ⟨.hbm, 477, rfl⟩
abbrev main_call6_v4 : Ref sig .tc := ⟨.hbm, 478, rfl⟩
abbrev main_v329 : Ref sig .tc := ⟨.hbm, 479, rfl⟩
abbrev main_cst_108 : Ref sig .tc := ⟨.hbm, 480, rfl⟩
abbrev main_c_109 : Ref sig .tc := ⟨.hbm, 481, rfl⟩
abbrev main_call7_v0 : Ref sig .tc := ⟨.hbm, 482, rfl⟩
abbrev main_call7_v1 : Ref sig .tc := ⟨.hbm, 483, rfl⟩
abbrev main_call7_v2 : Ref sig .tc := ⟨.hbm, 484, rfl⟩
abbrev main_call7_v3 : Ref sig .tc := ⟨.hbm, 485, rfl⟩
abbrev main_call7_v4 : Ref sig .tc := ⟨.hbm, 486, rfl⟩
abbrev main_v330 : Ref sig .tc := ⟨.hbm, 487, rfl⟩
abbrev main_v331 : Ref sig .tc := ⟨.hbm, 488, rfl⟩
abbrev main_v332 : Ref sig .tc := ⟨.hbm, 489, rfl⟩
abbrev main_v333 : Ref sig .tc := ⟨.hbm, 490, rfl⟩
abbrev main_v334 : Ref sig .tc := ⟨.hbm, 491, rfl⟩
abbrev main_v335 : Ref sig .tc := ⟨.hbm, 492, rfl⟩
abbrev main_v336 : Ref sig .tc := ⟨.hbm, 493, rfl⟩
abbrev main_v337 : Ref sig .tc := ⟨.hbm, 494, rfl⟩
abbrev main_v338 : Ref sig .tc := ⟨.hbm, 495, rfl⟩
abbrev main_c_110 : Ref sig .tc := ⟨.hbm, 496, rfl⟩
abbrev main_v339 : Ref sig .tc := ⟨.hbm, 497, rfl⟩
abbrev main_v340 : Ref sig .tc := ⟨.hbm, 498, rfl⟩
abbrev main_c_111 : Ref sig .tc := ⟨.hbm, 499, rfl⟩
abbrev main_v341 : Ref sig .tc := ⟨.hbm, 500, rfl⟩
abbrev main_v342 : Ref sig .tc := ⟨.hbm, 501, rfl⟩
abbrev main_c_112 : Ref sig .tc := ⟨.hbm, 502, rfl⟩
abbrev main_v343 : Ref sig .tc := ⟨.hbm, 503, rfl⟩
abbrev main_v344 : Ref sig .tc := ⟨.hbm, 504, rfl⟩
abbrev main_c_113 : Ref sig .tc := ⟨.hbm, 505, rfl⟩
abbrev main_v345 : Ref sig .tc := ⟨.hbm, 506, rfl⟩
abbrev main_v346 : Ref sig .tc := ⟨.hbm, 507, rfl⟩
abbrev main_c_114 : Ref sig .tc := ⟨.hbm, 508, rfl⟩
abbrev main_v347 : Ref sig .tc := ⟨.hbm, 509, rfl⟩
abbrev main_v348 : Ref sig .tc := ⟨.hbm, 510, rfl⟩
abbrev main_c_115 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_c_116 : Ref sig .tc := ⟨.hbm, 515, rfl⟩
abbrev main_v352 : Ref sig .tc := ⟨.hbm, 516, rfl⟩
abbrev main_v353 : Ref sig .tc := ⟨.hbm, 517, rfl⟩
abbrev main_c_117 : Ref sig .tc := ⟨.hbm, 518, rfl⟩
abbrev main_v354 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_v360 : Ref sig .tc := ⟨.hbm, 525, rfl⟩
abbrev main_v361 : Ref sig .tc := ⟨.hbm, 526, rfl⟩
abbrev main_c_118 : Ref sig .tc := ⟨.hbm, 527, rfl⟩
abbrev main_v362 : Ref sig .tc := ⟨.hbm, 528, rfl⟩
abbrev main_v363 : Ref sig .tc := ⟨.hbm, 529, rfl⟩
abbrev main_c_119 : Ref sig .tc := ⟨.hbm, 530, rfl⟩
abbrev main_v364 : Ref sig .tc := ⟨.hbm, 531, rfl⟩
abbrev main_v365 : Ref sig .tc := ⟨.hbm, 532, rfl⟩
abbrev main_v366 : Ref sig .tc := ⟨.hbm, 533, rfl⟩
abbrev main_c_120 : Ref sig .tc := ⟨.hbm, 534, rfl⟩
abbrev main_v367 : Ref sig .tc := ⟨.hbm, 535, rfl⟩
abbrev main_v368 : Ref sig .tc := ⟨.hbm, 536, rfl⟩
abbrev main_c_121 : Ref sig .tc := ⟨.hbm, 537, rfl⟩
abbrev main_v369 : Ref sig .tc := ⟨.hbm, 538, rfl⟩
abbrev main_v370 : Ref sig .tc := ⟨.hbm, 539, rfl⟩
abbrev main_v371 : Ref sig .tc := ⟨.hbm, 540, rfl⟩
abbrev main_v372 : Ref sig .tc := ⟨.hbm, 541, rfl⟩
abbrev main_v373 : Ref sig .tc := ⟨.hbm, 542, rfl⟩
abbrev main_v374 : Ref sig .tc := ⟨.hbm, 543, rfl⟩
abbrev main_v375 : Ref sig .tc := ⟨.hbm, 544, rfl⟩
abbrev main_v376 : Ref sig .tc := ⟨.hbm, 545, rfl⟩
abbrev main_c_122 : Ref sig .tc := ⟨.hbm, 546, rfl⟩
abbrev main_v377 : Ref sig .tc := ⟨.hbm, 547, rfl⟩
abbrev main_v378 : Ref sig .tc := ⟨.hbm, 548, rfl⟩
abbrev main_c_123 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_c_124 : Ref sig .tc := ⟨.hbm, 553, rfl⟩
abbrev main_v382 : Ref sig .tc := ⟨.hbm, 554, rfl⟩
abbrev main_v383 : Ref sig .tc := ⟨.hbm, 555, rfl⟩
abbrev main_c_125 : Ref sig .tc := ⟨.hbm, 556, rfl⟩
abbrev main_v384 : Ref sig .tc := ⟨.hbm, 557, rfl⟩
abbrev main_v385 : Ref sig .tc := ⟨.hbm, 558, rfl⟩
abbrev main_v386 : Ref sig .tc := ⟨.hbm, 559, rfl⟩
abbrev main_v387 : Ref sig .tc := ⟨.hbm, 560, rfl⟩
abbrev main_v388 : Ref sig .tc := ⟨.hbm, 561, rfl⟩
abbrev main_v389 : Ref sig .tc := ⟨.hbm, 562, rfl⟩
abbrev main_v390 : Ref sig .tc := ⟨.hbm, 563, rfl⟩
abbrev main_v391 : Ref sig .tc := ⟨.hbm, 564, rfl⟩
abbrev main_c_126 : Ref sig .tc := ⟨.hbm, 565, rfl⟩
abbrev main_v392 : Ref sig .tc := ⟨.hbm, 566, rfl⟩
abbrev main_v393 : Ref sig .tc := ⟨.hbm, 567, rfl⟩
abbrev main_c_127 : Ref sig .tc := ⟨.hbm, 568, rfl⟩
abbrev main_v394 : Ref sig .tc := ⟨.hbm, 569, rfl⟩
abbrev main_v395 : Ref sig .tc := ⟨.hbm, 570, rfl⟩
abbrev main_v396 : Ref sig .tc := ⟨.hbm, 571, rfl⟩
abbrev main_c_128 : Ref sig .tc := ⟨.hbm, 572, rfl⟩
abbrev main_v397 : Ref sig .tc := ⟨.hbm, 573, rfl⟩
abbrev main_v398 : Ref sig .tc := ⟨.hbm, 574, rfl⟩
abbrev main_c_129 : Ref sig .tc := ⟨.hbm, 575, rfl⟩
abbrev main_v399 : Ref sig .tc := ⟨.hbm, 576, rfl⟩
abbrev main_v400 : Ref sig .tc := ⟨.hbm, 577, rfl⟩
abbrev main_v401 : Ref sig .tc := ⟨.hbm, 578, rfl⟩
abbrev main_v402 : Ref sig .tc := ⟨.hbm, 579, rfl⟩
abbrev main_v403 : Ref sig .tc := ⟨.hbm, 580, rfl⟩
abbrev main_v404 : Ref sig .tc := ⟨.hbm, 581, rfl⟩
abbrev main_v405 : Ref sig .tc := ⟨.hbm, 582, rfl⟩
abbrev main_v406 : Ref sig .tc := ⟨.hbm, 583, rfl⟩
abbrev main_v407 : Ref sig .tc := ⟨.hbm, 584, rfl⟩
abbrev main_v408 : Ref sig .tc := ⟨.hbm, 585, rfl⟩
abbrev main_v409 : Ref sig .tc := ⟨.hbm, 586, rfl⟩
abbrev main_v410 : Ref sig .tc := ⟨.hbm, 587, rfl⟩
abbrev main_v411 : Ref sig .tc := ⟨.hbm, 588, rfl⟩
abbrev main_v412 : Ref sig .tc := ⟨.hbm, 589, rfl⟩
abbrev main_v413 : Ref sig .tc := ⟨.hbm, 590, rfl⟩
abbrev main_v414 : Ref sig .tc := ⟨.hbm, 591, rfl⟩
abbrev main_v415 : Ref sig .tc := ⟨.hbm, 592, rfl⟩
abbrev main_v416 : Ref sig .tc := ⟨.hbm, 593, rfl⟩
abbrev main_v417 : Ref sig .tc := ⟨.hbm, 594, rfl⟩
abbrev main_v418 : Ref sig .tc := ⟨.hbm, 595, rfl⟩
abbrev main_v419 : Ref sig .tc := ⟨.hbm, 596, rfl⟩
abbrev main_v420 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩
abbrev main_v425 : Ref sig .tc := ⟨.hbm, 602, rfl⟩
abbrev main_v426 : Ref sig .tc := ⟨.hbm, 603, rfl⟩
abbrev main_v427 : Ref sig .tc := ⟨.hbm, 604, rfl⟩
abbrev main_v428 : Ref sig .tc := ⟨.hbm, 605, rfl⟩
abbrev main_v429 : Ref sig .tc := ⟨.hbm, 606, rfl⟩
abbrev main_v430 : Ref sig .tc := ⟨.hbm, 607, rfl⟩
abbrev main_v431 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![50, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x3x2000x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2000x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2000x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x2000x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2000x216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S100000x3 : S_.BroadcastsInDim S100000x3 (![] : Fin 0 → Fin S100000x3.rank)
  bcast_S_S2 : S_.BroadcastsInDim S2 (![] : Fin 0 → Fin S2.rank)
  bcast_S2_S2x1_0 : S2.BroadcastsInDim S2x1 (![0] : Fin 1 → Fin S2x1.rank)
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  slices_S3x100000x2_S3x100000x1_0_0_0 : S3x100000x2.Slices ![0, 0, 0] S3x100000x1
  shapeCasts_S3x100000x1_S3x100000 : S3x100000x1.ShapeCasts S3x100000
  bcast_S_S3x100000 : S_.BroadcastsInDim S3x100000 (![] : Fin 0 → Fin S3x100000.rank)
  slices_S3x100000x2_S3x100000x1_0_0_1 : S3x100000x2.Slices ![0, 0, 1] S3x100000x1
  bcast_S3x100000_S3x100000x1_0_1 : S3x100000.BroadcastsInDim S3x100000x1 (![0, 1] : Fin 2 → Fin S3x100000x1.rank)
  concatenates_S3x100000x1_S3x100000x1_S3x100000x2_d2 : Shape.Concatenates [S3x100000x1, S3x100000x1] S3x100000x2 2
  transposes_S3x72x100000_S3x100000x72_0_2_1 : S3x72x100000.Transposes [0, 2, 1] S3x100000x72
  bcast_S3x100000x72_S1x3x100000x72_1_2_3 : S3x100000x72.BroadcastsInDim S1x3x100000x72 (![1, 2, 3] : Fin 3 → Fin S1x3x100000x72.rank)
  concatenates_S1x3x100000x72_S1x3x100000x72_S1x3x100000x72_S1x3x100000x72_S4x3x100000x72_d0 : Shape.Concatenates [S1x3x100000x72, S1x3x100000x72, S1x3x100000x72, S1x3x100000x72] S4x3x100000x72 0
  bcast_S3x100000x1_S1x3x100000x1_1_2_3 : S3x100000x1.BroadcastsInDim S1x3x100000x1 (![1, 2, 3] : Fin 3 → Fin S1x3x100000x1.rank)
  concatenates_S1x3x100000x1_S1x3x100000x1_S1x3x100000x1_S1x3x100000x1_S4x3x100000x1_d0 : Shape.Concatenates [S1x3x100000x1, S1x3x100000x1, S1x3x100000x1, S1x3x100000x1] S4x3x100000x1 0
  inb_S2000x216_S2000x216_0_0 : ∀ a, (![0, 0] : Fin 2 → Nat) a + S2000x216.size a ≤ S2000x216.size a
  h_S2000x216 : 0 < S2000x216.numel
  shapeCasts_S2000x216_S2000x216 : S2000x216.ShapeCasts S2000x216
  inb_S1x3x2000x72_S1x1x2000x72_0_0_0_0 : ∀ a, (![0, 0, 0, 0] : Fin 4 → Nat) a + S1x1x2000x72.size a ≤ S1x3x2000x72.size a
  h_S1x1x2000x72 : 0 < S1x1x2000x72.numel
  shapeCasts_S1x1x2000x72_S2000x72 : S1x1x2000x72.ShapeCasts S2000x72
  inb_S1x3x2000x1_S1x1x2000x1_0_0_0_0 : ∀ a, (![0, 0, 0, 0] : Fin 4 → Nat) a + S1x1x2000x1.size a ≤ S1x3x2000x1.size a
  h_S1x1x2000x1 : 0 < S1x1x2000x1.numel
  shapeCasts_S1x1x2000x1_S2000x1 : S1x1x2000x1.ShapeCasts S2000x1
  broadcasts_S2000x1_S2000x72 : S2000x1.Broadcasts S2000x72
  inb_S2000x216_S2000x72_0_0 : ∀ a, (![0, 0] : Fin 2 → Nat) a + S2000x72.size a ≤ S2000x216.size a
  h_S2000x72 : 0 < S2000x72.numel
  shapeCasts_S2000x72_S2000x72 : S2000x72.ShapeCasts S2000x72
  inb_S1x3x2000x72_S1x1x2000x72_0_1_0_0 : ∀ a, (![0, 1, 0, 0] : Fin 4 → Nat) a + S1x1x2000x72.size a ≤ S1x3x2000x72.size a
  inb_S1x3x2000x1_S1x1x2000x1_0_1_0_0 : ∀ a, (![0, 1, 0, 0] : Fin 4 → Nat) a + S1x1x2000x1.size a ≤ S1x3x2000x1.size a
  inb_S2000x216_S2000x72_0_72 : ∀ a, (![0, 72] : Fin 2 → Nat) a + S2000x72.size a ≤ S2000x216.size a
  inb_S1x3x2000x72_S1x1x2000x72_0_2_0_0 : ∀ a, (![0, 2, 0, 0] : Fin 4 → Nat) a + S1x1x2000x72.size a ≤ S1x3x2000x72.size a
  inb_S1x3x2000x1_S1x1x2000x1_0_2_0_0 : ∀ a, (![0, 2, 0, 0] : Fin 4 → Nat) a + S1x1x2000x1.size a ≤ S1x3x2000x1.size a
  inb_S2000x216_S2000x72_0_144 : ∀ a, (![0, 144] : Fin 2 → Nat) a + S2000x72.size a ≤ S2000x216.size a
  inb_S1x2000x216_S1x2000x216_0_0_0 : ∀ a, (![0, 0, 0] : Fin 3 → Nat) a + S1x2000x216.size a ≤ S1x2000x216.size a
  h_S1x2000x216 : 0 < S1x2000x216.numel
  shapeCasts_S1x2000x216_S2000x216 : S1x2000x216.ShapeCasts S2000x216
  shapeCasts_S2000x216_S1x2000x216 : S2000x216.ShapeCasts S1x2000x216
  transposes_S4x100000x216_S100000x4x216_1_0_2 : S4x100000x216.Transposes [1, 0, 2] S100000x4x216
  shapeCasts_S100000x4x216_S100000x864 : S100000x4x216.ShapeCasts S100000x864
  gather_S100000x3_S2x1_S100000x2_0_1_n_n_1_1_1000001_wf : GatherDims.WF S100000x3 S2x1 S100000x2 [0] [1] [] [1] [] 1 ![100000, 1]
  gather_S3x72x64x64_S3x100000x2_S3x72x100000_1_23_0_0_23_2_17211_wf : GatherDims.WF S3x72x64x64 S3x100000x2 S3x72x100000 [1] [2, 3] [0] [2, 3] [0] 2 ![1, 72, 1, 1]
  gather_S3x72x128x128_S3x100000x2_S3x72x100000_1_23_0_0_23_2_17211_wf : GatherDims.WF S3x72x128x128 S3x100000x2 S3x72x100000 [1] [2, 3] [0] [2, 3] [0] 2 ![1, 72, 1, 1]
  gather_S3x72x256x256_S3x100000x2_S3x72x100000_1_23_0_0_23_2_17211_wf : GatherDims.WF S3x72x256x256 S3x100000x2 S3x72x100000 [1] [2, 3] [0] [2, 3] [0] 2 ![1, 72, 1, 1]
  gather_S3x72x512x512_S3x100000x2_S3x72x100000_1_23_0_0_23_2_17211_wf : GatherDims.WF S3x72x512x512 S3x100000x2 S3x72x100000 [1] [2, 3] [0] [2, 3] [0] 2 ![1, 72, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2000x72.size a ≤ S4x3x100000x72.size a
  hwx0_0 : ∀ i : grid0.Coords, EltTy.bits .f32 = 32 ∨ (Rect.block (s := S4x3x100000x72) S1x3x2000x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2000x72.size a ≤ S4x3x100000x72.size a
  hwx0_1 : ∀ i : grid0.Coords, EltTy.bits .f32 = 32 ∨ (Rect.block (s := S4x3x100000x72) S1x3x2000x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2000x72.size a ≤ S4x3x100000x72.size a
  hwx0_2 : ∀ i : grid0.Coords, EltTy.bits .f32 = 32 ∨ (Rect.block (s := S4x3x100000x72) S1x3x2000x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x2000x72.size a ≤ S4x3x100000x72.size a
  hwx0_3 : ∀ i : grid0.Coords, EltTy.bits .f32 = 32 ∨ (Rect.block (s := S4x3x100000x72) S1x3x2000x72.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x2000x1.size a ≤ S4x3x100000x1.size a
  hwx0_4 : ∀ i : grid0.Coords, EltTy.bits .f32 = 32 ∨ (Rect.block (s := S4x3x100000x1) S1x3x2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x2000x1.size a ≤ S4x3x100000x1.size a
  hwx0_5 : ∀ i : grid0.Coords, EltTy.bits .f32 = 32 ∨ (Rect.block (s := S4x3x100000x1) S1x3x2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2000x216.size a ≤ S4x100000x216.size a
  hwx0_6 : ∀ i : grid0.Coords, EltTy.bits .f32 = 32 ∨ (Rect.block (s := S4x100000x216) S1x2000x216.size (cc0_transform_6 i) (hinb0_6 i)).WholeWords (EltTy.packing .f32)

variable [Facts₀]

def gather_S100000x3_S2x1_S100000x2_0_1_n_n_1_1_1000001 : GatherDims S100000x3 S2x1 S100000x2 where
  offsetDims := [0]
  collapsedSliceDims := [1]
  operandBatchingDims := []
  startIndicesBatchingDims := []
  startIndexMap := [1]
  indexVectorDim := 1
  sliceSizes := ![100000, 1]
  wf := gather_S100000x3_S2x1_S100000x2_0_1_n_n_1_1_1000001_wf
def gather_S3x72x64x64_S3x100000x2_S3x72x100000_1_23_0_0_23_2_17211 : GatherDims S3x72x64x64 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x64x64_S3x100000x2_S3x72x100000_1_23_0_0_23_2_17211_wf
def gather_S3x72x128x128_S3x100000x2_S3x72x100000_1_23_0_0_23_2_17211 : GatherDims S3x72x128x128 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x128x128_S3x100000x2_S3x72x100000_1_23_0_0_23_2_17211_wf
def gather_S3x72x256x256_S3x100000x2_S3x72x100000_1_23_0_0_23_2_17211 : GatherDims S3x72x256x256 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x256x256_S3x100000x2_S3x72x100000_1_23_0_0_23_2_17211_wf
def gather_S3x72x512x512_S3x100000x2_S3x72x100000_1_23_0_0_23_2_17211 : GatherDims S3x72x512x512 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x512x512_S3x100000x2_S3x72x100000_1_23_0_0_23_2_17211_wf

abbrev win0_0 : Pipeline.Window sig grid0 :=
  Pipeline.Window.ofSpec (Memref.whole main_v411) S1x3x2000x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v416) S1x3x2000x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v421) S1x3x2000x72.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v426) S1x3x2000x72.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v431) S1x3x2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v436) S1x3x2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v437) S1x2000x216.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x3 : Shape := ⟨2, ![100000, 3]⟩
abbrev S3x72x64x64 : Shape := ⟨4, ![3, 72, 64, 64]⟩
abbrev S3x72x128x128 : Shape := ⟨4, ![3, 72, 128, 128]⟩
abbrev S3x72x256x256 : Shape := ⟨4, ![3, 72, 256, 256]⟩
abbrev S3x72x512x512 : Shape := ⟨4, ![3, 72, 512, 512]⟩
abbrev S2 : Shape := ⟨1, ![2]⟩
abbrev S_ : Shape := ⟨0, ![]⟩
abbrev S2x1 : Shape := ⟨2, ![2, 1]⟩
abbrev S100000x2 : Shape := ⟨2, ![100000, 2]⟩
abbrev S1x100000x2 : Shape := ⟨3, ![1, 100000, 2]⟩
abbrev S3x100000x2 : Shape := ⟨3, ![3, 100000, 2]⟩
abbrev S3x100000x1 : Shape := ⟨3, ![3, 100000, 1]⟩
abbrev S3x100000 : Shape := ⟨2, ![3, 100000]⟩
abbrev S3x72x100000 : Shape := ⟨3, ![3, 72, 100000]⟩
abbrev S3x100000x72 : Shape := ⟨3, ![3, 100000, 72]⟩
abbrev S100000x3x72 : Shape := ⟨3, ![100000, 3, 72]⟩
abbrev S100000x216 : Shape := ⟨2, ![100000, 216]⟩
abbrev S100000x864 : Shape := ⟨2, ![100000, 864]⟩

abbrev nBuf : Space → Nat
  | .hbm => 692
  | .vmem => 0
  | .smem => 0
  | _ => 0

abbrev hbmTy0_0 (i : Nat) : BufTy := match i % 128 with
  | 0 => ⟨S100000x3, .f32⟩
  | 1 => ⟨S3x72x64x64, .f32⟩
  | 2 => ⟨S3x72x128x128, .f32⟩
  | 3 => ⟨S3x72x256x256, .f32⟩
  | 4 => ⟨S3x72x512x512, .f32⟩
  | 5 => ⟨S2, .i32⟩
  | 6 => ⟨S2, .i32⟩
  | 7 => ⟨S2, .i32⟩
  | 8 => ⟨S_, .f32⟩
  | 9 => ⟨S100000x3, .f32⟩
  | 10 => ⟨S100000x3, .f32⟩
  | 11 => ⟨S_, .f32⟩
  | 12 => ⟨S100000x3, .f32⟩
  | 13 => ⟨S100000x3, .f32⟩
  | 14 => ⟨S_, .f32⟩
  | 15 => ⟨S100000x3, .f32⟩
  | 16 => ⟨S100000x3, .f32⟩
  | 17 => ⟨S_, .i32⟩
  | 18 => ⟨S2, .i32⟩
  | 19 => ⟨S2, .i1⟩
  | 20 => ⟨S_, .i32⟩
  | 21 => ⟨S2, .i32⟩
  | 22 => ⟨S2, .i32⟩
  | 23 => ⟨S2, .i32⟩
  | 24 => ⟨S2x1, .i32⟩
  | 25 => ⟨S100000x2, .f32⟩
  | 26 => ⟨S_, .i32⟩
  | 27 => ⟨S2, .i32⟩
  | 28 => ⟨S2, .i1⟩
  | 29 => ⟨S_, .i32⟩
  | 30 => ⟨S2, .i32⟩
  | 31 => ⟨S2, .i32⟩
  | 32 => ⟨S2, .i32⟩
  | 33 => ⟨S2x1, .i32⟩
  | 34 => ⟨S100000x2, .f32⟩
  | 35 => ⟨S_, .i32⟩
  | 36 => ⟨S2, .i32⟩
  | 37 => ⟨S2, .i1⟩
  | 38 => ⟨S_, .i32⟩
  | 39 => ⟨S2, .i32⟩
  | 40 => ⟨S2, .i32⟩
  | 41 => ⟨S2, .i32⟩
  | 42 => ⟨S2x1, .i32⟩
  | 43 => ⟨S100000x2, .f32⟩
  | 44 => ⟨S1x100000x2, .f32⟩
  | 45 => ⟨S1x100000x2, .f32⟩
  | 46 => ⟨S1x100000x2, .f32⟩
  | 47 => ⟨S3x100000x2, .f32⟩
  | 48 => ⟨S3x100000x1, .f32⟩
  | 49 => ⟨S3x100000, .f32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S_, .f32⟩
  | 57 => ⟨S3x100000, .f32⟩
  | 58 => ⟨S3x100000, .f32⟩
  | 59 => ⟨S3x100000x1, .f32⟩
  | 60 => ⟨S3x100000, .f32⟩
  | 61 => ⟨S_, .f32⟩
  | 62 => ⟨S3x100000, .f32⟩
  | 63 => ⟨S3x100000, .f32⟩
  | 64 => ⟨S_, .f32⟩
  | 65 => ⟨S3x100000, .f32⟩
  | 66 => ⟨S3x100000, .f32⟩
  | 67 => ⟨S_, .f32⟩
  | 68 => ⟨S3x100000, .f32⟩
  | 69 => ⟨S3x100000, .f32⟩
  | 70 => ⟨S_, .f32⟩
  | 71 => ⟨S_, .i32⟩
  | 72 => ⟨S_, .f32⟩
  | 73 => ⟨S3x100000, .f32⟩
  | 74 => ⟨S3x100000, .f32⟩
  | 75 => ⟨S_, .f32⟩
  | 76 => ⟨S3x100000, .f32⟩
  | 77 => ⟨S3x100000, .f32⟩
  | 78 => ⟨S_, .f32⟩
  | 79 => ⟨S_, .i32⟩
  | 80 => ⟨S_, .f32⟩
  | 81 => ⟨S3x100000, .f32⟩
  | 82 => ⟨S3x100000, .f32⟩
  | 83 => ⟨S_, .f32⟩
  | 84 => ⟨S3x100000, .f32⟩
  | 85 => ⟨S3x100000, .f32⟩
  | 86 => ⟨S3x100000, .f32⟩
  | 87 => ⟨S3x100000, .f32⟩
  | 88 => ⟨S3x100000, .f32⟩
  | 89 => ⟨S3x100000x1, .f32⟩
  | 90 => ⟨S3x100000, .f32⟩
  | 91 => ⟨S3x100000x1, .f32⟩
  | 92 => ⟨S3x100000, .i32⟩
  | 93 => ⟨S3x100000, .i32⟩
  | 94 => ⟨S_, .i32⟩
  | 95 => ⟨S3x100000, .i32⟩
  | 96 => ⟨S3x100000, .i32⟩
  | 97 => ⟨S_, .i32⟩
  | 98 => ⟨S3x100000, .i32⟩
  | 99 => ⟨S3x100000, .i32⟩
  | 100 => ⟨S_, .i32⟩
  | 101 => ⟨S3x100000, .i32⟩
  | 102 => ⟨S3x100000, .i32⟩
  | 103 => ⟨S_, .i32⟩
  | 104 => ⟨S3x100000, .i32⟩
  | 105 => ⟨S3x100000, .i32⟩
  | 106 => ⟨S_, .i32⟩
  | 107 => ⟨S3x100000, .i32⟩
  | 108 => ⟨S3x100000, .i1⟩
  | 109 => ⟨S_, .i32⟩
  | 110 => ⟨S3x100000, .i32⟩
  | 111 => ⟨S3x100000, .i32⟩
  | 112 => ⟨S3x100000, .i32⟩
  | 113 => ⟨S_, .i32⟩
  | 114 => ⟨S3x100000, .i32⟩
  | 115 => ⟨S3x100000, .i1⟩
  | 116 => ⟨S_, .i32⟩
  | 117 => ⟨S3x100000, .i32⟩
  | 118 => ⟨S3x100000, .i32⟩
  | 119 => ⟨S3x100000, .i32⟩
  | 120 => ⟨S3x100000x1, .i32⟩
  | 121 => ⟨S3x100000x1, .i32⟩
  | 122 => ⟨S3x100000x2, .i32⟩
  | 123 => ⟨S3x72x100000, .f32⟩
  | 124 => ⟨S3x100000x72, .f32⟩
  | 125 => ⟨S_, .i32⟩
  | 126 => ⟨S3x100000, .i32⟩
  | 127 => ⟨S3x100000, .i1⟩
  | _ => ⟨S100000x3, .f32⟩

abbrev hbmTy0_1 (i : Nat) : BufTy := match i % 128 with
  | 0 => ⟨S_, .i32⟩
  | 1 => ⟨S3x100000, .i32⟩
  | 2 => ⟨S3x100000, .i32⟩
  | 3 => ⟨S3x100000, .i32⟩
  | 4 => ⟨S_, .i32⟩
  | 5 => ⟨S3x100000, .i32⟩
  | 6 => ⟨S3x100000, .i1⟩
  | 7 => ⟨S_, .i32⟩
  | 8 => ⟨S3x100000, .i32⟩
  | 9 => ⟨S3x100000, .i32⟩
  | 10 => ⟨S3x100000, .i32⟩
  | 11 => ⟨S3x100000x1, .i32⟩
  | 12 => ⟨S3x100000x1, .i32⟩
  | 13 => ⟨S3x100000x2, .i32⟩
  | 14 => ⟨S3x72x100000, .f32⟩
  | 15 => ⟨S3x100000x72, .f32⟩
  | 16 => ⟨S_, .i32⟩
  | 17 => ⟨S3x100000, .i32⟩
  | 18 => ⟨S3x100000, .i1⟩
  | 19 => ⟨S_, .i32⟩
  | 20 => ⟨S3x100000, .i32⟩
  | 21 => ⟨S3x100000, .i32⟩
  | 22 => ⟨S3x100000, .i32⟩
  | 23 => ⟨S_, .i32⟩
  | 24 => ⟨S3x100000, .i32⟩
  | 25 => ⟨S3x100000, .i1⟩
  | 26 => ⟨S_, .i32⟩
  | 27 => ⟨S3x100000, .i32⟩
  | 28 => ⟨S3x100000, .i32⟩
  | 29 => ⟨S3x100000, .i32⟩
  | 30 => ⟨S3x100000x1, .i32⟩
  | 31 => ⟨S3x100000x1, .i32⟩
  | 32 => ⟨S3x100000x2, .i32⟩
  | 33 => ⟨S3x72x100000, .f32⟩
  | 34 => ⟨S3x100000x72, .f32⟩
  | 35 => ⟨S_, .i32⟩
  | 36 => ⟨S3x100000, .i32⟩
  | 37 => ⟨S3x100000, .i1⟩
  | 38 => ⟨S_, .i32⟩
  | 39 => ⟨S3x100000, .i32⟩
  | 40 => ⟨S3x100000, .i32⟩
  | 41 => ⟨S3x100000, .i32⟩
  | 42 => ⟨S_, .i32⟩
  | 43 => ⟨S3x100000, .i32⟩
  | 44 => ⟨S3x100000, .i1⟩
  | 45 => ⟨S_, .i32⟩
  | 46 => ⟨S3x100000, .i32⟩
  | 47 => ⟨S3x100000, .i32⟩
  | 48 => ⟨S3x100000, .i32⟩
  | 49 => ⟨S3x100000x1, .i32⟩
  | 50 => ⟨S3x100000x1, .i32⟩
  | 51 => ⟨S3x100000x2, .i32⟩
  | 52 => ⟨S3x72x100000, .f32⟩
  | 53 => ⟨S3x100000x72, .f32⟩
  | 54 => ⟨S_, .f32⟩
  | 55 => ⟨S3x100000x1, .f32⟩
  | 56 => ⟨S3x100000x1, .f32⟩
  | 57 => ⟨S3x100000x72, .f32⟩
  | 58 => ⟨S3x100000x72, .f32⟩
  | 59 => ⟨S3x100000x72, .f32⟩
  | 60 => ⟨S3x100000x72, .f32⟩
  | 61 => ⟨S3x100000x72, .f32⟩
  | 62 => ⟨S_, .f32⟩
  | 63 => ⟨S3x100000x1, .f32⟩
  | 64 => ⟨S3x100000x1, .f32⟩
  | 65 => ⟨S3x100000x72, .f32⟩
  | 66 => ⟨S3x100000x72, .f32⟩
  | 67 => ⟨S3x100000x72, .f32⟩
  | 68 => ⟨S3x100000x72, .f32⟩
  | 69 => ⟨S3x100000x72, .f32⟩
  | 70 => ⟨S_, .f32⟩
  | 71 => ⟨S3x100000x1, .f32⟩
  | 72 => ⟨S3x100000x1, .f32⟩
  | 73 => ⟨S3x100000x72, .f32⟩
  | 74 => ⟨S3x100000x72, .f32⟩
  | 75 => ⟨S3x100000x72, .f32⟩
  | 76 => ⟨S3x100000x72, .f32⟩
  | 77 => ⟨S3x100000x72, .f32⟩
  | 78 => ⟨S100000x3x72, .f32⟩
  | 79 => ⟨S100000x216, .f32⟩
  | 80 => ⟨S3x100000x1, .f32⟩
  | 81 => ⟨S3x100000, .f32⟩
  | 82 => ⟨S_, .f32⟩
  | 83 => ⟨S3x100000, .f32⟩
  | 84 => ⟨S3x100000, .f32⟩
  | 85 => ⟨S_, .f32⟩
  | 86 => ⟨S3x100000, .f32⟩
  | 87 => ⟨S3x100000, .f32⟩
  | 88 => ⟨S_, .f32⟩
  | 89 => ⟨S3x100000, .f32⟩
  | 90 => ⟨S3x100000, .f32⟩
  | 91 => ⟨S3x100000x1, .f32⟩
  | 92 => ⟨S3x100000, .f32⟩
  | 93 => ⟨S_, .f32⟩
  | 94 => ⟨S3x100000, .f32⟩
  | 95 => ⟨S3x100000, .f32⟩
  | 96 => ⟨S_, .f32⟩
  | 97 => ⟨S3x100000, .f32⟩
  | 98 => ⟨S3x100000, .f32⟩
  | 99 => ⟨S_, .f32⟩
  | 100 => ⟨S3x100000, .f32⟩
  | 101 => ⟨S3x100000, .f32⟩
  | 102 => ⟨S_, .f32⟩
  | 103 => ⟨S_, .i32⟩
  | 104 => ⟨S_, .f32⟩
  | 105 => ⟨S3x100000, .f32⟩
  | 106 => ⟨S3x100000, .f32⟩
  | 107 => ⟨S_, .f32⟩
  | 108 => ⟨S3x100000, .f32⟩
  | 109 => ⟨S3x100000, .f32⟩
  | 110 => ⟨S_, .f32⟩
  | 111 => ⟨S_, .i32⟩
  | 112 => ⟨S_, .f32⟩
  | 113 => ⟨S3x100000, .f32⟩
  | 114 => ⟨S3x100000, .f32⟩
  | 115 => ⟨S_, .f32⟩
  | 116 => ⟨S3x100000, .f32⟩
  | 117 => ⟨S3x100000, .f32⟩
  | 118 => ⟨S3x100000, .f32⟩
  | 119 => ⟨S3x100000, .f32⟩
  | 120 => ⟨S3x100000, .f32⟩
  | 121 => ⟨S3x100000x1, .f32⟩
  | 122 => ⟨S3x100000, .f32⟩
  | 123 => ⟨S3x100000x1, .f32⟩
  | 124 => ⟨S3x100000, .i32⟩
  | 125 => ⟨S3x100000, .i32⟩
  | 126 => ⟨S_, .i32⟩
  | 127 => ⟨S3x100000, .i32⟩
  | _ => ⟨S100000x3, .f32⟩

abbrev hbmTy0_2 (i : Nat) : BufTy := match i % 128 with
  | 0 => ⟨S3x100000, .i32⟩
  | 1 => ⟨S_, .i32⟩
  | 2 => ⟨S3x100000, .i32⟩
  | 3 => ⟨S3x100000, .i32⟩
  | 4 => ⟨S_, .i32⟩
  | 5 => ⟨S3x100000, .i32⟩
  | 6 => ⟨S3x100000, .i32⟩
  | 7 => ⟨S_, .i32⟩
  | 8 => ⟨S3x100000, .i32⟩
  | 9 => ⟨S3x100000, .i32⟩
  | 10 => ⟨S_, .i32⟩
  | 11 => ⟨S3x100000, .i32⟩
  | 12 => ⟨S3x100000, .i1⟩
  | 13 => ⟨S_, .i32⟩
  | 14 => ⟨S3x100000, .i32⟩
  | 15 => ⟨S3x100000, .i32⟩
  | 16 => ⟨S3x100000, .i32⟩
  | 17 => ⟨S_, .i32⟩
  | 18 => ⟨S3x100000, .i32⟩
  | 19 => ⟨S3x100000, .i1⟩
  | 20 => ⟨S_, .i32⟩
  | 21 => ⟨S3x100000, .i32⟩
  | 22 => ⟨S3x100000, .i32⟩
  | 23 => ⟨S3x100000, .i32⟩
  | 24 => ⟨S3x100000x1, .i32⟩
  | 25 => ⟨S3x100000x1, .i32⟩
  | 26 => ⟨S3x100000x2, .i32⟩
  | 27 => ⟨S3x72x100000, .f32⟩
  | 28 => ⟨S3x100000x72, .f32⟩
  | 29 => ⟨S_, .i32⟩
  | 30 => ⟨S3x100000, .i32⟩
  | 31 => ⟨S3x100000, .i1⟩
  | 32 => ⟨S_, .i32⟩
  | 33 => ⟨S3x100000, .i32⟩
  | 34 => ⟨S3x100000, .i32⟩
  | 35 => ⟨S3x100000, .i32⟩
  | 36 => ⟨S_, .i32⟩
  | 37 => ⟨S3x100000, .i32⟩
  | 38 => ⟨S3x100000, .i1⟩
  | 39 => ⟨S_, .i32⟩
  | 40 => ⟨S3x100000, .i32⟩
  | 41 => ⟨S3x100000, .i32⟩
  | 42 => ⟨S3x100000, .i32⟩
  | 43 => ⟨S3x100000x1, .i32⟩
  | 44 => ⟨S3x100000x1, .i32⟩
  | 45 => ⟨S3x100000x2, .i32⟩
  | 46 => ⟨S3x72x100000, .f32⟩
  | 47 => ⟨S3x100000x72, .f32⟩
  | 48 => ⟨S_, .i32⟩
  | 49 => ⟨S3x100000, .i32⟩
  | 50 => ⟨S3x100000, .i1⟩
  | 51 => ⟨S_, .i32⟩
  | 52 => ⟨S3x100000, .i32⟩
  | 53 => ⟨S3x100000, .i32⟩
  | 54 => ⟨S3x100000, .i32⟩
  | 55 => ⟨S_, .i32⟩
  | 56 => ⟨S3x100000, .i32⟩
  | 57 => ⟨S3x100000, .i1⟩
  | 58 => ⟨S_, .i32⟩
  | 59 => ⟨S3x100000, .i32⟩
  | 60 => ⟨S3x100000, .i32⟩
  | 61 => ⟨S3x100000, .i32⟩
  | 62 => ⟨S3x100000x1, .i32⟩
  | 63 => ⟨S3x100000x1, .i32⟩
  | 64 => ⟨S3x100000x2, .i32⟩
  | 65 => ⟨S3x72x100000, .f32⟩
  | 66 => ⟨S3x100000x72, .f32⟩
  | 67 => ⟨S_, .i32⟩
  | 68 => ⟨S3x100000, .i32⟩
  | 69 => ⟨S3x100000, .i1⟩
  | 70 => ⟨S_, .i32⟩
  | 71 => ⟨S3x100000, .i32⟩
  | 72 => ⟨S3x100000, .i32⟩
  | 73 => ⟨S3x100000, .i32⟩
  | 74 => ⟨S_, .i32⟩
  | 75 => ⟨S3x100000, .i32⟩
  | 76 => ⟨S3x100000, .i1⟩
  | 77 => ⟨S_, .i32⟩
  | 78 => ⟨S3x100000, .i32⟩
  | 79 => ⟨S3x100000, .i32⟩
  | 80 => ⟨S3x100000, .i32⟩
  | 81 => ⟨S3x100000x1, .i32⟩
  | 82 => ⟨S3x100000x1, .i32⟩
  | 83 => ⟨S3x100000x2, .i32⟩
  | 84 => ⟨S3x72x100000, .f32⟩
  | 85 => ⟨S3x100000x72, .f32⟩
  | 86 => ⟨S_, .f32⟩
  | 87 => ⟨S3x100000x1, .f32⟩
  | 88 => ⟨S3x100000x1, .f32⟩
  | 89 => ⟨S3x100000x72, .f32⟩
  | 90 => ⟨S3x100000x72, .f32⟩
  | 91 => ⟨S3x100000x72, .f32⟩
  | 92 => ⟨S3x100000x72, .f32⟩
  | 93 => ⟨S3x100000x72, .f32⟩
  | 94 => ⟨S_, .f32⟩
  | 95 => ⟨S3x100000x1, .f32⟩
  | 96 => ⟨S3x100000x1, .f32⟩
  | 97 => ⟨S3x100000x72, .f32⟩
  | 98 => ⟨S3x100000x72, .f32⟩
  | 99 => ⟨S3x100000x72, .f32⟩
  | 100 => ⟨S3x100000x72, .f32⟩
  | 101 => ⟨S3x100000x72, .f32⟩
  | 102 => ⟨S_, .f32⟩
  | 103 => ⟨S3x100000x1, .f32⟩
  | 104 => ⟨S3x100000x1, .f32⟩
  | 105 => ⟨S3x100000x72, .f32⟩
  | 106 => ⟨S3x100000x72, .f32⟩
  | 107 => ⟨S3x100000x72, .f32⟩
  | 108 => ⟨S3x100000x72, .f32⟩
  | 109 => ⟨S3x100000x72, .f32⟩
  | 110 => ⟨S100000x3x72, .f32⟩
  | 111 => ⟨S100000x216, .f32⟩
  | 112 => ⟨S100000x216, .f32⟩
  | 113 => ⟨S3x100000x1, .f32⟩
  | 114 => ⟨S3x100000, .f32⟩
  | 115 => ⟨S_, .f32⟩
  | 116 => ⟨S3x100000, .f32⟩
  | 117 => ⟨S3x100000, .f32⟩
  | 118 => ⟨S_, .f32⟩
  | 119 => ⟨S3x100000, .f32⟩
  | 120 => ⟨S3x100000, .f32⟩
  | 121 => ⟨S_, .f32⟩
  | 122 => ⟨S3x100000, .f32⟩
  | 123 => ⟨S3x100000, .f32⟩
  | 124 => ⟨S3x100000x1, .f32⟩
  | 125 => ⟨S3x100000, .f32⟩
  | 126 => ⟨S_, .f32⟩
  | 127 => ⟨S3x100000, .f32⟩
  | _ => ⟨S100000x3, .f32⟩

abbrev hbmTy0_3 (i : Nat) : BufTy := match i % 128 with
  | 0 => ⟨S3x100000, .f32⟩
  | 1 => ⟨S_, .f32⟩
  | 2 => ⟨S3x100000, .f32⟩
  | 3 => ⟨S3x100000, .f32⟩
  | 4 => ⟨S_, .f32⟩
  | 5 => ⟨S3x100000, .f32⟩
  | 6 => ⟨S3x100000, .f32⟩
  | 7 => ⟨S_, .f32⟩
  | 8 => ⟨S_, .i32⟩
  | 9 => ⟨S_, .f32⟩
  | 10 => ⟨S3x100000, .f32⟩
  | 11 => ⟨S3x100000, .f32⟩
  | 12 => ⟨S_, .f32⟩
  | 13 => ⟨S3x100000, .f32⟩
  | 14 => ⟨S3x100000, .f32⟩
  | 15 => ⟨S_, .f32⟩
  | 16 => ⟨S_, .i32⟩
  | 17 => ⟨S_, .f32⟩
  | 18 => ⟨S3x100000, .f32⟩
  | 19 => ⟨S3x100000, .f32⟩
  | 20 => ⟨S_, .f32⟩
  | 21 => ⟨S3x100000, .f32⟩
  | 22 => ⟨S3x100000, .f32⟩
  | 23 => ⟨S3x100000, .f32⟩
  | 24 => ⟨S3x100000, .f32⟩
  | 25 => ⟨S3x100000, .f32⟩
  | 26 => ⟨S3x100000x1, .f32⟩
  | 27 => ⟨S3x100000, .f32⟩
  | 28 => ⟨S3x100000x1, .f32⟩
  | 29 => ⟨S3x100000, .i32⟩
  | 30 => ⟨S3x100000, .i32⟩
  | 31 => ⟨S_, .i32⟩
  | 32 => ⟨S3x100000, .i32⟩
  | 33 => ⟨S3x100000, .i32⟩
  | 34 => ⟨S_, .i32⟩
  | 35 => ⟨S3x100000, .i32⟩
  | 36 => ⟨S3x100000, .i32⟩
  | 37 => ⟨S_, .i32⟩
  | 38 => ⟨S3x100000, .i32⟩
  | 39 => ⟨S3x100000, .i32⟩
  | 40 => ⟨S_, .i32⟩
  | 41 => ⟨S3x100000, .i32⟩
  | 42 => ⟨S3x100000, .i32⟩
  | 43 => ⟨S_, .i32⟩
  | 44 => ⟨S3x100000, .i32⟩
  | 45 => ⟨S3x100000, .i1⟩
  | 46 => ⟨S_, .i32⟩
  | 47 => ⟨S3x100000, .i32⟩
  | 48 => ⟨S3x100000, .i32⟩
  | 49 => ⟨S3x100000, .i32⟩
  | 50 => ⟨S_, .i32⟩
  | 51 => ⟨S3x100000, .i32⟩
  | 52 => ⟨S3x100000, .i1⟩
  | 53 => ⟨S_, .i32⟩
  | 54 => ⟨S3x100000, .i32⟩
  | 55 => ⟨S3x100000, .i32⟩
  | 56 => ⟨S3x100000, .i32⟩
  | 57 => ⟨S3x100000x1, .i32⟩
  | 58 => ⟨S3x100000x1, .i32⟩
  | 59 => ⟨S3x100000x2, .i32⟩
  | 60 => ⟨S3x72x100000, .f32⟩
  | 61 => ⟨S3x100000x72, .f32⟩
  | 62 => ⟨S_, .i32⟩
  | 63 => ⟨S3x100000, .i32⟩
  | 64 => ⟨S3x100000, .i1⟩
  | 65 => ⟨S_, .i32⟩
  | 66 => ⟨S3x100000, .i32⟩
  | 67 => ⟨S3x100000, .i32⟩
  | 68 => ⟨S3x100000, .i32⟩
  | 69 => ⟨S_, .i32⟩
  | 70 => ⟨S3x100000, .i32⟩
  | 71 => ⟨S3x100000, .i1⟩
  | 72 => ⟨S_, .i32⟩
  | 73 => ⟨S3x100000, .i32⟩
  | 74 => ⟨S3x100000, .i32⟩
  | 75 => ⟨S3x100000, .i32⟩
  | 76 => ⟨S3x100000x1, .i32⟩
  | 77 => ⟨S3x100000x1, .i32⟩
  | 78 => ⟨S3x100000x2, .i32⟩
  | 79 => ⟨S3x72x100000, .f32⟩
  | 80 => ⟨S3x100000x72, .f32⟩
  | 81 => ⟨S_, .i32⟩
  | 82 => ⟨S3x100000, .i32⟩
  | 83 => ⟨S3x100000, .i1⟩
  | 84 => ⟨S_, .i32⟩
  | 85 => ⟨S3x100000, .i32⟩
  | 86 => ⟨S3x100000, .i32⟩
  | 87 => ⟨S3x100000, .i32⟩
  | 88 => ⟨S_, .i32⟩
  | 89 => ⟨S3x100000, .i32⟩
  | 90 => ⟨S3x100000, .i1⟩
  | 91 => ⟨S_, .i32⟩
  | 92 => ⟨S3x100000, .i32⟩
  | 93 => ⟨S3x100000, .i32⟩
  | 94 => ⟨S3x100000, .i32⟩
  | 95 => ⟨S3x100000x1, .i32⟩
  | 96 => ⟨S3x100000x1, .i32⟩
  | 97 => ⟨S3x100000x2, .i32⟩
  | 98 => ⟨S3x72x100000, .f32⟩
  | 99 => ⟨S3x100000x72, .f32⟩
  | 100 => ⟨S_, .i32⟩
  | 101 => ⟨S3x100000, .i32⟩
  | 102 => ⟨S3x100000, .i1⟩
  | 103 => ⟨S_, .i32⟩
  | 104 => ⟨S3x100000, .i32⟩
  | 105 => ⟨S3x100000, .i32⟩
  | 106 => ⟨S3x100000, .i32⟩
  | 107 => ⟨S_, .i32⟩
  | 108 => ⟨S3x100000, .i32⟩
  | 109 => ⟨S3x100000, .i1⟩
  | 110 => ⟨S_, .i32⟩
  | 111 => ⟨S3x100000, .i32⟩
  | 112 => ⟨S3x100000, .i32⟩
  | 113 => ⟨S3x100000, .i32⟩
  | 114 => ⟨S3x100000x1, .i32⟩
  | 115 => ⟨S3x100000x1, .i32⟩
  | 116 => ⟨S3x100000x2, .i32⟩
  | 117 => ⟨S3x72x100000, .f32⟩
  | 118 => ⟨S3x100000x72, .f32⟩
  | 119 => ⟨S_, .f32⟩
  | 120 => ⟨S3x100000x1, .f32⟩
  | 121 => ⟨S3x100000x1, .f32⟩
  | 122 => ⟨S3x100000x72, .f32⟩
  | 123 => ⟨S3x100000x72, .f32⟩
  | 124 => ⟨S3x100000x72, .f32⟩
  | 125 => ⟨S3x100000x72, .f32⟩
  | 126 => ⟨S3x100000x72, .f32⟩
  | 127 => ⟨S_, .f32⟩
  | _ => ⟨S100000x3, .f32⟩

abbrev hbmTy0_4 (i : Nat) : BufTy := match i % 128 with
  | 0 => ⟨S3x100000x1, .f32⟩
  | 1 => ⟨S3x100000x1, .f32⟩
  | 2 => ⟨S3x100000x72, .f32⟩
  | 3 => ⟨S3x100000x72, .f32⟩
  | 4 => ⟨S3x100000x72, .f32⟩
  | 5 => ⟨S3x100000x72, .f32⟩
  | 6 => ⟨S3x100000x72, .f32⟩
  | 7 => ⟨S_, .f32⟩
  | 8 => ⟨S3x100000x1, .f32⟩
  | 9 => ⟨S3x100000x1, .f32⟩
  | 10 => ⟨S3x100000x72, .f32⟩
  | 11 => ⟨S3x100000x72, .f32⟩
  | 12 => ⟨S3x100000x72, .f32⟩
  | 13 => ⟨S3x100000x72, .f32⟩
  | 14 => ⟨S3x100000x72, .f32⟩
  | 15 => ⟨S100000x3x72, .f32⟩
  | 16 => ⟨S100000x216, .f32⟩
  | 17 => ⟨S100000x216, .f32⟩
  | 18 => ⟨S3x100000x1, .f32⟩
  | 19 => ⟨S3x100000, .f32⟩
  | 20 => ⟨S_, .f32⟩
  | 21 => ⟨S3x100000, .f32⟩
  | 22 => ⟨S3x100000, .f32⟩
  | 23 => ⟨S_, .f32⟩
  | 24 => ⟨S3x100000, .f32⟩
  | 25 => ⟨S3x100000, .f32⟩
  | 26 => ⟨S_, .f32⟩
  | 27 => ⟨S3x100000, .f32⟩
  | 28 => ⟨S3x100000, .f32⟩
  | 29 => ⟨S3x100000x1, .f32⟩
  | 30 => ⟨S3x100000, .f32⟩
  | 31 => ⟨S_, .f32⟩
  | 32 => ⟨S3x100000, .f32⟩
  | 33 => ⟨S3x100000, .f32⟩
  | 34 => ⟨S_, .f32⟩
  | 35 => ⟨S3x100000, .f32⟩
  | 36 => ⟨S3x100000, .f32⟩
  | 37 => ⟨S_, .f32⟩
  | 38 => ⟨S3x100000, .f32⟩
  | 39 => ⟨S3x100000, .f32⟩
  | 40 => ⟨S_, .f32⟩
  | 41 => ⟨S_, .i32⟩
  | 42 => ⟨S_, .f32⟩
  | 43 => ⟨S3x100000, .f32⟩
  | 44 => ⟨S3x100000, .f32⟩
  | 45 => ⟨S_, .f32⟩
  | 46 => ⟨S3x100000, .f32⟩
  | 47 => ⟨S3x100000, .f32⟩
  | 48 => ⟨S_, .f32⟩
  | 49 => ⟨S_, .i32⟩
  | 50 => ⟨S_, .f32⟩
  | 51 => ⟨S3x100000, .f32⟩
  | 52 => ⟨S3x100000, .f32⟩
  | 53 => ⟨S_, .f32⟩
  | 54 => ⟨S3x100000, .f32⟩
  | 55 => ⟨S3x100000, .f32⟩
  | 56 => ⟨S3x100000, .f32⟩
  | 57 => ⟨S3x100000, .f32⟩
  | 58 => ⟨S3x100000, .f32⟩
  | 59 => ⟨S3x100000x1, .f32⟩
  | 60 => ⟨S3x100000, .f32⟩
  | 61 => ⟨S3x100000x1, .f32⟩
  | 62 => ⟨S3x100000, .i32⟩
  | 63 => ⟨S3x100000, .i32⟩
  | 64 => ⟨S_, .i32⟩
  | 65 => ⟨S3x100000, .i32⟩
  | 66 => ⟨S3x100000, .i32⟩
  | 67 => ⟨S_, .i32⟩
  | 68 => ⟨S3x100000, .i32⟩
  | 69 => ⟨S3x100000, .i32⟩
  | 70 => ⟨S_, .i32⟩
  | 71 => ⟨S3x100000, .i32⟩
  | 72 => ⟨S3x100000, .i32⟩
  | 73 => ⟨S_, .i32⟩
  | 74 => ⟨S3x100000, .i32⟩
  | 75 => ⟨S3x100000, .i32⟩
  | 76 => ⟨S_, .i32⟩
  | 77 => ⟨S3x100000, .i32⟩
  | 78 => ⟨S3x100000, .i1⟩
  | 79 => ⟨S_, .i32⟩
  | 80 => ⟨S3x100000, .i32⟩
  | 81 => ⟨S3x100000, .i32⟩
  | 82 => ⟨S3x100000, .i32⟩
  | 83 => ⟨S_, .i32⟩
  | 84 => ⟨S3x100000, .i32⟩
  | 85 => ⟨S3x100000, .i1⟩
  | 86 => ⟨S_, .i32⟩
  | 87 => ⟨S3x100000, .i32⟩
  | 88 => ⟨S3x100000, .i32⟩
  | 89 => ⟨S3x100000, .i32⟩
  | 90 => ⟨S3x100000x1, .i32⟩
  | 91 => ⟨S3x100000x1, .i32⟩
  | 92 => ⟨S3x100000x2, .i32⟩
  | 93 => ⟨S3x72x100000, .f32⟩
  | 94 => ⟨S3x100000x72, .f32⟩
  | 95 => ⟨S_, .i32⟩
  | 96 => ⟨S3x100000, .i32⟩
  | 97 => ⟨S3x100000, .i1⟩
  | 98 => ⟨S_, .i32⟩
  | 99 => ⟨S3x100000, .i32⟩
  | 100 => ⟨S3x100000, .i32⟩
  | 101 => ⟨S3x100000, .i32⟩
  | 102 => ⟨S_, .i32⟩
  | 103 => ⟨S3x100000, .i32⟩
  | 104 => ⟨S3x100000, .i1⟩
  | 105 => ⟨S_, .i32⟩
  | 106 => ⟨S3x100000, .i32⟩
  | 107 => ⟨S3x100000, .i32⟩
  | 108 => ⟨S3x100000, .i32⟩
  | 109 => ⟨S3x100000x1, .i32⟩
  | 110 => ⟨S3x100000x1, .i32⟩
  | 111 => ⟨S3x100000x2, .i32⟩
  | 112 => ⟨S3x72x100000, .f32⟩
  | 113 => ⟨S3x100000x72, .f32⟩
  | 114 => ⟨S_, .i32⟩
  | 115 => ⟨S3x100000, .i32⟩
  | 116 => ⟨S3x100000, .i1⟩
  | 117 => ⟨S_, .i32⟩
  | 118 => ⟨S3x100000, .i32⟩
  | 119 => ⟨S3x100000, .i32⟩
  | 120 => ⟨S3x100000, .i32⟩
  | 121 => ⟨S_, .i32⟩
  | 122 => ⟨S3x100000, .i32⟩
  | 123 => ⟨S3x100000, .i1⟩
  | 124 => ⟨S_, .i32⟩
  | 125 => ⟨S3x100000, .i32⟩
  | 126 => ⟨S3x100000, .i32⟩
  | 127 => ⟨S3x100000, .i32⟩
  | _ => ⟨S100000x3, .f32⟩

abbrev hbmTy0_5 (i : Nat) : BufTy := match i % 128 with
  | 0 => ⟨S3x100000x1, .i32⟩
  | 1 => ⟨S3x100000x1, .i32⟩
  | 2 => ⟨S3x100000x2, .i32⟩
  | 3 => ⟨S3x72x100000, .f32⟩
  | 4 => ⟨S3x100000x72, .f32⟩
  | 5 => ⟨S_, .i32⟩
  | 6 => ⟨S3x100000, .i32⟩
  | 7 => ⟨S3x100000, .i1⟩
  | 8 => ⟨S_, .i32⟩
  | 9 => ⟨S3x100000, .i32⟩
  | 10 => ⟨S3x100000, .i32⟩
  | 11 => ⟨S3x100000, .i32⟩
  | 12 => ⟨S_, .i32⟩
  | 13 => ⟨S3x100000, .i32⟩
  | 14 => ⟨S3x100000, .i1⟩
  | 15 => ⟨S_, .i32⟩
  | 16 => ⟨S3x100000, .i32⟩
  | 17 => ⟨S3x100000, .i32⟩
  | 18 => ⟨S3x100000, .i32⟩
  | 19 => ⟨S3x100000x1, .i32⟩
  | 20 => ⟨S3x100000x1, .i32⟩
  | 21 => ⟨S3x100000x2, .i32⟩
  | 22 => ⟨S3x72x100000, .f32⟩
  | 23 => ⟨S3x100000x72, .f32⟩
  | 24 => ⟨S_, .f32⟩
  | 25 => ⟨S3x100000x1, .f32⟩
  | 26 => ⟨S3x100000x1, .f32⟩
  | 27 => ⟨S3x100000x72, .f32⟩
  | 28 => ⟨S3x100000x72, .f32⟩
  | 29 => ⟨S3x100000x72, .f32⟩
  | 30 => ⟨S3x100000x72, .f32⟩
  | 31 => ⟨S3x100000x72, .f32⟩
  | 32 => ⟨S_, .f32⟩
  | 33 => ⟨S3x100000x1, .f32⟩
  | 34 => ⟨S3x100000x1, .f32⟩
  | 35 => ⟨S3x100000x72, .f32⟩
  | 36 => ⟨S3x100000x72, .f32⟩
  | 37 => ⟨S3x100000x72, .f32⟩
  | 38 => ⟨S3x100000x72, .f32⟩
  | 39 => ⟨S3x100000x72, .f32⟩
  | 40 => ⟨S_, .f32⟩
  | 41 => ⟨S3x100000x1, .f32⟩
  | 42 => ⟨S3x100000x1, .f32⟩
  | 43 => ⟨S3x100000x72, .f32⟩
  | 44 => ⟨S3x100000x72, .f32⟩
  | 45 => ⟨S3x100000x72, .f32⟩
  | 46 => ⟨S3x100000x72, .f32⟩
  | 47 => ⟨S3x100000x72, .f32⟩
  | 48 => ⟨S100000x3x72, .f32⟩
  | 49 => ⟨S100000x216, .f32⟩
  | 50 => ⟨S100000x216, .f32⟩
  | 51 => ⟨S100000x864, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_c_17 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v47 : Ref sig .tc := ⟨.hbm, 77, rfl⟩
abbrev main_cst_18 : Ref sig .tc := ⟨.hbm, 78, rfl⟩
abbrev main_c_19 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_v57 : Ref sig .tc := ⟨.hbm, 95, rfl⟩
abbrev main_v58 : Ref sig .tc := ⟨.hbm, 96, rfl⟩
abbrev main_c_21 : Ref sig .tc := ⟨.hbm, 97, rfl⟩
abbrev main_v59 : Ref sig .tc := ⟨.hbm, 98, rfl⟩
abbrev main_v60 : Ref sig .tc := ⟨.hbm, 99, rfl⟩
abbrev main_c_22 : Ref sig .tc := ⟨.hbm, 100, rfl⟩
abbrev main_v61 : Ref sig .tc := ⟨.hbm, 101, rfl⟩
abbrev main_v62 : Ref sig .tc := ⟨.hbm, 102, rfl⟩
abbrev main_c_23 : Ref sig .tc := ⟨.hbm, 103, rfl⟩
abbrev main_v63 : Ref sig .tc := ⟨.hbm, 104, rfl⟩
abbrev main_v64 : Ref sig .tc := ⟨.hbm, 105, rfl⟩
abbrev main_c_24 : Ref sig .tc := ⟨.hbm, 106, rfl⟩
abbrev main_v65 : Ref sig .tc := ⟨.hbm, 107, rfl⟩
abbrev main_v66 : Ref sig .tc := ⟨.hbm, 108, rfl⟩
abbrev main_c_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_26 : Ref sig .tc := ⟨.hbm, 113, rfl⟩
abbrev main_v70 : Ref sig .tc := ⟨.hbm, 114, rfl⟩
abbrev main_v71 : Ref sig .tc := ⟨.hbm, 115, rfl⟩
abbrev main_c_27 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_28 : Ref sig .tc := ⟨.hbm, 125, rfl⟩
abbrev main_v80 : Ref sig .tc := ⟨.hbm, 126, rfl⟩
abbrev main_v81 : Ref sig .tc := ⟨.hbm, 127, rfl⟩
abbrev main_c_29 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_30 : Ref sig .tc := ⟨.hbm, 132, rfl⟩
abbrev main_v85 : Ref sig .tc := ⟨.hbm, 133, rfl⟩
abbrev main_v86 : Ref sig .tc := ⟨.hbm, 134, rfl⟩
abbrev main_c_31 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_32 : Ref sig .tc := ⟨.hbm, 144, rfl⟩
abbrev main_v95 : Ref sig .tc := ⟨.hbm, 145, rfl⟩
abbrev main_v96 : Ref sig .tc := ⟨.hbm, 146, rfl⟩
abbrev main_c_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_34 : Ref sig .tc := ⟨.hbm, 151, rfl⟩
abbrev main_v100 : Ref sig .tc := ⟨.hbm, 152, rfl⟩
abbrev main_v101 : Ref sig .tc := ⟨.hbm, 153, rfl⟩
abbrev main_c_35 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_36 : Ref sig .tc := ⟨.hbm, 163, rfl⟩
abbrev main_v110 : Ref sig .tc := ⟨.hbm, 164, rfl⟩
abbrev main_v111 : Ref sig .tc := ⟨.hbm, 165, rfl⟩
abbrev main_c_37 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_38 : Ref sig .tc := ⟨.hbm, 170, rfl⟩
abbrev main_v115 : Ref sig .tc := ⟨.hbm, 171, rfl⟩
abbrev main_v116 : Ref sig .tc := ⟨.hbm, 172, rfl⟩
abbrev main_c_39 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_40 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_41 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_42 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_43 : Ref sig .tc := ⟨.hbm, 210, rfl⟩
abbrev main_v150 : Ref sig .tc := ⟨.hbm, 211, rfl⟩
abbrev main_v151 : Ref sig .tc := ⟨.hbm, 212, rfl⟩
abbrev main_cst_44 : Ref sig .tc := ⟨.hbm, 213, rfl⟩
abbrev main_v152 : Ref sig .tc := ⟨.hbm, 214, rfl⟩
abbrev main_v153 : Ref sig .tc := ⟨.hbm, 215, rfl⟩
abbrev main_cst_45 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_46 : Ref sig .tc := ⟨.hbm, 221, rfl⟩
abbrev main_v158 : Ref sig .tc := ⟨.hbm, 222, rfl⟩
abbrev main_v159 : Ref sig .tc := ⟨.hbm, 223, rfl⟩
abbrev main_cst_47 : Ref sig .tc := ⟨.hbm, 224, rfl⟩
abbrev main_v160 : Ref sig .tc := ⟨.hbm, 225, rfl⟩
abbrev main_v161 : Ref sig .tc := ⟨.hbm, 226, rfl⟩
abbrev main_cst_48 : Ref sig .tc := ⟨.hbm, 227, rfl⟩
abbrev main_v162 : Ref sig .tc := ⟨.hbm, 228, rfl⟩
abbrev main_v163 : Ref sig .tc := ⟨.hbm, 229, rfl⟩
abbrev main_cst_49 : Ref sig .tc := ⟨.hbm, 230, rfl⟩
abbrev main_c_50 : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_v164 : Ref sig .tc := ⟨.hbm, 237, rfl⟩
abbrev main_cst_51 : Ref sig .tc := ⟨.hbm, 238, rfl⟩
abbrev main_c_52 : Ref sig .tc := ⟨.hbm, 239, rfl⟩
abbrev main_call3_v0 : Ref sig .tc := ⟨.hbm, 240, rfl⟩
abbrev main_call3_v1 : Ref sig .tc := ⟨.hbm, 241, rfl⟩
abbrev main_call3_v2 : Ref sig .tc := ⟨.hbm, 242, rfl⟩
abbrev main_call3_v3 : Ref sig .tc := ⟨.hbm, 243, rfl⟩
abbrev main_call3_v4 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_c_53 : Ref sig .tc := ⟨.hbm, 254, rfl⟩
abbrev main_v174 : Ref sig .tc := ⟨.hbm, 255, rfl⟩
abbrev main_v175 : Ref sig .tc := ⟨.hbm, 256, rfl⟩
abbrev main_c_54 : Ref sig .tc := ⟨.hbm, 257, rfl⟩
abbrev main_v176 : Ref sig .tc := ⟨.hbm, 258, rfl⟩
abbrev main_v177 : Ref sig .tc := ⟨.hbm, 259, rfl⟩
abbrev main_c_55 : Ref sig .tc := ⟨.hbm, 260, rfl⟩
abbrev main_v178 : Ref sig .tc := ⟨.hbm, 261, rfl⟩
abbrev main_v179 : Ref sig .tc := ⟨.hbm, 262, rfl⟩
abbrev main_c_56 : Ref sig .tc := ⟨.hbm, 263, rfl⟩
abbrev main_v180 : Ref sig .tc := ⟨.hbm, 264, rfl⟩
abbrev main_v181 : Ref sig .tc := ⟨.hbm, 265, rfl⟩
abbrev main_c_57 : Ref sig .tc := ⟨.hbm, 266, rfl⟩
abbrev main_v182 : Ref sig .tc := ⟨.hbm, 267, rfl⟩
abbrev main_v183 : Ref sig .tc := ⟨.hbm, 268, rfl⟩
abbrev main_c_58 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_c_59 : Ref sig .tc := ⟨.hbm, 273, rfl⟩
abbrev main_v187 : Ref sig .tc := ⟨.hbm, 274, rfl⟩
abbrev main_v188 : Ref sig .tc := ⟨.hbm, 275, rfl⟩
abbrev main_c_60 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_c_61 : Ref sig .tc := ⟨.hbm, 285, rfl⟩
abbrev main_v197 : Ref sig .tc := ⟨.hbm, 286, rfl⟩
abbrev main_v198 : Ref sig .tc := ⟨.hbm, 287, rfl⟩
abbrev main_c_62 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_c_63 : Ref sig .tc := ⟨.hbm, 292, rfl⟩
abbrev main_v202 : Ref sig .tc := ⟨.hbm, 293, rfl⟩
abbrev main_v203 : Ref sig .tc := ⟨.hbm, 294, rfl⟩
abbrev main_c_64 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_c_65 : Ref sig .tc := ⟨.hbm, 304, rfl⟩
abbrev main_v212 : Ref sig .tc := ⟨.hbm, 305, rfl⟩
abbrev main_v213 : Ref sig .tc := ⟨.hbm, 306, rfl⟩
abbrev main_c_66 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_c_67 : Ref sig .tc := ⟨.hbm, 311, rfl⟩
abbrev main_v217 : Ref sig .tc := ⟨.hbm, 312, rfl⟩
abbrev main_v218 : Ref sig .tc := ⟨.hbm, 313, rfl⟩
abbrev main_c_68 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_c_69 : Ref sig .tc := ⟨.hbm, 323, rfl⟩
abbrev main_v227 : Ref sig .tc := ⟨.hbm, 324, rfl⟩
abbrev main_v228 : Ref sig .tc := ⟨.hbm, 325, rfl⟩
abbrev main_c_70 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_c_71 : Ref sig .tc := ⟨.hbm, 330, rfl⟩
abbrev main_v232 : Ref sig .tc := ⟨.hbm, 331, rfl⟩
abbrev main_v233 : Ref sig .tc := ⟨.hbm, 332, rfl⟩
abbrev main_c_72 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_cst_73 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_cst_74 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_cst_75 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_cst_76 : Ref sig .tc := ⟨.hbm, 371, rfl⟩
abbrev main_v268 : Ref sig .tc := ⟨.hbm, 372, rfl⟩
abbrev main_v269 : Ref sig .tc := ⟨.hbm, 373, rfl⟩
abbrev main_cst_77 : Ref sig .tc := ⟨.hbm, 374, rfl⟩
abbrev main_v270 : Ref sig .tc := ⟨.hbm, 375, rfl⟩
abbrev main_v271 : Ref sig .tc := ⟨.hbm, 376, rfl⟩
abbrev main_cst_78 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_cst_79 : Ref sig .tc := ⟨.hbm, 382, rfl⟩
abbrev main_v276 : Ref sig .tc := ⟨.hbm, 383, rfl⟩
abbrev main_v277 : Ref sig .tc := ⟨.hbm, 384, rfl⟩
abbrev main_cst_80 : Ref sig .tc := ⟨.hbm, 385, rfl⟩
abbrev main_v278 : Ref sig .tc := ⟨.hbm, 386, rfl⟩
abbrev main_v279 : Ref sig .tc := ⟨.hbm, 387, rfl⟩
abbrev main_cst_81 : Ref sig .tc := ⟨.hbm, 388, rfl⟩
abbrev main_v280 : Ref sig .tc := ⟨.hbm, 389, rfl⟩
abbrev main_v281 : Ref sig .tc := ⟨.hbm, 390, rfl⟩
abbrev main_cst_82 : Ref sig .tc := ⟨.hbm, 391, rfl⟩
abbrev main_c_83 : Ref sig .tc := ⟨.hbm, 392, rfl⟩
abbrev main_call4_v0 : Ref sig .tc := ⟨.hbm, 393, rfl⟩
abbrev main_call4_v1 : Ref sig .tc := ⟨.hbm, 394, rfl⟩
abbrev main_call4_v2 : Ref sig .tc := ⟨.hbm, 395, rfl⟩
abbrev main_call4_v3 : Ref sig .tc := ⟨.hbm, 396, rfl⟩
abbrev main_call4_v4 : Ref sig .tc := ⟨.hbm, 397, rfl⟩
abbrev main_v282 : Ref sig .tc := ⟨.hbm, 398, rfl⟩
abbrev main_cst_84 : Ref sig .tc := ⟨.hbm, 399, rfl⟩
abbrev main_c_85 : Ref sig .tc := ⟨.hbm, 400, rfl⟩
abbrev main_call5_v0 : Ref sig .tc := ⟨.hbm, 401, rfl⟩
abbrev main_call5_v1 : Ref sig .tc := ⟨.hbm, 402, rfl⟩
abbrev main_call5_v2 : Ref sig .tc := ⟨.hbm, 403, rfl⟩
abbrev main_call5_v3 : Ref sig .tc := ⟨.hbm, 404, rfl⟩
abbrev main_call5_v4 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_v286 : Ref sig .tc := ⟨.hbm, 409, rfl⟩
abbrev main_v287 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_c_86 : Ref sig .tc := ⟨.hbm, 415, rfl⟩
abbrev main_v292 : Ref sig .tc := ⟨.hbm, 416, rfl⟩
abbrev main_v293 : Ref sig .tc := ⟨.hbm, 417, rfl⟩
abbrev main_c_87 : Ref sig .tc := ⟨.hbm, 418, rfl⟩
abbrev main_v294 : Ref sig .tc := ⟨.hbm, 419, rfl⟩
abbrev main_v295 : Ref sig .tc := ⟨.hbm, 420, rfl⟩
abbrev main_c_88 : Ref sig .tc := ⟨.hbm, 421, rfl⟩
abbrev main_v296 : Ref sig .tc := ⟨.hbm, 422, rfl⟩
abbrev main_v297 : Ref sig .tc := ⟨.hbm, 423, rfl⟩
abbrev main_c_89 : Ref sig .tc := ⟨.hbm, 424, rfl⟩
abbrev main_v298 : Ref sig .tc := ⟨.hbm, 425, rfl⟩
abbrev main_v299 : Ref sig .tc := ⟨.hbm, 426, rfl⟩
abbrev main_c_90 : Ref sig .tc := ⟨.hbm, 427, rfl⟩
abbrev main_v300 : Ref sig .tc := ⟨.hbm, 428, rfl⟩
abbrev main_v301 : Ref sig .tc := ⟨.hbm, 429, rfl⟩
abbrev main_c_91 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_c_92 : Ref sig .tc := ⟨.hbm, 434, rfl⟩
abbrev main_v305 : Ref sig .tc := ⟨.hbm, 435, rfl⟩
abbrev main_v306 : Ref sig .tc := ⟨.hbm, 436, rfl⟩
abbrev main_c_93 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_c_94 : Ref sig .tc := ⟨.hbm, 446, rfl⟩
abbrev main_v315 : Ref sig .tc := ⟨.hbm, 447, rfl⟩
abbrev main_v316 : Ref sig .tc := ⟨.hbm, 448, rfl⟩
abbrev main_c_95 : Ref sig .tc := ⟨.hbm, 449, rfl⟩
abbrev main_v317 : Ref sig .tc := ⟨.hbm, 450, rfl⟩
abbrev main_v318 : Ref sig .tc := ⟨.hbm, 451, rfl⟩
abbrev main_v319 : Ref sig .tc := ⟨.hbm, 452, rfl⟩
abbrev main_c_96 : Ref sig .tc := ⟨.hbm, 453, rfl⟩
abbrev main_v320 : Ref sig .tc := ⟨.hbm, 454, rfl⟩
abbrev main_v321 : Ref sig .tc := ⟨.hbm, 455, rfl⟩
abbrev main_c_97 : Ref sig .tc := ⟨.hbm, 456, rfl⟩
abbrev main_v322 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩
abbrev main_v326 : Ref sig .tc := ⟨.hbm, 461, rfl⟩
abbrev main_v327 : Ref sig .tc := ⟨.hbm, 462, rfl⟩
abbrev main_v328 : Ref sig .tc := ⟨.hbm, 463, rfl⟩
abbrev main_v329 : Ref sig .tc := ⟨.hbm, 464, rfl⟩
abbrev main_c_98 : Ref sig .tc := ⟨.hbm, 465, rfl⟩
abbrev main_v330 : Ref sig .tc := ⟨.hbm, 466, rfl⟩
abbrev main_v331 : Ref sig .tc := ⟨.hbm, 467, rfl⟩
abbrev main_c_99 : Ref sig .tc := ⟨.hbm, 468, rfl⟩
abbrev main_v332 : Ref sig .tc := ⟨.hbm, 469, rfl⟩
abbrev main_v333 : Ref sig .tc := ⟨.hbm, 470, rfl⟩
abbrev main_v334 : Ref sig .tc := ⟨.hbm, 471, rfl⟩
abbrev main_c_100 : Ref sig .tc := ⟨.hbm, 472, rfl⟩
abbrev main_v335 : Ref sig .tc := ⟨.hbm, 473, rfl⟩
abbrev main_v336 : Ref sig .tc := ⟨.hbm, 474, rfl⟩
abbrev main_c_101 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩
abbrev main_c_102 : Ref sig .tc := ⟨.hbm, 484, rfl⟩
abbrev main_v345 : Ref sig .tc := ⟨.hbm, 485, rfl⟩
abbrev main_v346 : Ref sig .tc := ⟨.hbm, 486, rfl⟩
abbrev main_c_103 : Ref sig .tc := ⟨.hbm, 487, rfl⟩
abbrev main_v347 : Ref sig .tc := ⟨.hbm, 488, rfl⟩
abbrev main_v348 : Ref sig .tc := ⟨.hbm, 489, rfl⟩
abbrev main_v349 : Ref sig .tc := ⟨.hbm, 490, rfl⟩
abbrev main_c_104 : Ref sig .tc := ⟨.hbm, 491, rfl⟩
abbrev main_v350 : Ref sig .tc := ⟨.hbm, 492, rfl⟩
abbrev main_v351 : Ref sig .tc := ⟨.hbm, 493, rfl⟩
abbrev main_c_105 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_v357 : Ref sig .tc := ⟨.hbm, 500, rfl⟩
abbrev main_v358 : Ref sig .tc := ⟨.hbm, 501, rfl⟩
abbrev main_v359 : Ref sig .tc := ⟨.hbm, 502, rfl⟩
abbrev main_cst_106 : Ref sig .tc := ⟨.hbm, 503, rfl⟩
abbrev main_v360 : Ref sig .tc := ⟨.hbm, 504, rfl⟩
abbrev main_v361 : Ref sig .tc := ⟨.hbm, 505, rfl⟩
abbrev main_v362 : Ref sig .tc := ⟨.hbm, 506, rfl⟩
abbrev main_v363 : Ref sig .tc := ⟨.hbm, 507, rfl⟩
abbrev main_v364 : Ref sig .tc := ⟨.hbm, 508, rfl⟩
abbrev main_v365 : Ref sig .tc := ⟨.hbm, 509, rfl⟩
abbrev main_v366 : Ref sig .tc := ⟨.hbm, 510, rfl⟩
abbrev main_cst_107 : Ref sig .tc := ⟨.hbm, 511, rfl⟩
abbrev main_v367 : Ref sig .tc := ⟨.hbm, 512, rfl⟩
abbrev main_v368 : Ref sig .tc := ⟨.hbm, 513, rfl⟩
abbrev main_v369 : Ref sig .tc := ⟨.hbm, 514, rfl⟩
abbrev main_v370 : Ref sig .tc := ⟨.hbm, 515, rfl⟩
abbrev main_v371 : Ref sig .tc := ⟨.hbm, 516, rfl⟩
abbrev main_v372 : Ref sig .tc := ⟨.hbm, 517, rfl⟩
abbrev main_v373 : Ref sig .tc := ⟨.hbm, 518, rfl⟩
abbrev main_cst_108 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_v380 : Ref sig .tc := ⟨.hbm, 526, rfl⟩
abbrev main_v381 : Ref sig .tc := ⟨.hbm, 527, rfl⟩
abbrev main_v382 : Ref sig .tc := ⟨.hbm, 528, rfl⟩
abbrev main_v383 : Ref sig .tc := ⟨.hbm, 529, rfl⟩
abbrev main_v384 : Ref sig .tc := ⟨.hbm, 530, rfl⟩
abbrev main_v385 : Ref sig .tc := ⟨.hbm, 531, rfl⟩
abbrev main_cst_109 : Ref sig .tc := ⟨.hbm, 532, rfl⟩
abbrev main_v386 : Ref sig .tc := ⟨.hbm, 533, rfl⟩
abbrev main_v387 : Ref sig .tc := ⟨.hbm, 534, rfl⟩
abbrev main_cst_110 : Ref sig .tc := ⟨.hbm, 535, rfl⟩
abbrev main_v388 : Ref sig .tc := ⟨.hbm, 536, rfl⟩
abbrev main_v389 : Ref sig .tc := ⟨.hbm, 537, rfl⟩
abbrev main_cst_111 : Ref sig .tc := ⟨.hbm, 538, rfl⟩
abbrev main_v390 : Ref sig .tc := ⟨.hbm, 539, rfl⟩
abbrev main_v391 : Ref sig .tc := ⟨.hbm, 540, rfl⟩
abbrev main_v392 : Ref sig .tc := ⟨.hbm, 541, rfl⟩
abbrev main_v393 : Ref sig .tc := ⟨.hbm, 542, rfl⟩
abbrev main_cst_112 : Ref sig .tc := ⟨.hbm, 543, rfl⟩
abbrev main_v394 : Ref sig .tc := ⟨.hbm, 544, rfl⟩
abbrev main_v395 : Ref sig .tc := ⟨.hbm, 545, rfl⟩
abbrev main_cst_113 : Ref sig .tc := ⟨.hbm, 546, rfl⟩
abbrev main_v396 : Ref sig .tc := ⟨.hbm, 547, rfl⟩
abbrev main_v397 : Ref sig .tc := ⟨.hbm, 548, rfl⟩
abbrev main_cst_114 : Ref sig .tc := ⟨.hbm, 549, rfl⟩
abbrev main_v398 : Ref sig .tc := ⟨.hbm, 550, rfl⟩
abbrev main_v399 : Ref sig .tc := ⟨.hbm, 551, rfl⟩
abbrev main_cst_115 : Ref sig .tc := ⟨.hbm, 552, rfl⟩
abbrev main_c_116 : Ref sig .tc := ⟨.hbm, 553, rfl⟩
abbrev main_call6_v0 : Ref sig .tc := ⟨.hbm, 554, rfl⟩
abbrev main_call6_v1 : Ref sig .tc := ⟨.hbm, 555, rfl⟩
abbrev main_call6_v2 : Ref sig .tc := ⟨.hbm, 556, rfl⟩
abbrev main_call6_v3 : Ref sig .tc := ⟨.hbm, 557, rfl⟩
abbrev main_call6_v4 : Ref sig .tc := ⟨.hbm, 558, rfl⟩
abbrev main_v400 : Ref sig .tc := ⟨.hbm, 559, rfl⟩
abbrev main_cst_117 : Ref sig .tc := ⟨.hbm, 560, rfl⟩
abbrev main_c_118 : Ref sig .tc := ⟨.hbm, 561, rfl⟩
abbrev main_call7_v0 : Ref sig .tc := ⟨.hbm, 562, rfl⟩
abbrev main_call7_v1 : Ref sig .tc := ⟨.hbm, 563, rfl⟩
abbrev main_call7_v2 : Ref sig .tc := ⟨.hbm, 564, rfl⟩
abbrev main_call7_v3 : Ref sig .tc := ⟨.hbm, 565, rfl⟩
abbrev main_call7_v4 : Ref sig .tc := ⟨.hbm, 566, rfl⟩
abbrev main_v401 : Ref sig .tc := ⟨.hbm, 567, rfl⟩
abbrev main_v402 : Ref sig .tc := ⟨.hbm, 568, rfl⟩
abbrev main_v403 : Ref sig .tc := ⟨.hbm, 569, rfl⟩
abbrev main_v404 : Ref sig .tc := ⟨.hbm, 570, rfl⟩
abbrev main_v405 : Ref sig .tc := ⟨.hbm, 571, rfl⟩
abbrev main_v406 : Ref sig .tc := ⟨.hbm, 572, rfl⟩
abbrev main_v407 : Ref sig .tc := ⟨.hbm, 573, rfl⟩
abbrev main_v408 : Ref sig .tc := ⟨.hbm, 574, rfl⟩
abbrev main_v409 : Ref sig .tc := ⟨.hbm, 575, rfl⟩
abbrev main_c_119 : Ref sig .tc := ⟨.hbm, 576, rfl⟩
abbrev main_v410 : Ref sig .tc := ⟨.hbm, 577, rfl⟩
abbrev main_v411 : Ref sig .tc := ⟨.hbm, 578, rfl⟩
abbrev main_c_120 : Ref sig .tc := ⟨.hbm, 579, rfl⟩
abbrev main_v412 : Ref sig .tc := ⟨.hbm, 580, rfl⟩
abbrev main_v413 : Ref sig .tc := ⟨.hbm, 581, rfl⟩
abbrev main_c_121 : Ref sig .tc := ⟨.hbm, 582, rfl⟩
abbrev main_v414 : Ref sig .tc := ⟨.hbm, 583, rfl⟩
abbrev main_v415 : Ref sig .tc := ⟨.hbm, 584, rfl⟩
abbrev main_c_122 : Ref sig .tc := ⟨.hbm, 585, rfl⟩
abbrev main_v416 : Ref sig .tc := ⟨.hbm, 586, rfl⟩
abbrev main_v417 : Ref sig .tc := ⟨.hbm, 587, rfl⟩
abbrev main_c_123 : Ref sig .tc := ⟨.hbm, 588, rfl⟩
abbrev main_v418 : Ref sig .tc := ⟨.hbm, 589, rfl⟩
abbrev main_v419 : Ref sig .tc := ⟨.hbm, 590, rfl⟩
abbrev main_c_124 : Ref sig .tc := ⟨.hbm, 591, rfl⟩
abbrev main_v420 : Ref sig .tc := ⟨.hbm, 592, rfl⟩
abbrev main_v421 : Ref sig .tc := ⟨.hbm, 593, rfl⟩
abbrev main_v422 : Ref sig .tc := ⟨.hbm, 594, rfl⟩
abbrev main_c_125 : Ref sig .tc := ⟨.hbm, 595, rfl⟩
abbrev main_v423 : Ref sig .tc := ⟨.hbm, 596, rfl⟩
abbrev main_v424 : Ref sig .tc := ⟨.hbm, 597, rfl⟩
abbrev main_c_126 : Ref sig .tc := ⟨.hbm, 598, rfl⟩
abbrev main_v425 : Ref sig .tc := ⟨.hbm, 599, rfl⟩
abbrev main_v426 : Ref sig .tc := ⟨.hbm, 600, rfl⟩
abbrev main_v427 : Ref sig .tc := ⟨.hbm, 601, rfl⟩
abbrev main_v428 : Ref sig .tc := ⟨.hbm, 602, rfl⟩
abbrev main_v429 : Ref sig .tc := ⟨.hbm, 603, rfl⟩
abbrev main_v430 : Ref sig .tc := ⟨.hbm, 604, rfl⟩
abbrev main_v431 : Ref sig .tc := ⟨.hbm, 605, rfl⟩
abbrev main_v432 : Ref sig .tc := ⟨.hbm, 606, rfl⟩
abbrev main_c_127 : Ref sig .tc := ⟨.hbm, 607, rfl⟩
abbrev main_v433 : Ref sig .tc := ⟨.hbm, 608, rfl⟩
abbrev main_v434 : Ref sig .tc := ⟨.hbm, 609, rfl⟩
abbrev main_c_128 : Ref sig .tc := ⟨.hbm, 610, rfl⟩
abbrev main_v435 : Ref sig .tc := ⟨.hbm, 611, rfl⟩
abbrev main_v436 : Ref sig .tc := ⟨.hbm, 612, rfl⟩
abbrev main_v437 : Ref sig .tc := ⟨.hbm, 613, rfl⟩
abbrev main_c_129 : Ref sig .tc := ⟨.hbm, 614, rfl⟩
abbrev main_v438 : Ref sig .tc := ⟨.hbm, 615, rfl⟩
abbrev main_v439 : Ref sig .tc := ⟨.hbm, 616, rfl⟩
abbrev main_c_130 : Ref sig .tc := ⟨.hbm, 617, rfl⟩
abbrev main_v440 : Ref sig .tc := ⟨.hbm, 618, rfl⟩
abbrev main_v441 : Ref sig .tc := ⟨.hbm, 619, rfl⟩
abbrev main_v442 : Ref sig .tc := ⟨.hbm, 620, rfl⟩
abbrev main_v443 : Ref sig .tc := ⟨.hbm, 621, rfl⟩
abbrev main_v444 : Ref sig .tc := ⟨.hbm, 622, rfl⟩
abbrev main_v445 : Ref sig .tc := ⟨.hbm, 623, rfl⟩
abbrev main_v446 : Ref sig .tc := ⟨.hbm, 624, rfl⟩
abbrev main_v447 : Ref sig .tc := ⟨.hbm, 625, rfl⟩
abbrev main_c_131 : Ref sig .tc := ⟨.hbm, 626, rfl⟩
abbrev main_v448 : Ref sig .tc := ⟨.hbm, 627, rfl⟩
abbrev main_v449 : Ref sig .tc := ⟨.hbm, 628, rfl⟩
abbrev main_c_132 : Ref sig .tc := ⟨.hbm, 629, rfl⟩
abbrev main_v450 : Ref sig .tc := ⟨.hbm, 630, rfl⟩
abbrev main_v451 : Ref sig .tc := ⟨.hbm, 631, rfl⟩
abbrev main_v452 : Ref sig .tc := ⟨.hbm, 632, rfl⟩
abbrev main_c_133 : Ref sig .tc := ⟨.hbm, 633, rfl⟩
abbrev main_v453 : Ref sig .tc := ⟨.hbm, 634, rfl⟩
abbrev main_v454 : Ref sig .tc := ⟨.hbm, 635, rfl⟩
abbrev main_c_134 : Ref sig .tc := ⟨.hbm, 636, rfl⟩
abbrev main_v455 : Ref sig .tc := ⟨.hbm, 637, rfl⟩
abbrev main_v456 : Ref sig .tc := ⟨.hbm, 638, rfl⟩
abbrev main_v457 : Ref sig .tc := ⟨.hbm, 639, rfl⟩
abbrev main_v458 : Ref sig .tc := ⟨.hbm, 640, rfl⟩
abbrev main_v459 : Ref sig .tc := ⟨.hbm, 641, rfl⟩
abbrev main_v460 : Ref sig .tc := ⟨.hbm, 642, rfl⟩
abbrev main_v461 : Ref sig .tc := ⟨.hbm, 643, rfl⟩
abbrev main_v462 : Ref sig .tc := ⟨.hbm, 644, rfl⟩
abbrev main_c_135 : Ref sig .tc := ⟨.hbm, 645, rfl⟩
abbrev main_v463 : Ref sig .tc := ⟨.hbm, 646, rfl⟩
abbrev main_v464 : Ref sig .tc := ⟨.hbm, 647, rfl⟩
abbrev main_c_136 : Ref sig .tc := ⟨.hbm, 648, rfl⟩
abbrev main_v465 : Ref sig .tc := ⟨.hbm, 649, rfl⟩
abbrev main_v466 : Ref sig .tc := ⟨.hbm, 650, rfl⟩
abbrev main_v467 : Ref sig .tc := ⟨.hbm, 651, rfl⟩
abbrev main_c_137 : Ref sig .tc := ⟨.hbm, 652, rfl⟩
abbrev main_v468 : Ref sig .tc := ⟨.hbm, 653, rfl⟩
abbrev main_v469 : Ref sig .tc := ⟨.hbm, 654, rfl⟩
abbrev main_c_138 : Ref sig .tc := ⟨.hbm, 655, rfl⟩
abbrev main_v470 : Ref sig .tc := ⟨.hbm, 656, rfl⟩
abbrev main_v471 : Ref sig .tc := ⟨.hbm, 657, rfl⟩
abbrev main_v472 : Ref sig .tc := ⟨.hbm, 658, rfl⟩
abbrev main_v473 : Ref sig .tc := ⟨.hbm, 659, rfl⟩
abbrev main_v474 : Ref sig .tc := ⟨.hbm, 660, rfl⟩
abbrev main_v475 : Ref sig .tc := ⟨.hbm, 661, rfl⟩
abbrev main_v476 : Ref sig .tc := ⟨.hbm, 662, rfl⟩
abbrev main_v477 : Ref sig .tc := ⟨.hbm, 663, rfl⟩
abbrev main_cst_139 : Ref sig .tc := ⟨.hbm, 664, rfl⟩
abbrev main_v478 : Ref sig .tc := ⟨.hbm, 665, rfl⟩
abbrev main_v479 : Ref sig .tc := ⟨.hbm, 666, rfl⟩
abbrev main_v480 : Ref sig .tc := ⟨.hbm, 667, rfl⟩
abbrev main_v481 : Ref sig .tc := ⟨.hbm, 668, rfl⟩
abbrev main_v482 : Ref sig .tc := ⟨.hbm, 669, rfl⟩
abbrev main_v483 : Ref sig .tc := ⟨.hbm, 670, rfl⟩
abbrev main_v484 : Ref sig .tc := ⟨.hbm, 671, rfl⟩
abbrev main_cst_140 : Ref sig .tc := ⟨.hbm, 672, rfl⟩
abbrev main_v485 : Ref sig .tc := ⟨.hbm, 673, rfl⟩
abbrev main_v486 : Ref sig .tc := ⟨.hbm, 674, rfl⟩
abbrev main_v487 : Ref sig .tc := ⟨.hbm, 675, rfl⟩
abbrev main_v488 : Ref sig .tc := ⟨.hbm, 676, rfl⟩
abbrev main_v489 : Ref sig .tc := ⟨.hbm, 677, rfl⟩
abbrev main_v490 : Ref sig .tc := ⟨.hbm, 678, rfl⟩
abbrev main_v491 : Ref sig .tc := ⟨.hbm, 679, rfl⟩
abbrev main_cst_141 : Ref sig .tc := ⟨.hbm, 680, rfl⟩
abbrev main_v492 : Ref sig .tc := ⟨.hbm, 681, rfl⟩
abbrev main_v493 : Ref sig .tc := ⟨.hbm, 682, rfl⟩
abbrev main_v494 : Ref sig .tc := ⟨.hbm, 683, rfl⟩
abbrev main_v495 : Ref sig .tc := ⟨.hbm, 684, rfl⟩
abbrev main_v496 : Ref sig .tc := ⟨.hbm, 685, rfl⟩
abbrev main_v497 : Ref sig .tc := ⟨.hbm, 686, rfl⟩
abbrev main_v498 : Ref sig .tc := ⟨.hbm, 687, rfl⟩
abbrev main_v499 : Ref sig .tc := ⟨.hbm, 688, rfl⟩
abbrev main_v500 : Ref sig .tc := ⟨.hbm, 689, rfl⟩
abbrev main_v501 : Ref sig .tc := ⟨.hbm, 690, rfl⟩
abbrev main_v502 : Ref sig .tc := ⟨.hbm, 691, rfl⟩

abbrev nD : Nat := 1
abbrev τ : Topo := Topo.v7x

variable {F : FTy → Type} [FloatOps F]

class Facts₀ : Prop where
  bcast_S_S100000x3 : S_.BroadcastsInDim S100000x3 (![] : Fin 0 → Fin S100000x3.rank)
  bcast_S_S2 : S_.BroadcastsInDim S2 (![] : Fin 0 → Fin S2.rank)
  bcast_S2_S2x1_0 : S2.BroadcastsInDim S2x1 (![0] : Fin 1 → Fin S2x1.rank)
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  slices_S3x100000x2_S3x100000x1_0_0_0 : S3x100000x2.Slices ![0, 0, 0] S3x100000x1
  shapeCasts_S3x100000x1_S3x100000 : S3x100000x1.ShapeCasts S3x100000
  bcast_S_S3x100000 : S_.BroadcastsInDim S3x100000 (![] : Fin 0 → Fin S3x100000.rank)
  slices_S3x100000x2_S3x100000x1_0_0_1 : S3x100000x2.Slices ![0, 0, 1] S3x100000x1
  bcast_S3x100000_S3x100000x1_0_1 : S3x100000.BroadcastsInDim S3x100000x1 (![0, 1] : Fin 2 → Fin S3x100000x1.rank)
  concatenates_S3x100000x1_S3x100000x1_S3x100000x2_d2 : Shape.Concatenates [S3x100000x1, S3x100000x1] S3x100000x2 2
  transposes_S3x72x100000_S3x100000x72_0_2_1 : S3x72x100000.Transposes [0, 2, 1] S3x100000x72
  bcast_S_S3x100000x1 : S_.BroadcastsInDim S3x100000x1 (![] : Fin 0 → Fin S3x100000x1.rank)
  bcast_S3x100000x1_S3x100000x72_0_1_2 : S3x100000x1.BroadcastsInDim S3x100000x72 (![0, 1, 2] : Fin 3 → Fin S3x100000x72.rank)
  transposes_S3x100000x72_S100000x3x72_1_0_2 : S3x100000x72.Transposes [1, 0, 2] S100000x3x72
  shapeCasts_S100000x3x72_S100000x216 : S100000x3x72.ShapeCasts S100000x216
  concatenates_S100000x216_S100000x216_S100000x216_S100000x216_S100000x864_d1 : Shape.Concatenates [S100000x216, S100000x216, S100000x216, S100000x216] S100000x864 1
  gather_S100000x3_S2x1_S100000x2_0_1_n_n_1_1_1000001_wf : GatherDims.WF S100000x3 S2x1 S100000x2 [0] [1] [] [1] [] 1 ![100000, 1]
  gather_S3x72x64x64_S3x100000x2_S3x72x100000_1_23_0_0_23_2_17211_wf : GatherDims.WF S3x72x64x64 S3x100000x2 S3x72x100000 [1] [2, 3] [0] [2, 3] [0] 2 ![1, 72, 1, 1]
  gather_S3x72x128x128_S3x100000x2_S3x72x100000_1_23_0_0_23_2_17211_wf : GatherDims.WF S3x72x128x128 S3x100000x2 S3x72x100000 [1] [2, 3] [0] [2, 3] [0] 2 ![1, 72, 1, 1]
  gather_S3x72x256x256_S3x100000x2_S3x72x100000_1_23_0_0_23_2_17211_wf : GatherDims.WF S3x72x256x256 S3x100000x2 S3x72x100000 [1] [2, 3] [0] [2, 3] [0] 2 ![1, 72, 1, 1]
  gather_S3x72x512x512_S3x100000x2_S3x72x100000_1_23_0_0_23_2_17211_wf : GatherDims.WF S3x72x512x512 S3x100000x2 S3x72x100000 [1] [2, 3] [0] [2, 3] [0] 2 ![1, 72, 1, 1]

variable [Facts₀]

def gather_S100000x3_S2x1_S100000x2_0_1_n_n_1_1_1000001 : GatherDims S100000x3 S2x1 S100000x2 where
  offsetDims := [0]
  collapsedSliceDims := [1]
  operandBatchingDims := []
  startIndicesBatchingDims := []
  startIndexMap := [1]
  indexVectorDim := 1
  sliceSizes := ![100000, 1]
  wf := gather_S100000x3_S2x1_S100000x2_0_1_n_n_1_1_1000001_wf
def gather_S3x72x64x64_S3x100000x2_S3x72x100000_1_23_0_0_23_2_17211 : GatherDims S3x72x64x64 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x64x64_S3x100000x2_S3x72x100000_1_23_0_0_23_2_17211_wf
def gather_S3x72x128x128_S3x100000x2_S3x72x100000_1_23_0_0_23_2_17211 : GatherDims S3x72x128x128 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x128x128_S3x100000x2_S3x72x100000_1_23_0_0_23_2_17211_wf
def gather_S3x72x256x256_S3x100000x2_S3x72x100000_1_23_0_0_23_2_17211 : GatherDims S3x72x256x256 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x256x256_S3x100000x2_S3x72x100000_1_23_0_0_23_2_17211_wf
def gather_S3x72x512x512_S3x100000x2_S3x72x100000_1_23_0_0_23_2_17211 : GatherDims S3x72x512x512 S3x100000x2 S3x72x100000 where
  offsetDims := [1]
  collapsedSliceDims := [2, 3]
  operandBatchingDims := [0]
  startIndicesBatchingDims := [0]
  startIndexMap := [2, 3]
  indexVectorDim := 2
  sliceSizes := ![1, 72, 1, 1]
  wf := gather_S3x72x512x512_S3x100000x2_S3x72x100000_1_23_0_0_23_2_17211_wf

class Facts : Prop extends Facts₀ where

variable [Facts]
-- ==== Proof.K.Entry.lean ====
import proofs.«171827_j17884243821138_1_alg».proof.Proof.Gen.Kernel.Launch
import Idealize.ShloMosaic.Lib.StableHlo.Run

/-! What core `c`'s buffers hold when the pallas_call is entered: the launch memory after the 570 host operations
    that precede it (the point normalization, the three coordinate pairs, and per scale the clamped sampling
    coordinates, their floors and fractional parts, and the four gathered corners), folded in program order. -/

noncomputable section

namespace Cert.Kernel.Hand

open Cert.Kernel Cert.Kernel.Gen Idealize.ShloMosaic Idealize.ShloMosaic.TcCoe Idealize.SL.Sem

variable {F : FTy → Type} [FloatOps F]

variable (m : (ℓ : Loc nD τ sig) → Buf (Elt F) ℓ)

/-- Core `c`'s TensorCore buffer contents when the region is entered, as a valuation. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))

/-- The same read at a TensorCore reference. -/
abbrev V (c : Dev nD) (b : Ref sig .tc) : Buf (Elt F) ((c : Thread nD τ).loc b) := V0 m c (Proc.devRef .tc b)

end Cert.Kernel.Hand

end
-- ==== Proof.K.Runs.lean ====
/- The frame of the interpolation kernel's program, first part: what the two control cases of the body and the
   rest of the frame argument are stated over. The program is 570 host operations that gather and lay out six
   operand arrays, ONE grid of 50 × 4 points over them, then a transpose and a reshape of the result. Here:
   that the five argument arrays are still as launched when the grid is entered (at the contents `V0`, `V` of
   the module before this one); @main reduced to the grid continued by the two closing operations (`hmain`); each window's
   block at a point (`iblk`); the frame claim from a run of the grid (`frame_of`); the body's one branch
   condition in closed form (`hcond0_0`: taken exactly at the points whose second coordinate is 0, that is at
   t ≡ 0 mod 4); that no window is ever idle; and the staging and scratch memrefs the body is called with. -/
import proofs.«171827_j17884243821138_1_alg».proof.Proof.K.Entry
import proofs.«171827_j17884243821138_1_alg».proof.Proof.Gen.Kernel.Launch
import proofs.«171827_j17884243821138_1_alg».proof.Proof.Gen.Kernel.Skeleton
import proofs.«171827_j17884243821138_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the grid write no argument array

Every host operation writes one buffer, its own result, and no result is one of the five arguments: the arguments are
the HBM references of index below 5, every result has a larger index. -/

/-- A reference of index below 5 and one of index at least 5 are different device buffers. -/
theorem devRef_ne_of_idx {r y : Ref sig .tc} (hr : r.idx.val < 5) (hy : ¬ y.idx.val < 5) :
    Proc.devRef (τ := τ) .tc r ≠ Proc.devRef .tc y :=
  fun e => hy (Proc.devRef_injective _ e ▸ hr)

set_option maxHeartbeats 40000000 in
/-- No operation of `hostOps0` writes a reference of index below 5. -/
theorem hostOps0_keeps (r : Ref sig .tc) (hr : r.idx.val < 5) :
    (hostOps0 : List (HloOp τ sig (Elt F))).Forall fun op => Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0` allocates. -/
theorem hostOps0_fresh : (hostOps0 : List (HloOp τ sig (Elt F))).Forall fun op => op.fresh = ∅ := by
  simp only [List.Forall]; repeat' constructor
/-- No operation of `hostOps0_1` writes a reference of index below 5. -/
theorem hostOps0_1_keeps (r : Ref sig .tc) (hr : r.idx.val < 5) :
    (hostOps0_1 : List (HloOp τ sig (Elt F))).Forall fun op => Proc.devRef (τ := τ) .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_1` allocates. -/
theorem hostOps0_1_fresh : (hostOps0_1 : List (HloOp τ sig (Elt F))).Forall fun op => op.fresh = ∅ := by
  simp only [List.Forall]; repeat' constructor
/-- No operation of `hostOps0_2` writes a reference of index below 5. -/
theorem hostOps0_2_keeps (r : Ref sig .tc) (hr : r.idx.val < 5) :
    (hostOps0_2 : List (HloOp τ sig (Elt F))).Forall fun op => Proc.devRef (τ := τ) .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_2` allocates. -/
theorem hostOps0_2_fresh : (hostOps0_2 : List (HloOp τ sig (Elt F))).Forall fun op => op.fresh = ∅ := by
  simp only [List.Forall]; repeat' constructor
/-- No operation of `hostOps0_3` writes a reference of index below 5. -/
theorem hostOps0_3_keeps (r : Ref sig .tc) (hr : r.idx.val < 5) :
    (hostOps0_3 : List (HloOp τ sig (Elt F))).Forall fun op => Proc.devRef (τ := τ) .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_3` allocates. -/
theorem hostOps0_3_fresh : (hostOps0_3 : List (HloOp τ sig (Elt F))).Forall fun op => op.fresh = ∅ := by
  simp only [List.Forall]; repeat' constructor
set_option maxHeartbeats 40000000 in
/-- No operation of `hostOps0_4` writes a reference of index below 5. -/
theorem hostOps0_4_keeps (r : Ref sig .tc) (hr : r.idx.val < 5) :
    (hostOps0_4 : List (HloOp τ sig (Elt F))).Forall fun op => Proc.devRef (τ := τ) .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_4` allocates. -/
theorem hostOps0_4_fresh : (hostOps0_4 : List (HloOp τ sig (Elt F))).Forall fun op => op.fresh = ∅ := by
  simp only [List.Forall]; repeat' constructor
/-- No operation of `hostOps0_5` writes a reference of index below 5. -/
theorem hostOps0_5_keeps (r : Ref sig .tc) (hr : r.idx.val < 5) :
    (hostOps0_5 : List (HloOp τ sig (Elt F))).Forall fun op => Proc.devRef (τ := τ) .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_5` allocates. -/
theorem hostOps0_5_fresh : (hostOps0_5 : List (HloOp τ sig (Elt F))).Forall fun op => op.fresh = ∅ := by
  simp only [List.Forall]; repeat' constructor
/-- No operation of `hostOps0_6` writes a reference of index below 5. -/
theorem hostOps0_6_keeps (r : Ref sig .tc) (hr : r.idx.val < 5) :
    (hostOps0_6 : List (HloOp τ sig (Elt F))).Forall fun op => Proc.devRef (τ := τ) .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_6` allocates. -/
theorem hostOps0_6_fresh : (hostOps0_6 : List (HloOp τ sig (Elt F))).Forall fun op => op.fresh = ∅ := by
  simp only [List.Forall]; repeat' constructor
/-- No operation of `hostOps0_7` writes a reference of index below 5. -/
theorem hostOps0_7_keeps (r : Ref sig .tc) (hr : r.idx.val < 5) :
    (hostOps0_7 : List (HloOp τ sig (Elt F))).Forall fun op => Proc.devRef (τ := τ) .tc r ∉ op.writes := by
  simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_7` allocates. -/
theorem hostOps0_7_fresh : (hostOps0_7 : List (HloOp τ sig (Elt F))).Forall fun op => op.fresh = ∅ := by
  simp only [List.Forall]; repeat' constructor
set_option maxHeartbeats 40000000 in
/-- No operation of `hostOps0_8` writes a reference of index below 5. -/
theorem hostOps0_8_keeps (r : Ref sig .tc) (hr : r.idx.val < 5) :
    (hostOps0_8 : List (HloOp τ sig (Elt F))).Forall fun op => Proc.devRef (τ := τ) .tc r ∉ op.writes := by
  simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_8` allocates. -/
theorem hostOps0_8_fresh : (hostOps0_8 : List (HloOp τ sig (Elt F))).Forall fun op => op.fresh = ∅ := by
  simp only [List.Forall]; repeat' constructor
/-- No operation of `hostOps0_9` writes a reference of index below 5. -/
theorem hostOps0_9_keeps (r : Ref sig .tc) (hr : r.idx.val < 5) :
    (hostOps0_9 : List (HloOp τ sig (Elt F))).Forall fun op => Proc.devRef (τ := τ) .tc r ∉ op.writes := by
  simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_9` allocates. -/
theorem hostOps0_9_fresh : (hostOps0_9 : List (HloOp τ sig (Elt F))).Forall fun op => op.fresh = ∅ := by
  simp only [List.Forall]; repeat' constructor
/-- No operation of `hostOps0_10` writes a reference of index below 5. -/
theorem hostOps0_10_keeps (r : Ref sig .tc) (hr : r.idx.val < 5) :
    (hostOps0_10 : List (HloOp τ sig (Elt F))).Forall fun op => Proc.devRef (τ := τ) .tc r ∉ op.writes := by
  simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_10` allocates. -/
theorem hostOps0_10_fresh : (hostOps0_10 : List (HloOp τ sig (Elt F))).Forall fun op => op.fresh = ∅ := by
  simp only [List.Forall]; repeat' constructor
/-- No operation of `hostOps0_11` writes a reference of index below 5. -/
theorem hostOps0_11_keeps (r : Ref sig .tc) (hr : r.idx.val < 5) :
    (hostOps0_11 : List (HloOp τ sig (Elt F))).Forall fun op => Proc.devRef (τ := τ) .tc r ∉ op.writes := by
  simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_11` allocates. -/
theorem hostOps0_11_fresh : (hostOps0_11 : List (HloOp τ sig (Elt F))).Forall fun op => op.fresh = ∅ := by
  simp only [List.Forall]; repeat' constructor
set_option maxHeartbeats 40000000 in
/-- No operation of `hostOps0_12` writes a reference of index below 5. -/
theorem hostOps0_12_keeps (r : Ref sig .tc) (hr : r.idx.val < 5) :
    (hostOps0_12 : List (HloOp τ sig (Elt F))).Forall fun op => Proc.devRef (τ := τ) .tc r ∉ op.writes := by
  simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_12` allocates. -/
theorem hostOps0_12_fresh : (hostOps0_12 : List (HloOp τ sig (Elt F))).Forall fun op => op.fresh = ∅ := by
  simp only [List.Forall]; repeat' constructor
/-- No operation of `hostOps0_13` writes a reference of index below 5. -/
theorem hostOps0_13_keeps (r : Ref sig .tc) (hr : r.idx.val < 5) :
    (hostOps0_13 : List (HloOp τ sig (Elt F))).Forall fun op => Proc.devRef (τ := τ) .tc r ∉ op.writes := by
  simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_13` allocates. -/
theorem hostOps0_13_fresh : (hostOps0_13 : List (HloOp τ sig (Elt F))).Forall fun op => op.fresh = ∅ := by
  simp only [List.Forall]; repeat' constructor
/-- No operation of `hostOps0_14` writes a reference of index below 5. -/
theorem hostOps0_14_keeps (r : Ref sig .tc) (hr : r.idx.val < 5) :
    (hostOps0_14 : List (HloOp τ sig (Elt F))).Forall fun op => Proc.devRef (τ := τ) .tc r ∉ op.writes := by
  simp only [hostOps0_14, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_14` allocates. -/
theorem hostOps0_14_fresh : (hostOps0_14 : List (HloOp τ sig (Elt F))).Forall fun op => op.fresh = ∅ := by
  simp only [List.Forall]; repeat' constructor
/-- No operation of `hostOps0_15` writes a reference of index below 5. -/
theorem hostOps0_15_keeps (r : Ref sig .tc) (hr : r.idx.val < 5) :
    (hostOps0_15 : List (HloOp τ sig (Elt F))).Forall fun op => Proc.devRef (τ := τ) .tc r ∉ op.writes := by
  simp only [hostOps0_15, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_15` allocates. -/
theorem hostOps0_15_fresh : (hostOps0_15 : List (HloOp τ sig (Elt F))).Forall fun op => op.fresh = ∅ := by
  simp only [List.Forall]; repeat' constructor
set_option maxHeartbeats 40000000 in
/-- No operation of `hostOps0_16` writes a reference of index below 5. -/
theorem hostOps0_16_keeps (r : Ref sig .tc) (hr : r.idx.val < 5) :
    (hostOps0_16 : List (HloOp τ sig (Elt F))).Forall fun op => Proc.devRef (τ := τ) .tc r ∉ op.writes := by
  simp only [hostOps0_16, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_16` allocates. -/
theorem hostOps0_16_fresh : (hostOps0_16 : List (HloOp τ sig (Elt F))).Forall fun op => op.fresh = ∅ := by
  simp only [List.Forall]; repeat' constructor
/-- Nor does either closing operation (their results are the references 615 and 616). -/
theorem hostOps1_keeps (r : Ref sig .tc) (hr : r.idx.val < 5) :
    (hostOps1 : List (HloOp τ sig (Elt F))).Forall fun op => Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
theorem hostOps1_fresh : (hostOps1 : List (HloOp τ sig (Elt F))).Forall fun op => op.fresh = ∅ := by
  simp only [List.Forall]; repeat' constructor

/-- The host stretches before the grid, in order. -/
abbrev pre0 : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- No operation before the grid writes a reference of index below 5: stretch by stretch. -/
theorem pre0_keeps (r : Ref sig .tc) (hr : r.idx.val < 5) :
    ∀ op ∈ List.flatten (pre0 (F := F)), Proc.devRef (τ := τ) .tc r ∉ op.writes := by
  intro op hop
  obtain ⟨l, hl, hop⟩ := List.mem_flatten.mp hop
  rcases List.mem_cons.mp hl with rfl | hl
  · exact List.forall_iff_forall_mem.mp (hostOps0_keeps r hr) op hop
  rcases List.mem_cons.mp hl with rfl | hl
  · exact List.forall_iff_forall_mem.mp (hostOps0_1_keeps r hr) op hop
  rcases List.mem_cons.mp hl with rfl | hl
  · exact List.forall_iff_forall_mem.mp (hostOps0_2_keeps r hr) op hop
  rcases List.mem_cons.mp hl with rfl | hl
  · exact List.forall_iff_forall_mem.mp (hostOps0_3_keeps r hr) op hop
  rcases List.mem_cons.mp hl with rfl | hl
  · exact List.forall_iff_forall_mem.mp (hostOps0_4_keeps r hr) op hop
  rcases List.mem_cons.mp hl with rfl | hl
  · exact List.forall_iff_forall_mem.mp (hostOps0_5_keeps r hr) op hop
  rcases List.mem_cons.mp hl with rfl | hl
  · exact List.forall_iff_forall_mem.mp (hostOps0_6_keeps r hr) op hop
  rcases List.mem_cons.mp hl with rfl | hl
  · exact List.forall_iff_forall_mem.mp (hostOps0_7_keeps r hr) op hop
  rcases List.mem_cons.mp hl with rfl | hl
  · exact List.forall_iff_forall_mem.mp (hostOps0_8_keeps r hr) op hop
  rcases List.mem_cons.mp hl with rfl | hl
  · exact List.forall_iff_forall_mem.mp (hostOps0_9_keeps r hr) op hop
  rcases List.mem_cons.mp hl with rfl | hl
  · exact List.forall_iff_forall_mem.mp (hostOps0_10_keeps r hr) op hop
  rcases List.mem_cons.mp hl with rfl | hl
  · exact List.forall_iff_forall_mem.mp (hostOps0_11_keeps r hr) op hop
  rcases List.mem_cons.mp hl with rfl | hl
  · exact List.forall_iff_forall_mem.mp (hostOps0_12_keeps r hr) op hop
  rcases List.mem_cons.mp hl with rfl | hl
  · exact List.forall_iff_forall_mem.mp (hostOps0_13_keeps r hr) op hop
  rcases List.mem_cons.mp hl with rfl | hl
  · exact List.forall_iff_forall_mem.mp (hostOps0_14_keeps r hr) op hop
  rcases List.mem_cons.mp hl with rfl | hl
  · exact List.forall_iff_forall_mem.mp (hostOps0_15_keeps r hr) op hop
  rcases List.mem_cons.mp hl with rfl | hl
  · exact List.forall_iff_forall_mem.mp (hostOps0_16_keeps r hr) op hop
  exact absurd hl List.not_mem_nil

/-! ## @main around the grid -/

/-- @main is the 17 stretches, the grid, then the transpose and the reshape of its result: it reduces to the grid
    continued by those two, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The two closing operations touch unscoped TensorCore buffers only, and with nothing prefetched every such buffer
    is an array of the grid or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the grid: the transpose reads the output array and writes a buffer of its own, the
    reshape reads that and writes the program's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A reference of index below 5 is found by the grid as launched. -/
theorem V_of_idx (c : Dev nD) (b : Ref sig .tc) (hb : b.idx.val < 5) : V m c b = m ((c : Thread nD τ).loc b) :=
  StableHlo.after_of_forall_not_mem (b := Proc.devRef .tc b) _ _ (pre0_keeps b hb)

/-- No host operation before the grid writes `main_arg0`: the grid finds it as launched. -/
theorem V_main_arg0 (c : Dev nD) : V m c main_arg0 = m ((c : Thread nD τ).loc main_arg0) := V_of_idx m c main_arg0 (by decide)
/-- No host operation before the grid writes `main_arg1`: the grid finds it as launched. -/
theorem V_main_arg1 (c : Dev nD) : V m c main_arg1 = m ((c : Thread nD τ).loc main_arg1) := V_of_idx m c main_arg1 (by decide)
/-- No host operation before the grid writes `main_arg2`: the grid finds it as launched. -/
theorem V_main_arg2 (c : Dev nD) : V m c main_arg2 = m ((c : Thread nD τ).loc main_arg2) := V_of_idx m c main_arg2 (by decide)
/-- No host operation before the grid writes `main_arg3`: the grid finds it as launched. -/
theorem V_main_arg3 (c : Dev nD) : V m c main_arg3 = m ((c : Thread nD τ).loc main_arg3) := V_of_idx m c main_arg3 (by decide)
/-- No host operation before the grid writes `main_arg4`: the grid finds it as launched. -/
theorem V_main_arg4 (c : Dev nD) : V m c main_arg4 = m ((c : Thread nD τ).loc main_arg4) := V_of_idx m c main_arg4 (by decide)

/-! ## The windows' blocks -/

/-- Window `w`'s block at point `t`, read off its array as the grid finds it (`V`): for the four value operands a
    1 × 3 × 2000 × 72 slab (one level, three planes, 2000 query rows), for the two weight operands 1 × 3 × 2000 × 1,
    for the output 1 × 2000 × 216. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the window is uncut and
    never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the window is uncut and
    never idle, and where it is not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the window is uncut and
    never idle, and where it is not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the window is uncut and
    never idle, and where it is not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the window is uncut and
    never idle, and where it is not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the window is uncut and
    never idle, and where it is not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the two closing operations a reference of index below 5 that is unscoped and no array of the grid holds what
    it was launched with: neither operation writes it, the grid's exit leaves it at its entry contents, and no operation
    before the grid wrote it. -/
theorem tail_of_idx (dats : (p : Fin 1) → (c : Dev nD) → Dat τ (Elt F) Unit ℕ (UR sig nD τ) ℕ (cfgs p) c) (c : Dev nD)
    (b : Ref sig .tc) (hb : b.idx.val < 5) (ha : ∀ w, Pipeline.arrRef spec0 w ≠ b) :
    Pipeline.afterTail₀ cfgs dats 0 (V0 m) [hostOps1] c b = m ((c : Thread nD τ).loc b) := by
  have h1 : ∀ op ∈ ([hostOps1] : List (List (HloOp τ sig (Elt F)))).flatten, Proc.devRef (τ := τ) .tc b ∉ op.writes := by
    intro op hop
    obtain ⟨l, hl, hop⟩ := List.mem_flatten.mp hop
    rcases List.mem_cons.mp hl with rfl | hl
    · exact List.forall_iff_forall_mem.mp (hostOps1_keeps b hb) op hop
    exact absurd hl List.not_mem_nil
  unfold Pipeline.afterTail₀
  rw [StableHlo.after_of_forall_not_mem _ _ h1, Pipeline.withArrays_of_ne _ c _ _ b ha]
  exact V_of_idx m c b hb

/-- THE FRAME from a frame run: for any proof data whose arrays are the grid-entry contents, a run of @main to the library's frame post — every array of the
    grid at what the proof data compute, every other unscoped buffer as the closing operations leave it — read at the
    five argument arrays, none of which is an array of the grid, is the frame claim's post at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (tail_of_idx m dats c main_arg0 (by decide) (by decide)),
      ((h c).2 main_arg1 (Pipeline.mem_restRefs_of main_arg1 (by decide) (by decide))).trans (tail_of_idx m dats c main_arg1 (by decide) (by decide)),
      ((h c).2 main_arg2 (Pipeline.mem_restRefs_of main_arg2 (by decide) (by decide))).trans (tail_of_idx m dats c main_arg2 (by decide) (by decide)),
      ((h c).2 main_arg3 (Pipeline.mem_restRefs_of main_arg3 (by decide) (by decide))).trans (tail_of_idx m dats c main_arg3 (by decide) (by decide)),
      ((h c).2 main_arg4 (Pipeline.mem_restRefs_of main_arg4 (by decide) (by decide))).trans (tail_of_idx m dats c main_arg4 (by decide) (by decide))⟩) h

/-! ## The body's branch condition -/

/-- The condition of the body's one `scf.if` (the zeroing of the accumulator), from the grid coordinates: the
    second coordinate, as a 32-bit word, compared with 0. -/
abbrev cond0_0 (i : grid0.Coords) : Prop := (Scalar.cmpi .ne (Scalar.extui (Scalar.cmpi .eq (BitVec.ofNat 32 (i 1).val) 0#32)) 0#32) = 1#1
/-- It holds at the points ≡ 0 (mod 4): the second axis has extent 4 and runs fastest. Decided over the 200 points. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## No window is ever idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (the output: the body stores its whole block at every point). -/
theorem liveAt0_6 : ∀ t : Fin cfg0.N, cfg0.idle 6 (grid0.coords t) = false := by decide +kernel

/-! ## The memrefs the body is called with -/

/-- One staging buffer of the output window, through which its contents are stated (the choice does not matter: a
    covering list of pieces reads back the same through any whole view). -/
abbrev VO0_6 : View sig .tc .vmem S1x2000x216 .f32 := (Memref.whole cc0_stg6_0 : Memref sig .tc .vmem S1x2000x216 .f32).view
/-- Each window's current staging memref at point `t`, spelled as the pipeline passes it, and its wholeness. -/
abbrev ms0_0 (t : Fin cfg0.N) : Memref sig .tc .vmem S1x3x2000x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2000x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x2000x72 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x2000x72 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x2000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x2000x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2000x216 .f32 := win0_6.stage (cfg0.slots t 6)
abbrev hs0_6 (t : Fin cfg0.N) : (ms0_6 t).IsWhole := hstage0_6 ((cfg0.slots t 6).cast nbuf0_6)
/-- The scratch operand: a whole scoped buffer of the kernel's own, 2000 × 216, the accumulator of the four levels. -/
abbrev scM0_0 : Memref sig .tc .vmem S2000x216 .f32 := Memref.whole cc0_scratch0
/-- The same as a view: what the accumulator holds between points is stated through it. -/
abbrev VS0_0 : View sig .tc .vmem S2000x216 .f32 := scM0_0.view

/-- The grid's invariant with the scratch operand as a memref owned at some contents: what the body obligation hands
    a run of the body and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/- The frame of the interpolation kernel's program, second part: the body's run in the first of its two control
   cases — a grid point that starts a block of query rows, where the accumulator is zeroed before the three planes
   are added. One case to a module: each elaborates by itself. -/
import proofs.«171827_j17884243821138_1_alg».proof.Proof.K.Runs

-- membership in a rectangle of 2000 rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- CASE A: the points whose second coordinate is 0 (t ≡ 0 mod 4), where a new block of query rows begins and the
    branch is taken. On whole memrefs — the six input blocks at their contents `x0 … x5`, the output's staging buffer and
    the accumulator at anything — the body runs to a continuation holding the inputs as they were, the output's buffer
    with the pieces `L6` written and the accumulator with the pieces `LS0` written: the zero fill of all 2000 × 216
    cells, then over it the three 2000 × 72 column bands [0, 72), [72, 144), [144, 216), band p holding 0 plus level-0
    plane p's interpolated value; and the one store of the whole output block, the accumulator read back after the three
    bands. The pieces are what the run finds (last store first); nothing the body computes is restated here. -/
noncomputable def kernelRun0_A (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) :
    Σ' (L6 : List (View.Piece (Elt F) S1x2000x216 .f32)), { LS0 : List (View.Piece (Elt F) S2000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.RunB.lean ====
/- The frame of the interpolation kernel's program, third part: the body's run in the second of its two control
   cases — a grid point that continues a block of query rows, where the three planes are added to what the accumulator
   already holds. -/
import proofs.«171827_j17884243821138_1_alg».proof.Proof.K.RunA

-- membership in a rectangle of 2000 rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- CASE B: the other points (t ≢ 0 mod 4: levels 1, 2, 3 of the same block of query rows), where the branch is not
    taken. On whole memrefs — the six input blocks at `x0 … x5`, the output's staging buffer at anything, the accumulator at
    what the point before left, `xs0` — the body runs to a continuation holding the inputs as they were, the output's buffer
    with the pieces `L6` written and the accumulator with `LS0` written: the three 2000 × 72 column bands, band p holding
    `xs0`'s band p plus this level's plane p interpolated; they tile the accumulator, so nothing of `xs0` is left beside
    them. The one piece of `L6` is the whole output block, the accumulator read back after the three bands. -/
noncomputable def kernelRun0_B (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) :
    Σ' (L6 : List (View.Piece (Elt F) S1x2000x216 .f32)), { LS0 : List (View.Piece (Elt F) S2000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.FrameDefs.lean ====
/- The frame of the interpolation kernel's program, fourth part: what the two runs of the body leave. The output's
   staging buffer and the accumulator after each case (their pieces cover them: the output block is stored whole, the
   accumulator is tiled by its three column bands, in the first case over the zero fill); what they hold after each
   grid point, by recursion on the point (`outsAt0`: at t ≡ 0 mod 4 the first case, from nothing; elsewhere the
   second, from what the point before left in the accumulator); the grid's invariant (`PhiS`) and its proof data
   (`dats`), with what the body finds and leaves window by window. -/
import proofs.«171827_j17884243821138_1_alg».proof.Proof.K.RunB

-- membership in a rectangle of 2000 rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's one piece for the output window is its whole 1 × 2000 × 216 block, so the pieces cover it. -/
theorem cover0_A_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (y : S1x2000x216.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x2000x216.size (by sl_kernel_rfl) y

/-- What case A leaves in the output's staging buffer: its pieces read back over junk. -/
def out0_A_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) : Vec F S1x2000x216 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- Case A's pieces for the accumulator cover it: the fill of all 2000 × 216 cells (and the three bands over it). -/
theorem scover0_A_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (y : S2000x216.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S2000x72.size (by sl_kernel_rfl) y

/-- What case A leaves in the accumulator: its pieces read back over junk. -/
def sout0_A_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) : Vec F S2000x216 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- Case B's one piece for the output window is its whole 1 × 2000 × 216 block, so the pieces cover it. -/
theorem cover0_B_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) (y : S1x2000x216.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x2000x216.size (by sl_kernel_rfl) y

/-- What case B leaves in the output's staging buffer: its pieces read back over junk. -/
def out0_B_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) : Vec F S1x2000x216 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- Case B's pieces for the accumulator cover it: three bands of 2000 × 72 columns side by side. -/
theorem scover0_B_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) (y : S2000x216.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S2000x72.size (by sl_kernel_rfl) y

/-- What case B leaves in the accumulator: its pieces read back over junk. -/
def sout0_B_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) : Vec F S2000x216 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the output and the accumulator hold after each point -/

/-- THE ACCUMULATION over the four levels. What the output's staging buffer and the accumulator hold after the body at
    position `n` (a pair: the output block, then the accumulator): at a position ≡ 0 mod 4 the first case, run at the
    point's memrefs and input blocks, whatever came before; at any other the second case, run likewise over what this
    very function leaves in the accumulator at `n - 1` (the accumulator is a buffer of the kernel's own: nothing
    touches it between two points). -/
def outsAt0 (c : Dev nD) : (n : ℕ) → n < cfg0.N → Vec F S1x2000x216 .f32 × Vec F S2000x216 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left in the accumulator. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The grid's invariant before position `n`: before the first point the launch's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The grid's proof data -/

/-- The proof data of the grid on core `c`: the arrays as the grid finds them (`V`); after the body at point `t`
    each input's buffer at its block, the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the grid-entry contents: the definition projected, so that `V` — a fold over 570
    operations — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Hand

end
-- ==== Proof.K.Frame.lean ====
/- The frame of the interpolation kernel's program, last part: the body's obligation at every point of the grid
   (`sound_body`: the case's run applied to what the proof data say the body finds), the run of @main (`run_main`),
   the frame claim (`frame`) and the same run with the result buffer named (`run_value`). -/
import proofs.«171827_j17884243821138_1_alg».proof.Proof.K.FrameDefs

-- membership in a rectangle of 2000 rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t`: the invariant, what the core owes (nothing), and each window's current
    staging buffer at what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns: the invariant one position on, and each window's buffer at exactly what the proof data say the
    body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks (`before0_W`); the closed form says which case the
    point is in; that case's run applies: the invariant hands it the accumulator at what the point before left (at
    anything before the first point, and in the first case whatever it holds is simply forgotten), the output's buffer
    goes in at anything; the run hands back the accumulator with pieces that cover it, so it is owned at `outsAt0`'s
    second component, and the output's buffer with its one covering piece, so it is owned at the first. Nothing is
    owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 4 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6 sout0_B_0; (try dsimp only)
    have hz : t.val ≠ 0 := fun e => h0 (by omega)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the accumulator holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the grid at what the library computes from the
    proof data and every other unscoped buffer as the transpose and the reshape leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.Kernel.Hand.run_main' depends on axioms: [propext, Classical.choice, Quot.sound] -/
#guard_msgs in #print axioms run_main

/-- THE FRAME of the program at any `F`: it runs, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE RUN with the result named: besides the five arguments as launched, the program's result buffer (the reshape's)
    ends at what the transpose and the reshape compute from the grid's exit contents — the output array at what the
    proof data write back point by point, everything else as the grid found it. -/
theorem run_value : θ_run defs (onTc (τ := τ) (main (F := F))) ⟨m, fun _ => 0, ρ⟩ (fun r => ∀ c : Dev nD,
      r.2.mem ((c.tc : Thread nD τ).loc main_v439) = Pipeline.afterTail₀ cfgs (dats m) 0 (V0 m) [hostOps1] c main_v439
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v439 (Pipeline.mem_restRefs_of main_v439 (by decide) (by decide)),
      ((h c).2 main_arg0 (Pipeline.mem_restRefs_of main_arg0 (by decide) (by decide))).trans (tail_of_idx m (dats m) c main_arg0 (by decide) (by decide)),
      ((h c).2 main_arg1 (Pipeline.mem_restRefs_of main_arg1 (by decide) (by decide))).trans (tail_of_idx m (dats m) c main_arg1 (by decide) (by decide)),
      ((h c).2 main_arg2 (Pipeline.mem_restRefs_of main_arg2 (by decide) (by decide))).trans (tail_of_idx m (dats m) c main_arg2 (by decide) (by decide)),
      ((h c).2 main_arg3 (Pipeline.mem_restRefs_of main_arg3 (by decide) (by decide))).trans (tail_of_idx m (dats m) c main_arg3 (by decide) (by decide)),
      ((h c).2 main_arg4 (Pipeline.mem_restRefs_of main_arg4 (by decide) (by decide))).trans (tail_of_idx m (dats m) c main_arg4 (by decide) (by decide))⟩) (run_main m ρ)

end Cert.Kernel.Hand

end
-- ==== Proof.KI.Entry.lean ====
import proofs.«171827_j17884243821138_1_alg».proof.Proof.Gen.KernelIdeal.Launch
import Idealize.ShloMosaic.Lib.StableHlo.Run

/-! What core `c`'s buffers hold when the pallas_call is entered: the launch memory after the 570 host operations
    that precede it (the point normalization, the three coordinate pairs, and per scale the clamped sampling
    coordinates, their floors and fractional parts, and the four gathered corners), folded in program order. -/

noncomputable section

namespace Cert.KernelIdeal.Hand

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ)

/-- Core `c`'s TensorCore buffer contents when the region is entered, as a valuation. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))

/-- The same read at a TensorCore reference. -/
abbrev V (c : Dev nD) (b : Ref sig .tc) : Buf (Elt F) ((c : Thread nD τ).loc b) := V0 m c (Proc.devRef .tc b)

end Cert.KernelIdeal.Hand

end
-- ==== Proof.KI.Runs.lean ====
/- The frame of the interpolation kernel's program, first part: what the two control cases of the body and the
   rest of the frame argument are stated over. The program is 570 host operations that gather and lay out six
   operand arrays, ONE grid of 50 × 4 points over them, then a transpose and a reshape of the result. Here:
   that the five argument arrays are still as launched when the grid is entered (at the contents `V0`, `V` of
   the module before this one); @main reduced to the grid continued by the two closing operations (`hmain`); each window's
   block at a point (`iblk`); the frame claim from a run of the grid (`frame_of`); the body's one branch
   condition in closed form (`hcond0_0`: taken exactly at the points whose second coordinate is 0, that is at
   t ≡ 0 mod 4); that no window is ever idle; and the staging and scratch memrefs the body is called with. -/
import proofs.«171827_j17884243821138_1_alg».proof.Proof.KI.Entry
import proofs.«171827_j17884243821138_1_alg».proof.Proof.Gen.KernelIdeal.Launch
import proofs.«171827_j17884243821138_1_alg».proof.Proof.Gen.KernelIdeal.Skeleton
import proofs.«171827_j17884243821138_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 2000 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the grid write no argument array

Every host operation writes one buffer, its own result, and no result is one of the five arguments: the arguments are
the HBM references of index below 5, every result has a larger index. -/

/-- A reference of index below 5 and one of index at least 5 are different device buffers. -/
theorem devRef_ne_of_idx {r y : Ref sig .tc} (hr : r.idx.val < 5) (hy : ¬ y.idx.val < 5) :
    Proc.devRef (τ := τ) .tc r ≠ Proc.devRef .tc y :=
  fun e => hy (Proc.devRef_injective _ e ▸ hr)

set_option maxHeartbeats 40000000 in
/-- No operation of `hostOps0` writes a reference of index below 5. -/
theorem hostOps0_keeps (r : Ref sig .tc) (hr : r.idx.val < 5) :
    (hostOps0 : List (HloOp τ sig (Elt F))).Forall fun op => Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0` allocates. -/
theorem hostOps0_fresh : (hostOps0 : List (HloOp τ sig (Elt F))).Forall fun op => op.fresh = ∅ := by
  simp only [List.Forall]; repeat' constructor
/-- No operation of `hostOps0_1` writes a reference of index below 5. -/
theorem hostOps0_1_keeps (r : Ref sig .tc) (hr : r.idx.val < 5) :
    (hostOps0_1 : List (HloOp τ sig (Elt F))).Forall fun op => Proc.devRef (τ := τ) .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_1` allocates. -/
theorem hostOps0_1_fresh : (hostOps0_1 : List (HloOp τ sig (Elt F))).Forall fun op => op.fresh = ∅ := by
  simp only [List.Forall]; repeat' constructor
/-- No operation of `hostOps0_2` writes a reference of index below 5. -/
theorem hostOps0_2_keeps (r : Ref sig .tc) (hr : r.idx.val < 5) :
    (hostOps0_2 : List (HloOp τ sig (Elt F))).Forall fun op => Proc.devRef (τ := τ) .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_2` allocates. -/
theorem hostOps0_2_fresh : (hostOps0_2 : List (HloOp τ sig (Elt F))).Forall fun op => op.fresh = ∅ := by
  simp only [List.Forall]; repeat' constructor
/-- No operation of `hostOps0_3` writes a reference of index below 5. -/
theorem hostOps0_3_keeps (r : Ref sig .tc) (hr : r.idx.val < 5) :
    (hostOps0_3 : List (HloOp τ sig (Elt F))).Forall fun op => Proc.devRef (τ := τ) .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_3` allocates. -/
theorem hostOps0_3_fresh : (hostOps0_3 : List (HloOp τ sig (Elt F))).Forall fun op => op.fresh = ∅ := by
  simp only [List.Forall]; repeat' constructor
set_option maxHeartbeats 40000000 in
/-- No operation of `hostOps0_4` writes a reference of index below 5. -/
theorem hostOps0_4_keeps (r : Ref sig .tc) (hr : r.idx.val < 5) :
    (hostOps0_4 : List (HloOp τ sig (Elt F))).Forall fun op => Proc.devRef (τ := τ) .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_4` allocates. -/
theorem hostOps0_4_fresh : (hostOps0_4 : List (HloOp τ sig (Elt F))).Forall fun op => op.fresh = ∅ := by
  simp only [List.Forall]; repeat' constructor
/-- No operation of `hostOps0_5` writes a reference of index below 5. -/
theorem hostOps0_5_keeps (r : Ref sig .tc) (hr : r.idx.val < 5) :
    (hostOps0_5 : List (HloOp τ sig (Elt F))).Forall fun op => Proc.devRef (τ := τ) .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_5` allocates. -/
theorem hostOps0_5_fresh : (hostOps0_5 : List (HloOp τ sig (Elt F))).Forall fun op => op.fresh = ∅ := by
  simp only [List.Forall]; repeat' constructor
/-- No operation of `hostOps0_6` writes a reference of index below 5. -/
theorem hostOps0_6_keeps (r : Ref sig .tc) (hr : r.idx.val < 5) :
    (hostOps0_6 : List (HloOp τ sig (Elt F))).Forall fun op => Proc.devRef (τ := τ) .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_6` allocates. -/
theorem hostOps0_6_fresh : (hostOps0_6 : List (HloOp τ sig (Elt F))).Forall fun op => op.fresh = ∅ := by
  simp only [List.Forall]; repeat' constructor
/-- No operation of `hostOps0_7` writes a reference of index below 5. -/
theorem hostOps0_7_keeps (r : Ref sig .tc) (hr : r.idx.val < 5) :
    (hostOps0_7 : List (HloOp τ sig (Elt F))).Forall fun op => Proc.devRef (τ := τ) .tc r ∉ op.writes := by
  simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_7` allocates. -/
theorem hostOps0_7_fresh : (hostOps0_7 : List (HloOp τ sig (Elt F))).Forall fun op => op.fresh = ∅ := by
  simp only [List.Forall]; repeat' constructor
set_option maxHeartbeats 40000000 in
/-- No operation of `hostOps0_8` writes a reference of index below 5. -/
theorem hostOps0_8_keeps (r : Ref sig .tc) (hr : r.idx.val < 5) :
    (hostOps0_8 : List (HloOp τ sig (Elt F))).Forall fun op => Proc.devRef (τ := τ) .tc r ∉ op.writes := by
  simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_8` allocates. -/
theorem hostOps0_8_fresh : (hostOps0_8 : List (HloOp τ sig (Elt F))).Forall fun op => op.fresh = ∅ := by
  simp only [List.Forall]; repeat' constructor
/-- No operation of `hostOps0_9` writes a reference of index below 5. -/
theorem hostOps0_9_keeps (r : Ref sig .tc) (hr : r.idx.val < 5) :
    (hostOps0_9 : List (HloOp τ sig (Elt F))).Forall fun op => Proc.devRef (τ := τ) .tc r ∉ op.writes := by
  simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_9` allocates. -/
theorem hostOps0_9_fresh : (hostOps0_9 : List (HloOp τ sig (Elt F))).Forall fun op => op.fresh = ∅ := by
  simp only [List.Forall]; repeat' constructor
/-- No operation of `hostOps0_10` writes a reference of index below 5. -/
theorem hostOps0_10_keeps (r : Ref sig .tc) (hr : r.idx.val < 5) :
    (hostOps0_10 : List (HloOp τ sig (Elt F))).Forall fun op => Proc.devRef (τ := τ) .tc r ∉ op.writes := by
  simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_10` allocates. -/
theorem hostOps0_10_fresh : (hostOps0_10 : List (HloOp τ sig (Elt F))).Forall fun op => op.fresh = ∅ := by
  simp only [List.Forall]; repeat' constructor
/-- No operation of `hostOps0_11` writes a reference of index below 5. -/
theorem hostOps0_11_keeps (r : Ref sig .tc) (hr : r.idx.val < 5) :
    (hostOps0_11 : List (HloOp τ sig (Elt F))).Forall fun op => Proc.devRef (τ := τ) .tc r ∉ op.writes := by
  simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_11` allocates. -/
theorem hostOps0_11_fresh : (hostOps0_11 : List (HloOp τ sig (Elt F))).Forall fun op => op.fresh = ∅ := by
  simp only [List.Forall]; repeat' constructor
set_option maxHeartbeats 40000000 in
/-- No operation of `hostOps0_12` writes a reference of index below 5. -/
theorem hostOps0_12_keeps (r : Ref sig .tc) (hr : r.idx.val < 5) :
    (hostOps0_12 : List (HloOp τ sig (Elt F))).Forall fun op => Proc.devRef (τ := τ) .tc r ∉ op.writes := by
  simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_12` allocates. -/
theorem hostOps0_12_fresh : (hostOps0_12 : List (HloOp τ sig (Elt F))).Forall fun op => op.fresh = ∅ := by
  simp only [List.Forall]; repeat' constructor
/-- No operation of `hostOps0_13` writes a reference of index below 5. -/
theorem hostOps0_13_keeps (r : Ref sig .tc) (hr : r.idx.val < 5) :
    (hostOps0_13 : List (HloOp τ sig (Elt F))).Forall fun op => Proc.devRef (τ := τ) .tc r ∉ op.writes := by
  simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_13` allocates. -/
theorem hostOps0_13_fresh : (hostOps0_13 : List (HloOp τ sig (Elt F))).Forall fun op => op.fresh = ∅ := by
  simp only [List.Forall]; repeat' constructor
/-- No operation of `hostOps0_14` writes a reference of index below 5. -/
theorem hostOps0_14_keeps (r : Ref sig .tc) (hr : r.idx.val < 5) :
    (hostOps0_14 : List (HloOp τ sig (Elt F))).Forall fun op => Proc.devRef (τ := τ) .tc r ∉ op.writes := by
  simp only [hostOps0_14, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_14` allocates. -/
theorem hostOps0_14_fresh : (hostOps0_14 : List (HloOp τ sig (Elt F))).Forall fun op => op.fresh = ∅ := by
  simp only [List.Forall]; repeat' constructor
/-- No operation of `hostOps0_15` writes a reference of index below 5. -/
theorem hostOps0_15_keeps (r : Ref sig .tc) (hr : r.idx.val < 5) :
    (hostOps0_15 : List (HloOp τ sig (Elt F))).Forall fun op => Proc.devRef (τ := τ) .tc r ∉ op.writes := by
  simp only [hostOps0_15, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
/-- No operation of `hostOps0_15` allocates. -/
theorem hostOps0_15_fresh : (hostOps0_15 : List (HloOp τ sig (Elt F))).Forall fun op => op.fresh = ∅ := by
  simp only [List.Forall]; repeat' constructor
set_option maxHeartbeats 40000000 in
/-- No operation of `hostOps0_16` writes a reference of index below 5. -/
theorem hostOps0_16_keeps (r : Ref sig .tc) (hr : r.idx.val < 5) :
    (hostOps0_16 : List (HloOp τ sig (Elt F))).Forall fun op => Proc.devRef (τ := τ) .tc r ∉ op.writes := by
  simp only [hostOps0_16, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
set_option maxHeartbeats 40000000 in
/-- No operation of `hostOps0_16` allocates. -/
theorem hostOps0_16_fresh : (hostOps0_16 : List (HloOp τ sig (Elt F))).Forall fun op => op.fresh = ∅ := by
  simp only [List.Forall]; repeat' constructor
/-- Nor does either closing operation (their results are the references 615 and 616). -/
theorem hostOps1_keeps (r : Ref sig .tc) (hr : r.idx.val < 5) :
    (hostOps1 : List (HloOp τ sig (Elt F))).Forall fun op => Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact devRef_ne_of_idx hr (by decide)
theorem hostOps1_fresh : (hostOps1 : List (HloOp τ sig (Elt F))).Forall fun op => op.fresh = ∅ := by
  simp only [List.Forall]; repeat' constructor

/-- The host stretches before the grid, in order. -/
abbrev pre0 : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- No operation before the grid writes a reference of index below 5: stretch by stretch. -/
theorem pre0_keeps (r : Ref sig .tc) (hr : r.idx.val < 5) :
    ∀ op ∈ List.flatten (pre0 (F := F)), Proc.devRef (τ := τ) .tc r ∉ op.writes := by
  intro op hop
  obtain ⟨l, hl, hop⟩ := List.mem_flatten.mp hop
  rcases List.mem_cons.mp hl with rfl | hl
  · exact List.forall_iff_forall_mem.mp (hostOps0_keeps r hr) op hop
  rcases List.mem_cons.mp hl with rfl | hl
  · exact List.forall_iff_forall_mem.mp (hostOps0_1_keeps r hr) op hop
  rcases List.mem_cons.mp hl with rfl | hl
  · exact List.forall_iff_forall_mem.mp (hostOps0_2_keeps r hr) op hop
  rcases List.mem_cons.mp hl with rfl | hl
  · exact List.forall_iff_forall_mem.mp (hostOps0_3_keeps r hr) op hop
  rcases List.mem_cons.mp hl with rfl | hl
  · exact List.forall_iff_forall_mem.mp (hostOps0_4_keeps r hr) op hop
  rcases List.mem_cons.mp hl with rfl | hl
  · exact List.forall_iff_forall_mem.mp (hostOps0_5_keeps r hr) op hop
  rcases List.mem_cons.mp hl with rfl | hl
  · exact List.forall_iff_forall_mem.mp (hostOps0_6_keeps r hr) op hop
  rcases List.mem_cons.mp hl with rfl | hl
  · exact List.forall_iff_forall_mem.mp (hostOps0_7_keeps r hr) op hop
  rcases List.mem_cons.mp hl with rfl | hl
  · exact List.forall_iff_forall_mem.mp (hostOps0_8_keeps r hr) op hop
  rcases List.mem_cons.mp hl with rfl | hl
  · exact List.forall_iff_forall_mem.mp (hostOps0_9_keeps r hr) op hop
  rcases List.mem_cons.mp hl with rfl | hl
  · exact List.forall_iff_forall_mem.mp (hostOps0_10_keeps r hr) op hop
  rcases List.mem_cons.mp hl with rfl | hl
  · exact List.forall_iff_forall_mem.mp (hostOps0_11_keeps r hr) op hop
  rcases List.mem_cons.mp hl with rfl | hl
  · exact List.forall_iff_forall_mem.mp (hostOps0_12_keeps r hr) op hop
  rcases List.mem_cons.mp hl with rfl | hl
  · exact List.forall_iff_forall_mem.mp (hostOps0_13_keeps r hr) op hop
  rcases List.mem_cons.mp hl with rfl | hl
  · exact List.forall_iff_forall_mem.mp (hostOps0_14_keeps r hr) op hop
  rcases List.mem_cons.mp hl with rfl | hl
  · exact List.forall_iff_forall_mem.mp (hostOps0_15_keeps r hr) op hop
  rcases List.mem_cons.mp hl with rfl | hl
  · exact List.forall_iff_forall_mem.mp (hostOps0_16_keeps r hr) op hop
  exact absurd hl List.not_mem_nil

/-! ## @main around the grid -/

/-- @main is the 17 stretches, the grid, then the transpose and the reshape of its result: it reduces to the grid
    continued by those two, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The two closing operations touch unscoped TensorCore buffers only, and with nothing prefetched every such buffer
    is an array of the grid or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the grid: the transpose reads the output array and writes a buffer of its own, the
    reshape reads that and writes the program's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A reference of index below 5 is found by the grid as launched. -/
theorem V_of_idx (c : Dev nD) (b : Ref sig .tc) (hb : b.idx.val < 5) : V m c b = m ((c : Thread nD τ).loc b) :=
  StableHlo.after_of_forall_not_mem (b := Proc.devRef .tc b) _ _ (pre0_keeps b hb)

/-- No host operation before the grid writes `main_arg0`: the grid finds it as launched. -/
theorem V_main_arg0 (c : Dev nD) : V m c main_arg0 = m ((c : Thread nD τ).loc main_arg0) := V_of_idx m c main_arg0 (by decide)
/-- No host operation before the grid writes `main_arg1`: the grid finds it as launched. -/
theorem V_main_arg1 (c : Dev nD) : V m c main_arg1 = m ((c : Thread nD τ).loc main_arg1) := V_of_idx m c main_arg1 (by decide)
/-- No host operation before the grid writes `main_arg2`: the grid finds it as launched. -/
theorem V_main_arg2 (c : Dev nD) : V m c main_arg2 = m ((c : Thread nD τ).loc main_arg2) := V_of_idx m c main_arg2 (by decide)
/-- No host operation before the grid writes `main_arg3`: the grid finds it as launched. -/
theorem V_main_arg3 (c : Dev nD) : V m c main_arg3 = m ((c : Thread nD τ).loc main_arg3) := V_of_idx m c main_arg3 (by decide)
/-- No host operation before the grid writes `main_arg4`: the grid finds it as launched. -/
theorem V_main_arg4 (c : Dev nD) : V m c main_arg4 = m ((c : Thread nD τ).loc main_arg4) := V_of_idx m c main_arg4 (by decide)

/-! ## The windows' blocks -/

/-- Window `w`'s block at point `t`, read off its array as the grid finds it (`V`): for the four value operands a
    1 × 3 × 2000 × 72 slab (one level, three planes, 2000 query rows), for the two weight operands 1 × 3 × 2000 × 1,
    for the output 1 × 2000 × 216. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the window is uncut and
    never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the window is uncut and
    never idle, and where it is not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the window is uncut and
    never idle, and where it is not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the window is uncut and
    never idle, and where it is not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the window is uncut and
    never idle, and where it is not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the window is uncut and
    never idle, and where it is not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the two closing operations a reference of index below 5 that is unscoped and no array of the grid holds what
    it was launched with: neither operation writes it, the grid's exit leaves it at its entry contents, and no operation
    before the grid wrote it. -/
theorem tail_of_idx (dats : (p : Fin 1) → (c : Dev nD) → Dat τ (Elt F) Unit ℕ (UR sig nD τ) ℕ (cfgs p) c) (c : Dev nD)
    (b : Ref sig .tc) (hb : b.idx.val < 5) (ha : ∀ w, Pipeline.arrRef spec0 w ≠ b) :
    Pipeline.afterTail₀ cfgs dats 0 (V0 m) [hostOps1] c b = m ((c : Thread nD τ).loc b) := by
  have h1 : ∀ op ∈ ([hostOps1] : List (List (HloOp τ sig (Elt F)))).flatten, Proc.devRef (τ := τ) .tc b ∉ op.writes := by
    intro op hop
    obtain ⟨l, hl, hop⟩ := List.mem_flatten.mp hop
    rcases List.mem_cons.mp hl with rfl | hl
    · exact List.forall_iff_forall_mem.mp (hostOps1_keeps b hb) op hop
    exact absurd hl List.not_mem_nil
  unfold Pipeline.afterTail₀
  rw [StableHlo.after_of_forall_not_mem _ _ h1, Pipeline.withArrays_of_ne _ c _ _ b ha]
  exact V_of_idx m c b hb

/-- THE FRAME from a frame run: for any proof data whose arrays are the grid-entry contents, a run of @main to the library's frame post — every array of the
    grid at what the proof data compute, every other unscoped buffer as the closing operations leave it — read at the
    five argument arrays, none of which is an array of the grid, is the frame claim's post at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (tail_of_idx m dats c main_arg0 (by decide) (by decide)),
      ((h c).2 main_arg1 (Pipeline.mem_restRefs_of main_arg1 (by decide) (by decide))).trans (tail_of_idx m dats c main_arg1 (by decide) (by decide)),
      ((h c).2 main_arg2 (Pipeline.mem_restRefs_of main_arg2 (by decide) (by decide))).trans (tail_of_idx m dats c main_arg2 (by decide) (by decide)),
      ((h c).2 main_arg3 (Pipeline.mem_restRefs_of main_arg3 (by decide) (by decide))).trans (tail_of_idx m dats c main_arg3 (by decide) (by decide)),
      ((h c).2 main_arg4 (Pipeline.mem_restRefs_of main_arg4 (by decide) (by decide))).trans (tail_of_idx m dats c main_arg4 (by decide) (by decide))⟩) h

/-! ## The body's branch condition -/

/-- The condition of the body's one `scf.if` (the zeroing of the accumulator), from the grid coordinates: the
    second coordinate, as a 32-bit word, compared with 0. -/
abbrev cond0_0 (i : grid0.Coords) : Prop := (Scalar.cmpi .ne (Scalar.extui (Scalar.cmpi .eq (BitVec.ofNat 32 (i 1).val) 0#32)) 0#32) = 1#1
/-- It holds at the points ≡ 0 (mod 4): the second axis has extent 4 and runs fastest. Decided over the 200 points. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## No window is ever idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (the output: the body stores its whole block at every point). -/
theorem liveAt0_6 : ∀ t : Fin cfg0.N, cfg0.idle 6 (grid0.coords t) = false := by decide +kernel

/-! ## The memrefs the body is called with -/

/-- One staging buffer of the output window, through which its contents are stated (the choice does not matter: a
    covering list of pieces reads back the same through any whole view). -/
abbrev VO0_6 : View sig .tc .vmem S1x2000x216 .f32 := (Memref.whole cc0_stg6_0 : Memref sig .tc .vmem S1x2000x216 .f32).view
/-- Each window's current staging memref at point `t`, spelled as the pipeline passes it, and its wholeness. -/
abbrev ms0_0 (t : Fin cfg0.N) : Memref sig .tc .vmem S1x3x2000x72 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2000x72 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x2000x72 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x2000x72 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x2000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x2000x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2000x216 .f32 := win0_6.stage (cfg0.slots t 6)
abbrev hs0_6 (t : Fin cfg0.N) : (ms0_6 t).IsWhole := hstage0_6 ((cfg0.slots t 6).cast nbuf0_6)
/-- The scratch operand: a whole scoped buffer of the kernel's own, 2000 × 216, the accumulator of the four levels. -/
abbrev scM0_0 : Memref sig .tc .vmem S2000x216 .f32 := Memref.whole cc0_scratch0
/-- The same as a view: what the accumulator holds between points is stated through it. -/
abbrev VS0_0 : View sig .tc .vmem S2000x216 .f32 := scM0_0.view

/-- The grid's invariant with the scratch operand as a memref owned at some contents: what the body obligation hands
    a run of the body and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/- The frame of the interpolation kernel's program, second part: the body's run in the first of its two control
   cases — a grid point that starts a block of query rows, where the accumulator is zeroed before the three planes
   are added. One case to a module: each elaborates by itself. -/
import proofs.«171827_j17884243821138_1_alg».proof.Proof.KI.Runs

-- membership in a rectangle of 2000 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- CASE A: the points whose second coordinate is 0 (t ≡ 0 mod 4), where a new block of query rows begins and the
    branch is taken. On whole memrefs — the six input blocks at their contents `x0 … x5`, the output's staging buffer and
    the accumulator at anything — the body runs to a continuation holding the inputs as they were, the output's buffer
    with the pieces `L6` written and the accumulator with the pieces `LS0` written: the zero fill of all 2000 × 216
    cells, then over it the three 2000 × 72 column bands [0, 72), [72, 144), [144, 216), band p holding 0 plus level-0
    plane p's interpolated value; and the one store of the whole output block, the accumulator read back after the three
    bands. The pieces are what the run finds (last store first); nothing the body computes is restated here. -/
noncomputable def kernelRun0_A (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) :
    Σ' (L6 : List (View.Piece (Elt F) S1x2000x216 .f32)), { LS0 : List (View.Piece (Elt F) S2000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.RunB.lean ====
/- The frame of the interpolation kernel's program, third part: the body's run in the second of its two control
   cases — a grid point that continues a block of query rows, where the three planes are added to what the accumulator
   already holds. -/
import proofs.«171827_j17884243821138_1_alg».proof.Proof.KI.RunA

-- membership in a rectangle of 2000 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- CASE B: the other points (t ≢ 0 mod 4: levels 1, 2, 3 of the same block of query rows), where the branch is not
    taken. On whole memrefs — the six input blocks at `x0 … x5`, the output's staging buffer at anything, the accumulator at
    what the point before left, `xs0` — the body runs to a continuation holding the inputs as they were, the output's buffer
    with the pieces `L6` written and the accumulator with `LS0` written: the three 2000 × 72 column bands, band p holding
    `xs0`'s band p plus this level's plane p interpolated; they tile the accumulator, so nothing of `xs0` is left beside
    them. The one piece of `L6` is the whole output block, the accumulator read back after the three bands. -/
noncomputable def kernelRun0_B (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) :
    Σ' (L6 : List (View.Piece (Elt F) S1x2000x216 .f32)), { LS0 : List (View.Piece (Elt F) S2000x216 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__tri_kernel i arg2 harg2 arg3 harg3 arg4 harg4 arg5 harg5 arg6 harg6 arg7 harg7 arg8 harg8 arg9 harg9) K } := by
  refine ⟨?_, ?_, fun E K => ?run⟩
  case run =>
    simp only [cc0__tri_kernel_eq_skeleton]; unfold cc0__tri_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.FrameDefs.lean ====
/- The frame of the interpolation kernel's program, fourth part: what the two runs of the body leave. The output's
   staging buffer and the accumulator after each case (their pieces cover them: the output block is stored whole, the
   accumulator is tiled by its three column bands, in the first case over the zero fill); what they hold after each
   grid point, by recursion on the point (`outsAt0`: at t ≡ 0 mod 4 the first case, from nothing; elsewhere the
   second, from what the point before left in the accumulator); the grid's invariant (`PhiS`) and its proof data
   (`dats`), with what the body finds and leaves window by window. -/
import proofs.«171827_j17884243821138_1_alg».proof.Proof.KI.RunB

-- membership in a rectangle of 2000 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's one piece for the output window is its whole 1 × 2000 × 216 block, so the pieces cover it. -/
theorem cover0_A_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (y : S1x2000x216.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x2000x216.size (by sl_kernel_rfl) y

/-- What case A leaves in the output's staging buffer: its pieces read back over junk. -/
def out0_A_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) : Vec F S1x2000x216 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

/-- Case A's pieces for the accumulator cover it: the fill of all 2000 × 216 cells (and the three bands over it). -/
theorem scover0_A_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (y : S2000x216.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S2000x72.size (by sl_kernel_rfl) y

/-- What case A leaves in the accumulator: its pieces read back over junk. -/
def sout0_A_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) : Vec F S2000x216 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4 x5).2.1)

/-- Case B's one piece for the output window is its whole 1 × 2000 × 216 block, so the pieces cover it. -/
theorem cover0_B_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) (y : S1x2000x216.Idx) :
    ∃ pc ∈ (kernelRun0_B c i arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).1 S1x2000x216.size (by sl_kernel_rfl) y

/-- What case B leaves in the output's staging buffer: its pieces read back over junk. -/
def out0_B_6 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) : Vec F S1x2000x216 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xs0).1)

/-- Case B's pieces for the accumulator cover it: three bands of 2000 × 72 columns side by side. -/
theorem scover0_B_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) (y : S2000x216.Idx) :
    ∃ pc ∈ (kernelRun0_B c i arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xs0).2.1 S2000x72.size (by sl_kernel_rfl) y

/-- What case B leaves in the accumulator: its pieces read back over junk. -/
def sout0_B_0 (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec F S1x3x2000x72 .f32) (x1 : Vec F S1x3x2000x72 .f32) (x2 : Vec F S1x3x2000x72 .f32) (x3 : Vec F S1x3x2000x72 .f32) (x4 : Vec F S1x3x2000x1 .f32) (x5 : Vec F S1x3x2000x1 .f32) (xs0 : Vec F S2000x216 .f32) : Vec F S2000x216 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 x2 x3 x4 x5 xs0).2.1)

/-! ## What the output and the accumulator hold after each point -/

/-- THE ACCUMULATION over the four levels. What the output's staging buffer and the accumulator hold after the body at
    position `n` (a pair: the output block, then the accumulator): at a position ≡ 0 mod 4 the first case, run at the
    point's memrefs and input blocks, whatever came before; at any other the second case, run likewise over what this
    very function leaves in the accumulator at `n - 1` (the accumulator is a buffer of the kernel's own: nothing
    touches it between two points). -/
def outsAt0 (c : Dev nD) : (n : ℕ) → n < cfg0.N → Vec F S1x2000x216 .f32 × Vec F S2000x216 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left in the accumulator. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The grid's invariant before position `n`: before the first point the launch's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The grid's proof data -/

/-- The proof data of the grid on core `c`: the arrays as the grid finds them (`V`); after the body at point `t`
    each input's buffer at its block, the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the grid-entry contents: the definition projected, so that `V` — a fold over 570
    operations — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KI.Frame.lean ====
/- The frame of the interpolation kernel's program, last part: the body's obligation at every point of the grid
   (`sound_body`: the case's run applied to what the proof data say the body finds), the run of @main (`run_main`),
   the frame claim (`frame`) and the same run with the result buffer named (`run_value`). -/
import proofs.«171827_j17884243821138_1_alg».proof.Proof.KI.FrameDefs

-- membership in a rectangle of 2000 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t`: the invariant, what the core owes (nothing), and each window's current
    staging buffer at what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns: the invariant one position on, and each window's buffer at exactly what the proof data say the
    body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks (`before0_W`); the closed form says which case the
    point is in; that case's run applies: the invariant hands it the accumulator at what the point before left (at
    anything before the first point, and in the first case whatever it holds is simply forgotten), the output's buffer
    goes in at anything; the run hands back the accumulator with pieces that cover it, so it is owned at `outsAt0`'s
    second component, and the output's buffer with its one covering piece, so it is owned at the first. Nothing is
    owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 4 = 0
  · rw [outsAt0_A m c t h0]
    unfold out0_A_6 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · rw [outsAt0_B m c t h0]
    unfold out0_B_6 sout0_B_0; (try dsimp only)
    have hz : t.val ≠ 0 := fun e => h0 (by omega)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the accumulator holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the grid at what the library computes from the
    proof data and every other unscoped buffer as the transpose and the reshape leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.Hand.run_main' depends on axioms: [propext, Classical.choice, Quot.sound] -/
#guard_msgs in #print axioms run_main

/-- THE FRAME of the program at any `F`: it runs, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE RUN with the result named: besides the five arguments as launched, the program's result buffer (the reshape's)
    ends at what the transpose and the reshape compute from the grid's exit contents — the output array at what the
    proof data write back point by point, everything else as the grid found it. -/
theorem run_value : θ_run defs (onTc (τ := τ) (main (F := F))) ⟨m, fun _ => 0, ρ⟩ (fun r => ∀ c : Dev nD,
      r.2.mem ((c.tc : Thread nD τ).loc main_v439) = Pipeline.afterTail₀ cfgs (dats m) 0 (V0 m) [hostOps1] c main_v439
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v439 (Pipeline.mem_restRefs_of main_v439 (by decide) (by decide)),
      ((h c).2 main_arg0 (Pipeline.mem_restRefs_of main_arg0 (by decide) (by decide))).trans (tail_of_idx m (dats m) c main_arg0 (by decide) (by decide)),
      ((h c).2 main_arg1 (Pipeline.mem_restRefs_of main_arg1 (by decide) (by decide))).trans (tail_of_idx m (dats m) c main_arg1 (by decide) (by decide)),
      ((h c).2 main_arg2 (Pipeline.mem_restRefs_of main_arg2 (by decide) (by decide))).trans (tail_of_idx m (dats m) c main_arg2 (by decide) (by decide)),
      ((h c).2 main_arg3 (Pipeline.mem_restRefs_of main_arg3 (by decide) (by decide))).trans (tail_of_idx m (dats m) c main_arg3 (by decide) (by decide)),
      ((h c).2 main_arg4 (Pipeline.mem_restRefs_of main_arg4 (by decide) (by decide))).trans (tail_of_idx m (dats m) c main_arg4 (by decide) (by decide))⟩) (run_main m ρ)

end Cert.KernelIdeal.Hand

end
-- ==== Proof.Ref.Lemmas.lean ====
import Idealize.ShloMosaic.Lib.StableHlo.Run

/-! General facts about a straight line of host operations cut into consecutive stretches: the
    fold of a concatenation is the folds composed, a property of every operation holds of a
    concatenation when it holds of both parts, and an operation whose one result buffer is on a
    list of references writes inside that list. -/

namespace Cert.ReferenceIdeal.Hand

open Idealize.ShloMosaic Idealize.SL.Sem Idealize.ShloMosaic.StableHlo

variable {τ : Topo} {sig : RefSig} {Val : EltTy → Type}

/-- Running `l₁ ++ l₂` from `V` is running `l₂` from where `l₁` ends. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every element of both lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The set `{y}` of one reference on the list `W` lies inside `W`'s references as device buffers. -/
theorem wr_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A reference outside a list holding every result buffer of the line keeps its contents. -/
theorem keeps_of_wr {W : List (Ref sig .tc)} {ops : List (HloOp τ sig Val)}
    (hW : ops.Forall fun op => op.writes ⊆ (W.map (Proc.devRef (τ := τ) .tc)).toFinset)
    {r : Ref sig .tc} (hr : r ∉ W) (V : Valuation τ sig Val) :
    after ops V (Proc.devRef .tc r) = V (Proc.devRef .tc r) :=
  after_of_writes_sub ops V hW hr

end Cert.ReferenceIdeal.Hand
-- ==== Proof.Ref.Run.lean ====
import proofs.«171827_j17884243821138_1_alg».proof.Proof.Ref.Ops

/-! The run of the reference program. Its @main is a straight line of host operations (the lists of
    Ref/Ops.lean, one per printed window), so from any memory with zero counters every weakly fair execution
    terminates with each TensorCore buffer at the fold of the operations' results over its launch contents.
    The fold of the whole line is the windows' folds composed, which gives the staged contents `W0 … W11`
    (the buffers after each window); a reference on no window's list of written references keeps its launch
    contents through the whole line, and the five arguments are such references: the frame. -/

-- the signature's 692 references enumerated, and membership decided over the 687 written ones
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## The whole line's side conditions, from the windows' -/

/-- Every operation of @main touches TensorCore references only. -/
theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub ops10_sub)))))))))

/-- No operation of @main allocates a buffer. -/
theorem ops_fresh : (ops : List (HloOp τ sig (Elt F))).Forall fun op => op.fresh = ∅ :=
  forall_append ops0_fresh (forall_append ops1_fresh (forall_append ops2_fresh (forall_append ops3_fresh (forall_append ops4_fresh (forall_append ops5_fresh (forall_append ops6_fresh (forall_append ops7_fresh (forall_append ops8_fresh (forall_append ops9_fresh ops10_fresh)))))))))

/-- The fold of the whole line is the windows' folds, one after the other. -/
theorem after_ops_eq (V : Valuation τ sig (Elt F)) :
    after ops V = after ops10 (after ops9 (after ops8 (after ops7 (after ops6 (after ops5 (after ops4 (after ops3 (after ops2 (after ops1 (after ops0 V)))))))))) := by
  simp only [ops, after_append]

/-! ## The run -/

/-- At the compiled mesh, for any float values, from any memory with zero counters: every weakly fair execution of
    @main terminates, and every final state has each TensorCore buffer at the operations' fold over its launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What a window leaves alone

A reference not on a window's list of written references has, after the window, what it had before. -/

theorem ops0_keeps {r : Ref sig .tc} (hr : r ∉ wr0) (V : Valuation τ sig (Elt F)) :
    after ops0 V (Proc.devRef .tc r) = V (Proc.devRef .tc r) := keeps_of_wr ops0_wr hr V
theorem ops1_keeps {r : Ref sig .tc} (hr : r ∉ wr1) (V : Valuation τ sig (Elt F)) :
    after ops1 V (Proc.devRef .tc r) = V (Proc.devRef .tc r) := keeps_of_wr ops1_wr hr V
theorem ops2_keeps {r : Ref sig .tc} (hr : r ∉ wr2) (V : Valuation τ sig (Elt F)) :
    after ops2 V (Proc.devRef .tc r) = V (Proc.devRef .tc r) := keeps_of_wr ops2_wr hr V
theorem ops3_keeps {r : Ref sig .tc} (hr : r ∉ wr3) (V : Valuation τ sig (Elt F)) :
    after ops3 V (Proc.devRef .tc r) = V (Proc.devRef .tc r) := keeps_of_wr ops3_wr hr V
theorem ops4_keeps {r : Ref sig .tc} (hr : r ∉ wr4) (V : Valuation τ sig (Elt F)) :
    after ops4 V (Proc.devRef .tc r) = V (Proc.devRef .tc r) := keeps_of_wr ops4_wr hr V
theorem ops5_keeps {r : Ref sig .tc} (hr : r ∉ wr5) (V : Valuation τ sig (Elt F)) :
    after ops5 V (Proc.devRef .tc r) = V (Proc.devRef .tc r) := keeps_of_wr ops5_wr hr V
theorem ops6_keeps {r : Ref sig .tc} (hr : r ∉ wr6) (V : Valuation τ sig (Elt F)) :
    after ops6 V (Proc.devRef .tc r) = V (Proc.devRef .tc r) := keeps_of_wr ops6_wr hr V
theorem ops7_keeps {r : Ref sig .tc} (hr : r ∉ wr7) (V : Valuation τ sig (Elt F)) :
    after ops7 V (Proc.devRef .tc r) = V (Proc.devRef .tc r) := keeps_of_wr ops7_wr hr V
theorem ops8_keeps {r : Ref sig .tc} (hr : r ∉ wr8) (V : Valuation τ sig (Elt F)) :
    after ops8 V (Proc.devRef .tc r) = V (Proc.devRef .tc r) := keeps_of_wr ops8_wr hr V
theorem ops9_keeps {r : Ref sig .tc} (hr : r ∉ wr9) (V : Valuation τ sig (Elt F)) :
    after ops9 V (Proc.devRef .tc r) = V (Proc.devRef .tc r) := keeps_of_wr ops9_wr hr V
theorem ops10_keeps {r : Ref sig .tc} (hr : r ∉ wr10) (V : Valuation τ sig (Elt F)) :
    after ops10 V (Proc.devRef .tc r) = V (Proc.devRef .tc r) := keeps_of_wr ops10_wr hr V

/-- A reference no operation of @main writes keeps its contents through the whole line. -/
theorem ops_keeps {r : Ref sig .tc} (hr : r ∉ wr) (V : Valuation τ sig (Elt F)) :
    after ops V (Proc.devRef .tc r) = V (Proc.devRef .tc r) := by
  simp only [wr, List.mem_append, not_or] at hr
  obtain ⟨h0, h1, h2, h3, h4, h5, h6, h7, h8, h9, h10⟩ := hr
  rw [after_ops_eq, ops10_keeps h10, ops9_keeps h9, ops8_keeps h8, ops7_keeps h7, ops6_keeps h6, ops5_keeps h5,
    ops4_keeps h4, ops3_keeps h3, ops2_keeps h2, ops1_keeps h1, ops0_keeps h0]

/-! ## The arguments end as launched -/

/-- No operation writes `main_arg0`: it ends as launched. -/
theorem kept_arg0 (m : (ℓ : Loc nD τ sig) → Buf (Elt F) ℓ) (c : Dev nD) :
    after ops (launchContents m c) (Proc.devRef .tc main_arg0) = m ((c.tc : Thread nD τ).loc main_arg0) :=
  ops_keeps (by decide) _
/-- No operation writes `main_arg1`: it ends as launched. -/
theorem kept_arg1 (m : (ℓ : Loc nD τ sig) → Buf (Elt F) ℓ) (c : Dev nD) :
    after ops (launchContents m c) (Proc.devRef .tc main_arg1) = m ((c.tc : Thread nD τ).loc main_arg1) :=
  ops_keeps (by decide) _
/-- No operation writes `main_arg2`: it ends as launched. -/
theorem kept_arg2 (m : (ℓ : Loc nD τ sig) → Buf (Elt F) ℓ) (c : Dev nD) :
    after ops (launchContents m c) (Proc.devRef .tc main_arg2) = m ((c.tc : Thread nD τ).loc main_arg2) :=
  ops_keeps (by decide) _
/-- No operation writes `main_arg3`: it ends as launched. -/
theorem kept_arg3 (m : (ℓ : Loc nD τ sig) → Buf (Elt F) ℓ) (c : Dev nD) :
    after ops (launchContents m c) (Proc.devRef .tc main_arg3) = m ((c.tc : Thread nD τ).loc main_arg3) :=
  ops_keeps (by decide) _
/-- No operation writes `main_arg4`: it ends as launched. -/
theorem kept_arg4 (m : (ℓ : Loc nD τ sig) → Buf (Elt F) ℓ) (c : Dev nD) :
    after ops (launchContents m c) (Proc.devRef .tc main_arg4) = m ((c.tc : Thread nD τ).loc main_arg4) :=
  ops_keeps (by decide) _

/-- The reference runs (terminates, no fault) and its five argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (kept_arg0 m c), (h c main_arg1).trans (kept_arg1 m c),
      (h c main_arg2).trans (kept_arg2 m c), (h c main_arg3).trans (kept_arg3 m c), (h c main_arg4).trans (kept_arg4 m c)⟩)
    (run m ρ)

/-! ## The staged contents

`W0` is what the launch deals the device, `W(J+1)` what window `J` leaves from `WJ`: a buffer window `J` writes is read
at `W(J+1)` over `opsJ` alone, and carried to the end by the later windows' `opsK_keeps`. -/

/-- The buffers at launch. -/
abbrev W0 (m : (ℓ : Loc nD τ sig) → Buf (Elt F) ℓ) (c : Dev nD) : Valuation τ sig (Elt F) := launchContents m c
/-- The buffers after windows 0 … 0. -/
abbrev W1 (m : (ℓ : Loc nD τ sig) → Buf (Elt F) ℓ) (c : Dev nD) : Valuation τ sig (Elt F) := after ops0 (W0 m c)
/-- The buffers after windows 0 … 1. -/
abbrev W2 (m : (ℓ : Loc nD τ sig) → Buf (Elt F) ℓ) (c : Dev nD) : Valuation τ sig (Elt F) := after ops1 (W1 m c)
/-- The buffers after windows 0 … 2. -/
abbrev W3 (m : (ℓ : Loc nD τ sig) → Buf (Elt F) ℓ) (c : Dev nD) : Valuation τ sig (Elt F) := after ops2 (W2 m c)
/-- The buffers after windows 0 … 3. -/
abbrev W4 (m : (ℓ : Loc nD τ sig) → Buf (Elt F) ℓ) (c : Dev nD) : Valuation τ sig (Elt F) := after ops3 (W3 m c)
/-- The buffers after windows 0 … 4. -/
abbrev W5 (m : (ℓ : Loc nD τ sig) → Buf (Elt F) ℓ) (c : Dev nD) : Valuation τ sig (Elt F) := after ops4 (W4 m c)
/-- The buffers after windows 0 … 5. -/
abbrev W6 (m : (ℓ : Loc nD τ sig) → Buf (Elt F) ℓ) (c : Dev nD) : Valuation τ sig (Elt F) := after ops5 (W5 m c)
/-- The buffers after windows 0 … 6. -/
abbrev W7 (m : (ℓ : Loc nD τ sig) → Buf (Elt F) ℓ) (c : Dev nD) : Valuation τ sig (Elt F) := after ops6 (W6 m c)
/-- The buffers after windows 0 … 7. -/
abbrev W8 (m : (ℓ : Loc nD τ sig) → Buf (Elt F) ℓ) (c : Dev nD) : Valuation τ sig (Elt F) := after ops7 (W7 m c)
/-- The buffers after windows 0 … 8. -/
abbrev W9 (m : (ℓ : Loc nD τ sig) → Buf (Elt F) ℓ) (c : Dev nD) : Valuation τ sig (Elt F) := after ops8 (W8 m c)
/-- The buffers after windows 0 … 9. -/
abbrev W10 (m : (ℓ : Loc nD τ sig) → Buf (Elt F) ℓ) (c : Dev nD) : Valuation τ sig (Elt F) := after ops9 (W9 m c)
/-- The buffers after windows 0 … 10. -/
abbrev W11 (m : (ℓ : Loc nD τ sig) → Buf (Elt F) ℓ) (c : Dev nD) : Valuation τ sig (Elt F) := after ops10 (W10 m c)

/-- The whole line from the launch contents ends at the last stage. -/
theorem after_ops_launch (m : (ℓ : Loc nD τ sig) → Buf (Elt F) ℓ) (c : Dev nD) :
    after ops (launchContents m c) = W11 m c := after_ops_eq _

/-- What @main's run leaves in any buffer, as the last stage. -/
theorem run_W (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = W11 m c (Proc.devRef .tc b) :=
  (θ_run defs _ _).mono (fun _ h c b => (h c b).trans (congrFun (after_ops_launch m c) _)) (run m ρ)

end Cert.ReferenceIdeal.Hand

end
-- ==== Proof.Spec.lean ====
import Idealize.ShloMosaic.PureOps.Ideal
import Idealize.ShloMosaic.PureOps.Ideal.Laws
import Idealize.ShloMosaic.Lib.ValueIdx

/-! The mathematics shared by the two programs, over the extended reals.

Both programs sample three feature planes of four grids bilinearly at 100000 points and add the samples up
scale after scale: a point `n`, a plane `p` and a channel `c` have at scale `s` the sample
`blend` of the four corner values and the two fractional weights; the result's column `216 s + 72 p + c` of row
`n` is the sum of the samples of scales `0 … s`. The kernel adds them from zero upwards, the reference adds each
new scale in front of the previous total; addition of extended reals is commutative and associative, so the two
sums agree. -/

noncomputable section

namespace Cert.Triplane

open Idealize.ShloMosaic

/-- The float word of 1.0 read as an extended real (never evaluated: the same word stands on both sides). -/
abbrev one : EReal := Ideal.ofBits .f32 0x3F800000#32
/-- The float word of +0.0 read as an extended real: zero. -/
abbrev zero : EReal := Ideal.ofBits .f32 0x00000000#32

theorem zero_eq : zero = 0 := Ideal.ofBits_zero_f32

/-- Bilinear interpolation of four corner values: along x with weight `wx` on each of the two rows, then along y
    with weight `wy` between the rows. -/
def blend (a b c d wx wy : EReal) : EReal :=
  (a * (one - wx) + b * wx) * (one - wy) + (c * (one - wx) + d * wx) * wy

section Sums

variable (v00 v01 v10 v11 : Fin 4 → Fin 3 → Fin 100000 → Fin 72 → EReal) (wx wy : Fin 4 → Fin 3 → Fin 100000 → EReal)

/-- The sample of scale `s`, plane `p`, point `n`, channel `c`. -/
def samp (s : Fin 4) (p : Fin 3) (n : Fin 100000) (c : Fin 72) : EReal :=
  blend (v00 s p n c) (v01 s p n c) (v10 s p n c) (v11 s p n c) (wx s p n) (wy s p n)

/-- The running sum as the kernel forms it: from zero, one scale after the other added behind. -/
def accK : (s : ℕ) → s < 4 → Fin 3 → Fin 100000 → Fin 72 → EReal
  | 0, h, p, n, c => zero + samp v00 v01 v10 v11 wx wy ⟨0, h⟩ p n c
  | s + 1, h, p, n, c => accK s (Nat.lt_of_succ_lt h) p n c + samp v00 v01 v10 v11 wx wy ⟨s + 1, h⟩ p n c

/-- The cumulative sum as the reference forms it: each scale's sample in front of the previous total. -/
def prevR : (s : ℕ) → s < 4 → Fin 3 → Fin 100000 → Fin 72 → EReal
  | 0, h, p, n, c => samp v00 v01 v10 v11 wx wy ⟨0, h⟩ p n c
  | s + 1, h, p, n, c => samp v00 v01 v10 v11 wx wy ⟨s + 1, h⟩ p n c + prevR s (Nat.lt_of_succ_lt h) p n c

/-- The two orders of summation agree: zero is neutral and addition commutes. -/
theorem accK_eq_prevR (s : ℕ) (h : s < 4) (p : Fin 3) (n : Fin 100000) (c : Fin 72) :
    accK v00 v01 v10 v11 wx wy s h p n c = prevR v00 v01 v10 v11 wx wy s h p n c := by
  induction s with
  | zero => simp only [accK, prevR, zero_eq, zero_add]
  | succ s ih => simp only [accK, prevR, ih (Nat.lt_of_succ_lt h)]; exact add_comm _ _

/-- Column `k` of the result splits as scale `k / 216`, plane `k % 216 / 72`, channel `k % 72`. -/
theorem col_scale (k : Fin 864) : k.val / 216 < 4 := by omega
theorem col_plane (k : Fin 864) : k.val % 216 / 72 < 3 := by omega
theorem col_chan (k : Fin 864) : k.val % 72 < 72 := by omega

/-- The result at row `n`, column `k`, in the kernel's order of summation. -/
def resK (n : Fin 100000) (k : Fin 864) : EReal :=
  accK v00 v01 v10 v11 wx wy (k.val / 216) (col_scale k) ⟨k.val % 216 / 72, col_plane k⟩ n ⟨k.val % 72, col_chan k⟩

/-- The result at row `n`, column `k`, in the reference's order of summation. -/
def resR (n : Fin 100000) (k : Fin 864) : EReal :=
  prevR v00 v01 v10 v11 wx wy (k.val / 216) (col_scale k) ⟨k.val % 216 / 72, col_plane k⟩ n ⟨k.val % 72, col_chan k⟩

theorem resK_eq_resR (n : Fin 100000) (k : Fin 864) :
    resK v00 v01 v10 v11 wx wy n k = resR v00 v01 v10 v11 wx wy n k :=
  accK_eq_prevR v00 v01 v10 v11 wx wy _ _ _ _ _

end Sums

end Cert.Triplane

end
-- ==== Proof.Val.Payload.lean ====
import proofs.«171827_j17884243821138_1_alg».proof.Proof.Gen.KernelIdeal.Skeleton
import proofs.«171827_j17884243821138_1_alg».proof.Proof.Spec
import Idealize.ShloMosaic.Lib.ValueIdx
import Idealize.ShloMosaic.Lib.Pipeline.Value
import Idealize.ShloMosaic.Lib.ValueLayout

/-! The values the body stores, read at one row `r` and one channel `q` over the extended reals.

For each plane the body adds to the running total of that plane's 72 columns the bilinear blend of the four
corner rows, the two weights being one column each, repeated along the channels. Here each stored value is
read at `(r, q)` as `cur (r, q) + blend …` of the loaded blocks' entries at `(0, 0, r, q)` and of the weights'
entries at `(0, 0, r, 0)`; the reset stores zero everywhere, and the final copy only adds a leading unit axis. -/

noncomputable section

namespace Cert.KernelIdeal.Hand

open Cert.KernelIdeal Cert.KernelIdeal.Gen Idealize.ShloMosaic Idealize.ShloMosaic.ValueIdx

section Casts

variable {α : Type}

/-- A `[1, 1, a, b]` array viewed as `[a, b]` reads, at `(i, j)`, the operand at `(0, 0, i, j)`: the same
    row-major position. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, 1]` column repeated along `b` channels reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Casts

/-- A corner block's plane, viewed as rows by channels, at `(r, q)`. -/
theorem corner_apply {α : Type} (x : S1x1x2000x72.Idx → α) (r : Fin 2000) (q : Fin 72) :
    shapeCast S2000x72 x shapeCasts_S1x1x2000x72_S2000x72 (ix2 r q) = x (ix4 (0 : Fin 1) (0 : Fin 1) r q) :=
  shapeCast_11ab_ab_apply x _ r q

/-- A weight block's plane, viewed as one column, at row `r`. -/
theorem weight_apply {α : Type} (w : S1x1x2000x1.Idx → α) (r : Fin 2000) :
    shapeCast S2000x1 w shapeCasts_S1x1x2000x1_S2000x1 (ix2 r (0 : Fin 1)) = w (ix4 (0 : Fin 1) (0 : Fin 1) r (0 : Fin 1)) :=
  shapeCast_11ab_ab_apply w _ r 0

/-- A column repeated along the 72 channels, at `(r, q)`. -/
theorem spread_apply {α : Type} (v : S2000x1.Idx → α) (r : Fin 2000) (q : Fin 72) :
    broadcastTo S2000x72 v broadcasts_S2000x1_S2000x72 (ix2 r q) = v (ix2 r (0 : Fin 1)) :=
  broadcastTo_a1_ab_apply v _ r q

/-- The reset stores zero at every entry. -/
theorem pay3_apply (r : Fin 2000) (j : Fin 216) : k0_pay3 (F := Ideal) (ix2 r j) = Cert.Triplane.zero := by
  unfold k0_pay3
  exact congrFun (shapeCast_self _ _) _

/-- The final copy adds a leading unit axis and keeps every entry. -/
theorem pay2_apply (v : Vec Ideal S2000x216 .f32) (r : Fin 2000) (j : Fin 216) :
    k0_pay2 (F := Ideal) v (ix3 (0 : Fin 1) r j) = v (ix2 r j) := by
  unfold k0_pay2
  exact shapeCast_ab_1ab_apply v _ 0 r j

/-- Plane 0: the stored value at `(r, q)` is the running total plus the blend of the four corners. -/
theorem pay8_apply (x0 x1 x2 x3 : Vec Ideal S1x1x2000x72 .f32) (w4 w5 : Vec Ideal S1x1x2000x1 .f32)
    (cur : Vec Ideal S2000x72 .f32) (r : Fin 2000) (q : Fin 72) :
    k0_pay8 (F := Ideal) (k0_pay5 w5) (k0_pay6 x0 x1 w4) (k0_pay7 x2 x3 w4) cur (ix2 r q)
      = cur (ix2 r q) + Cert.Triplane.blend (x0 (ix4 (0 : Fin 1) (0 : Fin 1) r q)) (x1 (ix4 (0 : Fin 1) (0 : Fin 1) r q))
          (x2 (ix4 (0 : Fin 1) (0 : Fin 1) r q)) (x3 (ix4 (0 : Fin 1) (0 : Fin 1) r q))
          (w4 (ix4 (0 : Fin 1) (0 : Fin 1) r (0 : Fin 1))) (w5 (ix4 (0 : Fin 1) (0 : Fin 1) r (0 : Fin 1))) := by
  simp only [k0_pay8, k0_pay5, k0_pay6, k0_pay7, k0_pay4, shapeCast_self, addf_apply, mulf_apply, subf_apply,
    broadcast_apply, spread_apply, corner_apply, weight_apply]
  rfl

/-- Plane 1: the same, the pieces arriving through the second part's values. -/
theorem pay16_apply (x0 x1 x2 x3 : Vec Ideal S1x1x2000x72 .f32) (w4 w5 : Vec Ideal S1x1x2000x1 .f32)
    (cur : Vec Ideal S2000x72 .f32) (r : Fin 2000) (q : Fin 72) :
    k0_pay16 (F := Ideal) (k0_pay9 x1) (k0_pay10 x2) (k0_pay11 x3) (k0_pay12 w4) (k0_pay13 w5) (k0_pay14 x0 w4)
        (k0_pay15 w4) cur (ix2 r q)
      = cur (ix2 r q) + Cert.Triplane.blend (x0 (ix4 (0 : Fin 1) (0 : Fin 1) r q)) (x1 (ix4 (0 : Fin 1) (0 : Fin 1) r q))
          (x2 (ix4 (0 : Fin 1) (0 : Fin 1) r q)) (x3 (ix4 (0 : Fin 1) (0 : Fin 1) r q))
          (w4 (ix4 (0 : Fin 1) (0 : Fin 1) r (0 : Fin 1))) (w5 (ix4 (0 : Fin 1) (0 : Fin 1) r (0 : Fin 1))) := by
  simp only [k0_pay16, k0_pay9, k0_pay10, k0_pay11, k0_pay12, k0_pay13, k0_pay14, k0_pay15, shapeCast_self, addf_apply,
    mulf_apply, subf_apply, broadcast_apply, spread_apply, corner_apply, weight_apply]
  rfl

/-- Plane 2: the same, the pieces arriving through the third part's values. -/
theorem pay1_apply (x0 x1 x2 x3 : Vec Ideal S1x1x2000x72 .f32) (w4 w5 : Vec Ideal S1x1x2000x1 .f32)
    (cur : Vec Ideal S2000x72 .f32) (r : Fin 2000) (q : Fin 72) :
    k0_pay1 (F := Ideal) (k0_pay17 x0) (k0_pay18 x1) (k0_pay19 x2) (k0_pay20 x3) (k0_pay21 w4) w5 cur (ix2 r q)
      = cur (ix2 r q) + Cert.Triplane.blend (x0 (ix4 (0 : Fin 1) (0 : Fin 1) r q)) (x1 (ix4 (0 : Fin 1) (0 : Fin 1) r q))
          (x2 (ix4 (0 : Fin 1) (0 : Fin 1) r q)) (x3 (ix4 (0 : Fin 1) (0 : Fin 1) r q))
          (w4 (ix4 (0 : Fin 1) (0 : Fin 1) r (0 : Fin 1))) (w5 (ix4 (0 : Fin 1) (0 : Fin 1) r (0 : Fin 1))) := by
  simp only [k0_pay1, k0_pay17, k0_pay18, k0_pay19, k0_pay20, k0_pay21, shapeCast_self, addf_apply, mulf_apply,
    subf_apply, broadcast_apply, spread_apply, corner_apply, weight_apply]
  rfl

end Cert.KernelIdeal.Hand

end
-- ==== Proof.Val.Bands.lean ====
import proofs.«171827_j17884243821138_1_alg».proof.Proof.Val.Payload
import Idealize.ShloMosaic.Lib.Pipeline.Value
import Idealize.ShloMosaic.Lib.Pipeline.Frame

/-! The accumulator as three bands of 72 columns. The body stores into the 2000 × 216 accumulator through three
    rectangles of 2000 × 72 cells at column offsets 0, 72 and 144, the later stores first in the list; they are
    disjoint, so a cell of band `p` reads the payload of band `p`'s store, whatever was stored before. A fill of
    the whole accumulator with zero, read back anywhere outside the bands stored after it, is zero. A load of a
    plane of an input block reads the block at that plane. -/

noncomputable section

namespace Cert.KernelIdeal.Hand

open Cert.KernelIdeal Cert.KernelIdeal.Gen Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The blend of equal arguments. -/
theorem blend_congr {a b c d e f a' b' c' d' e' f' : EReal} (ha : a = a') (hb : b = b') (hc : c = c') (hd : d = d')
    (he : e = e') (hf : f = f') : Cert.Triplane.blend a b c d e f = Cert.Triplane.blend a' b' c' d' e' f' := by
  subst ha hb hc hd he hf; rfl

/-- The reset's value at any cell. -/
theorem pay3_at (y : S2000x216.Idx) : k0_pay3 (F := Ideal) y = Cert.Triplane.zero := by
  unfold k0_pay3
  exact congrFun (shapeCast_self _ _) _

/-- A store of the accumulator. -/
abbrev Pc : Type := View.Piece (Elt Ideal) S2000x216 .f32

/-- Cell `(r, q)` of the band at column offset `off` is cell `(r, off + q)` of the accumulator. -/
theorem band_emb (off : ℕ) (inb : ∀ a, (![0, off] : Fin 2 → Nat) a + S2000x72.size a ≤ S2000x216.size a)
    (r : Fin 2000) (q : Fin 72) (h : off + q.val < 216) :
    (Rect.unit (s := S2000x216) ![0, off] S2000x72.size inb).emb (ix2 r q) = ix2 r (⟨off + q.val, h⟩ : Fin 216) := by
  funext a
  apply Fin.ext
  match a with
  | ⟨0, _⟩ => show 0 + 1 * r.val = r.val; omega
  | ⟨1, _⟩ => show off + 1 * q.val = off + q.val; omega

/-- A cell whose column is outside `[off, off + 72)` is not in that band. -/
theorem band_not_mem (off : ℕ) (inb : ∀ a, (![0, off] : Fin 2 → Nat) a + S2000x72.size a ≤ S2000x216.size a)
    (r : Fin 2000) (j : Fin 216) (h : j.val < off ∨ off + 72 ≤ j.val) :
    ix2 r j ∉ (Rect.unit (s := S2000x216) ![0, off] S2000x72.size inb).set := by
  rw [Rect.mem_set_unit]
  intro hm
  have h1 : off ≤ j.val ∧ j.val < off + 72 := hm (1 : Fin 2)
  omega

/-- The store of the band at column offset `off`. -/
abbrev bandPc (off : ℕ) (inb : ∀ a, (![0, off] : Fin 2 → Nat) a + S2000x72.size a ≤ S2000x216.size a)
    (w : Vec Ideal S2000x72 .f32) : Pc := ⟨Rect.unit ![0, off] S2000x72.size inb, w⟩

/-- The zero fill of the whole accumulator. -/
abbrev fillPc (iz : ∀ a, (![0, 0] : Fin 2 → Nat) a + S2000x216.size a ≤ S2000x216.size a) : Pc :=
  ⟨Rect.unit ![0, 0] S2000x216.size iz, k0_pay3 (F := Ideal)⟩

/-- Outside a band, the band's store does not matter. -/
theorem canon_skip (off : ℕ) (inb : ∀ a, (![0, off] : Fin 2 → Nat) a + S2000x72.size a ≤ S2000x216.size a)
    (w : Vec Ideal S2000x72 .f32) (L : List Pc) (r : Fin 2000) (j : Fin 216) (h : j.val < off ∨ off + 72 ≤ j.val) :
    View.canon (bandPc off inb w :: L) (ix2 r j) = View.canon L (ix2 r j) :=
  View.canon_cons_of_not_mem (bandPc off inb w) L (band_not_mem off inb r j h)

/-- Inside a band stored last, the cell reads the band's payload. -/
theorem canon_hit (off : ℕ) (inb : ∀ a, (![0, off] : Fin 2 → Nat) a + S2000x72.size a ≤ S2000x216.size a)
    (w : Vec Ideal S2000x72 .f32) (L : List Pc) (r : Fin 2000) (q : Fin 72) (h : off + q.val < 216) :
    View.canon (bandPc off inb w :: L) (ix2 r (⟨off + q.val, h⟩ : Fin 216)) = w (ix2 r q) :=
  (congrArg (View.canon (bandPc off inb w :: L)) (band_emb off inb r q h).symm).trans
    (View.canon_cons_emb (Rect.unit (s := S2000x216) ![0, off] S2000x72.size inb) w L (ix2 r q))

section Canon

variable (i2 : ∀ a, (![0, 144] : Fin 2 → Nat) a + S2000x72.size a ≤ S2000x216.size a)
  (i1 : ∀ a, (![0, 72] : Fin 2 → Nat) a + S2000x72.size a ≤ S2000x216.size a)
  (i0 : ∀ a, (![0, 0] : Fin 2 → Nat) a + S2000x72.size a ≤ S2000x216.size a)
  (iz : ∀ a, (![0, 0] : Fin 2 → Nat) a + S2000x216.size a ≤ S2000x216.size a)
  (w2 w1 w0 : Vec Ideal S2000x72 .f32) (L' : List Pc) (r : Fin 2000) (q : Fin 72)

/-- Band 0 under the three stores. -/
theorem canon_band0 (h : 0 + q.val < 216) :
    View.canon (bandPc 144 i2 w2 :: bandPc 72 i1 w1 :: bandPc 0 i0 w0 :: L') (ix2 r (⟨0 + q.val, h⟩ : Fin 216))
      = w0 (ix2 r q) :=
  (canon_skip 144 i2 w2 _ r _ (Or.inl (by show 0 + q.val < 144; omega))).trans
    ((canon_skip 72 i1 w1 _ r _ (Or.inl (by show 0 + q.val < 72; omega))).trans (canon_hit 0 i0 w0 L' r q h))

/-- Band 1 under the three stores. -/
theorem canon_band1 (h : 72 + q.val < 216) :
    View.canon (bandPc 144 i2 w2 :: bandPc 72 i1 w1 :: bandPc 0 i0 w0 :: L') (ix2 r (⟨72 + q.val, h⟩ : Fin 216))
      = w1 (ix2 r q) :=
  (canon_skip 144 i2 w2 _ r _ (Or.inl (by show 72 + q.val < 144; omega))).trans (canon_hit 72 i1 w1 _ r q h)

/-- Band 2 under the three stores. -/
theorem canon_band2 (h : 144 + q.val < 216) :
    View.canon (bandPc 144 i2 w2 :: bandPc 72 i1 w1 :: bandPc 0 i0 w0 :: L') (ix2 r (⟨144 + q.val, h⟩ : Fin 216))
      = w2 (ix2 r q) :=
  canon_hit 144 i2 w2 _ r q h

/-- The zero fill, stored last, reads zero everywhere. -/
theorem canon_fill (y : S2000x216.Idx) : View.canon (fillPc iz :: L') y = Cert.Triplane.zero := by
  rw [View.canon_cons_unit_zero (S := S2000x216) hz2]
  exact pay3_at y

/-- After band 0 was stored over the fill, the columns from 72 on still read zero. -/
theorem canon_fill1 (j : Fin 216) (hj : 72 ≤ j.val) :
    View.canon [bandPc 0 i0 w0, fillPc iz] (ix2 r j) = Cert.Triplane.zero :=
  (canon_skip 0 i0 w0 _ r j (Or.inr (by omega))).trans (canon_fill iz [] _)

/-- After bands 0 and 1 were stored over the fill, the columns from 144 on still read zero. -/
theorem canon_fill2 (j : Fin 216) (hj : 144 ≤ j.val) :
    View.canon [bandPc 72 i1 w1, bandPc 0 i0 w0, fillPc iz] (ix2 r j) = Cert.Triplane.zero :=
  (canon_skip 72 i1 w1 _ r j (Or.inr (by omega))).trans (canon_fill1 i0 iz w0 r j (by omega))

end Canon

/-- A load of the band at column offset `off` after the stores `L` reads what they left in that band. -/
theorem readCov_band {sig' : RefSig} {κ : Kind} {sp : Space} (v : View sig' κ sp S2000x216 .f32) (L : List Pc) (off : ℕ)
    (inb : ∀ a, (![0, off] : Fin 2 → Nat) a + S2000x72.size a ≤ S2000x216.size a) (r : Fin 2000) (q : Fin 72)
    (h : off + q.val < 216) :
    v.readCov L (Rect.unit (s := S2000x216) ![0, off] S2000x72.size inb).toLoadRect (ix2 r q)
      = View.canon L (ix2 r (⟨off + q.val, h⟩ : Fin 216)) := by
  rw [View.readCov_eq_canon']
  exact congrArg (View.canon L) (band_emb off inb r q h)

/-- A load of the whole accumulator after the stores `L` reads what they left. -/
theorem readCov_whole {sig' : RefSig} {κ : Kind} {sp : Space} (v : View sig' κ sp S2000x216 .f32) (L : List Pc)
    (iz : ∀ a, (![0, 0] : Fin 2 → Nat) a + S2000x216.size a ≤ S2000x216.size a) (y : S2000x216.Idx) :
    v.readCov L (Rect.unit (s := S2000x216) ![0, 0] S2000x216.size iz).toLoadRect y = View.canon L y := by
  rw [View.readCov_eq_canon']
  refine congrArg (View.canon L) (funext fun a => Fin.ext ?_)
  match a with
  | ⟨0, _⟩ => show 0 + 1 * (y 0).val = (y 0).val; omega
  | ⟨1, _⟩ => show 0 + 1 * (y 1).val = (y 1).val; omega

/-- A load of plane `k` of a corner block reads the block at that plane. -/
theorem load_corner (a : Memref sig .tc .vmem S1x3x2000x72 .f32) (h : a.IsWhole) (x : Vec Ideal S1x3x2000x72 .f32)
    (k : ℕ) (hk : k < 3) (inb : ∀ b, (![0, k, 0, 0] : Fin 4 → Nat) b + S1x1x2000x72.size b ≤ S1x3x2000x72.size b)
    (r : Fin 2000) (q : Fin 72) :
    View.readAt (Elt Ideal) a.view (Rect.unit (s := S1x3x2000x72) ![0, k, 0, 0] S1x1x2000x72.size inb).toLoadRect (h.unread x)
        (ix4 (0 : Fin 1) (0 : Fin 1) r q)
      = x (ix4 (0 : Fin 1) (⟨k, hk⟩ : Fin 3) r q) := by
  rw [View.readAt_apply, h.read_unread]
  refine congrArg x (funext fun b => Fin.ext ?_)
  match b with
  | ⟨0, _⟩ => rfl
  | ⟨1, _⟩ => show k + 1 * 0 = k; omega
  | ⟨2, _⟩ => show 0 + 1 * r.val = r.val; omega
  | ⟨3, _⟩ => show 0 + 1 * q.val = q.val; omega

/-- A load of plane `k` of a weight block reads the block at that plane. -/
theorem load_weight (a : Memref sig .tc .vmem S1x3x2000x1 .f32) (h : a.IsWhole) (x : Vec Ideal S1x3x2000x1 .f32)
    (k : ℕ) (hk : k < 3) (inb : ∀ b, (![0, k, 0, 0] : Fin 4 → Nat) b + S1x1x2000x1.size b ≤ S1x3x2000x1.size b)
    (r : Fin 2000) :
    View.readAt (Elt Ideal) a.view (Rect.unit (s := S1x3x2000x1) ![0, k, 0, 0] S1x1x2000x1.size inb).toLoadRect (h.unread x)
        (ix4 (0 : Fin 1) (0 : Fin 1) r (0 : Fin 1))
      = x (ix4 (0 : Fin 1) (⟨k, hk⟩ : Fin 3) r (0 : Fin 1)) := by
  rw [View.readAt_apply, h.read_unread]
  refine congrArg x (funext fun b => Fin.ext ?_)
  match b with
  | ⟨0, _⟩ => rfl
  | ⟨1, _⟩ => show k + 1 * 0 = k; omega
  | ⟨2, _⟩ => show 0 + 1 * r.val = r.val; omega
  | ⟨3, _⟩ => rfl

/-- A load of the band at column offset `off` of an accumulator holding `xs` reads `xs` there. -/
theorem load_band (a : Memref sig .tc .vmem S2000x216 .f32) (h : a.IsWhole) (xs : Vec Ideal S2000x216 .f32) (off : ℕ)
    (inb : ∀ b, (![0, off] : Fin 2 → Nat) b + S2000x72.size b ≤ S2000x216.size b) (r : Fin 2000) (q : Fin 72)
    (hq : off + q.val < 216) :
    View.readAt (Elt Ideal) a.view (Rect.unit (s := S2000x216) ![0, off] S2000x72.size inb).toLoadRect (h.unread xs) (ix2 r q)
      = xs (ix2 r (⟨off + q.val, hq⟩ : Fin 216)) := by
  rw [View.readAt_apply, h.read_unread]
  exact congrArg xs (band_emb off inb r q hq)

end Cert.KernelIdeal.Hand

end
-- ==== Proof.Val.Col.lean ====
/-! The 216 columns of the accumulator and of a result block are three planes of 72 channels: column `72 p + q` is
    channel `q` of plane `p`. -/

namespace Cert.KernelIdeal.Hand

/-- Column `72 p + q`: plane `p`, channel `q`. -/
abbrev col (p : Fin 3) (q : Fin 72) : Fin 216 :=
  ⟨72 * p.val + q.val, by have := p.isLt; have := q.isLt; omega⟩

/-- Every column is some plane's some channel. -/
theorem col_split (j : Fin 216) :
    j = col ⟨j.val / 72, by have := j.isLt; omega⟩ ⟨j.val % 72, Nat.mod_lt _ (by decide)⟩ :=
  Fin.ext (by show j.val = 72 * (j.val / 72) + j.val % 72; omega)

end Cert.KernelIdeal.Hand
-- ==== Proof.Val.PieceA.lean ====
import proofs.«171827_j17884243821138_1_alg».proof.Proof.KI.RunA
import proofs.«171827_j17884243821138_1_alg».proof.Proof.Val.Bands
import proofs.«171827_j17884243821138_1_alg».proof.Proof.Val.Col

/-! What the body leaves when it starts a block of rows. The accumulator is zeroed and each plane's band then
    receives zero plus the blend of that plane's corners, so cell `(r, 72 p + q)` of the accumulator ends as
    `0 + blend` of the six input blocks' entries at plane `p`, row `r`, channel `q`; the result block is the
    accumulator with a leading unit axis. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx

/-- The accumulator after the body, band by band: zero plus the blend. -/
theorem sA_bands (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (r : Fin 2000) (q : Fin 72) :
    (View.canon (kernelRun0_A (F := Ideal) c i arg2 harg2 arg3 harg3 arg4 harg4 arg5 harg5 arg6 harg6 arg7 harg7 arg8 harg8 arg9 harg9 hc0 x0 x1 x2 x3 x4 x5).2.1 (ix2 r (col ⟨0, by decide⟩ q))
        = Cert.Triplane.zero + Cert.Triplane.blend (x0 (ix4 (0 : Fin 1) (⟨0, by decide⟩ : Fin 3) r q)) (x1 (ix4 (0 : Fin 1) (⟨0, by decide⟩ : Fin 3) r q)) (x2 (ix4 (0 : Fin 1) (⟨0, by decide⟩ : Fin 3) r q)) (x3 (ix4 (0 : Fin 1) (⟨0, by decide⟩ : Fin 3) r q)) (x4 (ix4 (0 : Fin 1) (⟨0, by decide⟩ : Fin 3) r (0 : Fin 1))) (x5 (ix4 (0 : Fin 1) (⟨0, by decide⟩ : Fin 3) r (0 : Fin 1))))
    ∧ (View.canon (kernelRun0_A (F := Ideal) c i arg2 harg2 arg3 harg3 arg4 harg4 arg5 harg5 arg6 harg6 arg7 harg7 arg8 harg8 arg9 harg9 hc0 x0 x1 x2 x3 x4 x5).2.1 (ix2 r (col ⟨1, by decide⟩ q))
        = Cert.Triplane.zero + Cert.Triplane.blend (x0 (ix4 (0 : Fin 1) (⟨1, by decide⟩ : Fin 3) r q)) (x1 (ix4 (0 : Fin 1) (⟨1, by decide⟩ : Fin 3) r q)) (x2 (ix4 (0 : Fin 1) (⟨1, by decide⟩ : Fin 3) r q)) (x3 (ix4 (0 : Fin 1) (⟨1, by decide⟩ : Fin 3) r q)) (x4 (ix4 (0 : Fin 1) (⟨1, by decide⟩ : Fin 3) r (0 : Fin 1))) (x5 (ix4 (0 : Fin 1) (⟨1, by decide⟩ : Fin 3) r (0 : Fin 1))))
    ∧ (View.canon (kernelRun0_A (F := Ideal) c i arg2 harg2 arg3 harg3 arg4 harg4 arg5 harg5 arg6 harg6 arg7 harg7 arg8 harg8 arg9 harg9 hc0 x0 x1 x2 x3 x4 x5).2.1 (ix2 r (col ⟨2, by decide⟩ q))
        = Cert.Triplane.zero + Cert.Triplane.blend (x0 (ix4 (0 : Fin 1) (⟨2, by decide⟩ : Fin 3) r q)) (x1 (ix4 (0 : Fin 1) (⟨2, by decide⟩ : Fin 3) r q)) (x2 (ix4 (0 : Fin 1) (⟨2, by decide⟩ : Fin 3) r q)) (x3 (ix4 (0 : Fin 1) (⟨2, by decide⟩ : Fin 3) r q)) (x4 (ix4 (0 : Fin 1) (⟨2, by decide⟩ : Fin 3) r (0 : Fin 1))) (x5 (ix4 (0 : Fin 1) (⟨2, by decide⟩ : Fin 3) r (0 : Fin 1)))) := by
  unfold kernelRun0_A
  dsimp only
  sl_unfold_words
  refine ⟨?_, ?_, ?_⟩
  · refine (canon_band0 _ _ _ _ _ _ _ r q (by omega)).trans ?_
    refine (pay8_apply _ _ _ _ _ _ _ r q).trans ?_
    exact congrArg₂ (fun a b : EReal => a + b) ((readCov_band _ _ 0 _ r q (by omega)).trans (canon_fill _ _ _))
      (blend_congr (load_corner arg2 harg2 x0 0 (by decide) _ r q) (load_corner arg3 harg3 x1 0 (by decide) _ r q)
        (load_corner arg4 harg4 x2 0 (by decide) _ r q) (load_corner arg5 harg5 x3 0 (by decide) _ r q)
        (load_weight arg6 harg6 x4 0 (by decide) _ r) (load_weight arg7 harg7 x5 0 (by decide) _ r))
  · refine (canon_band1 _ _ _ _ _ _ _ r q (by omega)).trans ?_
    refine (pay16_apply _ _ _ _ _ _ _ r q).trans ?_
    exact congrArg₂ (fun a b : EReal => a + b) ((readCov_band _ _ 72 _ r q (by omega)).trans (canon_fill1 _ _ _ r _ (by show 72 ≤ 72 + q.val; omega)))
      (blend_congr (load_corner arg2 harg2 x0 1 (by decide) _ r q) (load_corner arg3 harg3 x1 1 (by decide) _ r q)
        (load_corner arg4 harg4 x2 1 (by decide) _ r q) (load_corner arg5 harg5 x3 1 (by decide) _ r q)
        (load_weight arg6 harg6 x4 1 (by decide) _ r) (load_weight arg7 harg7 x5 1 (by decide) _ r))
  · refine (canon_band2 _ _ _ _ _ _ _ r q (by omega)).trans ?_
    refine (pay1_apply _ _ _ _ _ _ _ r q).trans ?_
    exact congrArg₂ (fun a b : EReal => a + b) ((readCov_band _ _ 144 _ r q (by omega)).trans (canon_fill2 _ _ _ _ _ r _ (by show 144 ≤ 144 + q.val; omega)))
      (blend_congr (load_corner arg2 harg2 x0 2 (by decide) _ r q) (load_corner arg3 harg3 x1 2 (by decide) _ r q)
        (load_corner arg4 harg4 x2 2 (by decide) _ r q) (load_corner arg5 harg5 x3 2 (by decide) _ r q)
        (load_weight arg6 harg6 x4 2 (by decide) _ r) (load_weight arg7 harg7 x5 2 (by decide) _ r))

/-- The result block after the body is the accumulator, entry by entry. -/
theorem oA_eq (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (r : Fin 2000) (j : Fin 216) :
    View.canon (kernelRun0_A (F := Ideal) c i arg2 harg2 arg3 harg3 arg4 harg4 arg5 harg5 arg6 harg6 arg7 harg7 arg8 harg8 arg9 harg9 hc0 x0 x1 x2 x3 x4 x5).1 (ix3 (0 : Fin 1) r j)
      = View.canon (kernelRun0_A (F := Ideal) c i arg2 harg2 arg3 harg3 arg4 harg4 arg5 harg5 arg6 harg6 arg7 harg7 arg8 harg8 arg9 harg9 hc0 x0 x1 x2 x3 x4 x5).2.1 (ix2 r j) := by
  unfold kernelRun0_A
  dsimp only
  sl_unfold_words
  refine (congrFun (View.canon_unit_zero (S := S1x2000x216) hz3 _ _) _).trans ?_
  refine (pay2_apply _ r j).trans ?_
  exact readCov_whole _ _ _ _

end Cert.KernelIdeal.Hand

end
-- ==== Proof.Val.PieceB.lean ====
import proofs.«171827_j17884243821138_1_alg».proof.Proof.KI.RunB
import proofs.«171827_j17884243821138_1_alg».proof.Proof.Val.Bands
import proofs.«171827_j17884243821138_1_alg».proof.Proof.Val.Col

/-! What the body leaves when it continues a block of rows. Each plane's band receives what the accumulator held
    there plus the blend of that plane's corners, so cell `(r, 72 p + q)` ends as the old cell plus the blend of the six
    input blocks' entries at plane `p`, row `r`, channel `q`; the result block is the accumulator with a leading
    unit axis. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx

/-- The accumulator after the body, band by band: what it held plus the blend. -/
theorem sB_bands (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (xs0 : Vec Ideal S2000x216 .f32) (r : Fin 2000) (q : Fin 72) :
    (View.canon (kernelRun0_B (F := Ideal) c i arg2 harg2 arg3 harg3 arg4 harg4 arg5 harg5 arg6 harg6 arg7 harg7 arg8 harg8 arg9 harg9 hc0 x0 x1 x2 x3 x4 x5 xs0).2.1 (ix2 r (col ⟨0, by decide⟩ q))
        = xs0 (ix2 r (col ⟨0, by decide⟩ q)) + Cert.Triplane.blend (x0 (ix4 (0 : Fin 1) (⟨0, by decide⟩ : Fin 3) r q)) (x1 (ix4 (0 : Fin 1) (⟨0, by decide⟩ : Fin 3) r q)) (x2 (ix4 (0 : Fin 1) (⟨0, by decide⟩ : Fin 3) r q)) (x3 (ix4 (0 : Fin 1) (⟨0, by decide⟩ : Fin 3) r q)) (x4 (ix4 (0 : Fin 1) (⟨0, by decide⟩ : Fin 3) r (0 : Fin 1))) (x5 (ix4 (0 : Fin 1) (⟨0, by decide⟩ : Fin 3) r (0 : Fin 1))))
    ∧ (View.canon (kernelRun0_B (F := Ideal) c i arg2 harg2 arg3 harg3 arg4 harg4 arg5 harg5 arg6 harg6 arg7 harg7 arg8 harg8 arg9 harg9 hc0 x0 x1 x2 x3 x4 x5 xs0).2.1 (ix2 r (col ⟨1, by decide⟩ q))
        = xs0 (ix2 r (col ⟨1, by decide⟩ q)) + Cert.Triplane.blend (x0 (ix4 (0 : Fin 1) (⟨1, by decide⟩ : Fin 3) r q)) (x1 (ix4 (0 : Fin 1) (⟨1, by decide⟩ : Fin 3) r q)) (x2 (ix4 (0 : Fin 1) (⟨1, by decide⟩ : Fin 3) r q)) (x3 (ix4 (0 : Fin 1) (⟨1, by decide⟩ : Fin 3) r q)) (x4 (ix4 (0 : Fin 1) (⟨1, by decide⟩ : Fin 3) r (0 : Fin 1))) (x5 (ix4 (0 : Fin 1) (⟨1, by decide⟩ : Fin 3) r (0 : Fin 1))))
    ∧ (View.canon (kernelRun0_B (F := Ideal) c i arg2 harg2 arg3 harg3 arg4 harg4 arg5 harg5 arg6 harg6 arg7 harg7 arg8 harg8 arg9 harg9 hc0 x0 x1 x2 x3 x4 x5 xs0).2.1 (ix2 r (col ⟨2, by decide⟩ q))
        = xs0 (ix2 r (col ⟨2, by decide⟩ q)) + Cert.Triplane.blend (x0 (ix4 (0 : Fin 1) (⟨2, by decide⟩ : Fin 3) r q)) (x1 (ix4 (0 : Fin 1) (⟨2, by decide⟩ : Fin 3) r q)) (x2 (ix4 (0 : Fin 1) (⟨2, by decide⟩ : Fin 3) r q)) (x3 (ix4 (0 : Fin 1) (⟨2, by decide⟩ : Fin 3) r q)) (x4 (ix4 (0 : Fin 1) (⟨2, by decide⟩ : Fin 3) r (0 : Fin 1))) (x5 (ix4 (0 : Fin 1) (⟨2, by decide⟩ : Fin 3) r (0 : Fin 1)))) := by
  unfold kernelRun0_B
  dsimp only
  sl_unfold_words
  refine ⟨?_, ?_, ?_⟩
  · refine (canon_band0 _ _ _ _ _ _ _ r q (by omega)).trans ?_
    refine (pay8_apply _ _ _ _ _ _ _ r q).trans ?_
    exact congrArg₂ (fun a b : EReal => a + b) (load_band arg9 harg9 xs0 0 _ r q (by omega))
      (blend_congr (load_corner arg2 harg2 x0 0 (by decide) _ r q) (load_corner arg3 harg3 x1 0 (by decide) _ r q)
        (load_corner arg4 harg4 x2 0 (by decide) _ r q) (load_corner arg5 harg5 x3 0 (by decide) _ r q)
        (load_weight arg6 harg6 x4 0 (by decide) _ r) (load_weight arg7 harg7 x5 0 (by decide) _ r))
  · refine (canon_band1 _ _ _ _ _ _ _ r q (by omega)).trans ?_
    refine (pay16_apply _ _ _ _ _ _ _ r q).trans ?_
    exact congrArg₂ (fun a b : EReal => a + b) (load_band arg9 harg9 xs0 72 _ r q (by omega))
      (blend_congr (load_corner arg2 harg2 x0 1 (by decide) _ r q) (load_corner arg3 harg3 x1 1 (by decide) _ r q)
        (load_corner arg4 harg4 x2 1 (by decide) _ r q) (load_corner arg5 harg5 x3 1 (by decide) _ r q)
        (load_weight arg6 harg6 x4 1 (by decide) _ r) (load_weight arg7 harg7 x5 1 (by decide) _ r))
  · refine (canon_band2 _ _ _ _ _ _ _ r q (by omega)).trans ?_
    refine (pay1_apply _ _ _ _ _ _ _ r q).trans ?_
    exact congrArg₂ (fun a b : EReal => a + b) (load_band arg9 harg9 xs0 144 _ r q (by omega))
      (blend_congr (load_corner arg2 harg2 x0 2 (by decide) _ r q) (load_corner arg3 harg3 x1 2 (by decide) _ r q)
        (load_corner arg4 harg4 x2 2 (by decide) _ r q) (load_corner arg5 harg5 x3 2 (by decide) _ r q)
        (load_weight arg6 harg6 x4 2 (by decide) _ r) (load_weight arg7 harg7 x5 2 (by decide) _ r))

/-- The result block after the body is the accumulator, entry by entry. -/
theorem oB_eq (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (xs0 : Vec Ideal S2000x216 .f32) (r : Fin 2000) (j : Fin 216) :
    View.canon (kernelRun0_B (F := Ideal) c i arg2 harg2 arg3 harg3 arg4 harg4 arg5 harg5 arg6 harg6 arg7 harg7 arg8 harg8 arg9 harg9 hc0 x0 x1 x2 x3 x4 x5 xs0).1 (ix3 (0 : Fin 1) r j)
      = View.canon (kernelRun0_B (F := Ideal) c i arg2 harg2 arg3 harg3 arg4 harg4 arg5 harg5 arg6 harg6 arg7 harg7 arg8 harg8 arg9 harg9 hc0 x0 x1 x2 x3 x4 x5 xs0).2.1 (ix2 r j) := by
  unfold kernelRun0_B
  dsimp only
  sl_unfold_words
  refine (congrFun (View.canon_unit_zero (S := S1x2000x216) hz3 _ _) _).trans ?_
  refine (pay2_apply _ r j).trans ?_
  exact readCov_whole _ _ _ _

end Cert.KernelIdeal.Hand

end
-- ==== Proof.Val.KCorners.lean ====
import proofs.«171827_j17884243821138_1_alg».proof.Proof.KI.Entry
import proofs.«171827_j17884243821138_1_alg».proof.Proof.Spec

/-! The six arrays the kernel reads, as functions of their coordinates over the extended reals:
    the four gathered corner values of every scale, plane, point and channel, and the two fractional
    weights of every scale, plane and point. They are read from the buffers' contents when the kernel is
    entered. -/

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- Corner (0, 0) of scale `s`, plane `p`, point `n`, channel `q`. -/
def v00K (c : Dev nD) : Fin 4 → Fin 3 → Fin 100000 → Fin 72 → EReal :=
  fun s p n q => V m c main_v411 (ValueIdx.ix4 s p n q)

/-- Corner (0, 1). -/
def v01K (c : Dev nD) : Fin 4 → Fin 3 → Fin 100000 → Fin 72 → EReal :=
  fun s p n q => V m c main_v416 (ValueIdx.ix4 s p n q)

/-- Corner (1, 0). -/
def v10K (c : Dev nD) : Fin 4 → Fin 3 → Fin 100000 → Fin 72 → EReal :=
  fun s p n q => V m c main_v421 (ValueIdx.ix4 s p n q)

/-- Corner (1, 1). -/
def v11K (c : Dev nD) : Fin 4 → Fin 3 → Fin 100000 → Fin 72 → EReal :=
  fun s p n q => V m c main_v426 (ValueIdx.ix4 s p n q)

/-- The fractional weight along x of scale `s`, plane `p`, point `n`. -/
def wxK (c : Dev nD) : Fin 4 → Fin 3 → Fin 100000 → EReal :=
  fun s p n => V m c main_v431 (ValueIdx.ix4 s p n (0 : Fin 1))

/-- The fractional weight along y. -/
def wyK (c : Dev nD) : Fin 4 → Fin 3 → Fin 100000 → EReal :=
  fun s p n => V m c main_v436 (ValueIdx.ix4 s p n (0 : Fin 1))

end Cert.KernelIdeal.Hand

end
-- ==== Proof.Val.Blocks.lean ====
import proofs.«171827_j17884243821138_1_alg».proof.Proof.Gen.KernelIdeal.Points
import Idealize.ShloMosaic.Lib.Decide

/-! Where the blocks sit. The grid has 50 × 4 points, the second coordinate running fastest: point `t` works on
    the block of rows `t / 4` (2000 rows each) at scale `t % 4`. Each of the four corner arrays and of the two
    weight arrays is read at block `(t % 4, 0, t / 4, 0)`, the result is written at block `(t % 4, t / 4, 0)`.
    Conversely the entry `(s, n, j)` of the result lies in the block of point `4 (n / 2000) + s`, at row
    `n % 2000`. -/

noncomputable section

namespace Cert.KernelIdeal.Hand

open Cert.KernelIdeal Cert.KernelIdeal.Gen Idealize.ShloMosaic

/-- The grid has 200 points. -/
theorem N_200 : cfg0.N = 200 := by decide

/-- The block index of corner array (0, 0) at point `t`. -/
theorem idx0 : ∀ t : Fin cfg0.N, win0_0.index t (0 : Fin 4) = t.val % 4 ∧ win0_0.index t (1 : Fin 4) = 0
    ∧ win0_0.index t (2 : Fin 4) = t.val / 4 ∧ win0_0.index t (3 : Fin 4) = 0 :=
  (by decide +kernel : ∀ t : Fin grid0.N, _)

/-- The block index of corner array (0, 1) at point `t`. -/
theorem idx1 : ∀ t : Fin cfg0.N, win0_1.index t (0 : Fin 4) = t.val % 4 ∧ win0_1.index t (1 : Fin 4) = 0
    ∧ win0_1.index t (2 : Fin 4) = t.val / 4 ∧ win0_1.index t (3 : Fin 4) = 0 :=
  (by decide +kernel : ∀ t : Fin grid0.N, _)

/-- The block index of corner array (1, 0) at point `t`. -/
theorem idx2 : ∀ t : Fin cfg0.N, win0_2.index t (0 : Fin 4) = t.val % 4 ∧ win0_2.index t (1 : Fin 4) = 0
    ∧ win0_2.index t (2 : Fin 4) = t.val / 4 ∧ win0_2.index t (3 : Fin 4) = 0 :=
  (by decide +kernel : ∀ t : Fin grid0.N, _)

/-- The block index of corner array (1, 1) at point `t`. -/
theorem idx3 : ∀ t : Fin cfg0.N, win0_3.index t (0 : Fin 4) = t.val % 4 ∧ win0_3.index t (1 : Fin 4) = 0
    ∧ win0_3.index t (2 : Fin 4) = t.val / 4 ∧ win0_3.index t (3 : Fin 4) = 0 :=
  (by decide +kernel : ∀ t : Fin grid0.N, _)

/-- The block index of the x weights at point `t`. -/
theorem idx4 : ∀ t : Fin cfg0.N, win0_4.index t (0 : Fin 4) = t.val % 4 ∧ win0_4.index t (1 : Fin 4) = 0
    ∧ win0_4.index t (2 : Fin 4) = t.val / 4 ∧ win0_4.index t (3 : Fin 4) = 0 :=
  (by decide +kernel : ∀ t : Fin grid0.N, _)

/-- The block index of the y weights at point `t`. -/
theorem idx5 : ∀ t : Fin cfg0.N, win0_5.index t (0 : Fin 4) = t.val % 4 ∧ win0_5.index t (1 : Fin 4) = 0
    ∧ win0_5.index t (2 : Fin 4) = t.val / 4 ∧ win0_5.index t (3 : Fin 4) = 0 :=
  (by decide +kernel : ∀ t : Fin grid0.N, _)

/-- The block index of the result at point `t`. -/
theorem idx6 : ∀ t : Fin cfg0.N, win0_6.index t (0 : Fin 3) = t.val % 4 ∧ win0_6.index t (1 : Fin 3) = t.val / 4
    ∧ win0_6.index t (2 : Fin 3) = 0 :=
  (by decide +kernel : ∀ t : Fin grid0.N, _)

/-- The point whose block holds row `n` of scale `s`. -/
def pointOf (s : Fin 4) (n : Fin 100000) : Fin cfg0.N :=
  ⟨4 * (n.val / 2000) + s.val, by rw [N_200]; have := n.isLt; have := s.isLt; omega⟩

theorem pointOf_val (s : Fin 4) (n : Fin 100000) : (pointOf s n).val = 4 * (n.val / 2000) + s.val := rfl

theorem pointOf_mod (s : Fin 4) (n : Fin 100000) : (pointOf s n).val % 4 = s.val := by
  rw [pointOf_val]; have := s.isLt; omega

theorem pointOf_div (s : Fin 4) (n : Fin 100000) : (pointOf s n).val / 4 = n.val / 2000 := by
  rw [pointOf_val]; have := s.isLt; omega

/-- Row `n` is row `n % 2000` of its block: `2000 (n / 2000) + n % 2000 = n`. -/
theorem row_split (n : Fin 100000) : 2000 * (n.val / 2000) + n.val % 2000 = n.val := Nat.div_add_mod _ _

/-- A point's block of rows stays inside the 100000 rows. -/
theorem row_lt (t : Fin cfg0.N) (r : Fin 2000) : 2000 * (t.val / 4) + r.val < 100000 := by
  have h : t.val < 200 := lt_of_lt_of_eq t.isLt N_200
  have := r.isLt; omega

/-- A point's scale is below 4. -/
theorem scale_lt (t : Fin cfg0.N) : t.val % 4 < 4 := Nat.mod_lt _ (by decide)

end Cert.KernelIdeal.Hand

end
-- ==== Proof.Val.BlockRead.lean ====
import proofs.«171827_j17884243821138_1_alg».proof.Proof.KI.Runs
import proofs.«171827_j17884243821138_1_alg».proof.Proof.Val.KCorners
import proofs.«171827_j17884243821138_1_alg».proof.Proof.Val.Blocks
import Idealize.ShloMosaic.Lib.ValueIdx

/-! What a grid point reads. At point `t` each of the six input blocks is the part of its array at scale `t % 4`
    and rows `2000 (t / 4) … 2000 (t / 4) + 1999`, all three planes: an entry of a block is the array's entry at
    those coordinates. -/

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block of corner (0, 0) at point `t`, at its literal shape. -/
abbrev blk0 (c : Dev nD) (t : Fin cfg0.N) : Vec Ideal S1x3x2000x72 .f32 := iblk m c 0 t

/-- Its entry `(0, p, r, q)` is the array's entry at scale `t % 4`, plane `p`, row `2000 (t / 4) + r`, channel `q`. -/
theorem blk0_apply (c : Dev nD) (t : Fin cfg0.N) (p : Fin 3) (r : Fin 2000) (q : Fin 72) :
    blk0 m c t (ix4 (0 : Fin 1) p r q)
      = v00K m c ⟨t.val % 4, scale_lt t⟩ p ⟨2000 * (t.val / 4) + r.val, row_lt t r⟩ q := by
  obtain ⟨e0, e1, e2, e3⟩ := idx0 t
  unfold v00K
  show V m c main_v411 (((cfg0.win 0).blk t).view.emb (ix4 (0 : Fin 1) p r q)) = V m c main_v411 _
  refine congrArg (V m c main_v411) (funext fun a => Fin.ext ?_)
  match a with
  | ⟨0, _⟩ => show win0_0.index t (0 : Fin 4) * 1 + 1 * 0 = t.val % 4; omega
  | ⟨1, _⟩ => show win0_0.index t (1 : Fin 4) * 3 + 1 * p.val = p.val; omega
  | ⟨2, _⟩ => show win0_0.index t (2 : Fin 4) * 2000 + 1 * r.val = 2000 * (t.val / 4) + r.val; omega
  | ⟨3, _⟩ => show win0_0.index t (3 : Fin 4) * 72 + 1 * q.val = q.val; omega

/-- The block of corner (0, 1) at point `t`, at its literal shape. -/
abbrev blk1 (c : Dev nD) (t : Fin cfg0.N) : Vec Ideal S1x3x2000x72 .f32 := iblk m c 1 t

/-- Its entry `(0, p, r, q)` is the array's entry at scale `t % 4`, plane `p`, row `2000 (t / 4) + r`, channel `q`. -/
theorem blk1_apply (c : Dev nD) (t : Fin cfg0.N) (p : Fin 3) (r : Fin 2000) (q : Fin 72) :
    blk1 m c t (ix4 (0 : Fin 1) p r q)
      = v01K m c ⟨t.val % 4, scale_lt t⟩ p ⟨2000 * (t.val / 4) + r.val, row_lt t r⟩ q := by
  obtain ⟨e0, e1, e2, e3⟩ := idx1 t
  unfold v01K
  show V m c main_v416 (((cfg0.win 1).blk t).view.emb (ix4 (0 : Fin 1) p r q)) = V m c main_v416 _
  refine congrArg (V m c main_v416) (funext fun a => Fin.ext ?_)
  match a with
  | ⟨0, _⟩ => show win0_1.index t (0 : Fin 4) * 1 + 1 * 0 = t.val % 4; omega
  | ⟨1, _⟩ => show win0_1.index t (1 : Fin 4) * 3 + 1 * p.val = p.val; omega
  | ⟨2, _⟩ => show win0_1.index t (2 : Fin 4) * 2000 + 1 * r.val = 2000 * (t.val / 4) + r.val; omega
  | ⟨3, _⟩ => show win0_1.index t (3 : Fin 4) * 72 + 1 * q.val = q.val; omega

/-- The block of corner (1, 0) at point `t`, at its literal shape. -/
abbrev blk2 (c : Dev nD) (t : Fin cfg0.N) : Vec Ideal S1x3x2000x72 .f32 := iblk m c 2 t

/-- Its entry `(0, p, r, q)` is the array's entry at scale `t % 4`, plane `p`, row `2000 (t / 4) + r`, channel `q`. -/
theorem blk2_apply (c : Dev nD) (t : Fin cfg0.N) (p : Fin 3) (r : Fin 2000) (q : Fin 72) :
    blk2 m c t (ix4 (0 : Fin 1) p r q)
      = v10K m c ⟨t.val % 4, scale_lt t⟩ p ⟨2000 * (t.val / 4) + r.val, row_lt t r⟩ q := by
  obtain ⟨e0, e1, e2, e3⟩ := idx2 t
  unfold v10K
  show V m c main_v421 (((cfg0.win 2).blk t).view.emb (ix4 (0 : Fin 1) p r q)) = V m c main_v421 _
  refine congrArg (V m c main_v421) (funext fun a => Fin.ext ?_)
  match a with
  | ⟨0, _⟩ => show win0_2.index t (0 : Fin 4) * 1 + 1 * 0 = t.val % 4; omega
  | ⟨1, _⟩ => show win0_2.index t (1 : Fin 4) * 3 + 1 * p.val = p.val; omega
  | ⟨2, _⟩ => show win0_2.index t (2 : Fin 4) * 2000 + 1 * r.val = 2000 * (t.val / 4) + r.val; omega
  | ⟨3, _⟩ => show win0_2.index t (3 : Fin 4) * 72 + 1 * q.val = q.val; omega

/-- The block of corner (1, 1) at point `t`, at its literal shape. -/
abbrev blk3 (c : Dev nD) (t : Fin cfg0.N) : Vec Ideal S1x3x2000x72 .f32 := iblk m c 3 t

/-- Its entry `(0, p, r, q)` is the array's entry at scale `t % 4`, plane `p`, row `2000 (t / 4) + r`, channel `q`. -/
theorem blk3_apply (c : Dev nD) (t : Fin cfg0.N) (p : Fin 3) (r : Fin 2000) (q : Fin 72) :
    blk3 m c t (ix4 (0 : Fin 1) p r q)
      = v11K m c ⟨t.val % 4, scale_lt t⟩ p ⟨2000 * (t.val / 4) + r.val, row_lt t r⟩ q := by
  obtain ⟨e0, e1, e2, e3⟩ := idx3 t
  unfold v11K
  show V m c main_v426 (((cfg0.win 3).blk t).view.emb (ix4 (0 : Fin 1) p r q)) = V m c main_v426 _
  refine congrArg (V m c main_v426) (funext fun a => Fin.ext ?_)
  match a with
  | ⟨0, _⟩ => show win0_3.index t (0 : Fin 4) * 1 + 1 * 0 = t.val % 4; omega
  | ⟨1, _⟩ => show win0_3.index t (1 : Fin 4) * 3 + 1 * p.val = p.val; omega
  | ⟨2, _⟩ => show win0_3.index t (2 : Fin 4) * 2000 + 1 * r.val = 2000 * (t.val / 4) + r.val; omega
  | ⟨3, _⟩ => show win0_3.index t (3 : Fin 4) * 72 + 1 * q.val = q.val; omega

/-- The block of the x weights at point `t`, at its literal shape. -/
abbrev blk4 (c : Dev nD) (t : Fin cfg0.N) : Vec Ideal S1x3x2000x1 .f32 := iblk m c 4 t

/-- Its entry `(0, p, r, 0)` is the weight at scale `t % 4`, plane `p`, row `2000 (t / 4) + r`. -/
theorem blk4_apply (c : Dev nD) (t : Fin cfg0.N) (p : Fin 3) (r : Fin 2000) :
    blk4 m c t (ix4 (0 : Fin 1) p r (0 : Fin 1))
      = wxK m c ⟨t.val % 4, scale_lt t⟩ p ⟨2000 * (t.val / 4) + r.val, row_lt t r⟩ := by
  obtain ⟨e0, e1, e2, e3⟩ := idx4 t
  unfold wxK
  show V m c main_v431 (((cfg0.win 4).blk t).view.emb (ix4 (0 : Fin 1) p r (0 : Fin 1))) = V m c main_v431 _
  refine congrArg (V m c main_v431) (funext fun a => Fin.ext ?_)
  match a with
  | ⟨0, _⟩ => show win0_4.index t (0 : Fin 4) * 1 + 1 * 0 = t.val % 4; omega
  | ⟨1, _⟩ => show win0_4.index t (1 : Fin 4) * 3 + 1 * p.val = p.val; omega
  | ⟨2, _⟩ => show win0_4.index t (2 : Fin 4) * 2000 + 1 * r.val = 2000 * (t.val / 4) + r.val; omega
  | ⟨3, _⟩ => show win0_4.index t (3 : Fin 4) * 1 + 1 * 0 = 0; omega

/-- The block of the y weights at point `t`, at its literal shape. -/
abbrev blk5 (c : Dev nD) (t : Fin cfg0.N) : Vec Ideal S1x3x2000x1 .f32 := iblk m c 5 t

/-- Its entry `(0, p, r, 0)` is the weight at scale `t % 4`, plane `p`, row `2000 (t / 4) + r`. -/
theorem blk5_apply (c : Dev nD) (t : Fin cfg0.N) (p : Fin 3) (r : Fin 2000) :
    blk5 m c t (ix4 (0 : Fin 1) p r (0 : Fin 1))
      = wyK m c ⟨t.val % 4, scale_lt t⟩ p ⟨2000 * (t.val / 4) + r.val, row_lt t r⟩ := by
  obtain ⟨e0, e1, e2, e3⟩ := idx5 t
  unfold wyK
  show V m c main_v436 (((cfg0.win 5).blk t).view.emb (ix4 (0 : Fin 1) p r (0 : Fin 1))) = V m c main_v436 _
  refine congrArg (V m c main_v436) (funext fun a => Fin.ext ?_)
  match a with
  | ⟨0, _⟩ => show win0_5.index t (0 : Fin 4) * 1 + 1 * 0 = t.val % 4; omega
  | ⟨1, _⟩ => show win0_5.index t (1 : Fin 4) * 3 + 1 * p.val = p.val; omega
  | ⟨2, _⟩ => show win0_5.index t (2 : Fin 4) * 2000 + 1 * r.val = 2000 * (t.val / 4) + r.val; omega
  | ⟨3, _⟩ => show win0_5.index t (3 : Fin 4) * 1 + 1 * 0 = 0; omega

end Cert.KernelIdeal.Hand

end
-- ==== Proof.Val.Chain.lean ====
import proofs.«171827_j17884243821138_1_alg».proof.Proof.Spec

/-! The running sum, one scale at a time: at scale 0 it is zero plus that scale's sample, at a later scale the sum
    up to the scale before plus this scale's sample. These are the two steps the kernel makes at a grid point: the
    first when it has just reset its accumulator, the second when it continues from the point before. -/

noncomputable section

namespace Cert.KernelIdeal.Hand

open Cert.Triplane

section Steps

variable (v00 v01 v10 v11 : Fin 4 → Fin 3 → Fin 100000 → Fin 72 → EReal) (wx wy : Fin 4 → Fin 3 → Fin 100000 → EReal)

/-- At scale 0 the running sum is zero plus the sample. -/
theorem accK_at_zero (s : ℕ) (h : s < 4) (hs : s = 0) (p : Fin 3) (n : Fin 100000) (c : Fin 72) :
    accK v00 v01 v10 v11 wx wy s h p n c = zero + samp v00 v01 v10 v11 wx wy ⟨s, h⟩ p n c := by
  subst hs; rfl

/-- At a later scale it is the sum up to the scale before plus the sample. -/
theorem accK_at_pos (s : ℕ) (h : s < 4) (hs : s ≠ 0) (p : Fin 3) (n : Fin 100000) (c : Fin 72) :
    accK v00 v01 v10 v11 wx wy s h p n c
      = accK v00 v01 v10 v11 wx wy (s - 1) (by omega) p n c + samp v00 v01 v10 v11 wx wy ⟨s, h⟩ p n c := by
  cases s with
  | zero => exact absurd rfl hs
  | succ s => rfl

/-- The running sum depends on its coordinates only through their values. -/
theorem accK_congr (s s' : ℕ) (h : s < 4) (h' : s' < 4) (hs : s = s') (p p' : Fin 3) (hp : p = p')
    (n n' : Fin 100000) (hn : n = n') (c c' : Fin 72) (hc : c = c') :
    accK v00 v01 v10 v11 wx wy s h p n c = accK v00 v01 v10 v11 wx wy s' h' p' n' c' := by
  subst hs hp hn hc; rfl

end Steps

end Cert.KernelIdeal.Hand

end
-- ==== Proof.Val.Invariant.lean ====
import proofs.«171827_j17884243821138_1_alg».proof.Proof.KI.FrameDefs
import proofs.«171827_j17884243821138_1_alg».proof.Proof.Val.PieceA
import proofs.«171827_j17884243821138_1_alg».proof.Proof.Val.PieceB
import proofs.«171827_j17884243821138_1_alg».proof.Proof.Val.BlockRead
import proofs.«171827_j17884243821138_1_alg».proof.Proof.Val.Chain

/-! What the accumulator and the result block hold after each grid point. Point `t` works on scale `t % 4` of the
    rows `2000 (t / 4) …`. If `t % 4 = 0` the accumulator is reset and receives zero plus this scale's sample; else
    it receives what the point before left (the running sum up to scale `t % 4 - 1` of the same rows) plus this
    scale's sample. Either way it ends as the running sum up to scale `t % 4`, and the result block is a copy of it.
    By induction on the point. -/

noncomputable section

namespace Cert.KernelIdeal.Hand

open Cert.KernelIdeal Cert.KernelIdeal.Gen
open Idealize.ShloMosaic Idealize.ShloMosaic.TcCoe Idealize.SL.Sem
open Idealize.ShloMosaic.ValueIdx

/-- The accumulator after the body at a point that starts a block of rows: zero plus the blend, plane by plane. -/
theorem soutA_apply (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (r : Fin 2000) (p : Fin 3) (q : Fin 72) :
    sout0_A_0 (F := Ideal) c i arg2 harg2 arg3 harg3 arg4 harg4 arg5 harg5 arg6 harg6 arg7 harg7 arg8 harg8 arg9 harg9 hc0 x0 x1 x2 x3 x4 x5 (ix2 r (col p q))
      = Cert.Triplane.zero + Cert.Triplane.blend (x0 (ix4 (0 : Fin 1) p r q)) (x1 (ix4 (0 : Fin 1) p r q)) (x2 (ix4 (0 : Fin 1) p r q)) (x3 (ix4 (0 : Fin 1) p r q)) (x4 (ix4 (0 : Fin 1) p r (0 : Fin 1))) (x5 (ix4 (0 : Fin 1) p r (0 : Fin 1))) := by
  unfold sout0_A_0
  refine (congrFun (View.read_writes_junk_eq_canon VS0_0 _) _).trans ?_
  obtain ⟨h0, h1, h2⟩ := sA_bands c i arg2 harg2 arg3 harg3 arg4 harg4 arg5 harg5 arg6 harg6 arg7 harg7 arg8 harg8 arg9 harg9 hc0 x0 x1 x2 x3 x4 x5 r q
  match p with
  | ⟨0, _⟩ => exact h0
  | ⟨1, _⟩ => exact h1
  | ⟨2, _⟩ => exact h2

/-- The accumulator after the body at a point that continues a block of rows: what it held plus the blend. -/
theorem soutB_apply (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (xs0 : Vec Ideal S2000x216 .f32) (r : Fin 2000) (p : Fin 3) (q : Fin 72) :
    sout0_B_0 (F := Ideal) c i arg2 harg2 arg3 harg3 arg4 harg4 arg5 harg5 arg6 harg6 arg7 harg7 arg8 harg8 arg9 harg9 hc0 x0 x1 x2 x3 x4 x5 xs0 (ix2 r (col p q))
      = xs0 (ix2 r (col p q)) + Cert.Triplane.blend (x0 (ix4 (0 : Fin 1) p r q)) (x1 (ix4 (0 : Fin 1) p r q)) (x2 (ix4 (0 : Fin 1) p r q)) (x3 (ix4 (0 : Fin 1) p r q)) (x4 (ix4 (0 : Fin 1) p r (0 : Fin 1))) (x5 (ix4 (0 : Fin 1) p r (0 : Fin 1))) := by
  unfold sout0_B_0
  refine (congrFun (View.read_writes_junk_eq_canon VS0_0 _) _).trans ?_
  obtain ⟨h0, h1, h2⟩ := sB_bands c i arg2 harg2 arg3 harg3 arg4 harg4 arg5 harg5 arg6 harg6 arg7 harg7 arg8 harg8 arg9 harg9 hc0 x0 x1 x2 x3 x4 x5 xs0 r q
  match p with
  | ⟨0, _⟩ => exact h0
  | ⟨1, _⟩ => exact h1
  | ⟨2, _⟩ => exact h2

/-- The result block after the body is the accumulator (first case). -/
theorem outA_apply (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (r : Fin 2000) (j : Fin 216) :
    out0_A_6 (F := Ideal) c i arg2 harg2 arg3 harg3 arg4 harg4 arg5 harg5 arg6 harg6 arg7 harg7 arg8 harg8 arg9 harg9 hc0 x0 x1 x2 x3 x4 x5 (ix3 (0 : Fin 1) r j)
      = sout0_A_0 (F := Ideal) c i arg2 harg2 arg3 harg3 arg4 harg4 arg5 harg5 arg6 harg6 arg7 harg7 arg8 harg8 arg9 harg9 hc0 x0 x1 x2 x3 x4 x5 (ix2 r j) := by
  unfold out0_A_6 sout0_A_0
  refine (congrFun (View.read_writes_junk_eq_canon VO0_6 _) _).trans ?_
  refine Eq.trans ?_ (congrFun (View.read_writes_junk_eq_canon VS0_0 _) _).symm
  exact oA_eq c i arg2 harg2 arg3 harg3 arg4 harg4 arg5 harg5 arg6 harg6 arg7 harg7 arg8 harg8 arg9 harg9 hc0 x0 x1 x2 x3 x4 x5 r j

/-- The result block after the body is the accumulator (second case). -/
theorem outB_apply (c : Dev nD) (i : grid0.Coords) (arg2 : Memref sig .tc .vmem S1x3x2000x72 .f32) (harg2 : arg2.IsWhole) (arg3 : Memref sig .tc .vmem S1x3x2000x72 .f32) (harg3 : arg3.IsWhole) (arg4 : Memref sig .tc .vmem S1x3x2000x72 .f32) (harg4 : arg4.IsWhole) (arg5 : Memref sig .tc .vmem S1x3x2000x72 .f32) (harg5 : arg5.IsWhole) (arg6 : Memref sig .tc .vmem S1x3x2000x1 .f32) (harg6 : arg6.IsWhole) (arg7 : Memref sig .tc .vmem S1x3x2000x1 .f32) (harg7 : arg7.IsWhole) (arg8 : Memref sig .tc .vmem S1x2000x216 .f32) (harg8 : arg8.IsWhole) (arg9 : Memref sig .tc .vmem S2000x216 .f32) (harg9 : arg9.IsWhole) (hc0 : ¬cond0_0 i)
    (x0 : Vec Ideal S1x3x2000x72 .f32) (x1 : Vec Ideal S1x3x2000x72 .f32) (x2 : Vec Ideal S1x3x2000x72 .f32) (x3 : Vec Ideal S1x3x2000x72 .f32) (x4 : Vec Ideal S1x3x2000x1 .f32) (x5 : Vec Ideal S1x3x2000x1 .f32) (xs0 : Vec Ideal S2000x216 .f32) (r : Fin 2000) (j : Fin 216) :
    out0_B_6 (F := Ideal) c i arg2 harg2 arg3 harg3 arg4 harg4 arg5 harg5 arg6 harg6 arg7 harg7 arg8 harg8 arg9 harg9 hc0 x0 x1 x2 x3 x4 x5 xs0 (ix3 (0 : Fin 1) r j)
      = sout0_B_0 (F := Ideal) c i arg2 harg2 arg3 harg3 arg4 harg4 arg5 harg5 arg6 harg6 arg7 harg7 arg8 harg8 arg9 harg9 hc0 x0 x1 x2 x3 x4 x5 xs0 (ix2 r j) := by
  unfold out0_B_6 sout0_B_0
  refine (congrFun (View.read_writes_junk_eq_canon VO0_6 _) _).trans ?_
  refine Eq.trans ?_ (congrFun (View.read_writes_junk_eq_canon VS0_0 _) _).symm
  exact oB_eq c i arg2 harg2 arg3 harg3 arg4 harg4 arg5 harg5 arg6 harg6 arg7 harg7 arg8 harg8 arg9 harg9 hc0 x0 x1 x2 x3 x4 x5 xs0 r j

variable (m : (ℓ : Loc nD τ sig) → Buf (Elt Ideal) ℓ)

/-- The running sum up to scale `t % 4` at row `r` of point `t`'s block of rows, plane `p`, channel `q`. -/
abbrev accAt (c : Dev nD) (t : Fin cfg0.N) (r : Fin 2000) (p : Fin 3) (q : Fin 72) : EReal :=
  Cert.Triplane.accK (v00K m c) (v01K m c) (v10K m c) (v11K m c) (wxK m c) (wyK m c) (t.val % 4) (scale_lt t) p
    ⟨2000 * (t.val / 4) + r.val, row_lt t r⟩ q

/-- After every point the result block is a copy of the accumulator. -/
theorem out_eq_acc (c : Dev nD) (t : Fin cfg0.N) (r : Fin 2000) (j : Fin 216) :
    (outsAt0 m c t.val t.isLt).1 (ix3 (0 : Fin 1) r j) = (outsAt0 m c t.val t.isLt).2 (ix2 r j) := by
  by_cases h0 : t.val % 4 = 0
  · rw [outsAt0_A m c t h0]
    dsimp only
    exact outA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (blk0 m c t) (blk1 m c t) (blk2 m c t) (blk3 m c t) (blk4 m c t) (blk5 m c t) r j
  · rw [outsAt0_B m c t h0]
    dsimp only
    exact outB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h))
      (blk0 m c t) (blk1 m c t) (blk2 m c t) (blk3 m c t) (blk4 m c t) (blk5 m c t) (outsAt0 m c (t.val - 1) (Nat.lt_of_le_of_lt (Nat.sub_le _ _) t.isLt)).2 r j

/-- After point `t` the accumulator holds the running sum up to scale `t % 4` of its rows. -/
theorem acc_inv (c : Dev nD) : ∀ (n : ℕ) (t : Fin cfg0.N), t.val = n → ∀ (r : Fin 2000) (p : Fin 3) (q : Fin 72),
    (outsAt0 m c t.val t.isLt).2 (ix2 r (col p q)) = accAt m c t r p q := by
  intro n
  induction n using Nat.strong_induction_on with
  | _ n ih =>
    intro t ht r p q
    subst ht
    by_cases h0 : t.val % 4 = 0
    · rw [outsAt0_A m c t h0]
      dsimp only
      refine (soutA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
        (blk0 m c t) (blk1 m c t) (blk2 m c t) (blk3 m c t) (blk4 m c t) (blk5 m c t) r p q).trans ?_
      exact (congrArg₂ (fun a b : EReal => a + b) rfl
        (blend_congr (blk0_apply m c t p r q) (blk1_apply m c t p r q) (blk2_apply m c t p r q) (blk3_apply m c t p r q)
          (blk4_apply m c t p r) (blk5_apply m c t p r))).trans
        (accK_at_zero _ _ _ _ _ _ (t.val % 4) (scale_lt t) h0 p _ q).symm
    · have hlt : t.val - 1 < cfg0.N := Nat.lt_of_le_of_lt (Nat.sub_le _ _) t.isLt
      rw [outsAt0_B m c t h0]
      dsimp only
      refine (soutB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h))
        (blk0 m c t) (blk1 m c t) (blk2 m c t) (blk3 m c t) (blk4 m c t) (blk5 m c t) (outsAt0 m c (t.val - 1) hlt).2 r p q).trans ?_
      refine (congrArg₂ (fun a b : EReal => a + b) ((ih (t.val - 1) (by omega) ⟨t.val - 1, hlt⟩ rfl r p q).trans ?_)
        (blend_congr (blk0_apply m c t p r q) (blk1_apply m c t p r q) (blk2_apply m c t p r q) (blk3_apply m c t p r q)
          (blk4_apply m c t p r) (blk5_apply m c t p r))).trans
        (accK_at_pos _ _ _ _ _ _ (t.val % 4) (scale_lt t) h0 p _ q).symm
      exact accK_congr _ _ _ _ _ _ _ _ _ _ (by show (t.val - 1) % 4 = t.val % 4 - 1; omega) p p rfl _ _
        (Fin.ext (by show 2000 * ((t.val - 1) / 4) + r.val = 2000 * (t.val / 4) + r.val; omega)) q q rfl

/-- So does the result block. -/
theorem out_inv (c : Dev nD) (t : Fin cfg0.N) (r : Fin 2000) (p : Fin 3) (q : Fin 72) :
    (outsAt0 m c t.val t.isLt).1 (ix3 (0 : Fin 1) r (col p q)) = accAt m c t r p q :=
  (out_eq_acc m c t r (col p q)).trans (acc_inv m c t.val t rfl r p q)

end Cert.KernelIdeal.Hand

end
-- ==== Proof.Val.Region.lean ====
import proofs.«171827_j17884243821138_1_alg».proof.Proof.Val.Invariant

/-! The array the kernel leaves. Every grid point writes its result block back: point `t`'s block is scale `t % 4`,
    rows `2000 (t / 4) …`, all 216 columns, and holds the running sum up to that scale. The 200 blocks tile the
    4 × 100000 × 216 array, so its entry `(s, n, j)` ends as the running sum up to scale `s` at row `n`, plane
    `j / 72`, channel `j % 72`. -/

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The running sum up to scale `s` at row `n`, column `j`. -/
def resAt (c : Dev nD) (s : Fin 4) (n : Fin 100000) (j : Fin 216) : EReal :=
  Cert.Triplane.accK (v00K m c) (v01K m c) (v10K m c) (v11K m c) (wxK m c) (wyK m c) s.val s.isLt
    ⟨j.val / 72, by have := j.isLt; omega⟩ n ⟨j.val % 72, Nat.mod_lt _ (by decide)⟩

/-- The same as the contents of the whole array. -/
def resArr (c : Dev nD) : Buf (Elt Ideal) ((c : Thread nD τ).loc main_v437) := fun i => resAt m c (i 0) (i 1) (i 2)

/-- What point `t` writes back is its block of `resArr`. -/
theorem region_flushed_eq (c : Dev nD) (t : Fin cfg0.N) (_hf : (cfg0.win 6).flush t = true) :
    (dats m 0 c).flushed 6 t = ((cfg0.win 6).blk t).view.read (Elt Ideal) (resArr m c) := by
  show (cfg0.win 6).cut (grid0.coords t) ((dats m 0 c).after 6 t) = _
  rw [after0_6]
  obtain ⟨e0, e1, e2⟩ := idx6 t
  funext y
  have h0 : (y 0).val < 1 := (y 0).isLt
  have h1 : (y 1).val < 2000 := (y 1).isLt
  have h2 : (y 2).val < 216 := (y 2).isLt
  have eL : (cfg0.win 6).xinj (grid0.coords t) y = ix3 (0 : Fin 1) (⟨(y 1).val, h1⟩ : Fin 2000) (⟨(y 2).val, h2⟩ : Fin 216) := by
    funext a
    apply Fin.ext
    match a with
    | ⟨0, _⟩ => show (y 0).val = 0; omega
    | ⟨1, _⟩ => rfl
    | ⟨2, _⟩ => rfl
  have eR : ((cfg0.win 6).blk t).view.emb y
      = ix3 (⟨t.val % 4, scale_lt t⟩ : Fin 4) (⟨2000 * (t.val / 4) + (y 1).val, row_lt t ⟨(y 1).val, h1⟩⟩ : Fin 100000)
          (⟨(y 2).val, h2⟩ : Fin 216) := by
    funext a
    apply Fin.ext
    match a with
    | ⟨0, _⟩ => show win0_6.index t (0 : Fin 3) * 1 + 1 * (y 0).val = t.val % 4; omega
    | ⟨1, _⟩ => show win0_6.index t (1 : Fin 3) * 2000 + 1 * (y 1).val = 2000 * (t.val / 4) + (y 1).val; omega
    | ⟨2, _⟩ => show win0_6.index t (2 : Fin 3) * 216 + 1 * (y 2).val = (y 2).val; omega
  show (outsAt0 m c t.val t.isLt).1 ((cfg0.win 6).xinj (grid0.coords t) y) = resArr m c (((cfg0.win 6).blk t).view.emb y)
  rw [eL, eR]
  exact (congrArg (fun j' => (outsAt0 m c t.val t.isLt).1 (ix3 (0 : Fin 1) (⟨(y 1).val, h1⟩ : Fin 2000) j'))
    (col_split ⟨(y 2).val, h2⟩)).trans (out_inv m c t ⟨(y 1).val, h1⟩ _ _)

/-- An entry of the array is in point `t`'s block iff each coordinate is in the block's range. -/
theorem region_mem_blk (t : Fin cfg0.N) (i : S4x100000x216.Idx) :
    i ∈ ((cfg0.win 6).blk t).view.set
      ↔ ∀ a : Fin 3, win0_6.index t a * S1x2000x216.size a ≤ (i a).val
          ∧ (i a).val < win0_6.index t a * S1x2000x216.size a + S1x2000x216.size a := by
  show i ∈ ((View.whole main_v437).slice (win0_6.rect t)).set ↔ _
  rw [View.set_slice_whole, Rect.mem_set_unit]
  exact Iff.rfl

/-- The array after the run. -/
theorem region_final (c : Dev nD) : (dats m 0 c).arrAt 6 cfg0.N = resArr m c :=
  (dats m 0 c).arrAt_eq_of_cover 6 (resArr m c) (region_flushed_eq m c) fun i => by
    have h0 : (i 0).val < 4 := (i 0).isLt
    have h1 : (i 1).val < 100000 := (i 1).isLt
    have h2 : (i 2).val < 216 := (i 2).isLt
    obtain ⟨t, ht⟩ : ∃ t : Fin cfg0.N, t = pointOf ⟨(i 0).val, h0⟩ ⟨(i 1).val, h1⟩ := ⟨_, rfl⟩
    have hm : t.val % 4 = (i 0).val := by rw [ht]; exact pointOf_mod _ _
    have hd : t.val / 4 = (i 1).val / 2000 := by rw [ht]; exact pointOf_div _ _
    obtain ⟨e0, e1, e2⟩ := idx6 t
    refine ⟨t, flush0_6 t, (region_mem_blk t i).mpr fun a => ?_⟩
    match a with
    | ⟨0, _⟩ =>
      show win0_6.index t (0 : Fin 3) * 1 ≤ (i 0).val ∧ (i 0).val < win0_6.index t (0 : Fin 3) * 1 + 1
      omega
    | ⟨1, _⟩ =>
      show win0_6.index t (1 : Fin 3) * 2000 ≤ (i 1).val ∧ (i 1).val < win0_6.index t (1 : Fin 3) * 2000 + 2000
      omega
    | ⟨2, _⟩ =>
      show win0_6.index t (2 : Fin 3) * 216 ≤ (i 2).val ∧ (i 2).val < win0_6.index t (2 : Fin 3) * 216 + 216
      omega

/-- The result array's entry `(s, n, j)` after the run: the running sum up to scale `s` at row `n`, plane `j / 72`,
    channel `j % 72`. -/
theorem region_value (c : Dev nD) (s : Fin 4) (n : Fin 100000) (j : Fin 216) :
    (dats m 0 c).arrAt 6 cfg0.N (ValueIdx.ix3 s n j)
      = Cert.Triplane.accK (v00K m c) (v01K m c) (v10K m c) (v11K m c) (wxK m c) (wyK m c) s.val s.isLt
          ⟨j.val / 72, by omega⟩ n ⟨j.val % 72, by omega⟩ :=
  congrFun (region_final m c) (ix3 s n j)

end Cert.KernelIdeal.Hand

end
-- ==== Proof.Val.Pick.lean ====
/-! Choosing one of four things by a scale index: the four scales' arrays are separate buffers in both programs,
    and the specification indexes them by `s : Fin 4`. -/

namespace Cert.Triplane

/-- The `s`-th of four. -/
def pick4 {α : Sort _} (s : Fin 4) (a b c d : α) : α :=
  match s with
  | ⟨0, _⟩ => a
  | ⟨1, _⟩ => b
  | ⟨2, _⟩ => c
  | ⟨3, _⟩ => d

@[simp] theorem pick4_zero {α : Sort _} (a b c d : α) : pick4 0 a b c d = a := rfl
@[simp] theorem pick4_one {α : Sort _} (a b c d : α) : pick4 1 a b c d = b := rfl
@[simp] theorem pick4_two {α : Sort _} (a b c d : α) : pick4 2 a b c d = c := rfl
@[simp] theorem pick4_three {α : Sort _} (a b c d : α) : pick4 3 a b c d = d := rfl

/-- Choosing commutes with applying a function to the chosen thing. -/
theorem pick4_apply {α β : Sort _} (s : Fin 4) (a b c d : α → β) (x : α) :
    pick4 s a b c d x = pick4 s (a x) (b x) (c x) (d x) := by
  match s with
  | ⟨0, _⟩ => rfl
  | ⟨1, _⟩ => rfl
  | ⟨2, _⟩ => rfl
  | ⟨3, _⟩ => rfl

/-- Choosing commutes with applying a function to the result. -/
theorem apply_pick4 {α β : Sort _} (f : α → β) (s : Fin 4) (a b c d : α) :
    f (pick4 s a b c d) = pick4 s (f a) (f b) (f c) (f d) := by
  match s with
  | ⟨0, _⟩ => rfl
  | ⟨1, _⟩ => rfl
  | ⟨2, _⟩ => rfl
  | ⟨3, _⟩ => rfl

/-- A scale number below four, as the index it is. -/
theorem pick4_mk {α : Sort _} (a b c d : α) :
    (pick4 ⟨0, by omega⟩ a b c d = a) ∧ (pick4 ⟨1, by omega⟩ a b c d = b) ∧ (pick4 ⟨2, by omega⟩ a b c d = c) ∧
      (pick4 ⟨3, by omega⟩ a b c d = d) := ⟨rfl, rfl, rfl, rfl⟩

end Cert.Triplane
-- ==== Proof.Val.LayoutK.lean ====
import proofs.«171827_j17884243821138_1_alg».proof.KernelIdeal
import proofs.«171827_j17884243821138_1_alg».proof.Proof.Spec
import proofs.«171827_j17884243821138_1_alg».proof.Proof.Val.Pick
import Idealize.ShloMosaic.Lib.ValueIdx
import Idealize.ShloMosaic.Lib.Pipeline.Value
import Idealize.ShloMosaic.Lib.ValueLayout

/-! The kernel program's layout operations around its pallas_call, read at an index, over the extended reals.

Before the call the four scales' arrays (`[3, 100000, 72]` corner values, `[3, 100000, 1]` weights) are each given a
leading unit axis and laid end to end along it: entry `(s, p, n, q)` of the stack is entry `(p, n, q)` of scale `s`'s
array. After the call the `[4, 100000, 216]` result has its first two axes swapped and its last two merged: entry
`(n, k)` of the `[100000, 864]` result is entry `(k / 216, n, k % 216)` of the call's result. -/

noncomputable section

namespace Cert.KernelIdeal.Hand

open Cert.KernelIdeal Idealize.ShloMosaic Idealize.ShloMosaic.ValueIdx
open Cert.Triplane (pick4)

variable [Facts₀]
open Facts₀

/-! ## A leading unit axis added by a broadcast -/

/-- A `[3, 100000, 72]` array given a leading unit axis reads, at `(u, p, n, q)`, the array at `(p, n, q)`. -/
theorem bcast_apply (x : S3x100000x72.Idx → EReal) (u : Fin 1) (p : Fin 3) (n : Fin 100000) (q : Fin 72) :
    broadcastInDim S1x3x100000x72 ![1, 2, 3] bcast_S3x100000x72_S1x3x100000x72_1_2_3 x (ix4 u p n q) = x (ix3 p n q) :=
  broadcastInDim_apply _ _ x _ _ fun a => by
    match a with
    | ⟨0, _⟩ => rfl
    | ⟨1, _⟩ => rfl
    | ⟨2, _⟩ => rfl

/-- A `[3, 100000, 1]` array given a leading unit axis reads, at `(u, p, n, q)`, the array at `(p, n, q)`; its last axis
    is a unit axis, whose only coordinate is `0`. -/
theorem bcastw_apply (x : S3x100000x1.Idx → EReal) (u : Fin 1) (p : Fin 3) (n : Fin 100000) (q : Fin 1) :
    broadcastInDim S1x3x100000x1 ![1, 2, 3] bcast_S3x100000x1_S1x3x100000x1_1_2_3 x (ix4 u p n q) = x (ix3 p n q) :=
  broadcastInDim_apply _ _ x _ _ fun a => by
    match a with
    | ⟨0, _⟩ => rfl
    | ⟨1, _⟩ => rfl
    | ⟨2, _⟩ => show q.val = 0; omega

/-! ## Four unit slabs laid end to end along the leading axis -/

/-- Four `[1, 3, 100000, 72]` slabs laid end to end along axis 0 read, at `(s, p, n, q)`, slab `s` at `(0, p, n, q)`:
    each slab spans one position of the axis, so the position is the slab's number. -/
theorem cat4u_apply (y0 y1 y2 y3 : S1x3x100000x72.Idx → EReal) (s : Fin 4) (p : Fin 3) (n : Fin 100000) (q : Fin 72) :
    concatenate S4x3x100000x72 0
        [⟨S1x3x100000x72, y0⟩, ⟨S1x3x100000x72, y1⟩, ⟨S1x3x100000x72, y2⟩, ⟨S1x3x100000x72, y3⟩]
        concatenates_S1x3x100000x72_S1x3x100000x72_S1x3x100000x72_S1x3x100000x72_S4x3x100000x72_d0 (ix4 s p n q)
      = pick4 s y0 y1 y2 y3 (ix4 (0 : Fin 1) p n q) := by
  match s with
  | ⟨0, _⟩ =>
    show _ = y0 (ix4 (0 : Fin 1) p n q)
    exact concatenate_apply_piece (t := S4x3x100000x72) 0
      [⟨S1x3x100000x72, y0⟩, ⟨S1x3x100000x72, y1⟩, ⟨S1x3x100000x72, y2⟩, ⟨S1x3x100000x72, y3⟩] _ _ 0 (by show (0 : ℕ) < 4; decide) S1x3x100000x72 y0 rfl rfl 0 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨1, _⟩ =>
    show _ = y1 (ix4 (0 : Fin 1) p n q)
    exact concatenate_apply_piece (t := S4x3x100000x72) 0
      [⟨S1x3x100000x72, y0⟩, ⟨S1x3x100000x72, y1⟩, ⟨S1x3x100000x72, y2⟩, ⟨S1x3x100000x72, y3⟩] _ _ 1 (by show (1 : ℕ) < 4; decide) S1x3x100000x72 y1 rfl rfl 1 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨2, _⟩ =>
    show _ = y2 (ix4 (0 : Fin 1) p n q)
    exact concatenate_apply_piece (t := S4x3x100000x72) 0
      [⟨S1x3x100000x72, y0⟩, ⟨S1x3x100000x72, y1⟩, ⟨S1x3x100000x72, y2⟩, ⟨S1x3x100000x72, y3⟩] _ _ 2 (by show (2 : ℕ) < 4; decide) S1x3x100000x72 y2 rfl rfl 2 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨3, _⟩ =>
    show _ = y3 (ix4 (0 : Fin 1) p n q)
    exact concatenate_apply_piece (t := S4x3x100000x72) 0
      [⟨S1x3x100000x72, y0⟩, ⟨S1x3x100000x72, y1⟩, ⟨S1x3x100000x72, y2⟩, ⟨S1x3x100000x72, y3⟩] _ _ 3 (by show (3 : ℕ) < 4; decide) S1x3x100000x72 y3 rfl rfl 3 rfl
      (ix4 (0 : Fin 1) p n q)
      (fun b hb => by
        match b with
        | ⟨0, _⟩ => exact absurd rfl hb
        | ⟨1, _⟩ => rfl
        | ⟨2, _⟩ => rfl
        | ⟨3, _⟩ => rfl) rfl

/-- The same for four `[1, 3, 100000, 1]` slabs. -/
theorem cat4uw_apply (y0 y1 y2 y3 : S1x3x100000x1.Idx → EReal) (s : Fin 4) (p : Fin 3) (n : Fin 100000) (q : Fin 1) :
    concatenate S4x3x100000x1 0
        [⟨S1x3x100000x1, y0⟩, ⟨S1x3x100000x1, y1⟩, ⟨S1x3x100000x1, y2⟩, ⟨S1x3x100000x1, y3⟩]
        concatenates_S1x3x100000x1_S1x3x100000x1_S1x3x100000x1_S1x3x100000x1_S4x3x100000x1_d0 (ix4 s p n q)
      = pick4 s y0 y1 y2 y3 (ix4 (0 : Fin 1) p n q) := by
  match s with
  | ⟨0, _⟩ =>
    show _ = y0 (ix4 (0 : Fin 1) p n q)
    exact concatenate_apply_piece (t := S4x3x100000x1) 0
      [⟨S1x3x100000x1, y0⟩, ⟨S1x3x100000x1, y1⟩, ⟨S1x3x100000x1, y2⟩, ⟨S1x3x100000x1, y3⟩] _ _ 0 (by show (0 : ℕ) < 4; decide) S1x3x100000x1 y0 rfl rfl 0 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨1, _⟩ =>
    show _ = y1 (ix4 (0 : Fin 1) p n q)
    exact concatenate_apply_piece (t := S4x3x100000x1) 0
      [⟨S1x3x100000x1, y0⟩, ⟨S1x3x100000x1, y1⟩, ⟨S1x3x100000x1, y2⟩, ⟨S1x3x100000x1, y3⟩] _ _ 1 (by show (1 : ℕ) < 4; decide) S1x3x100000x1 y1 rfl rfl 1 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨2, _⟩ =>
    show _ = y2 (ix4 (0 : Fin 1) p n q)
    exact concatenate_apply_piece (t := S4x3x100000x1) 0
      [⟨S1x3x100000x1, y0⟩, ⟨S1x3x100000x1, y1⟩, ⟨S1x3x100000x1, y2⟩, ⟨S1x3x100000x1, y3⟩] _ _ 2 (by show (2 : ℕ) < 4; decide) S1x3x100000x1 y2 rfl rfl 2 rfl
      (ix4 (0 : Fin 1) p n q)
      (fun b hb => by
        match b with
        | ⟨0, _⟩ => exact absurd rfl hb
        | ⟨1, _⟩ => rfl
        | ⟨2, _⟩ => rfl
        | ⟨3, _⟩ => rfl) rfl
  | ⟨3, _⟩ =>
    show _ = y3 (ix4 (0 : Fin 1) p n q)
    exact concatenate_apply_piece (t := S4x3x100000x1) 0
      [⟨S1x3x100000x1, y0⟩, ⟨S1x3x100000x1, y1⟩, ⟨S1x3x100000x1, y2⟩, ⟨S1x3x100000x1, y3⟩] _ _ 3 (by show (3 : ℕ) < 4; decide) S1x3x100000x1 y3 rfl rfl 3 rfl
      (ix4 (0 : Fin 1) p n q)
      (fun b hb => by
        match b with
        | ⟨0, _⟩ => exact absurd rfl hb
        | ⟨1, _⟩ => rfl
        | ⟨2, _⟩ => rfl
        | ⟨3, _⟩ => rfl) rfl

/-! ## The stack of the four scales -/

/-- The stack of four `[3, 100000, 72]` arrays reads, at `(s, p, n, q)`, array `s` at `(p, n, q)`. -/
theorem stack4_apply (x0 x1 x2 x3 : S3x100000x72.Idx → EReal) (s : Fin 4) (p : Fin 3) (n : Fin 100000) (q : Fin 72) :
    concatenate S4x3x100000x72 0
        [⟨S1x3x100000x72, broadcastInDim S1x3x100000x72 ![1, 2, 3] bcast_S3x100000x72_S1x3x100000x72_1_2_3 x0⟩,
         ⟨S1x3x100000x72, broadcastInDim S1x3x100000x72 ![1, 2, 3] bcast_S3x100000x72_S1x3x100000x72_1_2_3 x1⟩,
         ⟨S1x3x100000x72, broadcastInDim S1x3x100000x72 ![1, 2, 3] bcast_S3x100000x72_S1x3x100000x72_1_2_3 x2⟩,
         ⟨S1x3x100000x72, broadcastInDim S1x3x100000x72 ![1, 2, 3] bcast_S3x100000x72_S1x3x100000x72_1_2_3 x3⟩]
        concatenates_S1x3x100000x72_S1x3x100000x72_S1x3x100000x72_S1x3x100000x72_S4x3x100000x72_d0 (ix4 s p n q)
      = pick4 s x0 x1 x2 x3 (ix3 p n q) := by
  refine (cat4u_apply _ _ _ _ s p n q).trans ?_
  match s with
  | ⟨0, _⟩ => exact bcast_apply x0 0 p n q
  | ⟨1, _⟩ => exact bcast_apply x1 0 p n q
  | ⟨2, _⟩ => exact bcast_apply x2 0 p n q
  | ⟨3, _⟩ => exact bcast_apply x3 0 p n q

/-- The stack of four `[3, 100000, 1]` weight arrays reads, at `(s, p, n, q)`, array `s` at `(p, n, q)`. -/
theorem stack4w_apply (x0 x1 x2 x3 : S3x100000x1.Idx → EReal) (s : Fin 4) (p : Fin 3) (n : Fin 100000) (q : Fin 1) :
    concatenate S4x3x100000x1 0
        [⟨S1x3x100000x1, broadcastInDim S1x3x100000x1 ![1, 2, 3] bcast_S3x100000x1_S1x3x100000x1_1_2_3 x0⟩,
         ⟨S1x3x100000x1, broadcastInDim S1x3x100000x1 ![1, 2, 3] bcast_S3x100000x1_S1x3x100000x1_1_2_3 x1⟩,
         ⟨S1x3x100000x1, broadcastInDim S1x3x100000x1 ![1, 2, 3] bcast_S3x100000x1_S1x3x100000x1_1_2_3 x2⟩,
         ⟨S1x3x100000x1, broadcastInDim S1x3x100000x1 ![1, 2, 3] bcast_S3x100000x1_S1x3x100000x1_1_2_3 x3⟩]
        concatenates_S1x3x100000x1_S1x3x100000x1_S1x3x100000x1_S1x3x100000x1_S4x3x100000x1_d0 (ix4 s p n q)
      = pick4 s x0 x1 x2 x3 (ix3 p n q) := by
  refine (cat4uw_apply _ _ _ _ s p n q).trans ?_
  match s with
  | ⟨0, _⟩ => exact bcastw_apply x0 0 p n q
  | ⟨1, _⟩ => exact bcastw_apply x1 0 p n q
  | ⟨2, _⟩ => exact bcastw_apply x2 0 p n q
  | ⟨3, _⟩ => exact bcastw_apply x3 0 p n q

/-- The stack read at an index, from the equations of the five arrays involved: the stack `A` is the four slabs
    `y0 … y3` laid end to end, and slab `yᵢ` is array `xᵢ` with a leading unit axis. -/
theorem stack4_of {A : S4x3x100000x72.Idx → EReal} {y0 y1 y2 y3 : S1x3x100000x72.Idx → EReal}
    {x0 x1 x2 x3 : S3x100000x72.Idx → EReal}
    (hA : A = concatenate S4x3x100000x72 0
        [⟨S1x3x100000x72, y0⟩, ⟨S1x3x100000x72, y1⟩, ⟨S1x3x100000x72, y2⟩, ⟨S1x3x100000x72, y3⟩] concatenates_S1x3x100000x72_S1x3x100000x72_S1x3x100000x72_S1x3x100000x72_S4x3x100000x72_d0)
    (h0 : y0 = broadcastInDim S1x3x100000x72 ![1, 2, 3] bcast_S3x100000x72_S1x3x100000x72_1_2_3 x0) (h1 : y1 = broadcastInDim S1x3x100000x72 ![1, 2, 3] bcast_S3x100000x72_S1x3x100000x72_1_2_3 x1)
    (h2 : y2 = broadcastInDim S1x3x100000x72 ![1, 2, 3] bcast_S3x100000x72_S1x3x100000x72_1_2_3 x2) (h3 : y3 = broadcastInDim S1x3x100000x72 ![1, 2, 3] bcast_S3x100000x72_S1x3x100000x72_1_2_3 x3)
    (s : Fin 4) (p : Fin 3) (n : Fin 100000) (q : Fin 72) :
    A (ix4 s p n q) = pick4 s x0 x1 x2 x3 (ix3 p n q) := by
  subst hA h0 h1 h2 h3
  exact stack4_apply x0 x1 x2 x3 s p n q

/-- The same for the weight arrays. -/
theorem stack4w_of {A : S4x3x100000x1.Idx → EReal} {y0 y1 y2 y3 : S1x3x100000x1.Idx → EReal}
    {x0 x1 x2 x3 : S3x100000x1.Idx → EReal}
    (hA : A = concatenate S4x3x100000x1 0
        [⟨S1x3x100000x1, y0⟩, ⟨S1x3x100000x1, y1⟩, ⟨S1x3x100000x1, y2⟩, ⟨S1x3x100000x1, y3⟩] concatenates_S1x3x100000x1_S1x3x100000x1_S1x3x100000x1_S1x3x100000x1_S4x3x100000x1_d0)
    (h0 : y0 = broadcastInDim S1x3x100000x1 ![1, 2, 3] bcast_S3x100000x1_S1x3x100000x1_1_2_3 x0) (h1 : y1 = broadcastInDim S1x3x100000x1 ![1, 2, 3] bcast_S3x100000x1_S1x3x100000x1_1_2_3 x1)
    (h2 : y2 = broadcastInDim S1x3x100000x1 ![1, 2, 3] bcast_S3x100000x1_S1x3x100000x1_1_2_3 x2) (h3 : y3 = broadcastInDim S1x3x100000x1 ![1, 2, 3] bcast_S3x100000x1_S1x3x100000x1_1_2_3 x3)
    (s : Fin 4) (p : Fin 3) (n : Fin 100000) (q : Fin 1) :
    A (ix4 s p n q) = pick4 s x0 x1 x2 x3 (ix3 p n q) := by
  subst hA h0 h1 h2 h3
  exact stack4w_apply x0 x1 x2 x3 s p n q

/-! ## The result's axes swapped and merged -/

/-- The `[4, 100000, 216]` array with its first two axes swapped and its last two merged reads, at `(n, k)`, the array at
    `(k / 216, n, k % 216)`: position `864 n + k` of the `[100000, 864]` array is position
    `(4 n + k / 216) · 216 + k % 216` of the `[100000, 4, 216]` one. -/
theorem tail_apply (A : S4x100000x216.Idx → EReal) (n : Fin 100000) (k : Fin 864) :
    shapeCast S100000x864 (transpose S100000x4x216 [1, 0, 2] A transposes_S4x100000x216_S100000x4x216_1_0_2)
        shapeCasts_S100000x4x216_S100000x864 (ix2 n k)
      = A (ix3 (⟨k.val / 216, by omega⟩ : Fin 4) n (⟨k.val % 216, by omega⟩ : Fin 216)) := by
  refine (shapeCast_apply _ _ (ix2 n k)
    (ix3 n (⟨k.val / 216, by omega⟩ : Fin 4) (⟨k.val % 216, by omega⟩ : Fin 216)) ?_).trans ?_
  · rw [Shape.rowMajor_val_three, Shape.rowMajor_val_two]
    show (n.val * 4 + k.val / 216) * 216 + k.val % 216 = n.val * 864 + k.val
    omega
  · exact transpose_apply _ A _ _ _ fun b => by
      match b with
      | ⟨0, _⟩ => rfl
      | ⟨1, _⟩ => rfl
      | ⟨2, _⟩ => rfl

/-- The same from the equations of the two arrays involved: `T` is `A` with its first two axes swapped, `R` is `T` with
    its last two axes merged. -/
theorem tail_of {A : S4x100000x216.Idx → EReal} {T : S100000x4x216.Idx → EReal} {R : S100000x864.Idx → EReal}
    (hT : T = transpose S100000x4x216 [1, 0, 2] A transposes_S4x100000x216_S100000x4x216_1_0_2)
    (hR : R = shapeCast S100000x864 T shapeCasts_S100000x4x216_S100000x864) (n : Fin 100000) (k : Fin 864) :
    R (ix2 n k) = A (ix3 (⟨k.val / 216, by omega⟩ : Fin 4) n (⟨k.val % 216, by omega⟩ : Fin 216)) := by
  subst hR hT
  exact tail_apply A n k

end Cert.KernelIdeal.Hand

end
-- ==== Proof.Val.KernelTail.lean ====
import proofs.«171827_j17884243821138_1_alg».proof.Proof.KI.FrameDefs
import proofs.«171827_j17884243821138_1_alg».proof.Proof.Val.LayoutK
import proofs.«171827_j17884243821138_1_alg».proof.Proof.Val.KCorners

/-! What the kernel program returns, read at an index, in terms of what its pallas_call left.

After the call the program swaps the first two axes of the call's `[4, 100000, 216]` result and merges the last two:
entry `(n, k)` of the `[100000, 864]` result is entry `(k / 216, n, k % 216)` of the array the call wrote. -/

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The returned array at `(n, k)` is the call's output array at `(k / 216, n, k % 216)`. -/
theorem tail_value (c : Dev nD) (n : Fin 100000) (k : Fin 864) :
    Pipeline.afterTail₀ cfgs (dats m) 0 (V0 m) [hostOps1] c main_v439 (ix2 n k)
      = (dats m 0 c).arrAt 6 cfg0.N (ix3 (⟨k.val / 216, by omega⟩ : Fin 4) n (⟨k.val % 216, by omega⟩ : Fin 216)) := by
  unfold Pipeline.afterTail₀
  show StableHlo.after hostOps1 _ (Proc.devRef .tc main_v439) (ix2 n k) = _
  after_results
  rw [Pipeline.withArrays_arr spec0 launch0.win.arr_inj c _ _ 6]
  exact tail_apply _ n k

end Cert.KernelIdeal.Hand

end
-- ==== Proof.LibSsa.lean ====
import Idealize.ShloMosaic.Lib.StableHlo.Run

/-! # A straight line of host operations in single-assignment form

A printed @main writes every tensor value's buffer exactly once, and reads a buffer only after it was written (or
never written at all: an argument). For such a line the contents AFTER THE WHOLE LINE satisfy each operation's
defining equation: the result buffer holds the operation's function of what its operand buffers hold at the end.
This file states that once, for a line `ops` together with the list `wl` of the references its operations write, in
order, so that a long @main is read equation by equation instead of by folding the whole line for every buffer. -/

namespace Idealize.ShloMosaic.StableHlo.Ssa

open Idealize.ShloMosaic Idealize.ShloMosaic.StableHlo TcCoe

variable {τ : Topo} {sig : RefSig} {Val : EltTy → Type}

/-- Operation by operation, the line writes exactly the references of `wl`: one result buffer each. -/
def WritesOne (ops : List (HloOp τ sig Val)) (wl : List (Ref sig .tc)) : Prop :=
  List.Forall₂ (fun op r => op.writes = {Proc.devRef .tc r}) ops wl

theorem WritesOne.nil : WritesOne ([] : List (HloOp τ sig Val)) [] := List.Forall₂.nil

theorem WritesOne.cons {op : HloOp τ sig Val} {r : Ref sig .tc} {ops : List (HloOp τ sig Val)} {wl : List (Ref sig .tc)}
    (h : op.writes = {Proc.devRef .tc r}) (ht : WritesOne ops wl) : WritesOne (op :: ops) (r :: wl) :=
  List.Forall₂.cons h ht

theorem WritesOne.append {l₁ l₂ : List (HloOp τ sig Val)} {w₁ w₂ : List (Ref sig .tc)}
    (h₁ : WritesOne l₁ w₁) (h₂ : WritesOne l₂ w₂) : WritesOne (l₁ ++ l₂) (w₁ ++ w₂) :=
  List.rel_append h₁ h₂

/-- Two lines run one after the other fold as the second over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line does not write keeps its contents. -/
theorem after_of_not_mem {ops : List (HloOp τ sig Val)} {wl : List (Ref sig .tc)} (hw : WritesOne ops wl)
    {r : Ref sig .tc} (hr : r ∉ wl) (V : Valuation τ sig Val) :
    after ops V (Proc.devRef .tc r) = V (Proc.devRef .tc r) := by
  induction hw generalizing V with
  | nil => rfl
  | @cons op y ops wl h _ ih =>
    rw [after_cons, ih (fun hm => hr (List.mem_cons_of_mem _ hm))]
    refine op.result_of_not_mem V ?_
    rw [h, Finset.mem_singleton]
    intro he
    exact hr (by rw [Proc.devRef_injective _ he]; exact List.mem_cons_self)

/-- A reference none of the operations from position `k` on writes holds at the end what the first `k` left. -/
theorem after_eq_take {ops : List (HloOp τ sig Val)} {wl : List (Ref sig .tc)} (hw : WritesOne ops wl) (k : ℕ)
    {r : Ref sig .tc} (hr : r ∉ wl.drop k) (V : Valuation τ sig Val) :
    after ops V (Proc.devRef .tc r) = after (ops.take k) V (Proc.devRef .tc r) := by
  have hd : WritesOne (ops.drop k) (wl.drop k) := by
    unfold WritesOne at hw ⊢
    exact List.forall₂_drop k hw
  conv_lhs => rw [← List.take_append_drop k ops, after_append]
  exact after_of_not_mem hd hr _

/-- In a duplicate-free list an entry does not occur again further on. -/
theorem not_mem_drop_of_lt {wl : List (Ref sig .tc)} (hnd : wl.Nodup) {j k : ℕ} (hjk : j < k) {x : Ref sig .tc}
    (hx : wl[j]? = some x) : x ∉ wl.drop k := by
  intro hm
  obtain ⟨i, hi, rfl⟩ := List.getElem_of_mem hm
  rw [List.getElem_drop] at hx
  have hj : j < wl.length := by
    by_contra h
    rw [List.getElem?_eq_none (Nat.le_of_not_lt h)] at hx
    exact absurd hx (by simp)
  rw [List.getElem?_eq_getElem hj, Option.some.injEq] at hx
  have := (List.Nodup.getElem_inj_iff hnd).mp hx
  omega

/-- A reference the line never writes is not written from any position on. -/
theorem not_mem_drop_of_not_mem {wl : List (Ref sig .tc)} {x : Ref sig .tc} (hx : x ∉ wl) (k : ℕ) : x ∉ wl.drop k :=
  fun hm => hx (List.mem_of_mem_drop hm)

/-- The operation at position `k`, whose result buffer is `y` and is written nowhere else: at the end `y` holds what
    that operation made of the contents the first `k` operations left. -/
theorem after_at {ops : List (HloOp τ sig Val)} {wl : List (Ref sig .tc)} (hw : WritesOne ops wl) (hnd : wl.Nodup)
    (k : ℕ) {op : HloOp τ sig Val} {y : Ref sig .tc} (hop : ops[k]? = some op) (hy : wl[k]? = some y)
    (V : Valuation τ sig Val) :
    after ops V (Proc.devRef .tc y) = op.result (after (ops.take k) V) (Proc.devRef .tc y) := by
  have hy' : y ∉ wl.drop (k + 1) := not_mem_drop_of_lt hnd (Nat.lt_succ_self k) hy
  rw [after_eq_take hw (k + 1) hy']
  have hk : k < ops.length := by
    by_contra h
    rw [List.getElem?_eq_none (Nat.le_of_not_lt h)] at hop
    exact absurd hop (by simp)
  have : ops.take (k + 1) = ops.take k ++ [op] := by
    rw [List.take_succ, hop]; rfl
  rw [this, after_append]
  rfl

/-! ## The defining equation of each kind of operation, read at the end of the line -/

section Kinds

variable {ops : List (HloOp τ sig Val)} {wl : List (Ref sig .tc)}

/-- A constant: its buffer holds the value at the end. -/
theorem ssa_nullary (hw : WritesOne ops wl) (hnd : wl.Nodup) (V : Valuation τ sig Val) (k : ℕ) {y : Ref sig .tc}
    {v : y.ty.Contents Val} {hy} (hop : ops[k]? = some (nullary y v hy)) (hyk : wl[k]? = some y) :
    after ops V (Proc.devRef .tc y) = v := by
  rw [after_at hw hnd k hop hyk]; exact nullary_result y v hy _

/-- One operand, not written from position `k` on. -/
theorem ssa_unary (hw : WritesOne ops wl) (hnd : wl.Nodup) (V : Valuation τ sig Val) (k : ℕ) {x y : Ref sig .tc}
    {f : x.ty.Contents Val → y.ty.Contents Val} {hx hy} (hop : ops[k]? = some (unary x y f hx hy))
    (hyk : wl[k]? = some y) (hx' : x ∉ wl.drop k) :
    after ops V (Proc.devRef .tc y) = f (after ops V (Proc.devRef .tc x)) := by
  rw [after_at hw hnd k hop hyk, after_eq_take hw k hx']; exact unary_result x y f hx hy _

/-- Two operands. -/
theorem ssa_binary (hw : WritesOne ops wl) (hnd : wl.Nodup) (V : Valuation τ sig Val) (k : ℕ) {a b y : Ref sig .tc}
    {f : a.ty.Contents Val → b.ty.Contents Val → y.ty.Contents Val} {ha hb hy}
    (hop : ops[k]? = some (binary a b y f ha hb hy)) (hyk : wl[k]? = some y) (ha' : a ∉ wl.drop k) (hb' : b ∉ wl.drop k) :
    after ops V (Proc.devRef .tc y) = f (after ops V (Proc.devRef .tc a)) (after ops V (Proc.devRef .tc b)) := by
  rw [after_at hw hnd k hop hyk, after_eq_take hw k ha', after_eq_take hw k hb']; exact binary_result a b y f ha hb hy _

/-- Three operands (a select). -/
theorem ssa_ternary (hw : WritesOne ops wl) (hnd : wl.Nodup) (V : Valuation τ sig Val) (k : ℕ) {c a b y : Ref sig .tc}
    {f : c.ty.Contents Val → a.ty.Contents Val → b.ty.Contents Val → y.ty.Contents Val} {hc ha hb hy}
    (hop : ops[k]? = some (ternary c a b y f hc ha hb hy)) (hyk : wl[k]? = some y)
    (hc' : c ∉ wl.drop k) (ha' : a ∉ wl.drop k) (hb' : b ∉ wl.drop k) :
    after ops V (Proc.devRef .tc y)
      = f (after ops V (Proc.devRef .tc c)) (after ops V (Proc.devRef .tc a)) (after ops V (Proc.devRef .tc b)) := by
  rw [after_at hw hnd k hop hyk, after_eq_take hw k hc', after_eq_take hw k ha', after_eq_take hw k hb']
  exact ternary_result c a b y f hc ha hb hy _

/-- A reshape: the operand's elements in row-major order at the result's shape. -/
theorem ssa_reshape (hw : WritesOne ops wl) (hnd : wl.Nodup) (V : Valuation τ sig Val) (k : ℕ) {x y : Ref sig .tc}
    {he : x.ty.elt = y.ty.elt} {hn : x.ty.shape.ShapeCasts y.ty.shape} {hx hy}
    (hop : ops[k]? = some (reshape x y he hn hx hy)) (hyk : wl[k]? = some y) (hx' : x ∉ wl.drop k) :
    after ops V (Proc.devRef .tc y) = fun i => he ▸ shapeCast y.ty.shape (after ops V (Proc.devRef .tc x)) hn i := by
  rw [after_at hw hnd k hop hyk, after_eq_take hw k hx']; exact reshape_result x y he hn hx hy _

/-- A family of operands (a concatenate), none written from position `k` on. -/
theorem ssa_nary (hw : WritesOne ops wl) (hnd : wl.Nodup) (V : Valuation τ sig Val) (k : ℕ) {n : ℕ}
    {xs : Fin n → Ref sig .tc} {y : Ref sig .tc} {f : ((i : Fin n) → (xs i).ty.Contents Val) → y.ty.Contents Val} {hxs hy}
    (hop : ops[k]? = some (nary xs y f hxs hy)) (hyk : wl[k]? = some y) (hxs' : ∀ i, xs i ∉ wl.drop k) :
    after ops V (Proc.devRef .tc y) = f (fun i => after ops V (Proc.devRef .tc (xs i))) := by
  rw [after_at hw hnd k hop hyk, nary_result]
  congr 1; funext i; exact (after_eq_take hw k (hxs' i) V).symm

end Kinds

/-! ## Two lines that apply the same function to equal operands leave equal results -/

theorem same0 {B : Type} {v b b' : B} (hb : b = v) (hb' : b' = v) : b = b' := hb.trans hb'.symm

theorem same1 {A B : Type} {f : A → B} {a a' : A} {b b' : B} (hb : b = f a) (hb' : b' = f a') (ha : a = a') : b = b' := by
  subst ha; exact hb.trans hb'.symm

theorem same2 {A₁ A₂ B : Type} {f : A₁ → A₂ → B} {a₁ a₁' : A₁} {a₂ a₂' : A₂} {b b' : B} (hb : b = f a₁ a₂)
    (hb' : b' = f a₁' a₂') (h₁ : a₁ = a₁') (h₂ : a₂ = a₂') : b = b' := by
  subst h₁; subst h₂; exact hb.trans hb'.symm

theorem same3 {A₁ A₂ A₃ B : Type} {f : A₁ → A₂ → A₃ → B} {a₁ a₁' : A₁} {a₂ a₂' : A₂} {a₃ a₃' : A₃} {b b' : B}
    (hb : b = f a₁ a₂ a₃) (hb' : b' = f a₁' a₂' a₃') (h₁ : a₁ = a₁') (h₂ : a₂ = a₂') (h₃ : a₃ = a₃') : b = b' := by
  subst h₁; subst h₂; subst h₃; exact hb.trans hb'.symm

end Idealize.ShloMosaic.StableHlo.Ssa
-- ==== Proof.Val.LibLine.lean ====
import proofs.«171827_j17884243821138_1_alg».proof.Proof.LibSsa

/-! # Two small tools for a long line cut into stretches

A line given as the concatenation of stretches is indexed stretch by stretch: an entry of stretch J stands in the
whole line at the earlier stretches' lengths plus its own place, so that naming an operation walks one stretch and
never the whole line. And a list whose entries carry strictly increasing numbers has no repeats, which is decided
in one pass over the numbers instead of by comparing every two entries. -/

namespace Idealize.ShloMosaic.StableHlo.Ssa

/-! ## Entries of a concatenation -/

/-- Past the first list, the concatenation is indexed as the second. -/
theorem at_tail {α : Type} {l₁ l₂ : List α} {n i : ℕ} {o : Option α} (hn : l₁.length = n) (h : l₂[i]? = o) :
    (l₁ ++ l₂)[n + i]? = o := by
  subst hn
  rw [List.getElem?_append_right (Nat.le_add_right _ _), Nat.add_sub_cancel_left]
  exact h

/-- An entry of the first list is the concatenation's entry at the same place. -/
theorem at_head {α : Type} {l₁ l₂ : List α} {k : ℕ} {a : α} (h : l₁[k]? = some a) : (l₁ ++ l₂)[k]? = some a := by
  have hk : k < l₁.length := by
    by_contra hn
    rw [List.getElem?_eq_none (Nat.le_of_not_lt hn)] at h
    exact absurd h (by simp)
  rw [List.getElem?_append_left hk]
  exact h

/-! ## Strictly increasing numbers -/

/-- Each number is below the next one. -/
def incr : List ℕ → Bool
  | [] => true
  | a :: l => (match l with | [] => true | b :: _ => decide (a < b)) && incr l

theorem incr_cons_cons (a b : ℕ) (l : List ℕ) : incr (a :: b :: l) = (decide (a < b) && incr (b :: l)) := rfl

theorem incr_tail {a : ℕ} : ∀ {l : List ℕ}, incr (a :: l) = true → incr l = true
  | [], _ => rfl
  | b :: l, h => by
    rw [incr_cons_cons, Bool.and_eq_true] at h
    exact h.2

/-- The head of an increasing list is below every later entry. -/
theorem lt_of_incr : ∀ {l : List ℕ} {a : ℕ}, incr (a :: l) = true → ∀ x ∈ l, a < x
  | [], _, _, x, hx => by cases hx
  | b :: l, a, h, x, hx => by
    rw [incr_cons_cons, Bool.and_eq_true, decide_eq_true_eq] at h
    rcases List.mem_cons.mp hx with hxb | hx'
    · rw [hxb]; exact h.1
    · exact Nat.lt_trans h.1 (lt_of_incr h.2 x hx')

/-- A list whose entries carry strictly increasing numbers has no repeats. -/
theorem nodup_of_incr_map {α : Type} (f : α → ℕ) : ∀ {l : List α}, incr (l.map f) = true → l.Nodup
  | [], _ => List.nodup_nil
  | a :: l, h => by
    rw [List.map_cons] at h
    exact List.nodup_cons.mpr
      ⟨fun hm => Nat.lt_irrefl (f a) (lt_of_incr h (f a) (List.mem_map_of_mem hm)), nodup_of_incr_map f (incr_tail h)⟩

/-- An entry whose number is below every number on the list is not on the list. -/
theorem not_mem_of_all_ge {α : Type} (f : α → ℕ) {l : List α} {n : ℕ}
    (h : (l.map f).all (fun x => decide (n ≤ x)) = true) {a : α} (ha : f a < n) : a ∉ l := by
  intro hm
  have h' := List.all_eq_true.mp h (f a) (List.mem_map_of_mem hm)
  exact Nat.not_le_of_lt ha (of_decide_eq_true h')

end Idealize.ShloMosaic.StableHlo.Ssa
-- ==== Proof.Val.StackK.lean ====
import proofs.«171827_j17884243821138_1_alg».proof.Proof.Val.LayoutK
import proofs.«171827_j17884243821138_1_alg».proof.Proof.Val.KFacts5

/-! The six arrays the kernel's pallas_call reads are the four scales' buffers stacked: by the equations of the five
    operations that form each stack (four leading unit axes added, one laying end to end), entry `(s, p, n, q)` of a
    stack is entry `(p, n, q)` of scale `s`'s buffer. -/

noncomputable section

namespace Cert.KernelIdeal.Hand

open Cert.KernelIdeal Cert.KernelIdeal.Gen Idealize.ShloMosaic Idealize.ShloMosaic.TcCoe Idealize.SL.Sem
open Idealize.ShloMosaic.ValueIdx
open Cert.Triplane (pick4)

variable (m : (ℓ : Loc nD τ sig) → Buf (Elt Ideal) ℓ)

set_option maxHeartbeats 800000 in
/-- The stack of the four scales' corner (0, 0): entry `(s, p, n, q)` is entry `(p, n, q)` of scale `s`'s buffer. -/
theorem stack_v00 (c : Dev nD) (s : Fin 4) (p : Fin 3) (n : Fin 100000) (q : Fin 72) :
    V m c main_v411 (ix4 s p n q)
      = pick4 (α := FVec Ideal S3x100000x72 .f32) s (V m c main_v79) (V m c main_v173) (V m c main_v267) (V m c main_v361) (ix3 p n q) :=
  stack4_of (hv_main_v411 m c) (hv_main_v407 m c) (hv_main_v408 m c) (hv_main_v409 m c) (hv_main_v410 m c) s p n q

set_option maxHeartbeats 800000 in
/-- The stack of the four scales' corner (0, 1): entry `(s, p, n, q)` is entry `(p, n, q)` of scale `s`'s buffer. -/
theorem stack_v01 (c : Dev nD) (s : Fin 4) (p : Fin 3) (n : Fin 100000) (q : Fin 72) :
    V m c main_v416 (ix4 s p n q)
      = pick4 (α := FVec Ideal S3x100000x72 .f32) s (V m c main_v94) (V m c main_v188) (V m c main_v282) (V m c main_v376) (ix3 p n q) :=
  stack4_of (hv_main_v416 m c) (hv_main_v412 m c) (hv_main_v413 m c) (hv_main_v414 m c) (hv_main_v415 m c) s p n q

set_option maxHeartbeats 800000 in
/-- The stack of the four scales' corner (1, 0): entry `(s, p, n, q)` is entry `(p, n, q)` of scale `s`'s buffer. -/
theorem stack_v10 (c : Dev nD) (s : Fin 4) (p : Fin 3) (n : Fin 100000) (q : Fin 72) :
    V m c main_v421 (ix4 s p n q)
      = pick4 (α := FVec Ideal S3x100000x72 .f32) s (V m c main_v109) (V m c main_v203) (V m c main_v297) (V m c main_v391) (ix3 p n q) :=
  stack4_of (hv_main_v421 m c) (hv_main_v417 m c) (hv_main_v418 m c) (hv_main_v419 m c) (hv_main_v420 m c) s p n q

set_option maxHeartbeats 800000 in
/-- The stack of the four scales' corner (1, 1): entry `(s, p, n, q)` is entry `(p, n, q)` of scale `s`'s buffer. -/
theorem stack_v11 (c : Dev nD) (s : Fin 4) (p : Fin 3) (n : Fin 100000) (q : Fin 72) :
    V m c main_v426 (ix4 s p n q)
      = pick4 (α := FVec Ideal S3x100000x72 .f32) s (V m c main_v124) (V m c main_v218) (V m c main_v312) (V m c main_v406) (ix3 p n q) :=
  stack4_of (hv_main_v426 m c) (hv_main_v422 m c) (hv_main_v423 m c) (hv_main_v424 m c) (hv_main_v425 m c) s p n q

set_option maxHeartbeats 800000 in
/-- The stack of the four scales' weights along x: entry `(s, p, n, q)` is entry `(p, n, q)` of scale `s`'s buffer. -/
theorem stack_wx (c : Dev nD) (s : Fin 4) (p : Fin 3) (n : Fin 100000) (q : Fin 1) :
    V m c main_v431 (ix4 s p n q)
      = pick4 (α := FVec Ideal S3x100000x1 .f32) s (V m c main_v52) (V m c main_v146) (V m c main_v240) (V m c main_v334) (ix3 p n q) :=
  stack4w_of (hv_main_v431 m c) (hv_main_v427 m c) (hv_main_v428 m c) (hv_main_v429 m c) (hv_main_v430 m c) s p n q

set_option maxHeartbeats 800000 in
/-- The stack of the four scales' weights along y: entry `(s, p, n, q)` is entry `(p, n, q)` of scale `s`'s buffer. -/
theorem stack_wy (c : Dev nD) (s : Fin 4) (p : Fin 3) (n : Fin 100000) (q : Fin 1) :
    V m c main_v436 (ix4 s p n q)
      = pick4 (α := FVec Ideal S3x100000x1 .f32) s (V m c main_v54) (V m c main_v148) (V m c main_v242) (V m c main_v336) (ix3 p n q) :=
  stack4w_of (hv_main_v436 m c) (hv_main_v432 m c) (hv_main_v433 m c) (hv_main_v434 m c) (hv_main_v435 m c) s p n q

end Cert.KernelIdeal.Hand

end
-- ==== Proof.Val.RWrites.lean ====
import proofs.«171827_j17884243821138_1_alg».proof.Proof.Ref.Ops
import proofs.«171827_j17884243821138_1_alg».proof.Proof.LibSsa

/-! The reference's host line writes, operation by operation, exactly the references of `wr`: window by window
    (each builder's written set is its result reference's buffer, by computation), then along the concatenation. -/

-- lists of sixty to seventy operations are walked cell by cell
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One cell at a time: the head operation's written set is its reference's buffer by computation (every builder
    writes exactly its result buffer), then the tail. -/
macro "writes_one" : tactic =>
  `(tactic| (unfold Ssa.WritesOne; repeat (first | exact List.Forall₂.nil | refine List.Forall₂.cons rfl ?_)))

/-- Window 0: operation by operation, `ops0` writes exactly the references of `wr0`. -/
theorem ops0_writes : Ssa.WritesOne (ops0 (F := F)) wr0 := by writes_one
/-- Window 1: operation by operation, `ops1` writes exactly the references of `wr1`. -/
theorem ops1_writes : Ssa.WritesOne (ops1 (F := F)) wr1 := by writes_one
/-- Window 2: operation by operation, `ops2` writes exactly the references of `wr2`. -/
theorem ops2_writes : Ssa.WritesOne (ops2 (F := F)) wr2 := by writes_one
/-- Window 3: operation by operation, `ops3` writes exactly the references of `wr3`. -/
theorem ops3_writes : Ssa.WritesOne (ops3 (F := F)) wr3 := by writes_one
/-- Window 4: operation by operation, `ops4` writes exactly the references of `wr4`. -/
theorem ops4_writes : Ssa.WritesOne (ops4 (F := F)) wr4 := by writes_one
/-- Window 5: operation by operation, `ops5` writes exactly the references of `wr5`. -/
theorem ops5_writes : Ssa.WritesOne (ops5 (F := F)) wr5 := by writes_one
/-- Window 6: operation by operation, `ops6` writes exactly the references of `wr6`. -/
theorem ops6_writes : Ssa.WritesOne (ops6 (F := F)) wr6 := by writes_one
/-- Window 7: operation by operation, `ops7` writes exactly the references of `wr7`. -/
theorem ops7_writes : Ssa.WritesOne (ops7 (F := F)) wr7 := by writes_one
/-- Window 8: operation by operation, `ops8` writes exactly the references of `wr8`. -/
theorem ops8_writes : Ssa.WritesOne (ops8 (F := F)) wr8 := by writes_one
/-- Window 9: operation by operation, `ops9` writes exactly the references of `wr9`. -/
theorem ops9_writes : Ssa.WritesOne (ops9 (F := F)) wr9 := by writes_one
/-- Window 10: operation by operation, `ops10` writes exactly the references of `wr10`. -/
theorem ops10_writes : Ssa.WritesOne (ops10 (F := F)) wr10 := by writes_one

/-- @main's line writes exactly the references of `wr`, one per operation, in order. -/
theorem ops_writes : Ssa.WritesOne (ops (F := F)) wr :=
  Ssa.WritesOne.append ops0_writes (Ssa.WritesOne.append ops1_writes (Ssa.WritesOne.append ops2_writes (Ssa.WritesOne.append ops3_writes (Ssa.WritesOne.append ops4_writes (Ssa.WritesOne.append ops5_writes (Ssa.WritesOne.append ops6_writes (Ssa.WritesOne.append ops7_writes (Ssa.WritesOne.append ops8_writes (Ssa.WritesOne.append ops9_writes (ops10_writes))))))))))

end Cert.ReferenceIdeal.Hand

end
-- ==== Proof.Val.RLine.lean ====
import proofs.«171827_j17884243821138_1_alg».proof.Proof.Val.RWrites

/-! The reference's host line in single-assignment form: operation by operation it writes exactly the
    references of `wr` (Val/RWrites.lean), and no reference is on `wr` twice — every tensor value has its own
    buffer. So what a buffer holds at the END of the line, `Vr m c b`, satisfies its operation's defining
    equation over what the operand buffers hold at the end (Val/RFacts*.lean state these, one per operation).
    The five arguments are written nowhere. -/

-- lists of sixty to seventy operations are walked cell by cell
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Strictly increasing lists of numbers have no repeats -/

/-- Each entry is below the next. -/
def incr : List ℕ → Bool
  | a :: b :: l => decide (a < b) && incr (b :: l)
  | _ => true

theorem incr_tail {a : ℕ} {l : List ℕ} (h : incr (a :: l) = true) : incr l = true := by
  cases l with
  | nil => rfl
  | cons b l => simp only [incr, Bool.and_eq_true] at h; exact h.2

theorem lt_of_incr {a : ℕ} : ∀ {l : List ℕ}, incr (a :: l) = true → ∀ x ∈ l, a < x
  | [], _, x, hx => nomatch hx
  | b :: l, h, x, hx => by
    simp only [incr, Bool.and_eq_true, decide_eq_true_eq] at h
    rcases List.mem_cons.mp hx with hxb | hx'
    · rw [hxb]; exact h.1
    · exact Nat.lt_trans h.1 (lt_of_incr h.2 x hx')

/-- A list whose image under `f` is strictly increasing has no repeats. -/
theorem nodup_of_incr_map {α : Type} (f : α → ℕ) : ∀ {l : List α}, incr (l.map f) = true → l.Nodup
  | [], _ => List.nodup_nil
  | a :: l, h => by
    rw [List.map_cons] at h
    refine List.nodup_cons.mpr ⟨fun hm => ?_, nodup_of_incr_map f (incr_tail h)⟩
    exact Nat.lt_irrefl (f a) (lt_of_incr h (f a) (List.mem_map_of_mem hm))

/-! ## The line's written references -/

/-- No reference is written twice: each value of @main (and of each inlined call) has its own buffer — the
    buffers are numbered in program order, so the written references' indices increase along the line. -/
theorem wr_nodup : wr.Nodup :=
  nodup_of_incr_map (fun r : Ref sig .tc => r.idx.val) (by decide +kernel)

/-- The arguments are written by no operation. -/
theorem main_arg0_not_written : main_arg0 ∉ wr := by decide +kernel
theorem main_arg1_not_written : main_arg1 ∉ wr := by decide +kernel
theorem main_arg2_not_written : main_arg2 ∉ wr := by decide +kernel
theorem main_arg3_not_written : main_arg3 ∉ wr := by decide +kernel
theorem main_arg4_not_written : main_arg4 ∉ wr := by decide +kernel

variable {F : FTy → Type} [FloatOps F]

/-- What buffer `b` of device `c` holds at the end of @main's line, from the launch memory `m`. -/
abbrev Vr (m : (ℓ : Loc nD τ sig) → Buf (Elt F) ℓ) (c : Dev nD) (b : Ref sig .tc) : Buf (Elt F) ((c.tc : Thread nD τ).loc b) :=
  StableHlo.after ops (launchContents m c) (Proc.devRef .tc b)

end Cert.ReferenceIdeal.Hand

end
-- ==== Proof.Val.RCorners.lean ====
import proofs.«171827_j17884243821138_1_alg».proof.Proof.Val.RLine
import proofs.«171827_j17884243821138_1_alg».proof.Proof.Val.Pick
import Idealize.ShloMosaic.Lib.ValueIdx

/-! The six arrays the reference blends, as functions of their coordinates over the extended reals: the four gathered
    corner values of every scale, plane, point and channel, and the two fractional weights of every scale, plane and
    point. Each scale has its own six buffers; they are read from what the buffers hold at the end of the reference's
    line (every buffer is written once, so that is what the blend read). -/

noncomputable section

namespace Cert.ReferenceIdeal.Hand

open Cert.ReferenceIdeal Cert.ReferenceIdeal.Gen Idealize.ShloMosaic Idealize.ShloMosaic.TcCoe Idealize.SL.Sem
open Cert.Triplane (pick4)

variable (m : (ℓ : Loc nD τ sig) → Buf (Elt Ideal) ℓ)

/-- The four scales' corner (0, 0) arrays. -/
abbrev A00R (c : Dev nD) : Fin 4 → FVec Ideal S3x100000x72 .f32 :=
  fun s => pick4 (α := FVec Ideal S3x100000x72 .f32) s (Vr m c main_v79) (Vr m c main_v196) (Vr m c main_v314) (Vr m c main_v432)

/-- The four scales' corner (0, 1) arrays. -/
abbrev A01R (c : Dev nD) : Fin 4 → FVec Ideal S3x100000x72 .f32 :=
  fun s => pick4 (α := FVec Ideal S3x100000x72 .f32) s (Vr m c main_v94) (Vr m c main_v211) (Vr m c main_v329) (Vr m c main_v447)

/-- The four scales' corner (1, 0) arrays. -/
abbrev A10R (c : Dev nD) : Fin 4 → FVec Ideal S3x100000x72 .f32 :=
  fun s => pick4 (α := FVec Ideal S3x100000x72 .f32) s (Vr m c main_v109) (Vr m c main_v226) (Vr m c main_v344) (Vr m c main_v462)

/-- The four scales' corner (1, 1) arrays. -/
abbrev A11R (c : Dev nD) : Fin 4 → FVec Ideal S3x100000x72 .f32 :=
  fun s => pick4 (α := FVec Ideal S3x100000x72 .f32) s (Vr m c main_v124) (Vr m c main_v241) (Vr m c main_v359) (Vr m c main_v477)

/-- The four scales' weight arrays along x. -/
abbrev WXR (c : Dev nD) : Fin 4 → FVec Ideal S3x100000x1 .f32 :=
  fun s => pick4 (α := FVec Ideal S3x100000x1 .f32) s (Vr m c main_v52) (Vr m c main_v169) (Vr m c main_v287) (Vr m c main_v405)

/-- The four scales' weight arrays along y. -/
abbrev WYR (c : Dev nD) : Fin 4 → FVec Ideal S3x100000x1 .f32 :=
  fun s => pick4 (α := FVec Ideal S3x100000x1 .f32) s (Vr m c main_v54) (Vr m c main_v171) (Vr m c main_v289) (Vr m c main_v407)

/-- Corner (0, 0) of scale `s`, plane `p`, point `n`, channel `q`. -/
def v00R (c : Dev nD) : Fin 4 → Fin 3 → Fin 100000 → Fin 72 → EReal :=
  fun s p n q => A00R m c s (ValueIdx.ix3 p n q)

/-- Corner (0, 1). -/
def v01R (c : Dev nD) : Fin 4 → Fin 3 → Fin 100000 → Fin 72 → EReal :=
  fun s p n q => A01R m c s (ValueIdx.ix3 p n q)

/-- Corner (1, 0). -/
def v10R (c : Dev nD) : Fin 4 → Fin 3 → Fin 100000 → Fin 72 → EReal :=
  fun s p n q => A10R m c s (ValueIdx.ix3 p n q)

/-- Corner (1, 1). -/
def v11R (c : Dev nD) : Fin 4 → Fin 3 → Fin 100000 → Fin 72 → EReal :=
  fun s p n q => A11R m c s (ValueIdx.ix3 p n q)

/-- The fractional weight along x of scale `s`, plane `p`, point `n`. -/
def wxR (c : Dev nD) : Fin 4 → Fin 3 → Fin 100000 → EReal :=
  fun s p n => WXR m c s (ValueIdx.ix3 p n (0 : Fin 1))

/-- The fractional weight along y. -/
def wyR (c : Dev nD) : Fin 4 → Fin 3 → Fin 100000 → EReal :=
  fun s p n => WYR m c s (ValueIdx.ix3 p n (0 : Fin 1))

end Cert.ReferenceIdeal.Hand

end
-- ==== Proof.Val.LayoutR.lean ====
import proofs.«171827_j17884243821138_1_alg».proof.ReferenceIdeal
import proofs.«171827_j17884243821138_1_alg».proof.Proof.Spec
import proofs.«171827_j17884243821138_1_alg».proof.Proof.Val.Pick
import Idealize.ShloMosaic.Lib.ValueIdx
import Idealize.ShloMosaic.Lib.Pipeline.Value
import Idealize.ShloMosaic.Lib.ValueLayout

/-! The reference program's blend and layout operations, read at an index, over the extended reals.

Per scale the reference forms, from the four `[3, 100000, 72]` corner arrays and the two `[3, 100000, 1]` weight arrays,
the bilinear blend entry by entry (the weights stretched along the channels); swaps the first two axes of the blend and
merges the last two, so that entry `(n, j)` of the `[100000, 216]` array is the blend at `(j / 72, n, j % 72)`; and at
the end lays the four scales' `[100000, 216]` totals side by side: entry `(n, k)` of the `[100000, 864]` result is entry
`(n, k % 216)` of total `k / 216`. -/

noncomputable section

namespace Cert.ReferenceIdeal.Hand

open Cert.ReferenceIdeal Idealize.ShloMosaic Idealize.ShloMosaic.ValueIdx
open Cert.Triplane (pick4 blend)

variable [Facts₀]
open Facts₀

/-! ## The blend -/

/-- The constant 1.0 stretched over the `[3, 100000, 1]` weights' shape reads the float word's value everywhere. -/
theorem one_apply (i : S3x100000x1.Idx) :
    broadcastInDim S3x100000x1 ![] bcast_S_S3x100000x1 (constant (F := Ideal) S_ .f32 0x3F800000#32) i
      = Cert.Triplane.one := rfl

/-- A `[3, 100000, 1]` array stretched along its unit axis to 72 channels reads, at `(p, n, q)`, the array at
    `(p, n, 0)`. -/
theorem bc72_apply (w : FVec Ideal S3x100000x1 .f32) (p : Fin 3) (n : Fin 100000) (q : Fin 72) :
    broadcastInDim S3x100000x72 ![0, 1, 2] bcast_S3x100000x1_S3x100000x72_0_1_2 w (ix3 p n q) = w (ix3 p n (0 : Fin 1)) :=
  broadcastInDim_apply _ _ w _ _ fun a => by
    match a with
    | ⟨0, _⟩ => rfl
    | ⟨1, _⟩ => rfl
    | ⟨2, _⟩ => rfl

/-- The blend as the reference computes it on whole arrays: along x on the top row and on the bottom row, each with
    its own copy of `1 − wx`, then along y between the rows. -/
abbrev blendArr (a00 a01 a10 a11 : FVec Ideal S3x100000x72 .f32) (wx wy : FVec Ideal S3x100000x1 .f32) :
    FVec Ideal S3x100000x72 .f32 :=
  addf
    (mulf
      (addf (mulf a00 (broadcastInDim S3x100000x72 ![0, 1, 2] bcast_S3x100000x1_S3x100000x72_0_1_2 (subf (broadcastInDim S3x100000x1 ![] bcast_S_S3x100000x1 (constant S_ .f32 0x3F800000#32)) wx)))
        (mulf a01 (broadcastInDim S3x100000x72 ![0, 1, 2] bcast_S3x100000x1_S3x100000x72_0_1_2 wx)))
      (broadcastInDim S3x100000x72 ![0, 1, 2] bcast_S3x100000x1_S3x100000x72_0_1_2 (subf (broadcastInDim S3x100000x1 ![] bcast_S_S3x100000x1 (constant S_ .f32 0x3F800000#32)) wy)))
    (mulf
      (addf (mulf a10 (broadcastInDim S3x100000x72 ![0, 1, 2] bcast_S3x100000x1_S3x100000x72_0_1_2 (subf (broadcastInDim S3x100000x1 ![] bcast_S_S3x100000x1 (constant S_ .f32 0x3F800000#32)) wx)))
        (mulf a11 (broadcastInDim S3x100000x72 ![0, 1, 2] bcast_S3x100000x1_S3x100000x72_0_1_2 wx)))
      (broadcastInDim S3x100000x72 ![0, 1, 2] bcast_S3x100000x1_S3x100000x72_0_1_2 wy))

/-- The reference's blend read at `(p, n, q)` is the bilinear interpolation of the four corner values there with the
    two weights at `(p, n)`. -/
theorem blend_apply (a00 a01 a10 a11 : FVec Ideal S3x100000x72 .f32) (wx wy : FVec Ideal S3x100000x1 .f32)
    (p : Fin 3) (n : Fin 100000) (q : Fin 72) :
    blendArr a00 a01 a10 a11 wx wy (ix3 p n q)
      = blend (a00 (ix3 p n q)) (a01 (ix3 p n q)) (a10 (ix3 p n q)) (a11 (ix3 p n q))
          (wx (ix3 p n (0 : Fin 1))) (wy (ix3 p n (0 : Fin 1))) := by
  have h1 := bc72_apply (subf (broadcastInDim S3x100000x1 ![] bcast_S_S3x100000x1 (constant S_ .f32 0x3F800000#32)) wx) p n q
  have h2 := bc72_apply wx p n q
  have h3 := bc72_apply (subf (broadcastInDim S3x100000x1 ![] bcast_S_S3x100000x1 (constant S_ .f32 0x3F800000#32)) wy) p n q
  have h4 := bc72_apply wy p n q
  show (a00 (ix3 p n q) * broadcastInDim S3x100000x72 ![0, 1, 2] bcast_S3x100000x1_S3x100000x72_0_1_2 (subf (broadcastInDim S3x100000x1 ![] bcast_S_S3x100000x1 (constant S_ .f32 0x3F800000#32)) wx) (ix3 p n q)
        + a01 (ix3 p n q) * broadcastInDim S3x100000x72 ![0, 1, 2] bcast_S3x100000x1_S3x100000x72_0_1_2 wx (ix3 p n q))
        * broadcastInDim S3x100000x72 ![0, 1, 2] bcast_S3x100000x1_S3x100000x72_0_1_2 (subf (broadcastInDim S3x100000x1 ![] bcast_S_S3x100000x1 (constant S_ .f32 0x3F800000#32)) wy) (ix3 p n q)
      + (a10 (ix3 p n q) * broadcastInDim S3x100000x72 ![0, 1, 2] bcast_S3x100000x1_S3x100000x72_0_1_2 (subf (broadcastInDim S3x100000x1 ![] bcast_S_S3x100000x1 (constant S_ .f32 0x3F800000#32)) wx) (ix3 p n q)
        + a11 (ix3 p n q) * broadcastInDim S3x100000x72 ![0, 1, 2] bcast_S3x100000x1_S3x100000x72_0_1_2 wx (ix3 p n q))
        * broadcastInDim S3x100000x72 ![0, 1, 2] bcast_S3x100000x1_S3x100000x72_0_1_2 wy (ix3 p n q) = _
  rw [h1, h2, h3, h4]
  rfl

/-- The blend read at an index, from the equations of the twenty-four arrays involved (three copies of the constant,
    each stretched and subtracted from; six stretched weights; six products; three sums). -/
theorem blend_of {a00 a01 a10 a11 : FVec Ideal S3x100000x72 .f32} {wx wy : FVec Ideal S3x100000x1 .f32}
    {c1 c2 c3 : FVec Ideal S_ .f32} {o1 o2 o3 d1 d2 d3 : FVec Ideal S3x100000x1 .f32}
    {e1 f1 e2 f2 e3 f3 m1 m2 m3 m4 m5 m6 top bot r : FVec Ideal S3x100000x72 .f32}
    (hc1 : c1 = constant S_ .f32 0x3F800000#32)
    (ho1 : o1 = broadcastInDim S3x100000x1 ![] bcast_S_S3x100000x1 c1)
    (hd1 : d1 = subf o1 wx) (he1 : e1 = broadcastInDim S3x100000x72 ![0, 1, 2] bcast_S3x100000x1_S3x100000x72_0_1_2 d1) (hm1 : m1 = mulf a00 e1)
    (hf1 : f1 = broadcastInDim S3x100000x72 ![0, 1, 2] bcast_S3x100000x1_S3x100000x72_0_1_2 wx) (hm2 : m2 = mulf a01 f1) (htop : top = addf m1 m2)
    (hc2 : c2 = constant S_ .f32 0x3F800000#32)
    (ho2 : o2 = broadcastInDim S3x100000x1 ![] bcast_S_S3x100000x1 c2)
    (hd2 : d2 = subf o2 wx) (he2 : e2 = broadcastInDim S3x100000x72 ![0, 1, 2] bcast_S3x100000x1_S3x100000x72_0_1_2 d2) (hm3 : m3 = mulf a10 e2)
    (hf2 : f2 = broadcastInDim S3x100000x72 ![0, 1, 2] bcast_S3x100000x1_S3x100000x72_0_1_2 wx) (hm4 : m4 = mulf a11 f2) (hbot : bot = addf m3 m4)
    (hc3 : c3 = constant S_ .f32 0x3F800000#32)
    (ho3 : o3 = broadcastInDim S3x100000x1 ![] bcast_S_S3x100000x1 c3)
    (hd3 : d3 = subf o3 wy) (he3 : e3 = broadcastInDim S3x100000x72 ![0, 1, 2] bcast_S3x100000x1_S3x100000x72_0_1_2 d3) (hm5 : m5 = mulf top e3)
    (hf3 : f3 = broadcastInDim S3x100000x72 ![0, 1, 2] bcast_S3x100000x1_S3x100000x72_0_1_2 wy) (hm6 : m6 = mulf bot f3) (hr : r = addf m5 m6)
    (p : Fin 3) (n : Fin 100000) (q : Fin 72) :
    r (ix3 p n q)
      = blend (a00 (ix3 p n q)) (a01 (ix3 p n q)) (a10 (ix3 p n q)) (a11 (ix3 p n q))
          (wx (ix3 p n (0 : Fin 1))) (wy (ix3 p n (0 : Fin 1))) := by
  subst hr hm6 hf3 hm5 he3 hd3 ho3 hc3 hbot hm4 hf2 hm3 he2 hd2 ho2 hc2 htop hm2 hf1 hm1 he1 hd1 ho1 hc1
  exact blend_apply a00 a01 a10 a11 wx wy p n q

/-! ## A scale's blend laid out by point -/

/-- The `[3, 100000, 72]` array with its first two axes swapped and its last two merged reads, at `(n, j)`, the array at
    `(j / 72, n, j % 72)`: position `216 n + j` of the `[100000, 216]` array is position `(3 n + j / 72) · 72 + j % 72`
    of the `[100000, 3, 72]` one. -/
theorem tri_apply (X : S3x100000x72.Idx → EReal) (n : Fin 100000) (j : Fin 216) :
    shapeCast S100000x216 (transpose S100000x3x72 [1, 0, 2] X transposes_S3x100000x72_S100000x3x72_1_0_2)
        shapeCasts_S100000x3x72_S100000x216 (ix2 n j)
      = X (ix3 (⟨j.val / 72, by omega⟩ : Fin 3) n (⟨j.val % 72, by omega⟩ : Fin 72)) := by
  refine (shapeCast_apply _ _ (ix2 n j)
    (ix3 n (⟨j.val / 72, by omega⟩ : Fin 3) (⟨j.val % 72, by omega⟩ : Fin 72)) ?_).trans ?_
  · rw [Shape.rowMajor_val_three, Shape.rowMajor_val_two]
    show (n.val * 3 + j.val / 72) * 72 + j.val % 72 = n.val * 216 + j.val
    omega
  · exact transpose_apply _ X _ _ _ fun b => by
      match b with
      | ⟨0, _⟩ => rfl
      | ⟨1, _⟩ => rfl
      | ⟨2, _⟩ => rfl

/-- The same from the equations of the two arrays involved: `T` is `X` with its first two axes swapped, `R` is `T` with
    its last two axes merged. -/
theorem tri_of {X : S3x100000x72.Idx → EReal} {T : S100000x3x72.Idx → EReal} {R : S100000x216.Idx → EReal}
    (hT : T = transpose S100000x3x72 [1, 0, 2] X transposes_S3x100000x72_S100000x3x72_1_0_2)
    (hR : R = shapeCast S100000x216 T shapeCasts_S100000x3x72_S100000x216) (n : Fin 100000) (j : Fin 216) :
    R (ix2 n j) = X (ix3 (⟨j.val / 72, by omega⟩ : Fin 3) n (⟨j.val % 72, by omega⟩ : Fin 72)) := by
  subst hR hT
  exact tri_apply X n j

/-! ## The four scales' totals side by side -/

/-- Four `[100000, 216]` arrays laid side by side read, at column `216 s + r` of row `n`, array `s` at `(n, r)`:
    array `s` spans the columns from `216 s` on. -/
theorem cat4_apply' (t0 t1 t2 t3 : S100000x216.Idx → EReal) (n : Fin 100000) (s : Fin 4) (r : Fin 216) :
    concatenate S100000x864 1 [⟨S100000x216, t0⟩, ⟨S100000x216, t1⟩, ⟨S100000x216, t2⟩, ⟨S100000x216, t3⟩]
        concatenates_S100000x216_S100000x216_S100000x216_S100000x216_S100000x864_d1 (ix2 n (⟨216 * s.val + r.val, by omega⟩ : Fin 864))
      = pick4 s t0 t1 t2 t3 (ix2 n r) := by
  match s with
  | ⟨0, _⟩ =>
    show _ = t0 (ix2 n r)
    exact concatenate_apply_piece (t := S100000x864) 1
      [⟨S100000x216, t0⟩, ⟨S100000x216, t1⟩, ⟨S100000x216, t2⟩, ⟨S100000x216, t3⟩] _ _ 0 (by show (0 : ℕ) < 4; decide) S100000x216 t0 rfl rfl 0 rfl
      (ix2 n r)
      (fun b hb => by
        match b with
        | ⟨0, _⟩ => rfl
        | ⟨1, _⟩ => exact absurd rfl hb) (by show 0 + r.val = 216 * 0 + r.val; omega)
  | ⟨1, _⟩ =>
    show _ = t1 (ix2 n r)
    exact concatenate_apply_piece (t := S100000x864) 1
      [⟨S100000x216, t0⟩, ⟨S100000x216, t1⟩, ⟨S100000x216, t2⟩, ⟨S100000x216, t3⟩] _ _ 1 (by show (1 : ℕ) < 4; decide) S100000x216 t1 rfl rfl 216 rfl
      (ix2 n r)
      (fun b hb => by
        match b with
        | ⟨0, _⟩ => rfl
        | ⟨1, _⟩ => exact absurd rfl hb) (by show 216 + r.val = 216 * 1 + r.val; omega)
  | ⟨2, _⟩ =>
    show _ = t2 (ix2 n r)
    exact concatenate_apply_piece (t := S100000x864) 1
      [⟨S100000x216, t0⟩, ⟨S100000x216, t1⟩, ⟨S100000x216, t2⟩, ⟨S100000x216, t3⟩] _ _ 2 (by show (2 : ℕ) < 4; decide) S100000x216 t2 rfl rfl 432 rfl
      (ix2 n r)
      (fun b hb => by
        match b with
        | ⟨0, _⟩ => rfl
        | ⟨1, _⟩ => exact absurd rfl hb) (by show 432 + r.val = 216 * 2 + r.val; omega)
  | ⟨3, _⟩ =>
    show _ = t3 (ix2 n r)
    exact concatenate_apply_piece (t := S100000x864) 1
      [⟨S100000x216, t0⟩, ⟨S100000x216, t1⟩, ⟨S100000x216, t2⟩, ⟨S100000x216, t3⟩] _ _ 3 (by show (3 : ℕ) < 4; decide) S100000x216 t3 rfl rfl 648 rfl
      (ix2 n r)
      (fun b hb => by
        match b with
        | ⟨0, _⟩ => rfl
        | ⟨1, _⟩ => exact absurd rfl hb) (by show 648 + r.val = 216 * 3 + r.val; omega)

/-- Four `[100000, 216]` arrays laid side by side read, at `(n, k)`, array `k / 216` at `(n, k % 216)`. -/
theorem cat4_apply (t0 t1 t2 t3 : S100000x216.Idx → EReal) (n : Fin 100000) (k : Fin 864) :
    concatenate S100000x864 1 [⟨S100000x216, t0⟩, ⟨S100000x216, t1⟩, ⟨S100000x216, t2⟩, ⟨S100000x216, t3⟩]
        concatenates_S100000x216_S100000x216_S100000x216_S100000x216_S100000x864_d1 (ix2 n k)
      = pick4 (⟨k.val / 216, by omega⟩ : Fin 4) t0 t1 t2 t3 (ix2 n (⟨k.val % 216, by omega⟩ : Fin 216)) :=
  (congrArg (fun kk : Fin 864 => concatenate S100000x864 1 [⟨S100000x216, t0⟩, ⟨S100000x216, t1⟩, ⟨S100000x216, t2⟩, ⟨S100000x216, t3⟩]
        concatenates_S100000x216_S100000x216_S100000x216_S100000x216_S100000x864_d1 (ix2 n kk))
      (Fin.ext (by show k.val = 216 * (k.val / 216) + k.val % 216; omega) :
        k = (⟨216 * (k.val / 216) + k.val % 216, by omega⟩ : Fin 864))).trans
    (cat4_apply' t0 t1 t2 t3 n ⟨k.val / 216, by omega⟩ ⟨k.val % 216, by omega⟩)

/-- The same from the equation of the result `A`. -/
theorem cat4_of {A : S100000x864.Idx → EReal} {t0 t1 t2 t3 : S100000x216.Idx → EReal}
    (hA : A = concatenate S100000x864 1 [⟨S100000x216, t0⟩, ⟨S100000x216, t1⟩, ⟨S100000x216, t2⟩, ⟨S100000x216, t3⟩]
        concatenates_S100000x216_S100000x216_S100000x216_S100000x216_S100000x864_d1)
    (n : Fin 100000) (k : Fin 864) :
    A (ix2 n k)
      = pick4 (⟨k.val / 216, by omega⟩ : Fin 4) t0 t1 t2 t3 (ix2 n (⟨k.val % 216, by omega⟩ : Fin 216)) := by
  subst hA
  exact cat4_apply t0 t1 t2 t3 n k

end Cert.ReferenceIdeal.Hand

end
-- ==== Proof.Val.SumR.lean ====
import proofs.«171827_j17884243821138_1_alg».proof.Proof.Val.LayoutR

/-! The reference's running totals, from the equations of its arrays, over the extended reals.

With the four scales' blends `B s` each equal, entry by entry, to the sample of the specification, each laid out by point
(`Tr s`), and the totals formed scale after scale (`T 0 = Tr 0`, `T (s + 1) = Tr (s + 1) + T s`), total `s` at
`(n, j)` is the specification's cumulative sum of scales `0 … s` at plane `j / 72`, point `n`, channel `j % 72`; and
the four totals side by side are the specification's result in the reference's order of summation. -/

noncomputable section

namespace Cert.ReferenceIdeal.Hand

open Cert.ReferenceIdeal Idealize.ShloMosaic Idealize.ShloMosaic.ValueIdx
open Cert.Triplane (pick4 blend samp prevR resR)

variable [Facts₀]
open Facts₀

/-- Four arrays indexed by scale, chosen by scale, are the family itself. -/
theorem pick4_fn {α : Sort _} (T : Fin 4 → α) (s : Fin 4) : pick4 s (T 0) (T 1) (T 2) (T 3) = T s := by
  match s with
  | ⟨0, _⟩ => rfl
  | ⟨1, _⟩ => rfl
  | ⟨2, _⟩ => rfl
  | ⟨3, _⟩ => rfl

/-- The four scales' corner arrays as a function of scale, plane, point and channel. -/
abbrev crd (A : Fin 4 → FVec Ideal S3x100000x72 .f32) : Fin 4 → Fin 3 → Fin 100000 → Fin 72 → EReal :=
  fun s p n q => A s (ix3 p n q)

/-- The four scales' weight arrays as a function of scale, plane and point. -/
abbrev wgt (W : Fin 4 → FVec Ideal S3x100000x1 .f32) : Fin 4 → Fin 3 → Fin 100000 → EReal :=
  fun s p n => W s (ix3 p n (0 : Fin 1))

section Totals

variable (A00 A01 A10 A11 : Fin 4 → FVec Ideal S3x100000x72 .f32) (WX WY : Fin 4 → FVec Ideal S3x100000x1 .f32)
  (B : Fin 4 → FVec Ideal S3x100000x72 .f32)
  (hB : ∀ (s : Fin 4) (p : Fin 3) (n : Fin 100000) (q : Fin 72),
    B s (ix3 p n q) = samp (crd A00) (crd A01) (crd A10) (crd A11) (wgt WX) (wgt WY) s p n q)
  (Tr T : Fin 4 → FVec Ideal S100000x216 .f32)
  (hTr : ∀ (s : Fin 4) (n : Fin 100000) (j : Fin 216),
    Tr s (ix2 n j) = B s (ix3 (⟨j.val / 72, by omega⟩ : Fin 3) n (⟨j.val % 72, by omega⟩ : Fin 72)))
  (hT0 : T 0 = Tr 0) (hT1 : T 1 = addf (Tr 1) (T 0)) (hT2 : T 2 = addf (Tr 2) (T 1))
  (hT3 : T 3 = addf (Tr 3) (T 2))

include hB hTr hT0 hT1 hT2 hT3

/-- Total `s` at `(n, j)` is the cumulative sum of the samples of scales `0 … s`, each new scale in front. -/
theorem total_eq_prevR (s : Fin 4) (n : Fin 100000) (j : Fin 216) :
    T s (ix2 n j) = prevR (crd A00) (crd A01) (crd A10) (crd A11) (wgt WX) (wgt WY) s.val s.isLt
      ⟨j.val / 72, by omega⟩ n ⟨j.val % 72, by omega⟩ := by
  have e0 : ∀ (n : Fin 100000) (j : Fin 216), T 0 (ix2 n j)
      = prevR (crd A00) (crd A01) (crd A10) (crd A11) (wgt WX) (wgt WY) 0 (by omega)
          ⟨j.val / 72, by omega⟩ n ⟨j.val % 72, by omega⟩ := fun n j => by
    rw [hT0, hTr, hB]; rfl
  have e1 : ∀ (n : Fin 100000) (j : Fin 216), T 1 (ix2 n j)
      = prevR (crd A00) (crd A01) (crd A10) (crd A11) (wgt WX) (wgt WY) 1 (by omega)
          ⟨j.val / 72, by omega⟩ n ⟨j.val % 72, by omega⟩ := fun n j => by
    rw [hT1, addf_apply, hTr, hB, e0]; rfl
  have e2 : ∀ (n : Fin 100000) (j : Fin 216), T 2 (ix2 n j)
      = prevR (crd A00) (crd A01) (crd A10) (crd A11) (wgt WX) (wgt WY) 2 (by omega)
          ⟨j.val / 72, by omega⟩ n ⟨j.val % 72, by omega⟩ := fun n j => by
    rw [hT2, addf_apply, hTr, hB, e1]; rfl
  have e3 : ∀ (n : Fin 100000) (j : Fin 216), T 3 (ix2 n j)
      = prevR (crd A00) (crd A01) (crd A10) (crd A11) (wgt WX) (wgt WY) 3 (by omega)
          ⟨j.val / 72, by omega⟩ n ⟨j.val % 72, by omega⟩ := fun n j => by
    rw [hT3, addf_apply, hTr, hB, e2]; rfl
  match s with
  | ⟨0, _⟩ => exact e0 n j
  | ⟨1, _⟩ => exact e1 n j
  | ⟨2, _⟩ => exact e2 n j
  | ⟨3, _⟩ => exact e3 n j

/-- The four totals side by side are the specification's result in the reference's order of summation: column `k` of
    row `n` is total `k / 216` at column `k % 216`, whose plane is `k % 216 / 72` and whose channel is
    `k % 216 % 72 = k % 72`. -/
theorem result_eq_resR {R : S100000x864.Idx → EReal}
    (hR : R = concatenate S100000x864 1
        [⟨S100000x216, T 0⟩, ⟨S100000x216, T 1⟩, ⟨S100000x216, T 2⟩, ⟨S100000x216, T 3⟩]
        concatenates_S100000x216_S100000x216_S100000x216_S100000x216_S100000x864_d1)
    (n : Fin 100000) (k : Fin 864) :
    R (ix2 n k) = resR (crd A00) (crd A01) (crd A10) (crd A11) (wgt WX) (wgt WY) n k := by
  refine (cat4_of hR n k).trans ?_
  refine (congrFun (pick4_fn T ⟨k.val / 216, by omega⟩) _).trans ?_
  refine (total_eq_prevR A00 A01 A10 A11 WX WY B hB Tr T hTr hT0 hT1 hT2 hT3 ⟨k.val / 216, by omega⟩ n
    ⟨k.val % 216, by omega⟩).trans ?_
  have hc : (⟨k.val % 216 % 72, by omega⟩ : Fin 72) = ⟨k.val % 72, Cert.Triplane.col_chan k⟩ :=
    Fin.ext (by show k.val % 216 % 72 = k.val % 72; omega)
  show prevR (crd A00) (crd A01) (crd A10) (crd A11) (wgt WX) (wgt WY) (k.val / 216) _
      ⟨k.val % 216 / 72, _⟩ n ⟨k.val % 216 % 72, _⟩ = _
  rw [hc]
  rfl

end Totals

end Cert.ReferenceIdeal.Hand

end
-- ==== Proof.Val.RIndex.lean ====
import proofs.«171827_j17884243821138_1_alg».proof.Proof.Val.RLine

/-! Where a window's operation stands in @main's whole line: the line is the windows' lists one after the
    other, so window `J`'s operation `k` is the line's operation `n₀ + (n₁ + (… + k))` over the earlier windows'
    lengths, and the same for the references written. With these an operation of the line is named by its
    window and its place there. -/

-- lists of sixty to seventy operations are walked cell by cell
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- Past the first list, the concatenation is indexed as the second. -/
theorem at_tail {α : Type} {l₁ l₂ : List α} {n i : ℕ} {o : Option α} (hn : l₁.length = n) (h : l₂[i]? = o) :
    (l₁ ++ l₂)[n + i]? = o := by
  subst hn
  rw [List.getElem?_append_right (Nat.le_add_right _ _), Nat.add_sub_cancel_left]
  exact h

/-- An entry of the first list is the concatenation's entry at the same place. -/
theorem at_head {α : Type} {l₁ l₂ : List α} {k : ℕ} {a : α} (h : l₁[k]? = some a) : (l₁ ++ l₂)[k]? = some a := by
  have hk : k < l₁.length := by
    by_contra hn
    rw [List.getElem?_eq_none (Nat.le_of_not_lt hn)] at h
    exact absurd h (by simp)
  rw [List.getElem?_append_left hk]
  exact h

variable {F : FTy → Type} [FloatOps F]

/-! ## The windows' lengths -/

theorem len0 : (ops0 (F := F)).length = 60 := rfl
theorem wlen0 : wr0.length = 60 := rfl
theorem len1 : (ops1 (F := F)).length = 70 := rfl
theorem wlen1 : wr1.length = 70 := rfl
theorem len2 : (ops2 (F := F)).length = 60 := rfl
theorem wlen2 : wr2.length = 60 := rfl
theorem len3 : (ops3 (F := F)).length = 70 := rfl
theorem wlen3 : wr3.length = 70 := rfl
theorem len4 : (ops4 (F := F)).length = 60 := rfl
theorem wlen4 : wr4.length = 60 := rfl
theorem len5 : (ops5 (F := F)).length = 60 := rfl
theorem wlen5 : wr5.length = 60 := rfl
theorem len6 : (ops6 (F := F)).length = 70 := rfl
theorem wlen6 : wr6.length = 70 := rfl
theorem len7 : (ops7 (F := F)).length = 60 := rfl
theorem wlen7 : wr7.length = 60 := rfl
theorem len8 : (ops8 (F := F)).length = 70 := rfl
theorem wlen8 : wr8.length = 70 := rfl
theorem len9 : (ops9 (F := F)).length = 60 := rfl
theorem wlen9 : wr9.length = 60 := rfl

/-! ## A window's entries as entries of the whole line -/

/-- Window 0's operation `k` is @main's operation `k`; likewise the reference it writes. -/
theorem op0_at {k : ℕ} {op : HloOp τ sig (Elt F)} (h : (ops0 (F := F))[k]? = some op) :
    (ops (F := F))[k]? = some op :=
  at_head h
theorem wr0_at {k : ℕ} {y : Ref sig .tc} (h : wr0[k]? = some y) :
    wr[k]? = some y :=
  at_head h
/-- Window 1's operation `k` is @main's operation `60 + (k)`; likewise the reference it writes. -/
theorem op1_at {k : ℕ} {op : HloOp τ sig (Elt F)} (h : (ops1 (F := F))[k]? = some op) :
    (ops (F := F))[60 + (k)]? = some op :=
  at_tail len0 (at_head h)
theorem wr1_at {k : ℕ} {y : Ref sig .tc} (h : wr1[k]? = some y) :
    wr[60 + (k)]? = some y :=
  at_tail wlen0 (at_head h)
/-- Window 2's operation `k` is @main's operation `60 + (70 + (k))`; likewise the reference it writes. -/
theorem op2_at {k : ℕ} {op : HloOp τ sig (Elt F)} (h : (ops2 (F := F))[k]? = some op) :
    (ops (F := F))[60 + (70 + (k))]? = some op :=
  at_tail len0 (at_tail len1 (at_head h))
theorem wr2_at {k : ℕ} {y : Ref sig .tc} (h : wr2[k]? = some y) :
    wr[60 + (70 + (k))]? = some y :=
  at_tail wlen0 (at_tail wlen1 (at_head h))
/-- Window 3's operation `k` is @main's operation `60 + (70 + (60 + (k)))`; likewise the reference it writes. -/
theorem op3_at {k : ℕ} {op : HloOp τ sig (Elt F)} (h : (ops3 (F := F))[k]? = some op) :
    (ops (F := F))[60 + (70 + (60 + (k)))]? = some op :=
  at_tail len0 (at_tail len1 (at_tail len2 (at_head h)))
theorem wr3_at {k : ℕ} {y : Ref sig .tc} (h : wr3[k]? = some y) :
    wr[60 + (70 + (60 + (k)))]? = some y :=
  at_tail wlen0 (at_tail wlen1 (at_tail wlen2 (at_head h)))
/-- Window 4's operation `k` is @main's operation `60 + (70 + (60 + (70 + (k))))`; likewise the reference it writes. -/
theorem op4_at {k : ℕ} {op : HloOp τ sig (Elt F)} (h : (ops4 (F := F))[k]? = some op) :
    (ops (F := F))[60 + (70 + (60 + (70 + (k))))]? = some op :=
  at_tail len0 (at_tail len1 (at_tail len2 (at_tail len3 (at_head h))))
theorem wr4_at {k : ℕ} {y : Ref sig .tc} (h : wr4[k]? = some y) :
    wr[60 + (70 + (60 + (70 + (k))))]? = some y :=
  at_tail wlen0 (at_tail wlen1 (at_tail wlen2 (at_tail wlen3 (at_head h))))
/-- Window 5's operation `k` is @main's operation `60 + (70 + (60 + (70 + (60 + (k)))))`; likewise the reference it writes. -/
theorem op5_at {k : ℕ} {op : HloOp τ sig (Elt F)} (h : (ops5 (F := F))[k]? = some op) :
    (ops (F := F))[60 + (70 + (60 + (70 + (60 + (k)))))]? = some op :=
  at_tail len0 (at_tail len1 (at_tail len2 (at_tail len3 (at_tail len4 (at_head h)))))
theorem wr5_at {k : ℕ} {y : Ref sig .tc} (h : wr5[k]? = some y) :
    wr[60 + (70 + (60 + (70 + (60 + (k)))))]? = some y :=
  at_tail wlen0 (at_tail wlen1 (at_tail wlen2 (at_tail wlen3 (at_tail wlen4 (at_head h)))))
/-- Window 6's operation `k` is @main's operation `60 + (70 + (60 + (70 + (60 + (60 + (k))))))`; likewise the reference it writes. -/
theorem op6_at {k : ℕ} {op : HloOp τ sig (Elt F)} (h : (ops6 (F := F))[k]? = some op) :
    (ops (F := F))[60 + (70 + (60 + (70 + (60 + (60 + (k))))))]? = some op :=
  at_tail len0 (at_tail len1 (at_tail len2 (at_tail len3 (at_tail len4 (at_tail len5 (at_head h))))))
theorem wr6_at {k : ℕ} {y : Ref sig .tc} (h : wr6[k]? = some y) :
    wr[60 + (70 + (60 + (70 + (60 + (60 + (k))))))]? = some y :=
  at_tail wlen0 (at_tail wlen1 (at_tail wlen2 (at_tail wlen3 (at_tail wlen4 (at_tail wlen5 (at_head h))))))
/-- Window 7's operation `k` is @main's operation `60 + (70 + (60 + (70 + (60 + (60 + (70 + (k)))))))`; likewise the reference it writes. -/
theorem op7_at {k : ℕ} {op : HloOp τ sig (Elt F)} (h : (ops7 (F := F))[k]? = some op) :
    (ops (F := F))[60 + (70 + (60 + (70 + (60 + (60 + (70 + (k)))))))]? = some op :=
  at_tail len0 (at_tail len1 (at_tail len2 (at_tail len3 (at_tail len4 (at_tail len5 (at_tail len6 (at_head h)))))))
theorem wr7_at {k : ℕ} {y : Ref sig .tc} (h : wr7[k]? = some y) :
    wr[60 + (70 + (60 + (70 + (60 + (60 + (70 + (k)))))))]? = some y :=
  at_tail wlen0 (at_tail wlen1 (at_tail wlen2 (at_tail wlen3 (at_tail wlen4 (at_tail wlen5 (at_tail wlen6 (at_head h)))))))
/-- Window 8's operation `k` is @main's operation `60 + (70 + (60 + (70 + (60 + (60 + (70 + (60 + (k))))))))`; likewise the reference it writes. -/
theorem op8_at {k : ℕ} {op : HloOp τ sig (Elt F)} (h : (ops8 (F := F))[k]? = some op) :
    (ops (F := F))[60 + (70 + (60 + (70 + (60 + (60 + (70 + (60 + (k))))))))]? = some op :=
  at_tail len0 (at_tail len1 (at_tail len2 (at_tail len3 (at_tail len4 (at_tail len5 (at_tail len6 (at_tail len7 (at_head h))))))))
theorem wr8_at {k : ℕ} {y : Ref sig .tc} (h : wr8[k]? = some y) :
    wr[60 + (70 + (60 + (70 + (60 + (60 + (70 + (60 + (k))))))))]? = some y :=
  at_tail wlen0 (at_tail wlen1 (at_tail wlen2 (at_tail wlen3 (at_tail wlen4 (at_tail wlen5 (at_tail wlen6 (at_tail wlen7 (at_head h))))))))
/-- Window 9's operation `k` is @main's operation `60 + (70 + (60 + (70 + (60 + (60 + (70 + (60 + (70 + (k)))))))))`; likewise the reference it writes. -/
theorem op9_at {k : ℕ} {op : HloOp τ sig (Elt F)} (h : (ops9 (F := F))[k]? = some op) :
    (ops (F := F))[60 + (70 + (60 + (70 + (60 + (60 + (70 + (60 + (70 + (k)))))))))]? = some op :=
  at_tail len0 (at_tail len1 (at_tail len2 (at_tail len3 (at_tail len4 (at_tail len5 (at_tail len6 (at_tail len7 (at_tail len8 (at_head h)))))))))
theorem wr9_at {k : ℕ} {y : Ref sig .tc} (h : wr9[k]? = some y) :
    wr[60 + (70 + (60 + (70 + (60 + (60 + (70 + (60 + (70 + (k)))))))))]? = some y :=
  at_tail wlen0 (at_tail wlen1 (at_tail wlen2 (at_tail wlen3 (at_tail wlen4 (at_tail wlen5 (at_tail wlen6 (at_tail wlen7 (at_tail wlen8 (at_head h)))))))))
/-- Window 10's operation `k` is @main's operation `60 + (70 + (60 + (70 + (60 + (60 + (70 + (60 + (70 + (60 + (k))))))))))`; likewise the reference it writes. -/
theorem op10_at {k : ℕ} {op : HloOp τ sig (Elt F)} (h : (ops10 (F := F))[k]? = some op) :
    (ops (F := F))[60 + (70 + (60 + (70 + (60 + (60 + (70 + (60 + (70 + (60 + (k))))))))))]? = some op :=
  at_tail len0 (at_tail len1 (at_tail len2 (at_tail len3 (at_tail len4 (at_tail len5 (at_tail len6 (at_tail len7 (at_tail len8 (at_tail len9 (h))))))))))
theorem wr10_at {k : ℕ} {y : Ref sig .tc} (h : wr10[k]? = some y) :
    wr[60 + (70 + (60 + (70 + (60 + (60 + (70 + (60 + (70 + (60 + (k))))))))))]? = some y :=
  at_tail wlen0 (at_tail wlen1 (at_tail wlen2 (at_tail wlen3 (at_tail wlen4 (at_tail wlen5 (at_tail wlen6 (at_tail wlen7 (at_tail wlen8 (at_tail wlen9 (h))))))))))

end Cert.ReferenceIdeal.Hand

end
-- ==== Proof.Val.FinalR.lean ====
import proofs.«171827_j17884243821138_1_alg».proof.Proof.Val.RCorners
import proofs.«171827_j17884243821138_1_alg».proof.Proof.Val.SumR
import proofs.«171827_j17884243821138_1_alg».proof.Proof.Val.RFacts2
import proofs.«171827_j17884243821138_1_alg».proof.Proof.Val.RFacts3
import proofs.«171827_j17884243821138_1_alg».proof.Proof.Val.RFacts4
import proofs.«171827_j17884243821138_1_alg».proof.Proof.Val.RFacts5
import proofs.«171827_j17884243821138_1_alg».proof.Proof.Val.RFacts6

/-! The reference's result, entry by entry, is the specification's result in the reference's order of summation.

Each scale's blend buffer is, by the equations of the twenty-four operations that form it, the bilinear sample of that
scale's corners and weights; its layout by point and the running totals follow their two and one equations; and the
result is the four totals side by side. -/

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Cert.Triplane (pick4 blend samp resR)

variable (m : (ℓ : Loc nD τ sig) → Buf (Elt Ideal) ℓ)

/-- The four scales' blends. -/
abbrev BR (c : Dev nD) : Fin 4 → FVec Ideal S3x100000x72 .f32 :=
  fun s => pick4 (α := FVec Ideal S3x100000x72 .f32) s (Vr m c main_v145) (Vr m c main_v262) (Vr m c main_v380)
    (Vr m c main_v498)

/-- The four scales' blends laid out by point. -/
abbrev TrR (c : Dev nD) : Fin 4 → FVec Ideal S100000x216 .f32 :=
  fun s => pick4 (α := FVec Ideal S100000x216 .f32) s (Vr m c main_v147) (Vr m c main_v264) (Vr m c main_v382)
    (Vr m c main_v500)

/-- The four running totals. -/
abbrev TR (c : Dev nD) : Fin 4 → FVec Ideal S100000x216 .f32 :=
  fun s => pick4 (α := FVec Ideal S100000x216 .f32) s (Vr m c main_v147) (Vr m c main_v265) (Vr m c main_v383)
    (Vr m c main_v501)

/-! ## Each scale's blend -/

set_option maxHeartbeats 1600000 in
/-- Scale 0's blend buffer holds, at `(p, n, q)`, the bilinear blend of scale 0's corner buffers there with its weight
    buffers at `(p, n)`: the equations of the twenty-four operations that form it. -/
theorem blend_s0 (c : Dev nD) (p : Fin 3) (n : Fin 100000) (q : Fin 72) :
    Vr m c main_v145 (ix3 p n q)
      = blend (Vr m c main_v79 (ix3 p n q)) (Vr m c main_v94 (ix3 p n q)) (Vr m c main_v109 (ix3 p n q))
          (Vr m c main_v124 (ix3 p n q)) (Vr m c main_v52 (ix3 p n (0 : Fin 1))) (Vr m c main_v54 (ix3 p n (0 : Fin 1))) :=
  blend_of
    (hv_main_cst_40 m c) (hv_main_v125 m c) (hv_main_v126 m c) (hv_main_v127 m c) (hv_main_v128 m c)
    (hv_main_v129 m c) (hv_main_v130 m c) (hv_main_v131 m c) (hv_main_cst_41 m c) (hv_main_v132 m c)
    (hv_main_v133 m c) (hv_main_v134 m c) (hv_main_v135 m c) (hv_main_v136 m c) (hv_main_v137 m c)
    (hv_main_v138 m c) (hv_main_cst_42 m c) (hv_main_v139 m c) (hv_main_v140 m c) (hv_main_v141 m c)
    (hv_main_v142 m c) (hv_main_v143 m c) (hv_main_v144 m c) (hv_main_v145 m c)
    p n q

set_option maxHeartbeats 1600000 in
/-- Scale 1's blend buffer holds, at `(p, n, q)`, the bilinear blend of scale 1's corner buffers there with its weight
    buffers at `(p, n)`: the equations of the twenty-four operations that form it. -/
theorem blend_s1 (c : Dev nD) (p : Fin 3) (n : Fin 100000) (q : Fin 72) :
    Vr m c main_v262 (ix3 p n q)
      = blend (Vr m c main_v196 (ix3 p n q)) (Vr m c main_v211 (ix3 p n q)) (Vr m c main_v226 (ix3 p n q))
          (Vr m c main_v241 (ix3 p n q)) (Vr m c main_v169 (ix3 p n (0 : Fin 1))) (Vr m c main_v171 (ix3 p n (0 : Fin 1))) :=
  blend_of
    (hv_main_cst_73 m c) (hv_main_v242 m c) (hv_main_v243 m c) (hv_main_v244 m c) (hv_main_v245 m c)
    (hv_main_v246 m c) (hv_main_v247 m c) (hv_main_v248 m c) (hv_main_cst_74 m c) (hv_main_v249 m c)
    (hv_main_v250 m c) (hv_main_v251 m c) (hv_main_v252 m c) (hv_main_v253 m c) (hv_main_v254 m c)
    (hv_main_v255 m c) (hv_main_cst_75 m c) (hv_main_v256 m c) (hv_main_v257 m c) (hv_main_v258 m c)
    (hv_main_v259 m c) (hv_main_v260 m c) (hv_main_v261 m c) (hv_main_v262 m c)
    p n q

set_option maxHeartbeats 1600000 in
/-- Scale 2's blend buffer holds, at `(p, n, q)`, the bilinear blend of scale 2's corner buffers there with its weight
    buffers at `(p, n)`: the equations of the twenty-four operations that form it. -/
theorem blend_s2 (c : Dev nD) (p : Fin 3) (n : Fin 100000) (q : Fin 72) :
    Vr m c main_v380 (ix3 p n q)
      = blend (Vr m c main_v314 (ix3 p n q)) (Vr m c main_v329 (ix3 p n q)) (Vr m c main_v344 (ix3 p n q))
          (Vr m c main_v359 (ix3 p n q)) (Vr m c main_v287 (ix3 p n (0 : Fin 1))) (Vr m c main_v289 (ix3 p n (0 : Fin 1))) :=
  blend_of
    (hv_main_cst_106 m c) (hv_main_v360 m c) (hv_main_v361 m c) (hv_main_v362 m c) (hv_main_v363 m c)
    (hv_main_v364 m c) (hv_main_v365 m c) (hv_main_v366 m c) (hv_main_cst_107 m c) (hv_main_v367 m c)
    (hv_main_v368 m c) (hv_main_v369 m c) (hv_main_v370 m c) (hv_main_v371 m c) (hv_main_v372 m c)
    (hv_main_v373 m c) (hv_main_cst_108 m c) (hv_main_v374 m c) (hv_main_v375 m c) (hv_main_v376 m c)
    (hv_main_v377 m c) (hv_main_v378 m c) (hv_main_v379 m c) (hv_main_v380 m c)
    p n q

set_option maxHeartbeats 1600000 in
/-- Scale 3's blend buffer holds, at `(p, n, q)`, the bilinear blend of scale 3's corner buffers there with its weight
    buffers at `(p, n)`: the equations of the twenty-four operations that form it. -/
theorem blend_s3 (c : Dev nD) (p : Fin 3) (n : Fin 100000) (q : Fin 72) :
    Vr m c main_v498 (ix3 p n q)
      = blend (Vr m c main_v432 (ix3 p n q)) (Vr m c main_v447 (ix3 p n q)) (Vr m c main_v462 (ix3 p n q))
          (Vr m c main_v477 (ix3 p n q)) (Vr m c main_v405 (ix3 p n (0 : Fin 1))) (Vr m c main_v407 (ix3 p n (0 : Fin 1))) :=
  blend_of
    (hv_main_cst_139 m c) (hv_main_v478 m c) (hv_main_v479 m c) (hv_main_v480 m c) (hv_main_v481 m c)
    (hv_main_v482 m c) (hv_main_v483 m c) (hv_main_v484 m c) (hv_main_cst_140 m c) (hv_main_v485 m c)
    (hv_main_v486 m c) (hv_main_v487 m c) (hv_main_v488 m c) (hv_main_v489 m c) (hv_main_v490 m c)
    (hv_main_v491 m c) (hv_main_cst_141 m c) (hv_main_v492 m c) (hv_main_v493 m c) (hv_main_v494 m c)
    (hv_main_v495 m c) (hv_main_v496 m c) (hv_main_v497 m c) (hv_main_v498 m c)
    p n q

set_option maxHeartbeats 1600000 in
/-- Scale `s`'s blend buffer holds, at `(p, n, q)`, the sample of scale `s`. -/
theorem blend_s (c : Dev nD) (s : Fin 4) (p : Fin 3) (n : Fin 100000) (q : Fin 72) :
    BR m c s (ix3 p n q)
      = samp (crd (A00R m c)) (crd (A01R m c)) (crd (A10R m c)) (crd (A11R m c)) (wgt (WXR m c)) (wgt (WYR m c))
          s p n q := by
  match s with
  | ⟨0, _⟩ => exact blend_s0 m c p n q
  | ⟨1, _⟩ => exact blend_s1 m c p n q
  | ⟨2, _⟩ => exact blend_s2 m c p n q
  | ⟨3, _⟩ => exact blend_s3 m c p n q

/-! ## Each scale's blend laid out by point -/

set_option maxHeartbeats 800000 in
/-- Scale 0's blend laid out by point. -/
theorem tri_s0 (c : Dev nD) (n : Fin 100000) (j : Fin 216) :
    Vr m c main_v147 (ix2 n j)
      = Vr m c main_v145 (ix3 (⟨j.val / 72, by omega⟩ : Fin 3) n (⟨j.val % 72, by omega⟩ : Fin 72)) :=
  tri_of (hv_main_v146 m c) (hv_main_v147 m c) n j

set_option maxHeartbeats 800000 in
/-- Scale 1's blend laid out by point. -/
theorem tri_s1 (c : Dev nD) (n : Fin 100000) (j : Fin 216) :
    Vr m c main_v264 (ix2 n j)
      = Vr m c main_v262 (ix3 (⟨j.val / 72, by omega⟩ : Fin 3) n (⟨j.val % 72, by omega⟩ : Fin 72)) :=
  tri_of (hv_main_v263 m c) (hv_main_v264 m c) n j

set_option maxHeartbeats 800000 in
/-- Scale 2's blend laid out by point. -/
theorem tri_s2 (c : Dev nD) (n : Fin 100000) (j : Fin 216) :
    Vr m c main_v382 (ix2 n j)
      = Vr m c main_v380 (ix3 (⟨j.val / 72, by omega⟩ : Fin 3) n (⟨j.val % 72, by omega⟩ : Fin 72)) :=
  tri_of (hv_main_v381 m c) (hv_main_v382 m c) n j

set_option maxHeartbeats 800000 in
/-- Scale 3's blend laid out by point. -/
theorem tri_s3 (c : Dev nD) (n : Fin 100000) (j : Fin 216) :
    Vr m c main_v500 (ix2 n j)
      = Vr m c main_v498 (ix3 (⟨j.val / 72, by omega⟩ : Fin 3) n (⟨j.val % 72, by omega⟩ : Fin 72)) :=
  tri_of (hv_main_v499 m c) (hv_main_v500 m c) n j

set_option maxHeartbeats 1600000 in
/-- Scale `s`'s blend laid out by point holds, at `(n, j)`, the blend at `(j / 72, n, j % 72)`. -/
theorem tri_s (c : Dev nD) (s : Fin 4) (n : Fin 100000) (j : Fin 216) :
    TrR m c s (ix2 n j)
      = BR m c s (ix3 (⟨j.val / 72, by omega⟩ : Fin 3) n (⟨j.val % 72, by omega⟩ : Fin 72)) := by
  match s with
  | ⟨0, _⟩ => exact tri_s0 m c n j
  | ⟨1, _⟩ => exact tri_s1 m c n j
  | ⟨2, _⟩ => exact tri_s2 m c n j
  | ⟨3, _⟩ => exact tri_s3 m c n j

/-! ## The running totals and the result -/

set_option maxHeartbeats 800000 in
/-- Total 1 is scale 1's layout in front of total 0. -/
theorem tot1 (c : Dev nD) : TR m c 1 = addf (TrR m c 1) (TR m c 0) := hv_main_v265 m c

set_option maxHeartbeats 800000 in
/-- Total 2 is scale 2's layout in front of total 1. -/
theorem tot2 (c : Dev nD) : TR m c 2 = addf (TrR m c 2) (TR m c 1) := hv_main_v383 m c

set_option maxHeartbeats 800000 in
/-- Total 3 is scale 3's layout in front of total 2. -/
theorem tot3 (c : Dev nD) : TR m c 3 = addf (TrR m c 3) (TR m c 2) := hv_main_v501 m c

set_option maxHeartbeats 800000 in
/-- The result is the four totals side by side. -/
theorem res_cat (c : Dev nD) :
    (Vr m c main_v502 : S100000x864.Idx → EReal) = concatenate S100000x864 1
      [⟨S100000x216, TR m c 0⟩, ⟨S100000x216, TR m c 1⟩, ⟨S100000x216, TR m c 2⟩, ⟨S100000x216, TR m c 3⟩]
      concatenates_S100000x216_S100000x216_S100000x216_S100000x216_S100000x864_d1 := hv_main_v502 m c

set_option maxHeartbeats 800000 in
/-- The reference's result at `(n, k)` is the specification's result in the reference's order of summation. -/
theorem final_ref (c : Dev nD) (n : Fin 100000) (k : Fin 864) :
    Vr m c main_v502 (ix2 n k)
      = resR (v00R m c) (v01R m c) (v10R m c) (v11R m c) (wxR m c) (wyR m c) n k :=
  result_eq_resR (A00R m c) (A01R m c) (A10R m c) (A11R m c) (WXR m c) (WYR m c) (BR m c) (blend_s m c) (TrR m c)
    (TR m c) (tri_s m c) rfl (tot1 m c) (tot2 m c) (tot3 m c) (res_cat m c) n k

end Cert.ReferenceIdeal.Hand

end
-- ==== Proof.Val.Final.lean ====
import proofs.«171827_j17884243821138_1_alg».proof.Proof.KI.Frame
import proofs.«171827_j17884243821138_1_alg».proof.Proof.Ref.Run
import proofs.«171827_j17884243821138_1_alg».proof.Proof.Val.Region
import proofs.«171827_j17884243821138_1_alg».proof.Proof.Val.KernelTail
import proofs.«171827_j17884243821138_1_alg».proof.Proof.Val.StackK
import proofs.«171827_j17884243821138_1_alg».proof.Proof.Val.FinalR
import proofs.«171827_j17884243821138_1_alg».proof.Proof.Val.BridgeCorners

/-! The two programs return the same array.

Entry `(n, k)` of the kernel program's result is, through the swap and merge after the call, entry `(k / 216, n, k % 216)`
of what the call wrote: the running sum of the bilinear samples of scales `0 … k / 216` at point `n`, plane
`k % 216 / 72`, channel `k % 72`, added from zero upwards. The reference's entry `(n, k)` is the same samples added
each in front of the previous total. The samples agree because the corner values and weights the two programs gather
are the same functions of the same arguments; the sums agree because addition of extended reals is commutative. -/

noncomputable section

namespace Cert.Final

open Idealize.ShloMosaic Idealize.ShloMosaic.TcCoe Idealize.SL.Sem Idealize.ShloMosaic.ValueIdx
open Cert.Triplane (pick4)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Memories that agree on the five argument arrays give entry contents that agree on them: no host operation of
    either program writes an argument. -/
theorem argsAgree (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))) (c : Dev Cert.KernelIdeal.nD) : Cert.Bridge.ArgsAgree m m' c where
  h0 := (Cert.KernelIdeal.Hand.V_main_arg0 m c).trans (((hagree c).1).symm.trans (Cert.ReferenceIdeal.Hand.kept_arg0 m' c).symm)
  h1 := (Cert.KernelIdeal.Hand.V_main_arg1 m c).trans (((hagree c).2.1).symm.trans (Cert.ReferenceIdeal.Hand.kept_arg1 m' c).symm)
  h2 := (Cert.KernelIdeal.Hand.V_main_arg2 m c).trans (((hagree c).2.2.1).symm.trans (Cert.ReferenceIdeal.Hand.kept_arg2 m' c).symm)
  h3 := (Cert.KernelIdeal.Hand.V_main_arg3 m c).trans (((hagree c).2.2.2.1).symm.trans (Cert.ReferenceIdeal.Hand.kept_arg3 m' c).symm)
  h4 := (Cert.KernelIdeal.Hand.V_main_arg4 m c).trans (((hagree c).2.2.2.2).symm.trans (Cert.ReferenceIdeal.Hand.kept_arg4 m' c).symm)

/-- Corner (0, 0) of every scale: the kernel program's stacked array read at `(s, p, n, q)` is scale `s`'s
    array at `(p, n, q)`, which holds what the reference's holds. -/
theorem v00_eq {c : Dev Cert.KernelIdeal.nD} (H : Cert.Bridge.ArgsAgree m m' c) : Cert.KernelIdeal.Hand.v00K m c = Cert.ReferenceIdeal.Hand.v00R m' c := by
  funext s p n q
  unfold Cert.KernelIdeal.Hand.v00K Cert.ReferenceIdeal.Hand.v00R
  rw [Cert.KernelIdeal.Hand.stack_v00 m c s p n q, Cert.Bridge.corner_eq_0_00 H, Cert.Bridge.corner_eq_1_00 H,
    Cert.Bridge.corner_eq_2_00 H, Cert.Bridge.corner_eq_3_00 H]

/-- Corner (0, 1) of every scale: the kernel program's stacked array read at `(s, p, n, q)` is scale `s`'s
    array at `(p, n, q)`, which holds what the reference's holds. -/
theorem v01_eq {c : Dev Cert.KernelIdeal.nD} (H : Cert.Bridge.ArgsAgree m m' c) : Cert.KernelIdeal.Hand.v01K m c = Cert.ReferenceIdeal.Hand.v01R m' c := by
  funext s p n q
  unfold Cert.KernelIdeal.Hand.v01K Cert.ReferenceIdeal.Hand.v01R
  rw [Cert.KernelIdeal.Hand.stack_v01 m c s p n q, Cert.Bridge.corner_eq_0_01 H, Cert.Bridge.corner_eq_1_01 H,
    Cert.Bridge.corner_eq_2_01 H, Cert.Bridge.corner_eq_3_01 H]

/-- Corner (1, 0) of every scale: the kernel program's stacked array read at `(s, p, n, q)` is scale `s`'s
    array at `(p, n, q)`, which holds what the reference's holds. -/
theorem v10_eq {c : Dev Cert.KernelIdeal.nD} (H : Cert.Bridge.ArgsAgree m m' c) : Cert.KernelIdeal.Hand.v10K m c = Cert.ReferenceIdeal.Hand.v10R m' c := by
  funext s p n q
  unfold Cert.KernelIdeal.Hand.v10K Cert.ReferenceIdeal.Hand.v10R
  rw [Cert.KernelIdeal.Hand.stack_v10 m c s p n q, Cert.Bridge.corner_eq_0_10 H, Cert.Bridge.corner_eq_1_10 H,
    Cert.Bridge.corner_eq_2_10 H, Cert.Bridge.corner_eq_3_10 H]

/-- Corner (1, 1) of every scale: the kernel program's stacked array read at `(s, p, n, q)` is scale `s`'s
    array at `(p, n, q)`, which holds what the reference's holds. -/
theorem v11_eq {c : Dev Cert.KernelIdeal.nD} (H : Cert.Bridge.ArgsAgree m m' c) : Cert.KernelIdeal.Hand.v11K m c = Cert.ReferenceIdeal.Hand.v11R m' c := by
  funext s p n q
  unfold Cert.KernelIdeal.Hand.v11K Cert.ReferenceIdeal.Hand.v11R
  rw [Cert.KernelIdeal.Hand.stack_v11 m c s p n q, Cert.Bridge.corner_eq_0_11 H, Cert.Bridge.corner_eq_1_11 H,
    Cert.Bridge.corner_eq_2_11 H, Cert.Bridge.corner_eq_3_11 H]

/-- The fractional weight along x of every scale, likewise. -/
theorem wx_eq {c : Dev Cert.KernelIdeal.nD} (H : Cert.Bridge.ArgsAgree m m' c) : Cert.KernelIdeal.Hand.wxK m c = Cert.ReferenceIdeal.Hand.wxR m' c := by
  funext s p n
  unfold Cert.KernelIdeal.Hand.wxK Cert.ReferenceIdeal.Hand.wxR
  rw [Cert.KernelIdeal.Hand.stack_wx m c s p n (0 : Fin 1), Cert.Bridge.corner_eq_0_wx H, Cert.Bridge.corner_eq_1_wx H,
    Cert.Bridge.corner_eq_2_wx H, Cert.Bridge.corner_eq_3_wx H]

/-- The fractional weight along y of every scale, likewise. -/
theorem wy_eq {c : Dev Cert.KernelIdeal.nD} (H : Cert.Bridge.ArgsAgree m m' c) : Cert.KernelIdeal.Hand.wyK m c = Cert.ReferenceIdeal.Hand.wyR m' c := by
  funext s p n
  unfold Cert.KernelIdeal.Hand.wyK Cert.ReferenceIdeal.Hand.wyR
  rw [Cert.KernelIdeal.Hand.stack_wy m c s p n (0 : Fin 1), Cert.Bridge.corner_eq_0_wy H, Cert.Bridge.corner_eq_1_wy H,
    Cert.Bridge.corner_eq_2_wy H, Cert.Bridge.corner_eq_3_wy H]

/-- THE RESULTS AGREE: what the reference returns is what the kernel program returns, entry by entry. -/
theorem result_eq (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))) (c : Dev Cert.KernelIdeal.nD) :
    Cert.ReferenceIdeal.Hand.Vr m' c Cert.ReferenceIdeal.main_v502
      = Pipeline.afterTail₀ Cert.KernelIdeal.cfgs (Cert.KernelIdeal.Hand.dats m) 0 (Cert.KernelIdeal.Hand.V0 m) [Cert.KernelIdeal.Gen.hostOps1] c Cert.KernelIdeal.main_v439 := by
  have H := argsAgree m m' hagree c
  funext i
  obtain ⟨n, k, rfl⟩ : ∃ (n : Fin 100000) (k : Fin 864), i = ix2 n k := ⟨i 0, i 1, eq_ix2 i⟩
  rw [Cert.ReferenceIdeal.Hand.final_ref m' c n k, Cert.KernelIdeal.Hand.tail_value m c n k, Cert.KernelIdeal.Hand.region_value m c _ n _,
    ← v00_eq m m' H, ← v01_eq m m' H, ← v10_eq m m' H, ← v11_eq m m' H, ← wx_eq m m' H, ← wy_eq m m' H]
  unfold Cert.Triplane.resR
  rw [← Cert.Triplane.accK_eq_prevR]
  congr 1
  exact Fin.ext (by show k.val % 72 = k.val % 216 % 72; omega)

/-- The value claim: both programs run to the end, return equal arrays, and leave their arguments as they were. -/
theorem algebraic (g : Dev Cert.KernelIdeal.nD → PrngReg) (g' : Dev Cert.ReferenceIdeal.nD → PrngReg) (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))) :
    ∃ (v0 : (c : Dev Cert.KernelIdeal.nD) → Buf (Elt Ideal) ((c.tc : Thread Cert.KernelIdeal.nD Cert.KernelIdeal.τ).loc Cert.KernelIdeal.main_v439)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v439) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v502) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  ⟨fun c => Pipeline.afterTail₀ Cert.KernelIdeal.cfgs (Cert.KernelIdeal.Hand.dats m) 0 (Cert.KernelIdeal.Hand.V0 m) [Cert.KernelIdeal.Gen.hostOps1] c Cert.KernelIdeal.main_v439,
    Cert.KernelIdeal.Hand.run_value m g,
    (θ_run Cert.ReferenceIdeal.defs _ _).mono (fun _ h c =>
      ⟨(h c Cert.ReferenceIdeal.main_v502).trans (result_eq m m' hagree c),
        (h c Cert.ReferenceIdeal.main_arg0).trans (Cert.ReferenceIdeal.Hand.kept_arg0 m' c),
        (h c Cert.ReferenceIdeal.main_arg1).trans (Cert.ReferenceIdeal.Hand.kept_arg1 m' c),
        (h c Cert.ReferenceIdeal.main_arg2).trans (Cert.ReferenceIdeal.Hand.kept_arg2 m' c),
        (h c Cert.ReferenceIdeal.main_arg3).trans (Cert.ReferenceIdeal.Hand.kept_arg3 m' c),
        (h c Cert.ReferenceIdeal.main_arg4).trans (Cert.ReferenceIdeal.Hand.kept_arg4 m' c)⟩) (Cert.ReferenceIdeal.Hand.run m' g')⟩

end Cert.Final

end
-- ==== Proof.lean ====
/- The claim: the kernel program, its idealization and the reference each run to the end and leave their five
   argument arrays as they were (the three frames); the idealization rewrote nothing (`preserves` is `True`); and at
   the ideal instance the kernel program and the reference return equal arrays (Proof/Val/Final.lean). -/
import proofs.«171827_j17884243821138_1_alg».proof.Defs
import proofs.«171827_j17884243821138_1_alg».proof.Proof.Gen.Kernel
import proofs.«171827_j17884243821138_1_alg».proof.Proof.Gen.KernelIdeal
import proofs.«171827_j17884243821138_1_alg».proof.Proof.Gen.ReferenceIdeal
import proofs.«171827_j17884243821138_1_alg».proof.Proof.Gen.Pre_finite_inputs
import proofs.«171827_j17884243821138_1_alg».proof.Proof.K.Frame
import proofs.«171827_j17884243821138_1_alg».proof.Proof.KI.Frame
import proofs.«171827_j17884243821138_1_alg».proof.Proof.Ref.Run
import proofs.«171827_j17884243821138_1_alg».proof.Proof.Val.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  fun m g m' g' _ hagree => Cert.Final.algebraic m m' g g' hagree⟩

end Cert.Proof

end
